-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x16 : Shape := ⟨2, ![40000, 16]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S3x384x128 : Shape := ⟨3, ![3, 384, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S_ : Shape := ⟨0, ![]⟩
abbrev S1x640000 : Shape := ⟨2, ![1, 640000]⟩
abbrev S640000 : Shape := ⟨1, ![640000]⟩

class Facts : Prop where
  bcast_S_S40000x16 : S_.BroadcastsInDim S40000x16 (![] : Fin 0 → Fin S40000x16.rank)
  reducesTo_S40000x16_S_d0_1 : S40000x16.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x384x128 : S_.BroadcastsInDim S3x384x128 (![] : Fin 0 → Fin S3x384x128.rank)
  reducesTo_S3x384x128_S_d0_1_2 : S3x384x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part5 {F : FTy → Type} [FloatOps F] (main_v78 : IVec S_ 1) (main_v82 : IVec S640000 1) (main_v84 : IVec S640000 32) (main_v85 : IVec S640000 32) : IVec S_ 1 :=
  let main_v86 : IVec S640000 1 := cmpi .slt main_v84 main_v85
  let main_v87 : IVec S640000 1 := andi main_v82 main_v86
  let main_c_32 : IVec S_ 1 := constantI S_ 1 1#1
  let main_v88 : IVec S_ 1 := (fun x v => Host.reduce IntOp.andi x v reducesTo_S640000_S_d0 h_S_) main_v87 main_c_32
  let main_v89 : IVec S_ 1 := andi main_v78 main_v88
  main_v89

def fn_part4 {F : FTy → Type} [FloatOps F] (main_arg1 : IVec S2x640000 32) (main_arg15 : FVec F S128x3 .f32) (main_arg16 : FVec F S3 .f32) (main_v63 : IVec S_ 1) (main_v67 : IVec S_ 1) : IVec S_ 1 :=
  let main_v68 : IVec S_ 1 := andi main_v63 main_v67
  let main_v69 : FVec F S128x3 .f32 := Host.absf main_arg15
  let main_cst_26 : FVec F S_ .f32 := constant S_ .f32 0x7F800000#32
  let main_v70 : FVec F S128x3 .f32 := broadcastInDim S128x3 ![] bcast_S_S128x3 main_cst_26
  let main_v71 : IVec S128x3 1 := cmpf .olt main_v69 main_v70
  let main_c_27 : IVec S_ 1 := constantI S_ 1 1#1
  let main_v72 : IVec S_ 1 := (fun x v => Host.reduce IntOp.andi x v reducesTo_S128x3_S_d0_1 h_S_) main_v71 main_c_27
  let main_v73 : IVec S_ 1 := andi main_v68 main_v72
  let main_v74 : FVec F S3 .f32 := Host.absf main_arg16
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  let main_v79 : IVec S1x640000 32 := (extractStridedSlice S1x640000 ![0, 0] · slices_S2x640000_S1x640000_0_0) main_arg1
  let main_v80 : IVec S640000 32 := shapeCast S640000 main_v79 shapeCasts_S1x640000_S640000
  let main_c_30 : IVec S_ 32 := constantI S_ 32 0#32
  let main_v81 : IVec S640000 32 := broadcastInDim S640000 ![] bcast_S_S640000 main_c_30
  let main_v82 : IVec S640000 1 := cmpi .sge main_v80 main_v81
  let main_v83 : IVec S1x640000 32 := (extractStridedSlice S1x640000 ![0, 0] · slices_S2x640000_S1x640000_0_0) main_arg1
  let main_v84 : IVec S640000 32 := shapeCast S640000 main_v83 shapeCasts_S1x640000_S640000
  let main_c_31 : IVec S_ 32 := constantI S_ 32 40000#32
  let main_v85 : IVec S640000 32 := broadcastInDim S640000 ![] bcast_S_S640000 main_c_31
  fn_part5 (F := F) main_v78 main_v82 main_v84 main_v85

def fn_part3 {F : FTy → Type} [FloatOps F] (main_arg1 : IVec S2x640000 32) (main_arg12 : FVec F S3x128 .f32) (main_arg13 : FVec F S128x128 .f32) (main_arg14 : FVec F S128 .f32) (main_arg15 : FVec F S128x3 .f32) (main_arg16 : FVec F S3 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x640000 32) (main_arg8 : FVec F S3x128 .f32) (main_arg9 : FVec F S3x128x128 .f32) (main_arg10 : FVec F S3x128 .f32) (main_arg11 : FVec F S3x128x128 .f32) (main_arg12 : FVec F S3x128 .f32) (main_arg13 : FVec F S128x128 .f32) (main_arg14 : FVec F S128 .f32) (main_arg15 : FVec F S128x3 .f32) (main_arg16 : FVec F S3 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg9
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg11
  let main_cst_18 : FVec F S_ .f32 := constant S_ .f32 0x7F800000#32
  let main_v50 : FVec F S3x128x128 .f32 := broadcastInDim S3x128x128 ![] bcast_S_S3x128x128 main_cst_18
  fn_part3 (F := F) main_arg1 main_arg12 main_arg13 main_arg14 main_arg15 main_arg16 main_v48 main_v49 main_v50

def fn_part1 {F : FTy → Type} [FloatOps F] (main_arg1 : IVec S2x640000 32) (main_arg5 : FVec F S128x128 .f32) (main_arg6 : FVec F S128 .f32) (main_arg7 : FVec F S3x384x128 .f32) (main_arg8 : FVec F S3x128 .f32) (main_arg9 : FVec F S3x128x128 .f32) (main_arg10 : FVec F S3x128 .f32) (main_arg11 : FVec F S3x128x128 .f32) (main_arg12 : FVec F S3x128 .f32) (main_arg13 : FVec F S128x128 .f32) (main_arg14 : FVec F S128 .f32) (main_arg15 : FVec F S128x3 .f32) (main_arg16 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x384x128 .f32 := Host.absf main_arg7
  let main_cst_10 : FVec F S_ .f32 := constant S_ .f32 0x7F800000#32
  let main_v30 : FVec F S3x384x128 .f32 := broadcastInDim S3x384x128 ![] bcast_S_S3x384x128 main_cst_10
  let main_v31 : IVec S3x384x128 1 := cmpf .olt main_v29 main_v30
  let main_c_11 : IVec S_ 1 := constantI S_ 1 1#1
  let main_v32 : IVec S_ 1 := (fun x v => Host.reduce IntOp.andi x v reducesTo_S3x384x128_S_d0_1_2 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S40000x16 .f32) (main_arg1 : IVec S2x640000 32) (main_arg2 : FVec F S640000x128 .f32) (main_arg3 : FVec F S128x128 .f32) (main_arg4 : FVec F S128 .f32) (main_arg5 : FVec F S128x128 .f32) (main_arg6 : FVec F S128 .f32) (main_arg7 : FVec F S3x384x128 .f32) (main_arg8 : FVec F S3x128 .f32) (main_arg9 : FVec F S3x128x128 .f32) (main_arg10 : FVec F S3x128 .f32) (main_arg11 : FVec F S3x128x128 .f32) (main_arg12 : FVec F S3x128 .f32) (main_arg13 : FVec F S128x128 .f32) (main_arg14 : FVec F S128 .f32) (main_arg15 : FVec F S128x3 .f32) (main_arg16 : FVec F S3 .f32) : IVec S_ 1 :=
  let main_v0 : FVec F S40000x16 .f32 := Host.absf main_arg0
  let main_cst : FVec F S_ .f32 := constant S_ .f32 0x7F800000#32
  let main_v1 : FVec F S40000x16 .f32 := broadcastInDim S40000x16 ![] bcast_S_S40000x16 main_cst
  let main_v2 : IVec S40000x16 1 := cmpf .olt main_v0 main_v1
  let main_c : IVec S_ 1 := constantI S_ 1 1#1
  let main_v3 : IVec S_ 1 := (fun x v => Host.reduce IntOp.andi x v reducesTo_S40000x16_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S40000x16 : Shape := ⟨2, ![40000, 16]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S3x384x128 : Shape := ⟨3, ![3, 384, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S1x640000 : Shape := ⟨2, ![1, 640000]⟩
abbrev S640000 : Shape := ⟨1, ![640000]⟩
abbrev S1x128 : Shape := ⟨2, ![1, 128]⟩
abbrev S16000x128 : Shape := ⟨2, ![16000, 128]⟩
abbrev S_ : Shape := ⟨0, ![]⟩
abbrev S40000x128 : Shape := ⟨2, ![40000, 128]⟩
abbrev S640000x1 : Shape := ⟨2, ![640000, 1]⟩
abbrev S40000 : Shape := ⟨1, ![40000]⟩
abbrev S40000x1 : Shape := ⟨2, ![40000, 1]⟩
abbrev S1 : Shape := ⟨1, ![1]⟩
abbrev S1x1 : Shape := ⟨2, ![1, 1]⟩
abbrev S1x384x128 : Shape := ⟨3, ![1, 384, 128]⟩
abbrev S384x128 : Shape := ⟨2, ![384, 128]⟩
abbrev S1x128x128 : Shape := ⟨3, ![1, 128, 128]⟩
abbrev S5000x128 : Shape := ⟨2, ![5000, 128]⟩
abbrev S5000x1 : Shape := ⟨2, ![5000, 1]⟩
abbrev S1x3 : Shape := ⟨2, ![1, 3]⟩
abbrev S40000x3 : Shape := ⟨2, ![40000, 3]⟩
abbrev S5000x3 : Shape := ⟨2, ![5000, 3]⟩

abbrev nBuf : Space → Nat
  | .hbm => 264
  | .vmem => 82
  | .smem => 0
  | _ => 0

abbrev hbmTy0_0 (i : Nat) : BufTy := match i % 128 with
  | 0 => ⟨S40000x16, .f32⟩
  | 1 => ⟨S2x640000, .i32⟩
  | 2 => ⟨S640000x128, .f32⟩
  | 3 => ⟨S128x128, .f32⟩
  | 4 => ⟨S128, .f32⟩
  | 5 => ⟨S128x128, .f32⟩
  | 6 => ⟨S128, .f32⟩
  | 7 => ⟨S3x384x128, .f32⟩
  | 8 => ⟨S3x128, .f32⟩
  | 9 => ⟨S3x128x128, .f32⟩
  | 10 => ⟨S3x128, .f32⟩
  | 11 => ⟨S3x128x128, .f32⟩
  | 12 => ⟨S3x128, .f32⟩
  | 13 => ⟨S128x128, .f32⟩
  | 14 => ⟨S128, .f32⟩
  | 15 => ⟨S128x3, .f32⟩
  | 16 => ⟨S3, .f32⟩
  | 17 => ⟨S1x640000, .i32⟩
  | 18 => ⟨S640000, .i32⟩
  | 19 => ⟨S1x640000, .i32⟩
  | 20 => ⟨S640000, .i32⟩
  | 21 => ⟨S1x128, .f32⟩
  | 22 => ⟨S1x128, .f32⟩
  | 23 => ⟨S640000x128, .bf16⟩
  | 24 => ⟨S640000x128, .f32⟩
  | 25 => ⟨S_, .f32⟩
  | 26 => ⟨S40000x128, .f32⟩
  | 27 => ⟨S640000x1, .i32⟩
  | 28 => ⟨S40000x128, .f32⟩
  | 29 => ⟨S_, .f32⟩
  | 30 => ⟨S640000, .f32⟩
  | 31 => ⟨S_, .f32⟩
  | 32 => ⟨S40000, .f32⟩
  | 33 => ⟨S640000x1, .i32⟩
  | 34 => ⟨S40000, .f32⟩
  | 35 => ⟨S_, .f32⟩
  | 36 => ⟨S40000, .f32⟩
  | 37 => ⟨S40000, .f32⟩
  | 38 => ⟨S_, .f32⟩
  | 39 => ⟨S40000, .f32⟩
  | 40 => ⟨S40000, .f32⟩
  | 41 => ⟨S40000x1, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S1, .i32⟩
  | 51 => ⟨S_, .i32⟩
  | 52 => ⟨S640000x1, .i32⟩
  | 53 => ⟨S640000x1, .i1⟩
  | 54 => ⟨S1x1, .i32⟩
  | 55 => ⟨S640000x1, .i32⟩
  | 56 => ⟨S640000x1, .i1⟩
  | 57 => ⟨S640000x1, .i1⟩
  | 58 => ⟨S_, .i1⟩
  | 59 => ⟨S640000, .i1⟩
  | 60 => ⟨S640000x128, .f32⟩
  | 61 => ⟨S640000x128, .i1⟩
  | 62 => ⟨S_, .f32⟩
  | 63 => ⟨S640000x128, .f32⟩
  | 64 => ⟨S640000x128, .f32⟩
  | 65 => ⟨S640000x128, .bf16⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S1, .i32⟩
  | 75 => ⟨S_, .i32⟩
  | 76 => ⟨S640000x1, .i32⟩
  | 77 => ⟨S640000x1, .i1⟩
  | 78 => ⟨S1x1, .i32⟩
  | 79 => ⟨S640000x1, .i32⟩
  | 80 => ⟨S640000x1, .i1⟩
  | 81 => ⟨S640000x1, .i1⟩
  | 82 => ⟨S_, .i1⟩
  | 83 => ⟨S640000, .i1⟩
  | 84 => ⟨S640000x128, .f32⟩
  | 85 => ⟨S640000x128, .i1⟩
  | 86 => ⟨S_, .f32⟩
  | 87 => ⟨S640000x128, .f32⟩
  | 88 => ⟨S640000x128, .f32⟩
  | 89 => ⟨S640000x128, .bf16⟩
  | 90 => ⟨S1x384x128, .f32⟩
  | 91 => ⟨S384x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S128x128, .f32⟩
  | 99 => ⟨S128x128, .f32⟩
  | 100 => ⟨S128x128, .f32⟩
  | 101 => ⟨S1x128, .f32⟩
  | 102 => ⟨S1x128, .f32⟩
  | 103 => ⟨S640000x128, .bf16⟩
  | 104 => ⟨S640000x128, .f32⟩
  | 105 => ⟨S_, .f32⟩
  | 106 => ⟨S40000x128, .f32⟩
  | 107 => ⟨S640000x1, .i32⟩
  | 108 => ⟨S40000x128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S40000x128, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S1, .i32⟩
  | 124 => ⟨S_, .i32⟩
  | 125 => ⟨S640000x1, .i32⟩
  | 126 => ⟨S640000x1, .i1⟩
  | 127 => ⟨S1x1, .i32⟩
  | _ => ⟨S40000x16, .f32⟩

abbrev hbmTy0_1 (i : Nat) : BufTy := match i % 128 with
  | 0 => ⟨S640000x1, .i32⟩
  | 1 => ⟨S640000x1, .i1⟩
  | 2 => ⟨S640000x1, .i1⟩
  | 3 => ⟨S_, .i1⟩
  | 4 => ⟨S640000, .i1⟩
  | 5 => ⟨S640000x128, .f32⟩
  | 6 => ⟨S640000x128, .i1⟩
  | 7 => ⟨S_, .f32⟩
  | 8 => ⟨S640000x128, .f32⟩
  | 9 => ⟨S640000x128, .f32⟩
  | 10 => ⟨S640000x128, .bf16⟩
  | 11 => ⟨S_, .i32⟩
  | 12 => ⟨S640000, .i32⟩
  | 13 => ⟨S640000, .i1⟩
  | 14 => ⟨S_, .i32⟩
  | 15 => ⟨S640000, .i32⟩
  | 16 => ⟨S640000, .i32⟩
  | 17 => ⟨S640000, .i32⟩
  | 18 => ⟨S640000x1, .i32⟩
  | 19 => ⟨S1, .i32⟩
  | 20 => ⟨S_, .i32⟩
  | 21 => ⟨S640000x1, .i32⟩
  | 22 => ⟨S640000x1, .i1⟩
  | 23 => ⟨S1x1, .i32⟩
  | 24 => ⟨S640000x1, .i32⟩
  | 25 => ⟨S640000x1, .i1⟩
  | 26 => ⟨S640000x1, .i1⟩
  | 27 => ⟨S_, .i1⟩
  | 28 => ⟨S640000, .i1⟩
  | 29 => ⟨S640000x128, .f32⟩
  | 30 => ⟨S640000x128, .i1⟩
  | 31 => ⟨S_, .f32⟩
  | 32 => ⟨S640000x128, .f32⟩
  | 33 => ⟨S640000x128, .f32⟩
  | 34 => ⟨S640000x128, .bf16⟩
  | 35 => ⟨S1x384x128, .f32⟩
  | 36 => ⟨S384x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S128, .f32⟩
  | 43 => ⟨S128x128, .f32⟩
  | 44 => ⟨S128x128, .f32⟩
  | 45 => ⟨S128x128, .f32⟩
  | 46 => ⟨S1x128, .f32⟩
  | 47 => ⟨S1x128, .f32⟩
  | 48 => ⟨S640000x128, .bf16⟩
  | 49 => ⟨S640000x128, .f32⟩
  | 50 => ⟨S_, .f32⟩
  | 51 => ⟨S40000x128, .f32⟩
  | 52 => ⟨S640000x1, .i32⟩
  | 53 => ⟨S40000x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S40000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S1, .i32⟩
  | 69 => ⟨S_, .i32⟩
  | 70 => ⟨S640000x1, .i32⟩
  | 71 => ⟨S640000x1, .i1⟩
  | 72 => ⟨S1x1, .i32⟩
  | 73 => ⟨S640000x1, .i32⟩
  | 74 => ⟨S640000x1, .i1⟩
  | 75 => ⟨S640000x1, .i1⟩
  | 76 => ⟨S_, .i1⟩
  | 77 => ⟨S640000, .i1⟩
  | 78 => ⟨S640000x128, .f32⟩
  | 79 => ⟨S640000x128, .i1⟩
  | 80 => ⟨S_, .f32⟩
  | 81 => ⟨S640000x128, .f32⟩
  | 82 => ⟨S640000x128, .f32⟩
  | 83 => ⟨S640000x128, .bf16⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S1, .i32⟩
  | 93 => ⟨S_, .i32⟩
  | 94 => ⟨S640000x1, .i32⟩
  | 95 => ⟨S640000x1, .i1⟩
  | 96 => ⟨S1x1, .i32⟩
  | 97 => ⟨S640000x1, .i32⟩
  | 98 => ⟨S640000x1, .i1⟩
  | 99 => ⟨S640000x1, .i1⟩
  | 100 => ⟨S_, .i1⟩
  | 101 => ⟨S640000, .i1⟩
  | 102 => ⟨S640000x128, .f32⟩
  | 103 => ⟨S640000x128, .i1⟩
  | 104 => ⟨S_, .f32⟩
  | 105 => ⟨S640000x128, .f32⟩
  | 106 => ⟨S640000x128, .f32⟩
  | 107 => ⟨S640000x128, .bf16⟩
  | 108 => ⟨S1x384x128, .f32⟩
  | 109 => ⟨S384x128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S128, .f32⟩
  | 116 => ⟨S128x128, .f32⟩
  | 117 => ⟨S128x128, .f32⟩
  | 118 => ⟨S128x128, .f32⟩
  | 119 => ⟨S1x128, .f32⟩
  | 120 => ⟨S1x128, .f32⟩
  | 121 => ⟨S640000x128, .bf16⟩
  | 122 => ⟨S640000x128, .f32⟩
  | 123 => ⟨S_, .f32⟩
  | 124 => ⟨S40000x128, .f32⟩
  | 125 => ⟨S640000x1, .i32⟩
  | 126 => ⟨S40000x128, .f32⟩
  | 127 => ⟨S1x128x128, .f32⟩
  | _ => ⟨S40000x16, .f32⟩

abbrev hbmTy0_2 (i : Nat) : BufTy := match i % 128 with
  | 0 => ⟨S128x128, .f32⟩
  | 1 => ⟨S1x128, .f32⟩
  | 2 => ⟨S128, .f32⟩
  | 3 => ⟨S1x128, .f32⟩
  | 4 => ⟨S40000x128, .f32⟩
  | 5 => ⟨S1x128, .f32⟩
  | 6 => ⟨S1x3, .f32⟩
  | 7 => ⟨S40000x3, .f32⟩
  | _ => ⟨S40000x16, .f32⟩

abbrev hbmTy (i : Nat) : BufTy := match i / 128 with
  | 0 => hbmTy0_0 i
  | 1 => hbmTy0_1 i
  | 2 => hbmTy0_2 i
  | _ => ⟨S40000x16, .f32⟩

abbrev bufTy : (tb : Table) → Fin (tcTables nBuf tb) → BufTy
  | .hbm, ⟨i, _⟩ => hbmTy i
  | .local _ .vmem, ⟨0, _⟩ => ⟨S16000x128, .f32⟩
  | .local _ .vmem, ⟨1, _⟩ => ⟨S16000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S16000x128, .bf16⟩
  | .local _ .vmem, ⟨7, _⟩ => ⟨S16000x128, .bf16⟩
  | .local _ .vmem, ⟨8, _⟩ => ⟨S16000x128, .bf16⟩
  | .local _ .vmem, ⟨9, _⟩ => ⟨S16000x128, .bf16⟩
  | .local _ .vmem, ⟨10, _⟩ => ⟨S16000x128, .bf16⟩
  | .local _ .vmem, ⟨11, _⟩ => ⟨S16000x128, .bf16⟩
  | .local _ .vmem, ⟨12, _⟩ => ⟨S16000x128, .f32⟩
  | .local _ .vmem, ⟨13, _⟩ => ⟨S16000x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S16000x128, .bf16⟩
  | .local _ .vmem, ⟨21, _⟩ => ⟨S16000x128, .bf16⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S16000x128, .bf16⟩
  | .local _ .vmem, ⟨31, _⟩ => ⟨S16000x128, .bf16⟩
  | .local _ .vmem, ⟨32, _⟩ => ⟨S16000x128, .bf16⟩
  | .local _ .vmem, ⟨33, _⟩ => ⟨S16000x128, .bf16⟩
  | .local _ .vmem, ⟨34, _⟩ => ⟨S16000x128, .f32⟩
  | .local _ .vmem, ⟨35, _⟩ => ⟨S16000x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S16000x128, .bf16⟩
  | .local _ .vmem, ⟨43, _⟩ => ⟨S16000x128, .bf16⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S16000x128, .bf16⟩
  | .local _ .vmem, ⟨53, _⟩ => ⟨S16000x128, .bf16⟩
  | .local _ .vmem, ⟨54, _⟩ => ⟨S16000x128, .bf16⟩
  | .local _ .vmem, ⟨55, _⟩ => ⟨S16000x128, .bf16⟩
  | .local _ .vmem, ⟨56, _⟩ => ⟨S16000x128, .f32⟩
  | .local _ .vmem, ⟨57, _⟩ => ⟨S16000x128, .f32⟩
  | .local _ .vmem, ⟨58, _⟩ => ⟨S128x128, .f32⟩
  | .local _ .vmem, ⟨59, _⟩ => ⟨S128x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S16000x128, .bf16⟩
  | .local _ .vmem, ⟨65, _⟩ => ⟨S16000x128, .bf16⟩
  | .local _ .vmem, ⟨66, _⟩ => ⟨S5000x128, .f32⟩
  | .local _ .vmem, ⟨67, _⟩ => ⟨S5000x128, .f32⟩
  | .local _ .vmem, ⟨68, _⟩ => ⟨S5000x1, .f32⟩
  | .local _ .vmem, ⟨69, _⟩ => ⟨S5000x1, .f32⟩
  | .local _ .vmem, ⟨70, _⟩ => ⟨S128x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S128x128, .f32⟩
  | .local _ .vmem, ⟨77, _⟩ => ⟨S1x128, .f32⟩
  | .local _ .vmem, ⟨78, _⟩ => ⟨S128x3, .f32⟩
  | .local _ .vmem, ⟨79, _⟩ => ⟨S1x3, .f32⟩
  | .local _ .vmem, ⟨80, _⟩ => ⟨S5000x3, .f32⟩
  | .local _ .vmem, ⟨81, _⟩ => ⟨S5000x3, .f32⟩
  | _, _ => ⟨S40000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v20 : Ref sig .tc := ⟨.hbm, 64, rfl⟩
abbrev main_v21 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_4 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v48 : Ref sig .tc := ⟨.hbm, 137, rfl⟩
abbrev main_v49 : Ref sig .tc := ⟨.hbm, 138, rfl⟩
abbrev main_call3_c : Ref sig .tc := ⟨.hbm, 139, rfl⟩
abbrev main_call3_v0 : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_c_1 : Ref sig .tc := ⟨.hbm, 147, rfl⟩
abbrev main_call3_c_2 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_c_3 : Ref sig .tc := ⟨.hbm, 155, rfl⟩
abbrev main_call3_v12 : Ref sig .tc := ⟨.hbm, 156, rfl⟩
abbrev main_call3_v13 : Ref sig .tc := ⟨.hbm, 157, rfl⟩
abbrev main_call3_v14 : Ref sig .tc := ⟨.hbm, 158, rfl⟩
abbrev main_call3_cst : Ref sig .tc := ⟨.hbm, 159, rfl⟩
abbrev main_call3_v15 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_cst_5 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v76 : Ref sig .tc := ⟨.hbm, 210, rfl⟩
abbrev main_v77 : Ref sig .tc := ⟨.hbm, 211, rfl⟩
abbrev main_call5_c : Ref sig .tc := ⟨.hbm, 212, rfl⟩
abbrev main_call5_v0 : Ref sig .tc := ⟨.hbm, 213, rfl⟩
abbrev main_call5_v1 : Ref sig .tc := ⟨.hbm, 214, rfl⟩
abbrev main_call5_c_0 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_c_1 : Ref sig .tc := ⟨.hbm, 220, rfl⟩
abbrev main_call5_c_2 : Ref sig .tc := ⟨.hbm, 221, rfl⟩
abbrev main_call5_v6 : Ref sig .tc := ⟨.hbm, 222, rfl⟩
abbrev main_call5_v7 : Ref sig .tc := ⟨.hbm, 223, rfl⟩
abbrev main_call5_v8 : Ref sig .tc := ⟨.hbm, 224, rfl⟩
abbrev main_call5_v9 : Ref sig .tc := ⟨.hbm, 225, rfl⟩
abbrev main_call5_v10 : Ref sig .tc := ⟨.hbm, 226, rfl⟩
abbrev main_call5_v11 : Ref sig .tc := ⟨.hbm, 227, rfl⟩
abbrev main_call5_c_3 : Ref sig .tc := ⟨.hbm, 228, rfl⟩
abbrev main_call5_v12 : Ref sig .tc := ⟨.hbm, 229, rfl⟩
abbrev main_call5_v13 : Ref sig .tc := ⟨.hbm, 230, rfl⟩
abbrev main_call5_v14 : Ref sig .tc := ⟨.hbm, 231, rfl⟩
abbrev main_call5_cst : Ref sig .tc := ⟨.hbm, 232, rfl⟩
abbrev main_call5_v15 : Ref sig .tc := ⟨.hbm, 233, rfl⟩
abbrev main_v78 : Ref sig .tc := ⟨.hbm, 234, rfl⟩
abbrev main_v79 : Ref sig .tc := ⟨.hbm, 235, rfl⟩
abbrev main_v80 : Ref sig .tc := ⟨.hbm, 236, rfl⟩
abbrev main_v81 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_v86 : Ref sig .tc := ⟨.hbm, 242, rfl⟩
abbrev main_v87 : Ref sig .tc := ⟨.hbm, 243, rfl⟩
abbrev main_v88 : Ref sig .tc := ⟨.hbm, 244, rfl⟩
abbrev main_v89 : Ref sig .tc := ⟨.hbm, 245, rfl⟩
abbrev main_v90 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_v94 : Ref sig .tc := ⟨.hbm, 250, rfl⟩
abbrev main_cst_6 : Ref sig .tc := ⟨.hbm, 251, rfl⟩
abbrev main_v95 : Ref sig .tc := ⟨.hbm, 252, rfl⟩
abbrev main_v96 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_v101 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg4_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg5_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem7_0 : DmaSem sig := 62
abbrev cc5_sem8_0 : DmaSem sig := 63
abbrev cc5_sem9_0 : DmaSem sig := 64
abbrev cc5_sem9_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem4_1 : DmaSem sig := 73
abbrev cc7_sem0_0 : DmaSem sig := 74
abbrev cc7_sem0_1 : DmaSem sig := 75
abbrev cc7_sem1_0 : DmaSem sig := 76
abbrev cc7_sem2_0 : DmaSem sig := 77
abbrev cc7_sem3_0 : DmaSem sig := 78
abbrev cc7_sem4_0 : DmaSem sig := 79
abbrev cc7_sem5_0 : DmaSem sig := 80
abbrev cc7_sem5_1 : DmaSem sig := 81

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S16000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S16000x128 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S16000x128 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x3 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x3 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S16000x128_S16000x128_0_0 : ∀ a, (![0, 0] : Fin 2 → Nat) a + S16000x128.size a ≤ S16000x128.size a
  h_S16000x128 : 0 < S16000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  packedbf16_S16000x128_S16000x128_0_0 : (Rect.unit (s := S16000x128) ![0, 0] S16000x128.size inb_S16000x128_S16000x128_0_0).PackedRows (EltTy.packing .bf16)
  bcast_S_S40000x128 : S_.BroadcastsInDim S40000x128 (![] : Fin 0 → Fin S40000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S16000x128_S16000x128 : S16000x128.ShapeCasts S16000x128
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  slices_S3x384x128_S1x384x128_1_0_0 : S3x384x128.Slices ![1, 0, 0] S1x384x128
  slices_S3x128_S1x128_1_0 : S3x128.Slices ![1, 0] S1x128
  slices_S3x128x128_S1x128x128_1_0_0 : S3x128x128.Slices ![1, 0, 0] S1x128x128
  slices_S3x384x128_S1x384x128_2_0_0 : S3x384x128.Slices ![2, 0, 0] S1x384x128
  slices_S3x128_S1x128_2_0 : S3x128.Slices ![2, 0] S1x128
  slices_S3x128x128_S1x128x128_2_0_0 : S3x128x128.Slices ![2, 0, 0] S1x128x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  dot_S16000x128_S128x128_S16000x128_1_0_0_1_n_n_wf : DotDims.WF S16000x128 S128x128 S16000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S640000x128.size a
  hwx0_0 : ∀ i : grid0.Coords, EltTy.bits .f32 = 32 ∨ (Rect.block (s := S640000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x128.size a ≤ S640000x128.size a
  hwx0_5 : ∀ i : grid0.Coords, EltTy.bits .bf16 = 32 ∨ (Rect.block (s := S640000x128) S16000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S640000x128.size a
  hwx1_0 : ∀ i : grid1.Coords, EltTy.bits .bf16 = 32 ∨ (Rect.block (s := S640000x128) S16000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x128.size a ≤ S640000x128.size a
  hwx1_1 : ∀ i : grid1.Coords, EltTy.bits .bf16 = 32 ∨ (Rect.block (s := S640000x128) S16000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x128.size a ≤ S640000x128.size a
  hwx1_2 : ∀ i : grid1.Coords, EltTy.bits .f32 = 32 ∨ (Rect.block (s := S640000x128) S16000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S16000x128.size a ≤ S640000x128.size a
  hwx1_9 : ∀ i : grid1.Coords, EltTy.bits .bf16 = 32 ∨ (Rect.block (s := S640000x128) S16000x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S40000x1.size a
  hwx2_1 : ∀ i : grid2.Coords, EltTy.bits .f32 = 32 ∨ (Rect.block (s := S40000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S40000x128.size a
  hwx2_4 : ∀ i : grid2.Coords, EltTy.bits .f32 = 32 ∨ (Rect.block (s := S40000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x128.size a ≤ S640000x128.size a
  hwx3_0 : ∀ i : grid3.Coords, EltTy.bits .bf16 = 32 ∨ (Rect.block (s := S640000x128) S16000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x128.size a ≤ S640000x128.size a
  hwx3_1 : ∀ i : grid3.Coords, EltTy.bits .bf16 = 32 ∨ (Rect.block (s := S640000x128) S16000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x128.size a ≤ S640000x128.size a
  hwx3_2 : ∀ i : grid3.Coords, EltTy.bits .f32 = 32 ∨ (Rect.block (s := S640000x128) S16000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S16000x128.size a ≤ S640000x128.size a
  hwx3_9 : ∀ i : grid3.Coords, EltTy.bits .bf16 = 32 ∨ (Rect.block (s := S640000x128) S16000x128.size (cc3_transform_9 i) (hinb3_9 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S40000x1.size a
  hwx4_1 : ∀ i : grid4.Coords, EltTy.bits .f32 = 32 ∨ (Rect.block (s := S40000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S40000x128.size a
  hwx4_4 : ∀ i : grid4.Coords, EltTy.bits .f32 = 32 ∨ (Rect.block (s := S40000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16000x128.size a ≤ S640000x128.size a
  hwx5_0 : ∀ i : grid5.Coords, EltTy.bits .bf16 = 32 ∨ (Rect.block (s := S640000x128) S16000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16000x128.size a ≤ S640000x128.size a
  hwx5_1 : ∀ i : grid5.Coords, EltTy.bits .bf16 = 32 ∨ (Rect.block (s := S640000x128) S16000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16000x128.size a ≤ S640000x128.size a
  hwx5_2 : ∀ i : grid5.Coords, EltTy.bits .f32 = 32 ∨ (Rect.block (s := S640000x128) S16000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S16000x128.size a ≤ S640000x128.size a
  hwx5_9 : ∀ i : grid5.Coords, EltTy.bits .bf16 = 32 ∨ (Rect.block (s := S640000x128) S16000x128.size (cc5_transform_9 i) (hinb5_9 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S40000x128.size a
  hwx6_0 : ∀ i : grid6.Coords, EltTy.bits .f32 = 32 ∨ (Rect.block (s := S40000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S40000x1.size a
  hwx6_1 : ∀ i : grid6.Coords, EltTy.bits .f32 = 32 ∨ (Rect.block (s := S40000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S40000x128.size a
  hwx6_4 : ∀ i : grid6.Coords, EltTy.bits .f32 = 32 ∨ (Rect.block (s := S40000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S40000x128.size a
  hwx7_0 : ∀ i : grid7.Coords, EltTy.bits .f32 = 32 ∨ (Rect.block (s := S40000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x3.size a ≤ S128x3.size a
  hwx7_3 : ∀ i : grid7.Coords, EltTy.bits .f32 = 32 ∨ (Rect.block (s := S128x3) S128x3.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x3.size a ≤ S1x3.size a
  hwx7_4 : ∀ i : grid7.Coords, EltTy.bits .f32 = 32 ∨ (Rect.block (s := S1x3) S1x3.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x3.size a ≤ S40000x3.size a
  hwx7_5 : ∀ i : grid7.Coords, EltTy.bits .f32 = 32 ∨ (Rect.block (s := S40000x3) S5000x3.size (cc7_transform_5 i) (hinb7_5 i)).WholeWords (EltTy.packing .f32)

variable [Facts₀]

def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg2) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S16000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S16000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S16000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S16000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S16000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S16000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v64) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v65) S16000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v77) S16000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S16000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg2) S16000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v88) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v85) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v92) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v93) S16000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v97) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v103) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v104) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg15) S128x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v105) S1x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v106) S5000x3.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S40000x16 : Shape := ⟨2, ![40000, 16]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S3x384x128 : Shape := ⟨3, ![3, 384, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S40000x128 : Shape := ⟨2, ![40000, 128]⟩
abbrev S640000x1 : Shape := ⟨2, ![640000, 1]⟩
abbrev S40000 : Shape := ⟨1, ![40000]⟩
abbrev S40000x1 : Shape := ⟨2, ![40000, 1]⟩
abbrev S640000x384 : Shape := ⟨2, ![640000, 384]⟩
abbrev S1x384x128 : Shape := ⟨3, ![1, 384, 128]⟩
abbrev S384x128 : Shape := ⟨2, ![384, 128]⟩
abbrev S1x128x128 : Shape := ⟨3, ![1, 128, 128]⟩
abbrev S40000x3 : Shape := ⟨2, ![40000, 3]⟩
abbrev S1x3 : Shape := ⟨2, ![1, 3]⟩

abbrev nBuf : Space → Nat
  | .hbm => 222
  | .vmem => 0
  | .smem => 0
  | _ => 0

abbrev hbmTy0_0 (i : Nat) : BufTy := match i % 128 with
  | 0 => ⟨S40000x16, .f32⟩
  | 1 => ⟨S2x640000, .i32⟩
  | 2 => ⟨S640000x128, .f32⟩
  | 3 => ⟨S128x128, .f32⟩
  | 4 => ⟨S128, .f32⟩
  | 5 => ⟨S128x128, .f32⟩
  | 6 => ⟨S128, .f32⟩
  | 7 => ⟨S3x384x128, .f32⟩
  | 8 => ⟨S3x128, .f32⟩
  | 9 => ⟨S3x128x128, .f32⟩
  | 10 => ⟨S3x128, .f32⟩
  | 11 => ⟨S3x128x128, .f32⟩
  | 12 => ⟨S3x128, .f32⟩
  | 13 => ⟨S128x128, .f32⟩
  | 14 => ⟨S128, .f32⟩
  | 15 => ⟨S128x3, .f32⟩
  | 16 => ⟨S3, .f32⟩
  | 17 => ⟨S1x640000, .i32⟩
  | 18 => ⟨S640000, .i32⟩
  | 19 => ⟨S1x640000, .i32⟩
  | 20 => ⟨S640000, .i32⟩
  | 21 => ⟨S640000x128, .f32⟩
  | 22 => ⟨S1x128, .f32⟩
  | 23 => ⟨S640000x128, .f32⟩
  | 24 => ⟨S640000x128, .f32⟩
  | 25 => ⟨S_, .f32⟩
  | 26 => ⟨S640000x128, .f32⟩
  | 27 => ⟨S640000x128, .f32⟩
  | 28 => ⟨S640000x128, .f32⟩
  | 29 => ⟨S1x128, .f32⟩
  | 30 => ⟨S640000x128, .f32⟩
  | 31 => ⟨S640000x128, .f32⟩
  | 32 => ⟨S_, .f32⟩
  | 33 => ⟨S40000x128, .f32⟩
  | 34 => ⟨S640000x1, .i32⟩
  | 35 => ⟨S40000x128, .f32⟩
  | 36 => ⟨S_, .f32⟩
  | 37 => ⟨S640000, .f32⟩
  | 38 => ⟨S_, .f32⟩
  | 39 => ⟨S40000, .f32⟩
  | 40 => ⟨S640000x1, .i32⟩
  | 41 => ⟨S40000, .f32⟩
  | 42 => ⟨S_, .f32⟩
  | 43 => ⟨S40000, .f32⟩
  | 44 => ⟨S40000, .f32⟩
  | 45 => ⟨S40000x1, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S640000x384, .f32⟩
  | 65 => ⟨S1x384x128, .f32⟩
  | 66 => ⟨S384x128, .f32⟩
  | 67 => ⟨S640000x128, .f32⟩
  | 68 => ⟨S1x128, .f32⟩
  | 69 => ⟨S128, .f32⟩
  | 70 => ⟨S1x128, .f32⟩
  | 71 => ⟨S640000x128, .f32⟩
  | 72 => ⟨S640000x128, .f32⟩
  | 73 => ⟨S_, .f32⟩
  | 74 => ⟨S640000x128, .f32⟩
  | 75 => ⟨S640000x128, .f32⟩
  | 76 => ⟨S1x128x128, .f32⟩
  | 77 => ⟨S128x128, .f32⟩
  | 78 => ⟨S640000x128, .f32⟩
  | 79 => ⟨S1x128, .f32⟩
  | 80 => ⟨S128, .f32⟩
  | 81 => ⟨S1x128, .f32⟩
  | 82 => ⟨S640000x128, .f32⟩
  | 83 => ⟨S640000x128, .f32⟩
  | 84 => ⟨S_, .f32⟩
  | 85 => ⟨S40000x128, .f32⟩
  | 86 => ⟨S640000x1, .i32⟩
  | 87 => ⟨S40000x128, .f32⟩
  | 88 => ⟨S40000x128, .f32⟩
  | 89 => ⟨S40000x128, .f32⟩
  | 90 => ⟨S1x128x128, .f32⟩
  | 91 => ⟨S128x128, .f32⟩
  | 92 => ⟨S40000x128, .f32⟩
  | 93 => ⟨S1x128, .f32⟩
  | 94 => ⟨S128, .f32⟩
  | 95 => ⟨S1x128, .f32⟩
  | 96 => ⟨S40000x128, .f32⟩
  | 97 => ⟨S40000x128, .f32⟩
  | 98 => ⟨S_, .f32⟩
  | 99 => ⟨S40000x128, .f32⟩
  | 100 => ⟨S40000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x128, .f32⟩
  | 119 => ⟨S640000x384, .f32⟩
  | 120 => ⟨S1x384x128, .f32⟩
  | 121 => ⟨S384x128, .f32⟩
  | 122 => ⟨S640000x128, .f32⟩
  | 123 => ⟨S1x128, .f32⟩
  | 124 => ⟨S128, .f32⟩
  | 125 => ⟨S1x128, .f32⟩
  | 126 => ⟨S640000x128, .f32⟩
  | 127 => ⟨S640000x128, .f32⟩
  | _ => ⟨S40000x16, .f32⟩

abbrev hbmTy0_1 (i : Nat) : BufTy := match i % 128 with
  | 0 => ⟨S_, .f32⟩
  | 1 => ⟨S640000x128, .f32⟩
  | 2 => ⟨S640000x128, .f32⟩
  | 3 => ⟨S1x128x128, .f32⟩
  | 4 => ⟨S128x128, .f32⟩
  | 5 => ⟨S640000x128, .f32⟩
  | 6 => ⟨S1x128, .f32⟩
  | 7 => ⟨S128, .f32⟩
  | 8 => ⟨S1x128, .f32⟩
  | 9 => ⟨S640000x128, .f32⟩
  | 10 => ⟨S640000x128, .f32⟩
  | 11 => ⟨S_, .f32⟩
  | 12 => ⟨S40000x128, .f32⟩
  | 13 => ⟨S640000x1, .i32⟩
  | 14 => ⟨S40000x128, .f32⟩
  | 15 => ⟨S40000x128, .f32⟩
  | 16 => ⟨S40000x128, .f32⟩
  | 17 => ⟨S1x128x128, .f32⟩
  | 18 => ⟨S128x128, .f32⟩
  | 19 => ⟨S40000x128, .f32⟩
  | 20 => ⟨S1x128, .f32⟩
  | 21 => ⟨S128, .f32⟩
  | 22 => ⟨S1x128, .f32⟩
  | 23 => ⟨S40000x128, .f32⟩
  | 24 => ⟨S40000x128, .f32⟩
  | 25 => ⟨S_, .f32⟩
  | 26 => ⟨S40000x128, .f32⟩
  | 27 => ⟨S40000x128, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S640000x384, .f32⟩
  | 47 => ⟨S1x384x128, .f32⟩
  | 48 => ⟨S384x128, .f32⟩
  | 49 => ⟨S640000x128, .f32⟩
  | 50 => ⟨S1x128, .f32⟩
  | 51 => ⟨S128, .f32⟩
  | 52 => ⟨S1x128, .f32⟩
  | 53 => ⟨S640000x128, .f32⟩
  | 54 => ⟨S640000x128, .f32⟩
  | 55 => ⟨S_, .f32⟩
  | 56 => ⟨S640000x128, .f32⟩
  | 57 => ⟨S640000x128, .f32⟩
  | 58 => ⟨S1x128x128, .f32⟩
  | 59 => ⟨S128x128, .f32⟩
  | 60 => ⟨S640000x128, .f32⟩
  | 61 => ⟨S1x128, .f32⟩
  | 62 => ⟨S128, .f32⟩
  | 63 => ⟨S1x128, .f32⟩
  | 64 => ⟨S640000x128, .f32⟩
  | 65 => ⟨S640000x128, .f32⟩
  | 66 => ⟨S_, .f32⟩
  | 67 => ⟨S40000x128, .f32⟩
  | 68 => ⟨S640000x1, .i32⟩
  | 69 => ⟨S40000x128, .f32⟩
  | 70 => ⟨S40000x128, .f32⟩
  | 71 => ⟨S40000x128, .f32⟩
  | 72 => ⟨S1x128x128, .f32⟩
  | 73 => ⟨S128x128, .f32⟩
  | 74 => ⟨S40000x128, .f32⟩
  | 75 => ⟨S1x128, .f32⟩
  | 76 => ⟨S128, .f32⟩
  | 77 => ⟨S1x128, .f32⟩
  | 78 => ⟨S40000x128, .f32⟩
  | 79 => ⟨S40000x128, .f32⟩
  | 80 => ⟨S_, .f32⟩
  | 81 => ⟨S40000x128, .f32⟩
  | 82 => ⟨S40000x128, .f32⟩
  | 83 => ⟨S40000x128, .f32⟩
  | 84 => ⟨S1x128, .f32⟩
  | 85 => ⟨S40000x128, .f32⟩
  | 86 => ⟨S40000x128, .f32⟩
  | 87 => ⟨S_, .f32⟩
  | 88 => ⟨S40000x128, .f32⟩
  | 89 => ⟨S40000x128, .f32⟩
  | 90 => ⟨S40000x3, .f32⟩
  | 91 => ⟨S1x3, .f32⟩
  | 92 => ⟨S40000x3, .f32⟩
  | 93 => ⟨S40000x3, .f32⟩
  | _ => ⟨S40000x16, .f32⟩

abbrev hbmTy (i : Nat) : BufTy := match i / 128 with
  | 0 => hbmTy0_0 i
  | 1 => hbmTy0_1 i
  | _ => ⟨S40000x16, .f32⟩

abbrev bufTy : (tb : Table) → Fin (tcTables nBuf tb) → BufTy
  | .hbm, ⟨i, _⟩ => hbmTy i
  | _, _ => ⟨S40000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_c_7 : Ref sig .tc := ⟨.hbm, 101, rfl⟩
abbrev main_v69 : Ref sig .tc := ⟨.hbm, 102, rfl⟩
abbrev main_v70 : Ref sig .tc := ⟨.hbm, 103, rfl⟩
abbrev main_c_8 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_9 : Ref sig .tc := ⟨.hbm, 110, rfl⟩
abbrev main_v76 : Ref sig .tc := ⟨.hbm, 111, rfl⟩
abbrev main_v77 : Ref sig .tc := ⟨.hbm, 112, rfl⟩
abbrev main_c_10 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_11 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_call4_cst : Ref sig .tc := ⟨.hbm, 153, rfl⟩
abbrev main_call4_v0 : Ref sig .tc := ⟨.hbm, 154, rfl⟩
abbrev main_v114 : Ref sig .tc := ⟨.hbm, 155, rfl⟩
abbrev main_c_12 : Ref sig .tc := ⟨.hbm, 156, rfl⟩
abbrev main_v115 : Ref sig .tc := ⟨.hbm, 157, rfl⟩
abbrev main_v116 : Ref sig .tc := ⟨.hbm, 158, rfl⟩
abbrev main_c_13 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_14 : Ref sig .tc := ⟨.hbm, 165, rfl⟩
abbrev main_v122 : Ref sig .tc := ⟨.hbm, 166, rfl⟩
abbrev main_v123 : Ref sig .tc := ⟨.hbm, 167, rfl⟩
abbrev main_c_15 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_call5_cst : Ref sig .tc := ⟨.hbm, 183, rfl⟩
abbrev main_call5_v0 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_16 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_call6_cst : Ref sig .tc := ⟨.hbm, 208, rfl⟩
abbrev main_call6_v0 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_call7_cst : Ref sig .tc := ⟨.hbm, 215, rfl⟩
abbrev main_call7_v0 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S40000 : S_.BroadcastsInDim S40000 (![] : Fin 0 → Fin S40000.rank)
  bcast_S40000_S40000x1_0 : S40000.BroadcastsInDim S40000x1 (![0] : Fin 1 → Fin S40000x1.rank)
  concatenates_S640000x128_S640000x128_S640000x128_S640000x384_d1 : Shape.Concatenates [S640000x128, S640000x128, S640000x128] S640000x384 1
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  bcast_S40000x1_S40000x128_0_1 : S40000x1.BroadcastsInDim S40000x128 (![0, 1] : Fin 2 → Fin S40000x128.rank)
  bcast_S1x128_S40000x128_0_1 : S1x128.BroadcastsInDim S40000x128 (![0, 1] : Fin 2 → Fin S40000x128.rank)
  slices_S3x384x128_S1x384x128_1_0_0 : S3x384x128.Slices ![1, 0, 0] S1x384x128
  slices_S3x128_S1x128_1_0 : S3x128.Slices ![1, 0] S1x128
  slices_S3x128x128_S1x128x128_1_0_0 : S3x128x128.Slices ![1, 0, 0] S1x128x128
  slices_S3x384x128_S1x384x128_2_0_0 : S3x384x128.Slices ![2, 0, 0] S1x384x128
  slices_S3x128_S1x128_2_0 : S3x128.Slices ![2, 0] S1x128
  slices_S3x128x128_S1x128x128_2_0_0 : S3x128x128.Slices ![2, 0, 0] S1x128x128
  bcast_S3_S1x3_1 : S3.BroadcastsInDim S1x3 (![1] : Fin 1 → Fin S1x3.rank)
  bcast_S1x3_S40000x3_0_1 : S1x3.BroadcastsInDim S40000x3 (![0, 1] : Fin 2 → Fin S40000x3.rank)
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  dot_S640000x384_S384x128_S640000x128_1_0_0_1_n_n_wf : DotDims.WF S640000x384 S384x128 S640000x128 [1] [0] [0] [1] [] []
  dot_S40000x128_S128x128_S40000x128_1_0_0_1_n_n_wf : DotDims.WF S40000x128 S128x128 S40000x128 [1] [0] [0] [1] [] []
  dot_S40000x128_S128x3_S40000x3_1_0_0_1_n_n_wf : DotDims.WF S40000x128 S128x3 S40000x3 [1] [0] [0] [1] [] []

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x3_S40000x3_1_0_0_1_n_n : DotDims S40000x128 S128x3 S40000x3 where
  lhsContracting := [1]
  rhsContracting := [0]
  lhsNonContracting := [0]
  rhsNonContracting := [1]
  lhsBatch := []
  rhsBatch := []
  wf := dot_S40000x128_S128x3_S40000x3_1_0_0_1_n_n_wf

class Facts : Prop extends Facts₀ where

variable [Facts]
-- ==== Proof.LibNary3.lean ====
/-
  A `nary` operation over a LITERAL family of THREE references, read at its result buffer.

  A host operation with a family of operands (`StableHlo.nary xs y f`) leaves at its result buffer `f` of the operands'
  contents, `f (fun k => F ↑(xs k))`. When the family is the literal `![x, a, b]` — a concatenation of three arrays — that
  function of `k` is, entry by entry, the three contents `F ↑x`, `F ↑a`, `F ↑b`: the same family written with `Fin.cons`.
  In that second form each operand's contents stand at a literal reference, so a computation that reads buffers back
  through a line of operations (`StableHlo.after`) can go on reading each operand; in the first form the reference
  `![x, a, b] k` under the binder is no literal and the reading stops there.

  The library states this for a family of four (`StableHlo.nary4_result`, `nary4_result'`); these are the same two
  statements for a family of three, and the one-pass computation of a buffer's contents after a line of operations with
  the three-reference form in the place of the general one.

  A concatenation's operand list is followed by the fact that the operands' shapes fit the result's, a fact ABOUT that
  list; a rewriting pass therefore does not enter the list by itself. `concatenate_congr` is the congruence rule that
  lets it: equal lists give equal concatenations, the fact carried along the equality. A module that computes a buffer
  holding a concatenation of computed operands marks it `[local congr]`.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- The result of an operation over the literal family `![x, a, b]`, with each operand's contents at its own reference:
    the two families agree at each of the three positions. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same statement with the result reference left out of the rewriting index, as the library's primed forms are. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Equal operand lists give equal concatenations (the shape fact carried along the equality of the lists). -/
theorem concatenate_congr {α : Type} {t : Shape} {ax : Fin t.rank} {xs xs' : List ((s : Shape) × (s.Idx → α))}
    (e : xs = xs') (h : Shape.Concatenates (xs.map (·.1)) t ax) :
    concatenate t ax xs h = concatenate t ax xs' (e ▸ h) := by
  subst e; rfl

/-- A buffer's contents after a line of operations, in one rewriting pass: each operation's result at its own result
    buffer is its function of its operands' contents, at any other reference what was there before (the references told
    apart by deciding their inequality); an operation over three references by `nary3_result'`. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary3

end
-- ==== Proof.Pre.lean ====
import proofs.«403623_j41042707481180_2_alg».proof.Defs
import proofs.«403623_j41042707481180_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreFacts

open Idealize.ShloMosaic Idealize.ShloMosaic.ValueIdx

open Cert.Pre_finite_inputs (S_ S640000 S1x640000 S2x640000)

/-- The scalar shape has exactly one index (there is no axis to choose a coordinate on). -/
instance scalarIdx_subsingleton : Subsingleton S_.Idx := ⟨fun a b => funext fun d => d.elim0⟩

/-- Row 0 of the [2, 640000] array, cut out as the [1, 640000] block at offset (0, 0) and flattened to [640000], holds at
    position e the word at (0, e): the cut shifts no coordinate, and flattening a one-row block keeps the column, which is
    the row-major position on both sides (0 · 640000 + e = e). -/
theorem row0_at (a1 : IVec S2x640000 32) (hs : S2x640000.Slices ![0, 0] S1x640000) (hc : S1x640000.ShapeCasts S640000)
    (e : Fin 640000) :
    shapeCast S640000 (extractStridedSlice S1x640000 ![0, 0] a1 hs) hc (ix1 e) = a1 (ix2 0 e) := by
  refine (shapeCast_apply _ hc (ix1 e) (ix2 (0 : Fin 1) e) ?_).trans ?_
  · rw [Shape.rowMajor_val_two, Shape.rowMajor_val_one]
    show (0 : ℕ) * 640000 + e.val = e.val
    omega
  · refine extractStridedSlice_apply _ a1 hs _ (ix2 0 e) fun a => ?_
    match a with
    | ⟨0, _⟩ => rfl
    | ⟨1, _⟩ => show e.val = 0 + e.val; omega

/-- What the precondition says of the index array: every source word (row 0), read signed, names a node, 0 … 39999.
    (The precondition's other conjuncts, the finiteness of the float arrays, are not used.) -/
theorem src_in_range {F : FTy → Type} [FloatOps F] [hP : Cert.Pre_finite_inputs.Facts]
    (a0 : FVec F Cert.Pre_finite_inputs.S40000x16 .f32) (a1 : IVec Cert.Pre_finite_inputs.S2x640000 32)
    (a2 : FVec F Cert.Pre_finite_inputs.S640000x128 .f32) (a3 : FVec F Cert.Pre_finite_inputs.S128x128 .f32)
    (a4 : FVec F Cert.Pre_finite_inputs.S128 .f32) (a5 : FVec F Cert.Pre_finite_inputs.S128x128 .f32)
    (a6 : FVec F Cert.Pre_finite_inputs.S128 .f32) (a7 : FVec F Cert.Pre_finite_inputs.S3x384x128 .f32)
    (a8 : FVec F Cert.Pre_finite_inputs.S3x128 .f32) (a9 : FVec F Cert.Pre_finite_inputs.S3x128x128 .f32)
    (a10 : FVec F Cert.Pre_finite_inputs.S3x128 .f32) (a11 : FVec F Cert.Pre_finite_inputs.S3x128x128 .f32)
    (a12 : FVec F Cert.Pre_finite_inputs.S3x128 .f32) (a13 : FVec F Cert.Pre_finite_inputs.S128x128 .f32)
    (a14 : FVec F Cert.Pre_finite_inputs.S128 .f32) (a15 : FVec F Cert.Pre_finite_inputs.S128x3 .f32)
    (a16 : FVec F Cert.Pre_finite_inputs.S3 .f32)
    (h : Cert.Pre_finite_inputs.fn (F := F) a0 a1 a2 a3 a4 a5 a6 a7 a8 a9 a10 a11 a12 a13 a14 a15 a16 = fun _ => 1#1)
    (e : Fin 640000) : 0 ≤ (a1 (ix2 0 e)).toInt ∧ (a1 (ix2 0 e)).toInt < 40000 := by
  -- the printed predicate is a left-nested conjunction of seventeen one-bit words; at the one scalar index it is 1,
  -- so its outermost right operand, the reduction of the range mask over all 640000 positions, is 1
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  have hall := (IntOp.andi_eq_one.1 h0).2
  -- the reduction is 1, so the mask is 1 at position e: both comparisons hold there
  have he := Host.reduce_andi_all _ _ _ _ _ hall (ix1 e)
  obtain ⟨hge, hlt⟩ := IntOp.andi_eq_one.1 he
  have hge' := IntOp.cmpi_sge.1 hge
  have hlt' := IntOp.cmpi_slt.1 hlt
  rw [row0_at] at hge' hlt'
  -- a scalar broadcast reads the scalar at every position; read signed, the two constants are 0 and 40000
  have c0 : (broadcastInDim S640000 ![] hP.bcast_S_S640000 (constantI S_ 32 0#32) (ix1 e)).toInt = 0 := by
    show (0#32 : BitVec 32).toInt = 0
    decide
  have c1 : (broadcastInDim S640000 ![] hP.bcast_S_S640000 (constantI S_ 32 40000#32) (ix1 e)).toInt = 40000 := by
    show (40000#32 : BitVec 32).toInt = 40000
    decide
  rw [c0] at hge'
  rw [c1] at hlt'
  exact ⟨hge', hlt'⟩

end Cert.PreFacts

end
-- ==== Proof.Spec.lean ====
/-
  The function both programs compute, written once over the extended reals, index by index.

  A graph network on 40000 nodes and 640000 edges of width 128. Each edge e carries a source word and a
  destination word (rows 0 and 1 of the index array) and an attribute row.
    * the edge embedding is a two-layer perceptron of the attribute row;
    * a node's first state is the sum of the embeddings of the edges whose destination word IS that node (an edge whose
      word names no node contributes nowhere);
    * a node's degree is the number of such edges, and at least one;
    * a message-passing layer reads, for each edge, the state row of its destination and of its source (a word is first
      wrapped when negative, then clamped into the table), passes the two rows and the attribute row through a
      two-layer perceptron whose first matrix has 384 rows (128 per part), sums the results per destination node,
      divides by the degree and applies one dense layer with a rectifier;
    * after three layers a last two-layer perceptron maps each node's state to three numbers.
  Sums are sums in the extended reals; nothing here uses that an entry is finite.
-/
import Idealize.ShloMosaic.PureOps.Ideal
import Idealize.ShloMosaic.Lib.ValueIdx

noncomputable section

open scoped BigOperators

namespace Cert.Spec

open Idealize.ShloMosaic Idealize.ShloMosaic.ValueIdx

/-- The shape of an a × b array. -/
abbrev Sh (a b : Nat) : Shape := ⟨2, ![a, b]⟩
/-- An a × b array of extended reals. -/
abbrev RArr (a b : Nat) : Type := (Sh a b).Idx → EReal
/-- A vector of a extended reals. -/
abbrev RVec (a : Nat) : Type := (⟨1, ![a]⟩ : Shape).Idx → EReal

/-- The table row a start word names: the word read signed and clamped into 0 … N - 1. -/
def rowOf (N : Nat) (hN : 0 < N) (w : BitVec 32) : Fin N := ⟨min w.toInt.toNat (N - 1), by omega⟩

/-- A negative word is wrapped once by the table's extent before it is used as a row. -/
def wrapW (N : Nat) (w : BitVec 32) : BitVec 32 := Scalar.select (IntOp.cmpi .slt w 0#32) (w + BitVec.ofNat 32 N) w

/-- x · w + b: entry (i, j) is the sum over k of x (i, k) · w (k, j), plus b j. -/
def dense {M K N : Nat} (x : RArr M K) (w : RArr K N) (b : Fin N → EReal) : RArr M N :=
  fun i => (∑ k : Fin K, x (ix2 (i 0) k) * w (ix2 k (i 1))) + b (i 1)

/-- The rectifier, entry by entry. -/
def relu {a b : Nat} (x : RArr a b) : RArr a b := fun i => max (x i) 0

/-- A two-layer perceptron: a dense layer, the rectifier, a dense layer. -/
def mlp2 {M K H N : Nat} (x : RArr M K) (w1 : RArr K H) (b1 : Fin H → EReal) (w2 : RArr H N) (b2 : Fin N → EReal) : RArr M N :=
  dense (relu (dense x w1 b1)) w2 b2

/-- The sum, per table row i, of the update rows whose word, read signed, is i. -/
def segSum {E N C : Nat} (idx : Fin E → BitVec 32) (u : RArr E C) : RArr N C :=
  fun i => 0 + ∑ e ∈ Finset.univ.filter (fun e : Fin E => (idx e).toInt = ((i 0).val : ℤ)), u (ix2 e (i 1))

/-- The degree of node n: the number of edges whose word is n, and at least one. -/
def degOf {E N : Nat} (idx : Fin E → BitVec 32) (n : Fin N) : EReal :=
  max (0 + ∑ _e ∈ Finset.univ.filter (fun e : Fin E => (idx e).toInt = (n.val : ℤ)), (1 : EReal)) 1

/-- The table rows the words name: row e of the result is the table's row for word e, wrapped then clamped. -/
def takeRows {E N C : Nat} (hN : 0 < N) (h : RArr N C) (idx : Fin E → BitVec 32) : RArr E C :=
  fun i => h (ix2 (rowOf N hN (wrapW N (idx (i 0)))) (i 1))

/-- Rows o … o + K - 1 of a matrix. -/
def rowsAt {A B : Nat} (K o : Nat) (h : o + K ≤ A) (w : RArr A B) : RArr K B :=
  fun i => w (ix2 ⟨o + (i 0).val, by have := idx2_lt0 i; omega⟩ (i 1))

/-- The first dense layer of an edge's perceptron over the three parts of its input, each with its own matrix: the three
    partial products in this grouping, then the bias. -/
def edgePre3 {E K H : Nat} (hd hs ea : RArr E K) (wa wb wc : RArr K H) (b1 : Fin H → EReal) : RArr E H :=
  fun i => (((∑ k : Fin K, hd (ix2 (i 0) k) * wa (ix2 k (i 1)))
      + (∑ k : Fin K, hs (ix2 (i 0) k) * wb (ix2 k (i 1))))
      + (∑ k : Fin K, ea (ix2 (i 0) k) * wc (ix2 k (i 1)))) + b1 (i 1)

/-- An edge's message from the three parts and three matrices: the first layer, the rectifier, a dense layer. -/
def edgeMsg3 {E K H C : Nat} (hd hs ea : RArr E K) (wa wb wc : RArr K H) (b1 : Fin H → EReal) (w2 : RArr H C) (b2 : Fin C → EReal) :
    RArr E C :=
  dense (relu (edgePre3 hd hs ea wa wb wc b1)) w2 b2

/-- An edge's message when the three matrices are the three row blocks of one matrix of 3 · 128 rows: rows 0 … 127 meet
    the destination row, rows 128 … 255 the source row, rows 256 … 383 the attribute row. -/
def edgeMsg {E C : Nat} (hd hs ea : RArr E 128) (w1 : RArr 384 128) (b1 : Fin 128 → EReal) (w2 : RArr 128 C) (b2 : Fin C → EReal) :
    RArr E C :=
  edgeMsg3 hd hs ea (rowsAt 128 0 (by decide) w1) (rowsAt 128 128 (by decide) w1) (rowsAt 128 256 (by decide) w1) b1 w2 b2

/-- A node's update with the degree's inverse given: the summed messages times the inverse, one dense layer, the rectifier. -/
def nodeUpMul {N K C : Nat} (agg : RArr N K) (dinv : Fin N → EReal) (w : RArr K C) (b : Fin C → EReal) : RArr N C :=
  relu (dense (fun i => agg i * dinv (i 0)) w b)

/-- A node's update: the summed messages divided by the degree, one dense layer, the rectifier. -/
def nodeUp {N K C : Nat} (agg : RArr N K) (deg : Fin N → EReal) (w : RArr K C) (b : Fin C → EReal) : RArr N C :=
  relu (dense (fun i => Ideal.div (agg i) (deg (i 0))) w b)

/-- One message-passing layer on the state h. -/
def layer {E N : Nat} (hN : 0 < N) (src dst : Fin E → BitVec 32) (ea : RArr E 128) (deg : Fin N → EReal)
    (w1 : RArr 384 128) (b1 : Fin 128 → EReal) (w2 : RArr 128 128) (b2 : Fin 128 → EReal)
    (nw : RArr 128 128) (nb : Fin 128 → EReal) (h : RArr N 128) : RArr N 128 :=
  nodeUp (segSum dst (edgeMsg (takeRows hN h dst) (takeRows hN h src) ea w1 b1 w2 b2)) deg nw nb

/-! ## The whole network over the argument arrays -/

/-- Slab l of a stack of three matrices. -/
def slab {A B : Nat} (w : (⟨3, ![3, A, B]⟩ : Shape).Idx → EReal) (l : Fin 3) : RArr A B := fun i => w (ix3 l (i 0) (i 1))
/-- Row l of a 3-row array, as a vector's entries. -/
def rowV {B : Nat} (b : RArr 3 B) (l : Fin 3) : Fin B → EReal := fun q => b (ix2 l q)
/-- A vector's entries. -/
def vecV {B : Nat} (b : RVec B) : Fin B → EReal := fun q => b (ix1 q)

section Net
variable (ei : (Sh 2 640000).Idx → BitVec 32) (ea : RArr 640000 128)
  (w1 : RArr 128 128) (b1 : RVec 128) (w2 : RArr 128 128) (b2 : RVec 128)
  (eW1 : (⟨3, ![3, 384, 128]⟩ : Shape).Idx → EReal) (eb1 : RArr 3 128)
  (eW2 : (⟨3, ![3, 128, 128]⟩ : Shape).Idx → EReal) (eb2 : RArr 3 128)
  (nW : (⟨3, ![3, 128, 128]⟩ : Shape).Idx → EReal) (nb : RArr 3 128)
  (oW1 : RArr 128 128) (ob1 : RVec 128) (oW2 : RArr 128 3) (ob2 : RVec 3)

/-- The source word of edge e. -/
def srcW (e : Fin 640000) : BitVec 32 := ei (ix2 0 e)
/-- The destination word of edge e. -/
def dstW (e : Fin 640000) : BitVec 32 := ei (ix2 1 e)

/-- The edge embeddings. -/
def emG : RArr 640000 128 := mlp2 ea w1 (vecV b1) w2 (vecV b2)
/-- The nodes' first state. -/
def h0G : RArr 40000 128 := segSum (dstW ei) (emG ea w1 b1 w2 b2)
/-- The nodes' degrees. -/
def degG : Fin 40000 → EReal := degOf (dstW ei)

/-- Layer l applied to a state. -/
def layerG (l : Fin 3) (h : RArr 40000 128) : RArr 40000 128 :=
  layer (by decide) (srcW ei) (dstW ei) ea (degG ei) (slab eW1 l) (rowV eb1 l) (slab eW2 l) (rowV eb2 l) (slab nW l) (rowV nb l) h

/-- The state after the three layers. -/
def h3G : RArr 40000 128 :=
  layerG ei ea eW1 eb1 eW2 eb2 nW nb 2 (layerG ei ea eW1 eb1 eW2 eb2 nW nb 1 (layerG ei ea eW1 eb1 eW2 eb2 nW nb 0 (h0G ei ea w1 b1 w2 b2)))

/-- THE RESULT: three numbers per node. -/
def G : RArr 40000 3 :=
  mlp2 (h3G ei ea w1 b1 w2 b2 eW1 eb1 eW2 eb2 nW nb) oW1 (vecV ob1) oW2 (vecV ob2)

end Net

end Cert.Spec

end
-- ==== Proof.SpecK.lean ====
/-
  The two places where the kernel's host code differs from the reference's, as functions over the extended reals, and
  why the results agree.

  * Reading table rows by words: the kernel's host code tests the (wrapped) word against 0 … N - 1 and puts a fill value
    where the test fails; the reference reads the clamped row. Where the word names a row the two are the same row.
  * The mean: the kernel multiplies the summed messages by the inverse of the degree, computed once; the reference
    divides by the degree. The degree is a count, at least one, so the two are the same extended real.
-/
import proofs.«403623_j41042707481180_2_alg».proof.Proof.Spec

noncomputable section

open scoped BigOperators

namespace Cert.Spec

open Idealize.ShloMosaic Idealize.ShloMosaic.ValueIdx

/-- The table rows the words name, with a fill value where the wrapped word is outside 0 … top. -/
def takeFill {E N C : Nat} (hN : 0 < N) (top : BitVec 32) (fill : EReal) (h : RArr N C) (idx : Fin E → BitVec 32) : RArr E C :=
  fun i => Scalar.select
    (IntOp.andi (IntOp.cmpi .sge (wrapW N (idx (i 0))) 0#32) (IntOp.cmpi .sle (wrapW N (idx (i 0))) top))
    (h (ix2 (rowOf N hN (wrapW N (idx (i 0)))) (i 1))) fill

/-- The inverse of a node's degree. -/
def dinvOf {E N : Nat} (idx : Fin E → BitVec 32) (n : Fin N) : EReal := Ideal.div 1 (degOf idx n)

end Cert.Spec

end
-- ==== Proof.Algebra.lean ====
import proofs.«403623_j41042707481180_2_alg».proof.Proof.Spec
import proofs.«403623_j41042707481180_2_alg».proof.Proof.SpecK
import Idealize.ShloMosaic.Lib.StableHlo.Predicate
import Idealize.ShloMosaic.Lib.Affine

noncomputable section

open scoped BigOperators

namespace Cert.Spec

open Idealize.ShloMosaic Idealize.ShloMosaic.ValueIdx

/-- A word that reads signed as a nonnegative integer does not test below zero. -/
theorem cmpi_slt_zero_of_nonneg (w : BitVec 32) (h0 : 0 ≤ w.toInt) : IntOp.cmpi .slt w 0#32 = 0#1 := by
  refine eq_zero_of_ne_one fun hlt => ?_
  have h := IntOp.cmpi_slt.1 hlt
  rw [show (0#32 : BitVec 32).toInt = 0 from by decide] at h
  omega

/-- So a nonnegative word is not wrapped. -/
theorem wrapW_of_nonneg (N : Nat) (w : BitVec 32) (h0 : 0 ≤ w.toInt) : wrapW N w = w := by
  unfold wrapW
  rw [cmpi_slt_zero_of_nonneg w h0, select_zero]

/-- Where the word, read signed, names a row 0 … N - 1, the filled read is the clamped read: the word is not wrapped,
    the range test holds, and clamping does nothing. -/
theorem takeFill_eq_takeRows {E N C : Nat} (hN : 0 < N) (hN' : N < 2 ^ 31) (top : BitVec 32) (htop : top.toInt = (N : ℤ) - 1)
    (fill : EReal) (h : RArr N C) (idx : Fin E → BitVec 32) (e : Fin E) (c : Fin C)
    (hr : 0 ≤ (idx e).toInt ∧ (idx e).toInt < (N : ℤ)) :
    takeFill hN top fill h idx (ix2 e c) = takeRows hN h idx (ix2 e c) := by
  show Scalar.select
      (IntOp.andi (IntOp.cmpi .sge (wrapW N (idx e)) 0#32) (IntOp.cmpi .sle (wrapW N (idx e)) top))
      (h (ix2 (rowOf N hN (wrapW N (idx e))) c)) fill = h (ix2 (rowOf N hN (wrapW N (idx e))) c)
  rw [wrapW_of_nonneg N (idx e) hr.1]
  -- 0 ≤ w, and w ≤ top because top reads as N - 1 and w < N
  have hge : IntOp.cmpi .sge (idx e) 0#32 = 1#1 :=
    IntOp.cmpi_sge.2 (by rw [show (0#32 : BitVec 32).toInt = 0 from by decide]; exact hr.1)
  have hle : IntOp.cmpi .sle (idx e) top = 1#1 := IntOp.cmpi_sle.2 (by rw [htop]; omega)
  rw [hge, hle, show IntOp.andi (1#1) (1#1) = 1#1 from by decide, select_one]

/-- An edge's message at (e, c) reads only row e of the destination part and of the source part: two pairs of parts that
    agree on row e give the same message there. (The first layer at (e, j) sums over k the row-e entries; the second
    layer at (e, c) sums over j the rectified first layer at (e, j).) -/
theorem edgeMsg3_row_congr {E K H C : Nat} (hd hd' hs hs' ea : RArr E K) (wa wb wc : RArr K H) (b1 : Fin H → EReal)
    (w2 : RArr H C) (b2 : Fin C → EReal) (e : Fin E) (c : Fin C)
    (h1 : ∀ k, hd (ix2 e k) = hd' (ix2 e k)) (h2 : ∀ k, hs (ix2 e k) = hs' (ix2 e k)) :
    edgeMsg3 hd hs ea wa wb wc b1 w2 b2 (ix2 e c) = edgeMsg3 hd' hs' ea wa wb wc b1 w2 b2 (ix2 e c) := by
  have hp : ∀ j : Fin H, edgePre3 hd hs ea wa wb wc b1 (ix2 e j) = edgePre3 hd' hs' ea wa wb wc b1 (ix2 e j) := by
    intro j
    show (((∑ k : Fin K, hd (ix2 e k) * wa (ix2 k j)) + (∑ k : Fin K, hs (ix2 e k) * wb (ix2 k j)))
        + (∑ k : Fin K, ea (ix2 e k) * wc (ix2 k j))) + b1 j
      = (((∑ k : Fin K, hd' (ix2 e k) * wa (ix2 k j)) + (∑ k : Fin K, hs' (ix2 e k) * wb (ix2 k j)))
        + (∑ k : Fin K, ea (ix2 e k) * wc (ix2 k j))) + b1 j
    rw [Finset.sum_congr rfl fun k _ => congrArg (· * wa (ix2 k j)) (h1 k),
      Finset.sum_congr rfl fun k _ => congrArg (· * wb (ix2 k j)) (h2 k)]
  show (∑ j : Fin H, max (edgePre3 hd hs ea wa wb wc b1 (ix2 e j)) 0 * w2 (ix2 j c)) + b2 c
    = (∑ j : Fin H, max (edgePre3 hd' hs' ea wa wb wc b1 (ix2 e j)) 0 * w2 (ix2 j c)) + b2 c
  rw [Finset.sum_congr rfl fun j _ => congrArg (fun t => max t 0 * w2 (ix2 j c)) (hp j)]

/-- THE SUMMED MESSAGES DO NOT SEE THE FILL. If every source word names a node, then summing per destination node the
    messages computed from the filled reads gives what summing the messages computed from the clamped reads gives: an edge
    whose destination word names node n has both its rows read in range, so its message is the same; an edge whose
    destination word names no node is in no node's sum. -/
theorem segSum_msg_fill {E N : Nat} (hN : 0 < N) (hN' : N < 2 ^ 31) (top : BitVec 32) (htop : top.toInt = (N : ℤ) - 1) (fill : EReal)
    (h : RArr N 128) (src dst : Fin E → BitVec 32) (ea : RArr E 128) (wa wb wc : RArr 128 128) (b1 : Fin 128 → EReal)
    (w2 : RArr 128 128) (b2 : Fin 128 → EReal)
    (hsrc : ∀ e, 0 ≤ (src e).toInt ∧ (src e).toInt < (N : ℤ)) :
    segSum (N := N) dst (edgeMsg3 (takeFill hN top fill h dst) (takeFill hN top fill h src) ea wa wb wc b1 w2 b2)
      = segSum (N := N) dst (edgeMsg3 (takeRows hN h dst) (takeRows hN h src) ea wa wb wc b1 w2 b2) := by
  funext i
  unfold segSum
  refine congrArg (fun s => (0 : EReal) + s) (Finset.sum_congr rfl fun e he => ?_)
  -- an edge in node i's sum has its destination word equal to i's first coordinate, a row of the table
  have hde : (dst e).toInt = ((i 0).val : ℤ) := (Finset.mem_filter.1 he).2
  have hi := idx2_lt0 i
  have hd : 0 ≤ (dst e).toInt ∧ (dst e).toInt < (N : ℤ) := by rw [hde]; omega
  exact edgeMsg3_row_congr _ _ _ _ ea wa wb wc b1 w2 b2 e (i 1)
    (fun k => takeFill_eq_takeRows hN hN' top htop fill h dst e k hd)
    (fun k => takeFill_eq_takeRows hN hN' top htop fill h src e k (hsrc e))

/-- The degree is a real number, at least one. -/
theorem degOf_real {E N : Nat} (idx : Fin E → BitVec 32) (n : Fin N) : ∃ r : ℝ, 1 ≤ r ∧ degOf idx n = (r : EReal) := by
  -- a sum of ones over a finite set is its number of elements, a natural number; the larger of it and 1 is a real ≥ 1
  refine ⟨max ((Finset.univ.filter (fun e : Fin E => (idx e).toInt = (n.val : ℤ))).card : ℝ) 1, le_max_right _ _, ?_⟩
  unfold degOf
  rw [Finset.sum_const, nsmul_one, zero_add, EReal.coe_strictMono.monotone.map_max]
  rfl

/-- Multiplying by the inverse degree is dividing by the degree, on every extended real. -/
theorem mul_dinv {E N : Nat} (idx : Fin E → BitVec 32) (n : Fin N) (x : EReal) :
    x * dinvOf idx n = Ideal.div x (degOf idx n) := by
  obtain ⟨r, hr, hdeg⟩ := degOf_real idx n
  have hr0 : r ≠ 0 := by intro h0; rw [h0] at hr; norm_num at hr
  unfold dinvOf
  rw [hdeg, Ideal.div_coe hr0, Ideal.div_coe hr0, one_mul]

/-- So the node update with the inverse degree is the node update with the degree. -/
theorem nodeUpMul_dinv {E N K C : Nat} (idx : Fin E → BitVec 32) (agg : RArr N K) (w : RArr K C) (b : Fin C → EReal) :
    nodeUpMul agg (dinvOf idx) w b = nodeUp agg (degOf idx) w b := by
  have hm : (fun i : (Sh N K).Idx => agg i * dinvOf (N := N) idx (i 0))
      = (fun i : (Sh N K).Idx => Ideal.div (agg i) (degOf (N := N) idx (i 0))) :=
    funext fun i => mul_dinv (N := N) idx (i 0) (agg i)
  show relu (dense (fun i : (Sh N K).Idx => agg i * dinvOf (N := N) idx (i 0)) w b)
    = relu (dense (fun i : (Sh N K).Idx => Ideal.div (agg i) (degOf (N := N) idx (i 0))) w b)
  rw [hm]

end Cert.Spec

end
-- ==== Proof.Carry.lean ====
import proofs.«403623_j41042707481180_2_alg».proof.Proof.Gen.KernelIdeal.Frame
import proofs.«403623_j41042707481180_2_alg».proof.Proof.Spec

import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## What persists along the run

The two rows of the index array are cut out once, before the first region; the inverse degrees are computed once, after
it; the attribute array and the weight arrays are arguments. No later host operation writes any of these buffers, and a
region leaves its input arrays as it found them, so at every region's exit each still holds what it held at the
previous one. -/

/-- The buffers read again later in the run that no region takes as a window: the source and destination words and the
    weight arguments. -/
def kept : List (Ref sig .tc) :=
  [main_v1, main_v3, main_arg7, main_arg8, main_arg9, main_arg10, main_arg11, main_arg12, main_arg13,
   main_arg14, main_arg15, main_arg16]

theorem keep_W2 (b : Ref sig .tc) (hb : b ∈ kept) : W2 m ρ c (Proc.devRef .tc b) = W1 m ρ c (Proc.devRef .tc b) := by
  simp only [kept, List.mem_cons, List.not_mem_nil, or_false] at hb
  rcases hb with rfl | rfl | rfl | rfl | rfl | rfl | rfl | rfl | rfl | rfl | rfl | rfl
  all_goals exact W2_of_ne m ρ c _ (by decide)

/-- The attribute array is the first region's first input window: the region leaves it as it found it. -/
theorem keep_W2_arg2 : W2 m ρ c (Proc.devRef .tc main_arg2) = W1 m ρ c (Proc.devRef .tc main_arg2) :=
  (W2_arr m ρ c 0).trans (((dat0 (V1 m ρ) c).arrAt_in 0 rfl _).trans (A_eq0 (V1 m ρ) c 0))

theorem keep_W3 (b : Ref sig .tc) (hb : b ∈ main_arg2 :: kept) : W3 m ρ c (Proc.devRef .tc b) = W2 m ρ c (Proc.devRef .tc b) := by
  simp only [kept, List.mem_cons, List.not_mem_nil, or_false] at hb
  rcases hb with rfl | rfl | rfl | rfl | rfl | rfl | rfl | rfl | rfl | rfl | rfl | rfl | rfl
  all_goals (show StableHlo.after hostOps1 (W2 m ρ c) _ = _; after_results_simp)

set_option maxHeartbeats 4000000 in
theorem keep_W8 (b : Ref sig .tc) (hb : b ∈ kept) : W8 m ρ c (Proc.devRef .tc b) = W3 m ρ c (Proc.devRef .tc b) := by
  simp only [kept, List.mem_cons, List.not_mem_nil, or_false] at hb
  rcases hb with rfl | rfl | rfl | rfl | rfl | rfl | rfl | rfl | rfl | rfl | rfl | rfl
  all_goals (rw [W8_of_ne m ρ c _ (by decide)]
             show StableHlo.after hostOps1_4 (StableHlo.after hostOps1_3 (StableHlo.after hostOps1_2 (StableHlo.after hostOps1_1 (W3 m ρ c)))) _ = _
             after_results_simp)

theorem keep_W8_arg2 : W8 m ρ c (Proc.devRef .tc main_arg2) = W3 m ρ c (Proc.devRef .tc main_arg2) := by
  refine ((W8_arr m ρ c 2).trans (((dat1 (V7 m ρ) c).arrAt_in 2 rfl _).trans (A_eq1 (V7 m ρ) c 2))).trans ?_
  show StableHlo.after hostOps1_4 (StableHlo.after hostOps1_3 (StableHlo.after hostOps1_2 (StableHlo.after hostOps1_1 (W3 m ρ c)))) (Proc.devRef .tc main_arg2) = _
  after_results_simp

theorem keep_W8_v19 : W8 m ρ c (Proc.devRef .tc main_v19) = W3 m ρ c (Proc.devRef .tc main_v19) := by
  rw [W8_of_ne m ρ c _ (by decide)]
  show StableHlo.after hostOps1_4 (StableHlo.after hostOps1_3 (StableHlo.after hostOps1_2 (StableHlo.after hostOps1_1 (W3 m ρ c)))) (Proc.devRef .tc main_v19) = _
  after_results_simp

set_option maxHeartbeats 4000000 in
theorem keep_W10 (b : Ref sig .tc) (hb : b ∈ kept) : W10 m ρ c (Proc.devRef .tc b) = W8 m ρ c (Proc.devRef .tc b) := by
  simp only [kept, List.mem_cons, List.not_mem_nil, or_false] at hb
  rcases hb with rfl | rfl | rfl | rfl | rfl | rfl | rfl | rfl | rfl | rfl | rfl | rfl
  all_goals (rw [W10_of_ne m ρ c _ (by decide)]
             show StableHlo.after hostOps2 (W8 m ρ c) _ = _
             after_results_simp)

theorem keep_W10_arg2 : W10 m ρ c (Proc.devRef .tc main_arg2) = W8 m ρ c (Proc.devRef .tc main_arg2) := by
  rw [W10_of_ne m ρ c _ (by decide)]
  show StableHlo.after hostOps2 (W8 m ρ c) (Proc.devRef .tc main_arg2) = _
  after_results_simp

theorem keep_W10_v19 : W10 m ρ c (Proc.devRef .tc main_v19) = W8 m ρ c (Proc.devRef .tc main_v19) := by
  refine ((W10_arr m ρ c 1).trans (((dat2 (V9 m ρ) c).arrAt_in 1 rfl _).trans (A_eq2 (V9 m ρ) c 1))).trans ?_
  show StableHlo.after hostOps2 (W8 m ρ c) (Proc.devRef .tc main_v19) = _
  after_results_simp

set_option maxHeartbeats 4000000 in
theorem keep_W15 (b : Ref sig .tc) (hb : b ∈ kept) : W15 m ρ c (Proc.devRef .tc b) = W10 m ρ c (Proc.devRef .tc b) := by
  simp only [kept, List.mem_cons, List.not_mem_nil, or_false] at hb
  rcases hb with rfl | rfl | rfl | rfl | rfl | rfl | rfl | rfl | rfl | rfl | rfl | rfl
  all_goals (rw [W15_of_ne m ρ c _ (by decide)]
             show StableHlo.after hostOps3_3 (StableHlo.after hostOps3_2 (StableHlo.after hostOps3_1 (StableHlo.after hostOps3 (W10 m ρ c)))) _ = _
             after_results_simp)

theorem keep_W15_arg2 : W15 m ρ c (Proc.devRef .tc main_arg2) = W10 m ρ c (Proc.devRef .tc main_arg2) := by
  refine ((W15_arr m ρ c 2).trans (((dat3 (V14 m ρ) c).arrAt_in 2 rfl _).trans (A_eq3 (V14 m ρ) c 2))).trans ?_
  show StableHlo.after hostOps3_3 (StableHlo.after hostOps3_2 (StableHlo.after hostOps3_1 (StableHlo.after hostOps3 (W10 m ρ c)))) (Proc.devRef .tc main_arg2) = _
  after_results_simp

theorem keep_W15_v19 : W15 m ρ c (Proc.devRef .tc main_v19) = W10 m ρ c (Proc.devRef .tc main_v19) := by
  rw [W15_of_ne m ρ c _ (by decide)]
  show StableHlo.after hostOps3_3 (StableHlo.after hostOps3_2 (StableHlo.after hostOps3_1 (StableHlo.after hostOps3 (W10 m ρ c)))) (Proc.devRef .tc main_v19) = _
  after_results_simp

set_option maxHeartbeats 4000000 in
theorem keep_W17 (b : Ref sig .tc) (hb : b ∈ kept) : W17 m ρ c (Proc.devRef .tc b) = W15 m ρ c (Proc.devRef .tc b) := by
  simp only [kept, List.mem_cons, List.not_mem_nil, or_false] at hb
  rcases hb with rfl | rfl | rfl | rfl | rfl | rfl | rfl | rfl | rfl | rfl | rfl | rfl
  all_goals (rw [W17_of_ne m ρ c _ (by decide)]
             show StableHlo.after hostOps4 (W15 m ρ c) _ = _
             after_results_simp)

theorem keep_W17_arg2 : W17 m ρ c (Proc.devRef .tc main_arg2) = W15 m ρ c (Proc.devRef .tc main_arg2) := by
  rw [W17_of_ne m ρ c _ (by decide)]
  show StableHlo.after hostOps4 (W15 m ρ c) (Proc.devRef .tc main_arg2) = _
  after_results_simp

theorem keep_W17_v19 : W17 m ρ c (Proc.devRef .tc main_v19) = W15 m ρ c (Proc.devRef .tc main_v19) := by
  refine ((W17_arr m ρ c 1).trans (((dat4 (V16 m ρ) c).arrAt_in 1 rfl _).trans (A_eq4 (V16 m ρ) c 1))).trans ?_
  show StableHlo.after hostOps4 (W15 m ρ c) (Proc.devRef .tc main_v19) = _
  after_results_simp

set_option maxHeartbeats 4000000 in
theorem keep_W22 (b : Ref sig .tc) (hb : b ∈ kept) : W22 m ρ c (Proc.devRef .tc b) = W17 m ρ c (Proc.devRef .tc b) := by
  simp only [kept, List.mem_cons, List.not_mem_nil, or_false] at hb
  rcases hb with rfl | rfl | rfl | rfl | rfl | rfl | rfl | rfl | rfl | rfl | rfl | rfl
  all_goals (rw [W22_of_ne m ρ c _ (by decide)]
             show StableHlo.after hostOps5_3 (StableHlo.after hostOps5_2 (StableHlo.after hostOps5_1 (StableHlo.after hostOps5 (W17 m ρ c)))) _ = _
             after_results_simp)

theorem keep_W22_arg2 : W22 m ρ c (Proc.devRef .tc main_arg2) = W17 m ρ c (Proc.devRef .tc main_arg2) := by
  refine ((W22_arr m ρ c 2).trans (((dat5 (V21 m ρ) c).arrAt_in 2 rfl _).trans (A_eq5 (V21 m ρ) c 2))).trans ?_
  show StableHlo.after hostOps5_3 (StableHlo.after hostOps5_2 (StableHlo.after hostOps5_1 (StableHlo.after hostOps5 (W17 m ρ c)))) (Proc.devRef .tc main_arg2) = _
  after_results_simp

theorem keep_W22_v19 : W22 m ρ c (Proc.devRef .tc main_v19) = W17 m ρ c (Proc.devRef .tc main_v19) := by
  rw [W22_of_ne m ρ c _ (by decide)]
  show StableHlo.after hostOps5_3 (StableHlo.after hostOps5_2 (StableHlo.after hostOps5_1 (StableHlo.after hostOps5 (W17 m ρ c)))) (Proc.devRef .tc main_v19) = _
  after_results_simp

set_option maxHeartbeats 4000000 in
theorem keep_W24 (b : Ref sig .tc) (hb : b ∈ kept) : W24 m ρ c (Proc.devRef .tc b) = W22 m ρ c (Proc.devRef .tc b) := by
  simp only [kept, List.mem_cons, List.not_mem_nil, or_false] at hb
  rcases hb with rfl | rfl | rfl | rfl | rfl | rfl | rfl | rfl | rfl | rfl | rfl | rfl
  all_goals (rw [W24_of_ne m ρ c _ (by decide)]
             show StableHlo.after hostOps6 (W22 m ρ c) _ = _
             after_results_simp)

theorem keep_W24_arg2 : W24 m ρ c (Proc.devRef .tc main_arg2) = W22 m ρ c (Proc.devRef .tc main_arg2) := by
  rw [W24_of_ne m ρ c _ (by decide)]
  show StableHlo.after hostOps6 (W22 m ρ c) (Proc.devRef .tc main_arg2) = _
  after_results_simp

theorem keep_W24_v19 : W24 m ρ c (Proc.devRef .tc main_v19) = W22 m ρ c (Proc.devRef .tc main_v19) := by
  refine ((W24_arr m ρ c 1).trans (((dat6 (V23 m ρ) c).arrAt_in 1 rfl _).trans (A_eq6 (V23 m ρ) c 1))).trans ?_
  show StableHlo.after hostOps6 (W22 m ρ c) (Proc.devRef .tc main_v19) = _
  after_results_simp

end Cert.KernelIdeal.Stage

end
-- ==== Proof.LibDense.lean ====
/-
  A plain matrix product read AT ONE INDEX.

  For dimension numbers that contract the left operand's second axis with the right operand's first and have no batch
  axes — an M × K array times a K × N array —, the contraction index is one coordinate k : Fin K, the left operand is
  read at (i, k) and the right one at (k, j). So the kernel's product into a zero accumulator and the host's product,
  read at (i, j), are both the sum over k of l (i, k) · r (k, j): one sum, whatever the extents and whichever record.

  Every statement is for an arbitrary record whose fields are given as hypotheses.
-/
import Idealize.ShloMosaic.PureOps.Ideal.Laws
import Idealize.ShloMosaic.Lib.ValueIdx

noncomputable section

open scoped BigOperators

namespace Cert.LibDense

open Idealize.ShloMosaic Idealize.ShloMosaic.ValueIdx

section Plain

variable {M K N : Nat} (d : DotDims ⟨2, ![M, K]⟩ ⟨2, ![K, N]⟩ ⟨2, ![M, N]⟩)

/-- An index read at two names of one position gives one coordinate. -/
theorem idx_val_congr {s : Shape} (j : s.Idx) (p q : Nat) (hp : p < s.rank) (hq : q < s.rank) (h : p = q) :
    (j ⟨p, hp⟩).val = (j ⟨q, hq⟩).val := by
  subst h; rfl

/-- One contracted axis: the contraction shape has one axis. -/
theorem contr_rank (hlc : d.lhsContracting = [1]) : d.contr.rank = 1 := by
  rw [d.rank_contr, hlc]; rfl

/-- … and its extent is K. -/
theorem contr_size (hlc : d.lhsContracting = [1]) (h0 : 0 < d.contr.rank) : d.contr.size ⟨0, h0⟩ = K := by
  have key : ∀ (L : List (Fin (⟨2, ![M, K]⟩ : Shape).rank)) (_ : L = [1])
      (h : 0 < (Shape.ofList (L.map (⟨2, ![M, K]⟩ : Shape).size)).rank),
      (Shape.ofList (L.map (⟨2, ![M, K]⟩ : Shape).size)).size ⟨0, h⟩ = K := by
    intro L hL h; subst hL; rfl
  exact key d.lhsContracting hlc h0

/-- The left operand's row is the result's row. -/
theorem lhs_row (hlb : d.lhsBatch = []) (hln : d.lhsNonContracting = [0])
    (j : (⟨2, ![M, N]⟩ : Shape).Idx) (k : d.contr.Idx) : (d.lhsIdx j k (0 : Fin 2)).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact idx_val_congr j _ _ _ _ (by simp [hlb, hln])

/-- The left operand's column is the contraction coordinate. -/
theorem lhs_col (hlc : d.lhsContracting = [1]) (j : (⟨2, ![M, N]⟩ : Shape).Idx) (k : d.contr.Idx) :
    (d.lhsIdx j k (1 : Fin 2)).val = (k ⟨0, by rw [contr_rank d hlc]; exact Nat.one_pos⟩).val :=
  d.lhsIdx_val_of_single hlc j k

/-- The right operand's row is the contraction coordinate. -/
theorem rhs_row (hlc : d.lhsContracting = [1]) (hrc : d.rhsContracting = [0]) (j : (⟨2, ![M, N]⟩ : Shape).Idx) (k : d.contr.Idx) :
    (d.rhsIdx j k (0 : Fin 2)).val = (k ⟨0, by rw [contr_rank d hlc]; exact Nat.one_pos⟩).val :=
  d.rhsIdx_val_of_single hrc j k

/-- The right operand's column is the result's column. -/
theorem rhs_col (hlb : d.lhsBatch = []) (hln : d.lhsNonContracting = [0]) (hrb : d.rhsBatch = []) (hrn : d.rhsNonContracting = [1])
    (j : (⟨2, ![M, N]⟩ : Shape).Idx) (k : d.contr.Idx) : (d.rhsIdx j k (1 : Fin 2)).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact idx_val_congr j _ _ _ _ (by simp [hlb, hln, hrn])

/-- THE CONTRACTION AS ONE SUM: over the contraction index, the products of the operands at the record's operand
    indices are the products l (i, k) · r (k, j) over k : Fin K. -/
theorem sum_contr (hlb : d.lhsBatch = []) (hln : d.lhsNonContracting = [0]) (hlc : d.lhsContracting = [1])
    (hrb : d.rhsBatch = []) (hrn : d.rhsNonContracting = [1]) (hrc : d.rhsContracting = [0])
    (l : (⟨2, ![M, K]⟩ : Shape).Idx → EReal) (r : (⟨2, ![K, N]⟩ : Shape).Idx → EReal) (i : Fin M) (j : Fin N) :
    (∑ k : d.contr.Idx, l (d.lhsIdx (ix2 i j) k) * r (d.rhsIdx (ix2 i j) k)) = ∑ k : Fin K, l (ix2 i k) * r (ix2 k j) := by
  have hr : d.contr.rank = 1 := contr_rank d hlc
  have hs : d.contr.size ⟨0, by omega⟩ = K := contr_size d hlc (by omega)
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := by
    funext a
    refine Fin.ext ?_
    match a with
    | ⟨0, _⟩ => exact lhs_row d hlb hln _ _
    | ⟨1, _⟩ => exact (lhs_col d hlc _ _).trans hk
  have er : d.rhsIdx (ix2 i j) ((contrEquiv1 d K hr hs).symm k) = ix2 k j := by
    funext a
    refine Fin.ext ?_
    match a with
    | ⟨0, _⟩ => exact (rhs_row d hlc hrc _ _).trans hk
    | ⟨1, _⟩ => exact rhs_col d hlb hln hrb hrn _ _
  rw [el, er]

/-- The kernel's product into the zero accumulator, at (i, j). -/
theorem matmul_zero_apply {φ₁ φ₂ : FTy} (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ k : Fin K, l (ix2 i k) * r (ix2 k j) := by
  show FloatOps.matmul d prec l r (constant ⟨2, ![M, N]⟩ .f32 0x00000000#32) (ix2 i j) = _
  rw [Ideal.matmul_constant_zero_apply]
  exact sum_contr d hlb hln hlc hrb hrn hrc l r i j

/-- The host's product, at (i, j). -/
theorem dotGeneral_apply {φ₁ φ₂ : FTy} (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![M, K]⟩ φ₁) (r : FVec Ideal ⟨2, ![K, N]⟩ φ₂) (i : Fin M) (j : Fin N) :
    Host.dotGeneral d prec l r (ix2 i j) = ∑ k : Fin K, l (ix2 i k) * r (ix2 k j) := by
  simp only [Host.dotGeneral]
  rw [Ideal.dotGeneral_apply]
  exact sum_contr d hlb hln hlc hrb hrn hrc l r i j

end Plain

end Cert.LibDense

end
-- ==== Proof.KRegion0.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-! # Region 0: the edge embedding

  The grid has 40 points. Point t reads rows 16000 t … 16000 t + 15999 of the attribute array (all 128 columns), the two
  weight matrices and the two bias rows whole, and writes the same rows of the output array. Over the extended reals the
  narrowing conversions are the identity, so the body's value at (p, q) of its block is
      (∑ k, max ((∑ l, x (p, l) · W1 (l, k)) + b1 k) 0 · W2 (k, q)) + b2 q,
  the two-layer perceptron of the block's row p. Since the 40 row blocks tile the 640000 rows, the array ends as the
  perceptron of every row. -/

namespace EdgeEmbed

/-- The offsets of a whole-block access are all zero. -/
theorem zero_offsets : (![0, 0] : Fin 2 → Nat) = fun _ => 0 := funext fun a => by fin_cases a <;> rfl

/-- The two-layer perceptron read at (r, q): a sum over the hidden index k of the rectified first layer times the
    second matrix, plus the second bias. -/
theorem mlp2_at {M K H N : Nat} (x : RArr M K) (w1 : RArr K H) (b1 : Fin H → EReal) (w2 : RArr H N) (b2 : Fin N → EReal)
    (r : Fin M) (q : Fin N) :
    mlp2 x w1 b1 w2 b2 (ix2 r q)
      = (∑ k : Fin H, max ((∑ l : Fin K, x (ix2 r l) * w1 (ix2 l k)) + b1 k) 0 * w2 (ix2 k q)) + b2 q := rfl

/-- THE BODY AT ONE ENTRY. Over the extended reals the body's value at (p, q) is the perceptron of the block's row p:
    each product into the zero accumulator is a sum over the contracted coordinate, the bias row is read at its one row,
    the rectifier is a maximum with 0, and the conversions between the two float widths change nothing. -/
theorem pay_apply (xb : Vec Ideal S16000x128 .f32) (a1 : Vec Ideal S128x128 .f32) (c1 : Vec Ideal S1x128 .f32)
    (a2 : Vec Ideal S128x128 .f32) (c2 : Vec Ideal S1x128 .f32) (p : Fin 16000) (q : Fin 128) :
    k0_pay1 xb a1 c1 a2 c2 (ix2 p q)
      = (∑ k : Fin 128, max ((∑ l : Fin 128, xb (ix2 p l) * a1 (ix2 l k)) + c1 (ix2 0 k)) 0 * a2 (ix2 k q)) + c2 (ix2 0 q) := by
  have zero_word : (FloatOps.ofBits (F := Ideal) .f32 0x00000000#32) = 0 := Ideal.ofBits_zero_f32
  unfold k0_pay1
  simp only [truncf_apply, addf_apply, maximumf_apply, broadcast_apply,
    Cert.LibDense.matmul_zero_apply dot_S16000x128_S128x128_S16000x128_1_0_0_1_n_n rfl rfl rfl rfl rfl rfl,
    broadcastTo_1b_ab_apply, shapeCast_self, zero_word]

/-- The printed index maps over the 40 grid points: the attribute window and the output window sit at row block t, column
    block 0; the weight and bias windows sit at block (0, 0) at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are 40 grid points. -/
theorem point_lt (t : Fin cfg0.N) : t.val < 40 := lt_of_lt_of_eq t.isLt N_0

variable (V : (c : Dev nD) → (b : Ref sig .tc) → Buf (Elt Ideal) ((c : Thread nD τ).loc b))

/-- The attribute block at point t, entry (p, l), is the array's entry (16000 t + p, l). -/
theorem attr_block (c : Dev nD) (x : RArr 640000 128) (hx : V c (Pipeline.arrRef spec0 0) = x)
    (t : Fin cfg0.N) (p : Fin 16000) (l : Fin 128) (r : Fin 640000) (hr : r.val = t.val * 16000 + p.val) :
    iblk0 V c 0 t (ix2 p l) = x (ix2 r l) := by
  subst hx
  obtain ⟨e0, e1, -⟩ := index_facts t
  show V c (Pipeline.arrRef spec0 0) (((cfg0.win 0).blk t).view.emb (ix2 p l)) = _
  refine congrArg (V c (Pipeline.arrRef spec0 0)) (funext fun a => Fin.ext ?_)
  match a with
  | ⟨0, _⟩ => show win0_0.index t (0 : Fin 2) * 16000 + 1 * p.val = r.val; omega
  | ⟨1, _⟩ => show win0_0.index t (1 : Fin 2) * 128 + 1 * l.val = l.val; omega

/-- The first weight block at any point is the whole matrix. -/
theorem w1_block (c : Dev nD) (w1 : RArr 128 128) (hw1 : V c (Pipeline.arrRef spec0 1) = w1)
    (t : Fin cfg0.N) (l k : Fin 128) : iblk0 V c 1 t (ix2 l k) = w1 (ix2 l k) := by
  subst hw1
  obtain ⟨-, -, e0, e1, -⟩ := index_facts t
  show V c (Pipeline.arrRef spec0 1) (((cfg0.win 1).blk t).view.emb (ix2 l k)) = _
  refine congrArg (V c (Pipeline.arrRef spec0 1)) (funext fun a => Fin.ext ?_)
  match a with
  | ⟨0, _⟩ => show win0_1.index t (0 : Fin 2) * 128 + 1 * l.val = l.val; omega
  | ⟨1, _⟩ => show win0_1.index t (1 : Fin 2) * 128 + 1 * k.val = k.val; omega

/-- The first bias block at any point is the whole one-row array. -/
theorem b1_block (c : Dev nD) (b1 : RArr 1 128) (hb1 : V c (Pipeline.arrRef spec0 2) = b1)
    (t : Fin cfg0.N) (k : Fin 128) : iblk0 V c 2 t (ix2 0 k) = b1 (ix2 0 k) := by
  subst hb1
  obtain ⟨-, -, -, -, e0, e1, -⟩ := index_facts t
  show V c (Pipeline.arrRef spec0 2) (((cfg0.win 2).blk t).view.emb (ix2 0 k)) = _
  refine congrArg (V c (Pipeline.arrRef spec0 2)) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The second weight block at any point is the whole matrix. -/
theorem w2_block (c : Dev nD) (w2 : RArr 128 128) (hw2 : V c (Pipeline.arrRef spec0 3) = w2)
    (t : Fin cfg0.N) (k q : Fin 128) : iblk0 V c 3 t (ix2 k q) = w2 (ix2 k q) := by
  subst hw2
  obtain ⟨-, -, -, -, -, -, e0, e1, -⟩ := index_facts t
  show V c (Pipeline.arrRef spec0 3) (((cfg0.win 3).blk t).view.emb (ix2 k q)) = _
  refine congrArg (V c (Pipeline.arrRef spec0 3)) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second bias block at any point is the whole one-row array. -/
theorem b2_block (c : Dev nD) (b2 : RArr 1 128) (hb2 : V c (Pipeline.arrRef spec0 4) = b2)
    (t : Fin cfg0.N) (q : Fin 128) : iblk0 V c 4 t (ix2 0 q) = b2 (ix2 0 q) := by
  subst hb2
  obtain ⟨-, -, -, -, -, -, -, -, e0, e1, -⟩ := index_facts t
  show V c (Pipeline.arrRef spec0 4) (((cfg0.win 4).blk t).view.emb (ix2 0 q)) = _
  refine congrArg (V c (Pipeline.arrRef spec0 4)) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry (p, q) of the output block at point t sits in the array at (16000 t + p, q). -/
theorem out_place (t : Fin cfg0.N) (p : Fin 16000) (q : Fin 128) (r : Fin 640000) (hr : r.val = t.val * 16000 + p.val) :
    ((cfg0.win 5).blk t).view.emb (ix2 p q) = (ix2 r q : S640000x128.Idx) := by
  obtain ⟨-, -, -, -, -, -, -, -, -, -, e0, e1⟩ := index_facts t
  refine funext fun a => Fin.ext ?_
  match a with
  | ⟨0, _⟩ => show win0_5.index t (0 : Fin 2) * 16000 + 1 * p.val = r.val; omega
  | ⟨1, _⟩ => show win0_5.index t (1 : Fin 2) * 128 + 1 * q.val = q.val; omega

/-- WHAT POINT t WRITES BACK is block t of the perceptron of the whole arrays. -/
theorem flushed_eq (c : Dev nD)
    (x : RArr 640000 128) (w1 : RArr 128 128) (b1 : RArr 1 128) (w2 : RArr 128 128) (b2 : RArr 1 128)
    (hx : V c (Pipeline.arrRef spec0 0) = x) (hw1 : V c (Pipeline.arrRef spec0 1) = w1)
    (hb1 : V c (Pipeline.arrRef spec0 2) = b1) (hw2 : V c (Pipeline.arrRef spec0 3) = w2)
    (hb2 : V c (Pipeline.arrRef spec0 4) = b2) (t : Fin cfg0.N) :
    (dat0 (F := Ideal) V c).flushed 5 t
      = ((cfg0.win 5).blk t).view.read (Elt Ideal) (mlp2 x w1 (fun q => b1 (ix2 0 q)) w2 (fun q => b2 (ix2 0 q))) := by
  show (cfg0.win 5).cut (grid0.coords t) ((dat0 V c).after 5 t) = _
  rw [after0_5]
  unfold out0_5
  rw [View.canon_unit_zero zero_offsets]
  simp only [View.ld_unit_zero (S := S16000x128) zero_offsets, View.ld_unit_zero (S := S128x128) zero_offsets,
    View.ld_unit_zero (S := S1x128) zero_offsets]
  funext j
  obtain ⟨p, q, rfl⟩ : ∃ (p : Fin 16000) (q : Fin 128), j = ix2 p q := ⟨j 0, j 1, eq_ix2 j⟩
  have ht := point_lt t
  obtain ⟨r, hr⟩ : ∃ r : Fin 640000, r.val = t.val * 16000 + p.val := ⟨⟨t.val * 16000 + p.val, by omega⟩, rfl⟩
  show k0_pay1 (iblk0 V c 0 t) (iblk0 V c 1 t) (iblk0 V c 2 t) (iblk0 V c 3 t) (iblk0 V c 4 t) (ix2 p q)
    = mlp2 x w1 (fun q => b1 (ix2 0 q)) w2 (fun q => b2 (ix2 0 q)) (((cfg0.win 5).blk t).view.emb (ix2 p q))
  rw [out_place t p q r hr, mlp2_at]
  refine (pay_apply _ _ _ _ _ p q).trans ?_
  simp only [attr_block V c x hx t p _ r hr, w1_block V c w1 hw1 t, b1_block V c b1 hb1 t, w2_block V c w2 hw2 t,
    b2_block V c b2 hb2 t]

/-- An index of the output array is in point t's block iff each coordinate is in the block's range on its axis. -/
theorem mem_block (t : Fin cfg0.N) (i : S640000x128.Idx) :
    i ∈ ((cfg0.win 5).blk t).view.set ↔ ∀ a : Fin 2, win0_5.index t a * S16000x128.size a ≤ (i a).val
      ∧ (i a).val < win0_5.index t a * S16000x128.size a + S16000x128.size a := by
  show i ∈ ((View.whole main_v6).slice (win0_5.rect t)).set ↔ _
  rw [View.set_slice_whole, Rect.mem_set_unit]
  exact Iff.rfl

/-- Every entry of the output array is in some point's block: row r is in the block of point r / 16000. -/
theorem covered (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  obtain ⟨t, ht⟩ : ∃ t : Fin cfg0.N, t.val = (i 0).val / 16000 :=
    ⟨⟨(i 0).val / 16000, by rw [show cfg0.N = 40 from N_0]; omega⟩, rfl⟩
  obtain ⟨-, -, -, -, -, -, -, -, -, -, e0, e1⟩ := index_facts t
  refine ⟨t, flush0_5 t, ?_⟩
  rw [mem_block]
  intro a
  match a with
  | ⟨0, _⟩ =>
    show win0_5.index t (0 : Fin 2) * 16000 ≤ (i 0).val ∧ (i 0).val < win0_5.index t (0 : Fin 2) * 16000 + 16000
    omega
  | ⟨1, _⟩ =>
    show win0_5.index t (1 : Fin 2) * 128 ≤ (i 1).val ∧ (i 1).val < win0_5.index t (1 : Fin 2) * 128 + 128
    omega

end EdgeEmbed

variable (V : (c : Dev nD) → (b : Ref sig .tc) → Buf (Elt Ideal) ((c : Thread nD τ).loc b))

/-- Region 0 (the edge embedding): after the 40 grid points the output array holds, at every entry, the two-layer
    perceptron of the attribute array's row, whatever the entry contents are called. -/
theorem region0_arr (c : Dev nD)
    (x : RArr 640000 128) (w1 : RArr 128 128) (b1 : RArr 1 128) (w2 : RArr 128 128) (b2 : RArr 1 128)
    (hx : V c (Pipeline.arrRef spec0 0) = x) (hw1 : V c (Pipeline.arrRef spec0 1) = w1)
    (hb1 : V c (Pipeline.arrRef spec0 2) = b1) (hw2 : V c (Pipeline.arrRef spec0 3) = w2)
    (hb2 : V c (Pipeline.arrRef spec0 4) = b2) :
    (dat0 (F := Ideal) V c).arrAt 5 cfg0.N = mlp2 x w1 (fun q => b1 (ix2 0 q)) w2 (fun q => b2 (ix2 0 q)) :=
  (dat0 (F := Ideal) V c).arrAt_eq_of_cover 5 _
    (fun t _ => EdgeEmbed.flushed_eq V c x w1 b1 w2 b2 hx hw1 hb1 hw2 hb2 t) EdgeEmbed.covered

end Cert.KernelIdeal.RegVal

end
-- ==== Proof.KStage0.lean ====
import proofs.«403623_j41042707481180_2_alg».proof.Proof.Gen.KernelIdeal.Frame
import proofs.«403623_j41042707481180_2_alg».proof.Proof.Spec
import proofs.«403623_j41042707481180_2_alg».proof.Proof.KRegion0
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## From the launch to the first region's exit

Before the first region the program only slices the index array into its two rows and reshapes the two bias vectors
into one-row arrays; the region's other windows are argument arrays as launched. -/

/-- The attribute array enters the first region as launched. -/
theorem V1_w0 : V1 m ρ c (Pipeline.arrRef spec0 0) = m ((c : Thread nD τ).loc main_arg2) := by
  show StableHlo.after hostOps0 (W0 m ρ c) (Proc.devRef .tc main_arg2) = _
  after_results
theorem V1_w1 : V1 m ρ c (Pipeline.arrRef spec0 1) = m ((c : Thread nD τ).loc main_arg3) := by
  show StableHlo.after hostOps0 (W0 m ρ c) (Proc.devRef .tc main_arg3) = _
  after_results
theorem V1_w3 : V1 m ρ c (Pipeline.arrRef spec0 3) = m ((c : Thread nD τ).loc main_arg5) := by
  show StableHlo.after hostOps0 (W0 m ρ c) (Proc.devRef .tc main_arg5) = _
  after_results
/-- The first bias enters as a one-row array. -/
theorem V1_w2 : V1 m ρ c (Pipeline.arrRef spec0 2) = shapeCast S1x128 (m ((c : Thread nD τ).loc main_arg4)) shapeCasts_S128_S1x128 := by
  show StableHlo.after hostOps0 (W0 m ρ c) (Proc.devRef .tc main_v4) = _
  after_results
  rfl
theorem V1_w4 : V1 m ρ c (Pipeline.arrRef spec0 4) = shapeCast S1x128 (m ((c : Thread nD τ).loc main_arg6)) shapeCasts_S128_S1x128 := by
  show StableHlo.after hostOps0 (W0 m ρ c) (Proc.devRef .tc main_v5) = _
  after_results
  rfl

/-- A vector reshaped into a one-row array, read in that row. -/
theorem row_of_vec (b : (⟨1, ![128]⟩ : Shape).Idx → EReal) (q : Fin 128) :
    (shapeCast S1x128 (b : FVec Ideal S128 .f32) shapeCasts_S128_S1x128 : FVec Ideal S1x128 .f32) (ix2 0 q) = b (ix1 q) := by
  refine (shapeCast_addUnit_apply ![128] b shapeCasts_S128_S1x128 (ix2 0 q)).trans (congrArg b ?_)
  funext a
  match a with
  | ⟨0, _⟩ => rfl

/-- THE FIRST REGION'S RESULT: the edge embeddings. -/
theorem exit0_em :
    W2 m ρ c (Proc.devRef .tc main_v6)
      = emG (m ((c : Thread nD τ).loc main_arg2)) (m ((c : Thread nD τ).loc main_arg3)) (m ((c : Thread nD τ).loc main_arg4))
          (m ((c : Thread nD τ).loc main_arg5)) (m ((c : Thread nD τ).loc main_arg6)) := by
  show W2 m ρ c (Proc.devRef .tc (Pipeline.arrRef spec0 5)) = _
  rw [W2_arr m ρ c 5,
    RegVal.region0_arr (V1 m ρ) c _ _ _ _ _ (V1_w0 m ρ c) (V1_w1 m ρ c) (V1_w2 m ρ c) (V1_w3 m ρ c) (V1_w4 m ρ c)]
  unfold emG vecV
  congr 1
  · funext q; exact row_of_vec _ q
  · funext q; exact row_of_vec _ q

end Cert.KernelIdeal.Stage

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields; the extents are arbitrary in the general statements and fixed in the named ones at the end.
-/
import Idealize.ShloMosaic.PureOps.Ideal
import Idealize.ShloMosaic.Lib.ValueIdx
import Idealize.ShloMosaic.Lib.StableHlo.Predicate
import proofs.«403623_j41042707481180_2_alg».proof.Proof.Spec

noncomputable section

open scoped BigOperators

namespace Cert.LibGS

open Idealize.ShloMosaic Idealize.ShloMosaic.ValueIdx Cert.Spec

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

/-! ## The four records at this program's extents -/

/-- The row gather from the 50000-row table of width 256 by 850000 start words. -/
theorem gather_rows_apply {α : Type} (d : GatherDims (Sh 50000 256) (Sh 850000 1) (Sh 850000 256))
    (hoff : d.offsetDims = [1]) (hcoll : d.collapsedSliceDims = [0]) (hob : d.operandBatchingDims = [])
    (hsim : d.startIndexMap = [0]) (hivd : d.indexVectorDim = 1) (hss : d.sliceSizes = ![1, 256])
    (t : (Sh 50000 256).Idx → α) (idx : IVec (Sh 850000 1) 32) (e : Fin 850000) (c : Fin 256) :
    Host.gather d t idx (ix2 e c) = t (ix2 (rowOf 50000 (by decide) (idx (ix2 e 0))) c) :=
  gather_rows_gen d (by decide) hoff hcoll hob hsim hivd hss t idx e c

/-- The row gather from the 128-row embedding table of width 128 by 50000 start words. -/
theorem gather_emb_apply {α : Type} (d : GatherDims (Sh 128 128) (Sh 50000 1) (Sh 50000 128))
    (hoff : d.offsetDims = [1]) (hcoll : d.collapsedSliceDims = [0]) (hob : d.operandBatchingDims = [])
    (hsim : d.startIndexMap = [0]) (hivd : d.indexVectorDim = 1) (hss : d.sliceSizes = ![1, 128])
    (t : (Sh 128 128).Idx → α) (idx : IVec (Sh 50000 1) 32) (i : Fin 50000) (f : Fin 128) :
    Host.gather d t idx (ix2 i f) = t (ix2 (rowOf 128 (by decide) (idx (ix2 i 0))) f) :=
  gather_rows_gen d (by decide) hoff hcoll hob hsim hivd hss t idx i f

/-- The vector gather from a 50000-entry vector by 850000 start words. -/
theorem gather_vec_apply {α : Type} (d : GatherDims ⟨1, ![50000]⟩ (Sh 850000 1) ⟨1, ![850000]⟩)
    (hcoll : d.collapsedSliceDims = [0]) (hob : d.operandBatchingDims = [])
    (hsim : d.startIndexMap = [0]) (hivd : d.indexVectorDim = 1)
    (x : (⟨1, ![50000]⟩ : Shape).Idx → α) (idx : IVec (Sh 850000 1) 32) (e : Fin 850000) :
    Host.gather d x idx (ix1 e) = x (ix1 (rowOf 50000 (by decide) (idx (ix2 e 0)))) :=
  gather_vec_gen (by decide) d hcoll hob hsim hivd x idx e

/-- The row scatter-add of 850000 update rows of width 256 into 50000 rows. -/
theorem scatterAdd_rows_apply (d : ScatterDims (Sh 50000 256) (Sh 850000 1) (Sh 850000 256))
    (huw : d.updateWindowDims = [1]) (hiw : d.insertedWindowDims = [0]) (hsd : d.scatterDimsToOperandDims = [0])
    (hivd : d.indexVectorDim = 1)
    (x : RArr 50000 256) (idx : IVec (Sh 850000 1) 32) (u : RArr 850000 256) (i : Fin 50000) (c : Fin 256) :
    Ideal.hostScatterAdd d x idx u (ix2 i c)
      = x (ix2 i c) + ∑ e ∈ Finset.univ.filter (fun e : Fin 850000 => (idx (ix2 e 0)).toInt = (i.val : ℤ)), u (ix2 e c) :=
  scatterAdd_rows_gen d huw hiw hsd hivd x idx u i c

/-- The vector scatter-add of 850000 update entries into 50000 entries. (The updates have one axis, so every update axis is
    a scatter axis whatever the window axes are said to be: the hypothesis on them plays no part.) -/
theorem scatterAdd_vec_apply (d : ScatterDims ⟨1, ![50000]⟩ (Sh 850000 1) ⟨1, ![850000]⟩)
    (huw : d.updateWindowDims = []) (hiw : d.insertedWindowDims = [0]) (hsd : d.scatterDimsToOperandDims = [0])
    (hivd : d.indexVectorDim = 1)
    (x : (⟨1, ![50000]⟩ : Shape).Idx → EReal) (idx : IVec (Sh 850000 1) 32) (u : (⟨1, ![850000]⟩ : Shape).Idx → EReal)
    (i : Fin 50000) :
    Ideal.hostScatterAdd d x idx u (ix1 i)
      = x (ix1 i) + ∑ e ∈ Finset.univ.filter (fun e : Fin 850000 => (idx (ix2 e 0)).toInt = (i.val : ℤ)), u (ix1 e) :=
  scatterAdd_vec_gen d hiw hsd hivd x idx u i

end Cert.LibGS

end
-- ==== Proof.KStageH0.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.IdealHost

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## After the first region: the nodes' first state and the inverse degrees

The program widens the edge embeddings, sums them per destination node, counts the edges per destination node, takes
the larger of the count and one, and inverts it. -/

namespace FirstState

/-! ## Reading the pieces at one index -/

/-- A vector laid out as a one-column array reads, in row p, the vector's entry p. -/
theorem col_of_vec {α : Type} {n : Nat} (h : (⟨1, ![n]⟩ : Shape).BroadcastsInDim (Sh n 1) ![0])
    (v : (⟨1, ![n]⟩ : Shape).Idx → α) (p : Fin n) (q : Fin 1) :
    broadcastInDim (Sh n 1) ![0] h v (ix2 p q) = v (ix1 p) := by
  refine broadcastInDim_apply ![0] h v (ix2 p q) (ix1 p) ?_
  intro a
  match a with
  | ⟨0, _⟩ =>
    show p.val = if n = 1 then 0 else p.val
    split
    · next h1 => have := p.isLt; omega
    · rfl

/-- The scalar zero spread over any shape reads zero everywhere. -/
theorem zeros_apply {T : Shape} (h : (⟨0, ![]⟩ : Shape).BroadcastsInDim T ![]) (j : T.Idx) :
    broadcastInDim T ![] h (constant (F := Ideal) (⟨0, ![]⟩ : Shape) .f32 0x00000000#32) j = 0 := by
  rw [broadcastInDim_scalar_apply, constant_apply, Ideal.ofBits_zero_f32]

/-- The scalar one spread over any shape reads one everywhere. -/
theorem ones_apply {T : Shape} (h : (⟨0, ![]⟩ : Shape).BroadcastsInDim T ![]) (j : T.Idx) :
    broadcastInDim T ![] h (constant (F := Ideal) (⟨0, ![]⟩ : Shape) .f32 0x3F800000#32) j = 1 := by
  rw [broadcastInDim_scalar_apply, constant_apply, Ideal.ofBits_one_f32]

/-- The row scatter-add of this stretch at one entry: the operand's entry plus the update rows whose word is the row. -/
theorem scatterRows_apply (x : RArr 40000 128) (idx : IVec (Sh 640000 1) 32) (u : RArr 640000 128) (i : Fin 40000) (q : Fin 128) :
    Host.scatterAdd (F := Ideal) (φ := .f32) scatter_S40000x128_S640000x1_S640000x128_1_0_0_1 x idx u (ix2 i q)
      = x (ix2 i q) + ∑ e ∈ Finset.univ.filter (fun e : Fin 640000 => (idx (ix2 e 0)).toInt = (i.val : ℤ)), u (ix2 e q) :=
  Cert.LibGS.scatterAdd_rows_gen scatter_S40000x128_S640000x1_S640000x128_1_0_0_1 rfl rfl rfl rfl x idx u i q

/-- The vector scatter-add of this stretch at one entry: the operand's entry plus the update entries whose word is it. -/
theorem scatterVec_apply (x : RVec 40000) (idx : IVec (Sh 640000 1) 32) (u : RVec 640000) (i : Fin 40000) :
    Host.scatterAdd (F := Ideal) (φ := .f32) scatter_S40000_S640000x1_S640000_n_0_0_1 x idx u (ix1 i)
      = x (ix1 i) + ∑ e ∈ Finset.univ.filter (fun e : Fin 640000 => (idx (ix2 e 0)).toInt = (i.val : ℤ)), u (ix1 e) :=
  Cert.LibGS.scatterAdd_vec_gen scatter_S40000_S640000x1_S640000_n_0_0_1 rfl rfl rfl x idx u i

/-- The nodes' first state: each node's row is the sum of the embedding rows of the edges whose destination word is it.
    Widening the embeddings changes no entry, the operand is zero, and row e of the index column is edge e's
    destination word. -/
theorem firstState (em : RArr 640000 128) (ei : (Sh 2 640000).Idx → BitVec 32)
    (Hem : W2 m ρ c (Proc.devRef .tc main_v6) = em)
    (Hdst : W2 m ρ c (Proc.devRef .tc main_v3) = fun i => ei (ix2 1 (i 0))) :
    W3 m ρ c (Proc.devRef .tc main_v10) = segSum (dstW ei) em := by
  show StableHlo.after hostOps1 (W2 m ρ c) (Proc.devRef .tc main_v10) = _
  after_results_simp
  rw [Hem, Hdst]
  funext i
  obtain ⟨p, q, rfl⟩ : ∃ (p : Fin 40000) (q : Fin 128), i = ix2 p q := ⟨i 0, i 1, eq_ix2 i⟩
  rw [scatterRows_apply, zeros_apply]
  refine congrArg (fun s : EReal => 0 + s) (Finset.sum_congr (Finset.filter_congr fun e _ => ?_) fun _ _ => rfl)
  exact Iff.of_eq (congrArg (fun w : BitVec 32 => w.toInt = (p.val : ℤ)) (col_of_vec _ _ e 0))

/-- The inverse-degree column: a node's count of edges (a sum of ones over the edges whose destination word is the node),
    the larger of it and one, and one divided by that. -/
theorem invDegree (ei : (Sh 2 640000).Idx → BitVec 32)
    (Hdst : W2 m ρ c (Proc.devRef .tc main_v3) = fun i => ei (ix2 1 (i 0))) :
    W3 m ρ c (Proc.devRef .tc main_v19) = fun i => dinvOf (N := 40000) (dstW ei) (i 0) := by
  show StableHlo.after hostOps1 (W2 m ρ c) (Proc.devRef .tc main_v19) = _
  after_results_simp
  rw [Hdst]
  funext i
  obtain ⟨p, q, rfl⟩ : ∃ (p : Fin 40000) (q : Fin 1), i = ix2 p q := ⟨i 0, i 1, eq_ix2 i⟩
  refine (col_of_vec _ _ p q).trans ?_
  rw [hostDivf_apply, maximumf_apply, ones_apply, scatterVec_apply, zeros_apply]
  show _ = Ideal.div 1 (max (0 + ∑ _e ∈ Finset.univ.filter (fun e : Fin 640000 => (dstW ei e).toInt = (p.val : ℤ)), (1 : EReal)) 1)
  refine congrArg (fun s : EReal => Ideal.div 1 (max (0 + s) 1))
    (Finset.sum_congr (Finset.filter_congr fun e _ => ?_) fun e _ => ones_apply _ _)
  exact Iff.of_eq (congrArg (fun w : BitVec 32 => w.toInt = (p.val : ℤ)) (col_of_vec _ _ e 0))

end FirstState

/-- The nodes' first state and the inverse-degree column, from the edge embeddings and the destination words. -/
theorem stageH0 (em : RArr 640000 128) (ei : (Sh 2 640000).Idx → BitVec 32)
    (Hem : W2 m ρ c (Proc.devRef .tc main_v6) = em)
    (Hdst : W2 m ρ c (Proc.devRef .tc main_v3) = fun i => ei (ix2 1 (i 0))) :
    W3 m ρ c (Proc.devRef .tc main_v10) = segSum (dstW ei) em
    ∧ W3 m ρ c (Proc.devRef .tc main_v19) = fun i => dinvOf (N := 40000) (dstW ei) (i 0) := by
  exact ⟨FirstState.firstState m ρ c em ei Hem Hdst, FirstState.invDegree m ρ c ei Hdst⟩

end Cert.KernelIdeal.Stage

end
-- ==== Proof.KRegion1.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! # Region 1: the messages of a layer's edges

640000 edges in 40 row blocks of 16000. At row block t the body reads rows 16000 t … 16000 t + 15999 of the destination,
source and attribute arrays, the three first-layer matrices, the first bias row, the second matrix and the second bias
row (all of these whole), and stores the block of messages: for edge e and coordinate q, the second dense layer over the
128 hidden units of e, each hidden unit the rectified sum of the three products and the bias. Over the extended reals a
change of format is the identity, so the stored entry is exactly Spec.edgeMsg3 at (e, q). -/

namespace EdgeMessage

/-! ## The body's arithmetic at one entry of a block -/

/-- A product of a 16000 × 128 block with a 128 × 128 matrix into a zero accumulator, at (p, q): the sum over the
    shared coordinate. -/
theorem edgeProd_apply {φ₁ φ₂ : FTy} (l : FVec Ideal S16000x128 φ₁) (r : FVec Ideal S128x128 φ₂) (p : Fin 16000) (q : Fin 128) :
    matmul dot_S16000x128_S128x128_S16000x128_1_0_0_1_n_n none l r (constant S16000x128 .f32 0x00000000#32) (ix2 p q)
      = ∑ k : Fin 128, l (ix2 p k) * r (ix2 k q) :=
  Cert.LibDense.matmul_zero_apply dot_S16000x128_S128x128_S16000x128_1_0_0_1_n_n rfl rfl rfl rfl rfl rfl none l r p q

/-- The hidden units of a block of edges: the three products summed in the body's grouping, the bias row added to
    every edge, the rectifier. -/
def hiddenBlk (xd xs : FVec Ideal S16000x128 .bf16) (xe : FVec Ideal S16000x128 .f32) (ma mb mc : FVec Ideal S128x128 .f32)
    (r1 : FVec Ideal S1x128 .f32) : FVec Ideal S16000x128 .f32 :=
  maximumf
    (addf
      (addf
        (addf
          (matmul dot_S16000x128_S128x128_S16000x128_1_0_0_1_n_n none xd (truncf .bf16 ma bitsLt_bf16_f32) (constant S16000x128 .f32 0x00000000#32))
          (matmul dot_S16000x128_S128x128_S16000x128_1_0_0_1_n_n none xs (truncf .bf16 mb bitsLt_bf16_f32) (constant S16000x128 .f32 0x00000000#32)))
        (matmul dot_S16000x128_S128x128_S16000x128_1_0_0_1_n_n none (truncf .bf16 xe bitsLt_bf16_f32) (truncf .bf16 mc bitsLt_bf16_f32) (constant S16000x128 .f32 0x00000000#32)))
      (broadcastTo S16000x128 r1 broadcasts_S1x128_S16000x128))
    (broadcast S16000x128 (Scalar.ofBits (F := Ideal) .f32 0x00000000#32))

/-- Hidden unit k of edge p of the block: the first layer of the edge's perceptron followed by the rectifier. -/
theorem hiddenBlk_apply (xd xs : FVec Ideal S16000x128 .bf16) (xe : FVec Ideal S16000x128 .f32) (ma mb mc : FVec Ideal S128x128 .f32)
    (r1 : FVec Ideal S1x128 .f32) (p : Fin 16000) (k : Fin 128) :
    hiddenBlk xd xs xe ma mb mc r1 (ix2 p k)
      = relu (edgePre3 (E := 16000) xd xs xe ma mb mc (fun c => r1 (ix2 0 c))) (ix2 p k) := by
  show max (((matmul dot_S16000x128_S128x128_S16000x128_1_0_0_1_n_n none xd (truncf .bf16 ma bitsLt_bf16_f32) (constant S16000x128 .f32 0x00000000#32) (ix2 p k)
        + matmul dot_S16000x128_S128x128_S16000x128_1_0_0_1_n_n none xs (truncf .bf16 mb bitsLt_bf16_f32) (constant S16000x128 .f32 0x00000000#32) (ix2 p k))
        + matmul dot_S16000x128_S128x128_S16000x128_1_0_0_1_n_n none (truncf .bf16 xe bitsLt_bf16_f32) (truncf .bf16 mc bitsLt_bf16_f32) (constant S16000x128 .f32 0x00000000#32) (ix2 p k))
        + broadcastTo S16000x128 r1 broadcasts_S1x128_S16000x128 (ix2 p k)) (Ideal.ofBits .f32 0x00000000#32) = _
  rw [edgeProd_apply, edgeProd_apply, edgeProd_apply, broadcastTo_1b_ab_apply, Ideal.ofBits_zero_f32]
  rfl

/-- THE BODY AT AN ENTRY: entry (p, q) of what the body stores is the message of edge p at coordinate q, computed from
    the loaded blocks: the second dense layer over the block's hidden units, plus the second bias row. -/
theorem pay_apply (xd xs : Vec Ideal S16000x128 .bf16) (xe : Vec Ideal S16000x128 .f32) (ma mb mc : Vec Ideal S128x128 .f32)
    (r1 : Vec Ideal S1x128 .f32) (m2 : Vec Ideal S128x128 .f32) (r2 : Vec Ideal S1x128 .f32) (p : Fin 16000) (q : Fin 128) :
    k1_pay1 xd xs xe ma mb mc r1 m2 r2 (ix2 p q)
      = edgeMsg3 (E := 16000) xd xs xe ma mb mc (fun c => r1 (ix2 0 c)) m2 (fun c => r2 (ix2 0 c)) (ix2 p q) := by
  unfold k1_pay1
  simp only [shapeCast_self]
  show matmul dot_S16000x128_S128x128_S16000x128_1_0_0_1_n_n none
        (truncf .bf16 (hiddenBlk xd xs xe ma mb mc r1) bitsLt_bf16_f32) (truncf .bf16 m2 bitsLt_bf16_f32)
        (constant S16000x128 .f32 0x00000000#32) (ix2 p q)
      + broadcastTo S16000x128 r2 broadcasts_S1x128_S16000x128 (ix2 p q) = _
  rw [edgeProd_apply, broadcastTo_1b_ab_apply]
  show (∑ k : Fin 128, hiddenBlk xd xs xe ma mb mc r1 (ix2 p k) * m2 (ix2 k q)) + r2 (ix2 0 q) = _
  simp only [hiddenBlk_apply]
  rfl

/-! ## One edge's message reads one row

The message of edge e at coordinate q reads row e of the destination, source and attribute arrays and nothing else of
them. So two triples of arrays, of any numbers of rows, that agree on a row of each give the same message there: what
lets a block of 16000 rows stand for its rows of the whole arrays. -/

theorem edgeMsg3_row {E E' K H C : Nat} (hd hs ea : RArr E K) (hd' hs' ea' : RArr E' K) (wa wb wc : RArr K H)
    (b1 : Fin H → EReal) (w2 : RArr H C) (b2 : Fin C → EReal) (e : Fin E) (e' : Fin E') (q : Fin C)
    (h0 : ∀ k, hd (ix2 e k) = hd' (ix2 e' k)) (h1 : ∀ k, hs (ix2 e k) = hs' (ix2 e' k))
    (h2 : ∀ k, ea (ix2 e k) = ea' (ix2 e' k)) :
    edgeMsg3 hd hs ea wa wb wc b1 w2 b2 (ix2 e q) = edgeMsg3 hd' hs' ea' wa wb wc b1 w2 b2 (ix2 e' q) := by
  show (∑ k : Fin H, max ((((∑ k' : Fin K, hd (ix2 e k') * wa (ix2 k' k)) + (∑ k' : Fin K, hs (ix2 e k') * wb (ix2 k' k)))
        + (∑ k' : Fin K, ea (ix2 e k') * wc (ix2 k' k))) + b1 k) 0 * w2 (ix2 k q)) + b2 q
      = (∑ k : Fin H, max ((((∑ k' : Fin K, hd' (ix2 e' k') * wa (ix2 k' k)) + (∑ k' : Fin K, hs' (ix2 e' k') * wb (ix2 k' k)))
        + (∑ k' : Fin K, ea' (ix2 e' k') * wc (ix2 k' k))) + b1 k) 0 * w2 (ix2 k q)) + b2 q
  simp only [h0, h1, h2]

/-! ## Where each window's block sits at a grid point

The three edge windows and the output window are at row block t (rows 16000 t … 16000 t + 15999, all 128 columns); the
matrices and the bias rows are whole at every point. -/

/-- The zero offsets of a whole-buffer access. -/
theorem offZero : (![0, 0] : Fin 2 → Nat) = fun _ => 0 := funext fun a => by fin_cases a <;> rfl

/-- The windows' index maps over the 40 grid points: the row-tiled windows' block index is (t, 0), the others' (0, 0). -/
theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- A grid point is one of 40. -/
theorem point_lt (t : Fin cfg1.N) : t.val < 40 := N_1 ▸ t.isLt

/-- Entry (p, k) of the destination block at point t is the array's entry (r, k), r the row 16000 t + p. -/
theorem dstBlk_apply (c : Dev nD) (t : Fin cfg1.N) (p : Fin 16000) (k : Fin 128) (r : Fin 640000)
    (hr : r.val = t.val * 16000 + p.val) :
    (iblk1 V c 0 t : Vec Ideal S16000x128 .bf16) (ix2 p k) = (V c (Pipeline.arrRef spec1 0) : RArr 640000 128) (ix2 r k) := by
  obtain ⟨-, -, f0, f1, -⟩ := idx_facts t
  show V c (Pipeline.arrRef spec1 0) (((cfg1.win 0).blk t).view.emb (ix2 p k)) = _
  refine congrArg _ (funext fun a => Fin.ext ?_)
  match a with
  | ⟨0, _⟩ => show win1_0.index t (0 : Fin 2) * 16000 + 1 * p.val = r.val; omega
  | ⟨1, _⟩ => show win1_0.index t (1 : Fin 2) * 128 + 1 * k.val = k.val; omega

/-- The same for the source block … -/
theorem srcBlk_apply (c : Dev nD) (t : Fin cfg1.N) (p : Fin 16000) (k : Fin 128) (r : Fin 640000)
    (hr : r.val = t.val * 16000 + p.val) :
    (iblk1 V c 1 t : Vec Ideal S16000x128 .bf16) (ix2 p k) = (V c (Pipeline.arrRef spec1 1) : RArr 640000 128) (ix2 r k) := by
  obtain ⟨-, -, -, -, f0, f1, -⟩ := idx_facts t
  show V c (Pipeline.arrRef spec1 1) (((cfg1.win 1).blk t).view.emb (ix2 p k)) = _
  refine congrArg _ (funext fun a => Fin.ext ?_)
  match a with
  | ⟨0, _⟩ => show win1_1.index t (0 : Fin 2) * 16000 + 1 * p.val = r.val; omega
  | ⟨1, _⟩ => show win1_1.index t (1 : Fin 2) * 128 + 1 * k.val = k.val; omega

/-- … and for the attribute block. -/
theorem attrBlk_apply (c : Dev nD) (t : Fin cfg1.N) (p : Fin 16000) (k : Fin 128) (r : Fin 640000)
    (hr : r.val = t.val * 16000 + p.val) :
    (iblk1 V c 2 t : Vec Ideal S16000x128 .f32) (ix2 p k) = (V c (Pipeline.arrRef spec1 2) : RArr 640000 128) (ix2 r k) := by
  obtain ⟨-, -, -, -, -, -, f0, f1, -⟩ := idx_facts t
  show V c (Pipeline.arrRef spec1 2) (((cfg1.win 2).blk t).view.emb (ix2 p k)) = _
  refine congrArg _ (funext fun a => Fin.ext ?_)
  match a with
  | ⟨0, _⟩ => show win1_2.index t (0 : Fin 2) * 16000 + 1 * p.val = r.val; omega
  | ⟨1, _⟩ => show win1_2.index t (1 : Fin 2) * 128 + 1 * k.val = k.val; omega

/-- Entry (p, q) of the output block at point t is the array's entry (r, q), r the row 16000 t + p. -/
theorem outBlk_emb (t : Fin cfg1.N) (p : Fin 16000) (q : Fin 128) (r : Fin 640000) (hr : r.val = t.val * 16000 + p.val) :
    ((cfg1.win 9).blk t).view.emb (ix2 p q) = (ix2 r q : S640000x128.Idx) := by
  obtain ⟨f0, f1, -⟩ := idx_facts t
  refine funext fun a => Fin.ext ?_
  match a with
  | ⟨0, _⟩ => show win1_9.index t (0 : Fin 2) * 16000 + 1 * p.val = r.val; omega
  | ⟨1, _⟩ => show win1_9.index t (1 : Fin 2) * 128 + 1 * q.val = q.val; omega

/-! The matrices and bias rows: the block at every point is the whole array, its block index being (0, 0). -/

/-- The destination part's matrix, whole at every point. -/
theorem matA_eq (c : Dev nD) (t : Fin cfg1.N) :
    (iblk1 V c 3 t : Vec Ideal S128x128 .f32) = V c (Pipeline.arrRef spec1 3) := by
  obtain ⟨-, -, -, -, -, -, -, -, f0, f1, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The source part's matrix. -/
theorem matB_eq (c : Dev nD) (t : Fin cfg1.N) :
    (iblk1 V c 4 t : Vec Ideal S128x128 .f32) = V c (Pipeline.arrRef spec1 4) := by
  obtain ⟨-, -, -, -, -, -, -, -, -, -, f0, f1, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The attribute part's matrix. -/
theorem matC_eq (c : Dev nD) (t : Fin cfg1.N) :
    (iblk1 V c 5 t : Vec Ideal S128x128 .f32) = V c (Pipeline.arrRef spec1 5) := by
  obtain ⟨-, -, -, -, -, -, -, -, -, -, -, -, f0, f1, -⟩ := idx_facts t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The first bias row. -/
theorem bias1_eq (c : Dev nD) (t : Fin cfg1.N) :
    (iblk1 V c 6 t : Vec Ideal S1x128 .f32) = V c (Pipeline.arrRef spec1 6) := by
  obtain ⟨-, -, -, -, -, -, -, -, -, -, -, -, -, -, f0, f1, -⟩ := idx_facts t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The second layer's matrix. -/
theorem mat2_eq (c : Dev nD) (t : Fin cfg1.N) :
    (iblk1 V c 7 t : Vec Ideal S128x128 .f32) = V c (Pipeline.arrRef spec1 7) := by
  obtain ⟨-, -, -, -, -, -, -, -, -, -, -, -, -, -, -, -, f0, f1, -⟩ := idx_facts t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- The second bias row. -/
theorem bias2_eq (c : Dev nD) (t : Fin cfg1.N) :
    (iblk1 V c 8 t : Vec Ideal S1x128 .f32) = V c (Pipeline.arrRef spec1 8) := by
  obtain ⟨-, -, -, -, -, -, -, -, -, -, -, -, -, -, -, -, -, -, f0, f1⟩ := idx_facts t
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-! ## From blocks to the array -/

/-- The region's result as one function of the arrays the region finds: every edge's message. -/
def msgArr (c : Dev nD) : RArr 640000 128 :=
  edgeMsg3 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (fun q => V c (Pipeline.arrRef spec1 6) (ix2 0 q)) (V c (Pipeline.arrRef spec1 7))
    (fun q => V c (Pipeline.arrRef spec1 8) (ix2 0 q))

/-- WHAT POINT t WRITES BACK is block t of the messages: entry (p, q) of the stored block is the body's arithmetic on
    the loaded blocks, which is the message of the edge 16000 t + p because each loaded edge block holds that edge's
    row at p and the matrices and bias rows are loaded whole. -/
theorem flushed_eq (c : Dev nD) (t : Fin cfg1.N) :
    (dat1 (F := Ideal) V c).flushed 9 t = ((cfg1.win 9).blk t).view.read (Elt Ideal) (msgArr V c) := by
  show (cfg1.win 9).cut (grid1.coords t) ((dat1 V c).after 9 t) = _
  rw [after1_9]
  unfold out1_9
  rw [View.canon_unit_zero offZero]
  simp only [View.ld_unit_zero (S := S16000x128) offZero, View.ld_unit_zero (S := S128x128) offZero, View.ld_unit_zero (S := S1x128) offZero]
  funext j
  obtain ⟨p, q, rfl⟩ : ∃ (p : Fin 16000) (q : Fin 128), j = ix2 p q := ⟨j 0, j 1, eq_ix2 j⟩
  have ht : t.val < 40 := point_lt t
  have hp : p.val < 16000 := p.isLt
  show k1_pay1 (iblk1 V c 0 t) (iblk1 V c 1 t) (iblk1 V c 2 t) (iblk1 V c 3 t) (iblk1 V c 4 t) (iblk1 V c 5 t)
        (iblk1 V c 6 t) (iblk1 V c 7 t) (iblk1 V c 8 t) (ix2 p q)
      = msgArr V c (((cfg1.win 9).blk t).view.emb (ix2 p q))
  rw [outBlk_emb t p q ⟨t.val * 16000 + p.val, by omega⟩ rfl, pay_apply,
    matA_eq V c t, matB_eq V c t, matC_eq V c t, bias1_eq V c t, mat2_eq V c t, bias2_eq V c t]
  exact edgeMsg3_row _ _ _ _ _ _ _ _ _ _ _ _ p ⟨t.val * 16000 + p.val, by omega⟩ q
    (fun k => dstBlk_apply V c t p k _ rfl) (fun k => srcBlk_apply V c t p k _ rfl) (fun k => attrBlk_apply V c t p k _ rfl)

/-- An entry of the array is in point t's block iff each coordinate is in the block's range on its axis. -/
theorem mem_blk (t : Fin cfg1.N) (i : S640000x128.Idx) :
    i ∈ ((cfg1.win 9).blk t).view.set ↔ ∀ a : Fin 2, win1_9.index t a * S16000x128.size a ≤ (i a).val
      ∧ (i a).val < win1_9.index t a * S16000x128.size a + S16000x128.size a := by
  show i ∈ ((View.whole main_v37).slice (win1_9.rect t)).set ↔ _
  rw [View.set_slice_whole, Rect.mem_set_unit]
  exact Iff.rfl

/-- The 40 row blocks fill the array: row r is in the block of point r / 16000, and every point writes back. -/
theorem cover (i : S640000x128.Idx) :
    ∃ t : Fin cfg1.N, (cfg1.win 9).flush t = true ∧ i ∈ ((cfg1.win 9).blk t).view.set := by
  have hi0 : (i 0).val < 640000 := idx2_lt0 i
  have hi1 : (i 1).val < 128 := idx2_lt1 i
  have hN : (i 0).val / 16000 < cfg1.N := by rw [show cfg1.N = 40 from N_1]; omega
  obtain ⟨f0, f1, -⟩ := idx_facts ⟨(i 0).val / 16000, hN⟩
  refine ⟨⟨(i 0).val / 16000, hN⟩, flush1_9 _, ?_⟩
  rw [mem_blk]
  intro a
  match a with
  | ⟨0, _⟩ =>
    show win1_9.index ⟨(i 0).val / 16000, hN⟩ (0 : Fin 2) * 16000 ≤ (i 0).val
      ∧ (i 0).val < win1_9.index ⟨(i 0).val / 16000, hN⟩ (0 : Fin 2) * 16000 + 16000
    rw [f0]; show (i 0).val / 16000 * 16000 ≤ (i 0).val ∧ (i 0).val < (i 0).val / 16000 * 16000 + 16000; omega
  | ⟨1, _⟩ =>
    show win1_9.index ⟨(i 0).val / 16000, hN⟩ (1 : Fin 2) * 128 ≤ (i 1).val
      ∧ (i 1).val < win1_9.index ⟨(i 0).val / 16000, hN⟩ (1 : Fin 2) * 128 + 128
    rw [f1]; omega

/-- THE ARRAY after the 40 points: every edge's message. -/
theorem final (c : Dev nD) : (dat1 (F := Ideal) V c).arrAt 9 cfg1.N = msgArr V c :=
  (dat1 V c).arrAt_eq_of_cover 9 (msgArr V c) (fun t _ => flushed_eq V c t) cover

end EdgeMessage

/-- Region 1 (an edge layer's perceptron): after the 40 grid points the output array holds, at every entry, the message
    of that edge from its destination row, source row and attribute row. -/
theorem region1_arr (c : Dev nD)
    (hd hs ea : RArr 640000 128) (wa wb wc : RArr 128 128) (b1 : RArr 1 128) (w2 : RArr 128 128) (b2 : RArr 1 128)
    (hhd : V c (Pipeline.arrRef spec1 0) = hd) (hhs : V c (Pipeline.arrRef spec1 1) = hs)
    (hea : V c (Pipeline.arrRef spec1 2) = ea) (hwa : V c (Pipeline.arrRef spec1 3) = wa)
    (hwb : V c (Pipeline.arrRef spec1 4) = wb) (hwc : V c (Pipeline.arrRef spec1 5) = wc)
    (hb1 : V c (Pipeline.arrRef spec1 6) = b1) (hw2 : V c (Pipeline.arrRef spec1 7) = w2)
    (hb2 : V c (Pipeline.arrRef spec1 8) = b2) :
    (dat1 (F := Ideal) V c).arrAt 9 cfg1.N
      = edgeMsg3 hd hs ea wa wb wc (fun q => b1 (ix2 0 q)) w2 (fun q => b2 (ix2 0 q)) := by
  subst hhd hhs hea hwa hwb hwc hb1 hw2 hb2
  exact EdgeMessage.final V c

end Cert.KernelIdeal.RegVal

end
-- ==== Proof.KStageT0.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import proofs.«403623_j41042707481180_2_alg».proof.Proof.KRegion1
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-- A typed reference's two transports of contents, one after the other, change nothing. -/
theorem ofBuf_toBuf {Val : EltTy → Type} {T : BufTy} (x : StableHlo.TRef sig T) (v : T.Contents Val) : x.ofBuf (x.toBuf v) = v := by
  obtain ⟨r, rfl, _, _⟩ := x
  rfl

/-! ## Reading table rows by words

The program reads, for each of the 640000 words, a row of the 40000 × 128 state: a negative word is first wrapped by
40000; the wrapped word is tested against 0 … 39999; the row is read at the wrapped word clamped into the table; and
where the test fails the row is replaced by a fill value. The operations below are the printed ones, named one by one,
each with what it is at one entry. -/

namespace Take

/-- In one bit, "and" with a set bit changes nothing. -/
theorem and_set_bit : ∀ b : BitVec 1, IntOp.andi b 1#1 = b := by decide

/-- A fold over an index type with one element is one application of the operation. -/
theorem fold_one_index {α : Type} {n : Nat} (hn : n = 1) (op : α → α → α) [Std.Commutative op] [Std.Associative op]
    (b : α) (f : Fin n → α) : (Finset.univ : Finset (Fin n)).fold op b f = op (f ⟨0, by omega⟩) b := by
  subst hn
  rw [Finset.univ_unique, Finset.fold_singleton]
  rfl

/-- The words, a negative one wrapped once by the table's 40000 rows. -/
def wrapped (w : IVec S640000 32) : IVec S640000 32 :=
  select (cmpi .slt w (broadcastInDim S640000 ![] bcast_S_S640000 (constantI S_ 32 0#32)))
    (addi w (broadcastInDim S640000 ![] bcast_S_S640000 (constantI S_ 32 40000#32))) w

theorem wrapped_at (w : IVec S640000 32) (e : Fin 640000) : wrapped w (ix1 e) = wrapW 40000 (w (ix1 e)) := rfl

/-- The wrapped words as a one-column array. -/
def column (w : IVec S640000 32) : IVec S640000x1 32 :=
  broadcastInDim S640000x1 ![0] bcast_S640000_S640000x1_0 (wrapped w)

theorem column_at (w : IVec S640000 32) (e : Fin 640000) : column w (ix2 e 0) = wrapW 40000 (w (ix1 e)) := by
  unfold column
  refine (broadcastInDim_apply _ _ _ (ix2 e 0) (ix1 e) (fun a => ?_)).trans (wrapped_at w e)
  match a with
  | ⟨0, _⟩ => rfl

/-- The range test of the wrapped words, as a one-column array of bits: 0 ≤ word and word ≤ 39999. -/
def inRange (w : IVec S640000 32) : IVec S640000x1 1 :=
  andi (cmpi .sge (column w) (broadcastInDim S640000x1 ![] bcast_S_S640000x1 (constantI S_ 32 0#32)))
    (cmpi .sle (column w) (broadcastInDim S640000x1 ![0, 1] bcast_S1x1_S640000x1_0_1
      (broadcastInDim S1x1 ![1] bcast_S1_S1x1_1 (constantI S1 32 39999#32))))

theorem inRange_at (w : IVec S640000 32) (e : Fin 640000) :
    inRange w (ix2 e 0)
      = IntOp.andi (IntOp.cmpi .sge (column w (ix2 e 0)) 0#32) (IntOp.cmpi .sle (column w (ix2 e 0)) 39999#32) := rfl

/-- The conjunction of a one-column array of bits along its unit axis, from a set bit, is the column itself. -/
theorem all_of_unit_axis (x : IVec S640000x1 1) (e : Fin 640000) :
    Host.reduce IntOp.andi x (constantI S_ 1 1#1) reducesTo_S640000x1_S640000_d1 h_S_ (ix1 e) = x (ix2 e 0) := by
  have hR : S640000x1.Reduces [1] S640000 := by decide
  have hlift : ∀ k : Fin (S640000x1.size 1), hR.lift (ix1 e) k = ix2 e 0 := fun k => by
    funext a
    refine Fin.ext ?_
    rw [Shape.Reduces.lift_val]
    match a with
    | ⟨0, _⟩ => rfl
    | ⟨1, _⟩ => show k.val = 0; have hk : k.val < 1 := k.isLt; omega
  rw [Host.reduce_eq_fold_single IntOp.andi x _ _ hR]
  refine (fold_one_index (n := S640000x1.size 1) rfl IntOp.andi _ _).trans ?_
  rw [Function.comp_apply, hlift]
  exact and_set_bit _

/-- The range test per word: the column's test gathered along its unit axis. -/
def rowOk (w : IVec S640000 32) : IVec S640000 1 :=
  Host.reduce IntOp.andi (inRange w) (constantI S_ 1 1#1) reducesTo_S640000x1_S640000_d1 h_S_

theorem rowOk_at (w : IVec S640000 32) (e : Fin 640000) : rowOk w (ix1 e) = inRange w (ix2 e 0) :=
  all_of_unit_axis (inRange w) e

/-- THE ROWS READ: where the range test holds, the state's row at the clamped wrapped word; elsewhere the fill value. -/
def rows (hT : FVec Ideal S40000x128 .f32) (w : IVec S640000 32) : FVec Ideal S640000x128 .f32 :=
  select (broadcastInDim S640000x128 ![0] bcast_S640000_S640000x128_0 (rowOk w))
    (Host.gather gather_S40000x128_S640000x1_S640000x128_1_0_n_n_0_1_1128 hT (column w))
    (broadcastInDim S640000x128 ![] bcast_S_S640000x128 (constant S_ .f32 0x7FC00000#32))

/-- The rows read, at one entry: the spec's filled row read. -/
theorem rows_at (hT : FVec Ideal S40000x128 .f32) (w : IVec S640000 32) (e : Fin 640000) (q : Fin 128) :
    rows hT w (ix2 e q)
      = takeFill (N := 40000) (by decide) 39999#32 (Ideal.ofBits .f32 0x7FC00000#32) hT (fun e => w (ix1 e)) (ix2 e q) := by
  have hmask : broadcastInDim S640000x128 ![0] bcast_S640000_S640000x128_0 (rowOk w) (ix2 e q) = rowOk w (ix1 e) :=
    broadcastInDim_apply _ _ _ (ix2 e q) (ix1 e) (fun a => match a with | ⟨0, _⟩ => rfl)
  have hrow := Cert.LibGS.gather_rows_gen gather_S40000x128_S640000x1_S640000x128_1_0_n_n_0_1_1128
    (by decide : 0 < 40000) rfl rfl rfl rfl rfl rfl hT (column w) e q
  show Scalar.select (broadcastInDim S640000x128 ![0] bcast_S640000_S640000x128_0 (rowOk w) (ix2 e q))
      (Host.gather gather_S40000x128_S640000x1_S640000x128_1_0_n_n_0_1_1128 hT (column w) (ix2 e q))
      (Ideal.ofBits .f32 0x7FC00000#32)
    = Scalar.select (IntOp.andi (IntOp.cmpi .sge (wrapW 40000 (w (ix1 e))) 0#32) (IntOp.cmpi .sle (wrapW 40000 (w (ix1 e))) 39999#32))
      (hT (ix2 (rowOf 40000 (by decide) (wrapW 40000 (w (ix1 e)))) q)) (Ideal.ofBits .f32 0x7FC00000#32)
  rw [hmask, hrow, rowOk_at, inRange_at, column_at]

end Take

/-! ## Slabs, rows and row blocks

The weight stacks hold one slab (or one row) per layer; a layer's first matrix is cut into three blocks of 128 rows. Each
lemma reads the printed chain of slices and reshapes at one entry. -/

namespace Cut

/-- Slab l of a stack of three A × B matrices: the slice of one slab, viewed without its unit axis. -/
theorem slab_of_stack {A B : Nat} (X : (⟨3, ![3, A, B]⟩ : Shape).Idx → EReal) {l : Fin 3} {off : Fin 3 → Nat}
    (hoff : off = ![l.val, 0, 0]) (hs : (⟨3, ![3, A, B]⟩ : Shape).Slices off ⟨3, ![1, A, B]⟩)
    (hc : (⟨3, ![1, A, B]⟩ : Shape).ShapeCasts ⟨2, ![A, B]⟩) :
    shapeCast ⟨2, ![A, B]⟩ (extractStridedSlice ⟨3, ![1, A, B]⟩ off X hs) hc = slab X l := by
  subst hoff
  funext i
  obtain ⟨r, q, rfl⟩ : ∃ (r : Fin A) (q : Fin B), i = ix2 r q := ⟨i 0, i 1, eq_ix2 i⟩
  refine (shapeCast_1ab_ab_apply _ hc r q).trans ?_
  exact extractStridedSlice_apply _ X hs (ix3 0 r q) (ix3 l r q) (fun a => by
    match a with
    | ⟨0, _⟩ => rfl
    | ⟨1, _⟩ => exact (Nat.zero_add _).symm
    | ⟨2, _⟩ => exact (Nat.zero_add _).symm)

/-- Row l of a three-row array, cut out as a one-row array, flattened and made a one-row array again: at (0, q) it is
    the array's entry (l, q). -/
theorem row_of_stack {B : Nat} (X : RArr 3 B) {l : Fin 3} {off : Fin 2 → Nat} (hoff : off = ![l.val, 0])
    (hs : (⟨2, ![3, B]⟩ : Shape).Slices off ⟨2, ![1, B]⟩) (hc1 : (⟨2, ![1, B]⟩ : Shape).ShapeCasts ⟨1, ![B]⟩)
    (hc2 : (⟨1, ![B]⟩ : Shape).ShapeCasts ⟨2, ![1, B]⟩) :
    shapeCast ⟨2, ![1, B]⟩ (shapeCast ⟨1, ![B]⟩ (extractStridedSlice ⟨2, ![1, B]⟩ off X hs) hc1) hc2
      = fun i => rowV X l (i 1) := by
  subst hoff
  funext i
  obtain ⟨u, q, rfl⟩ : ∃ (u : Fin 1) (q : Fin B), i = ix2 u q := ⟨i 0, i 1, eq_ix2 i⟩
  refine (shapeCast_a_1a_apply _ hc2 u q).trans ?_
  refine (shapeCast_1a_a_apply _ hc1 q).trans ?_
  exact slice2_axis0_apply l.val X hs (0 : Fin 1) q l rfl

/-- Rows o … o + 127 of a 384-row matrix. -/
theorem row_block (X : RArr 384 128) (o : Nat) (ho : o + 128 ≤ 384) (hs : S384x128.Slices ![o, 0] S128x128) :
    extractStridedSlice S128x128 ![o, 0] X hs = rowsAt 128 o ho X := by
  funext i
  obtain ⟨r, q, rfl⟩ : ∃ (r : Fin 128) (q : Fin 128), i = ix2 r q := ⟨i 0, i 1, eq_ix2 i⟩
  exact slice2_axis0_apply o X hs r q ⟨o + r.val, by have := r.isLt; omega⟩ rfl

end Cut

/-! ## What region 1 finds in its windows' arrays

Each array is read off the four host stretches in one step, over ANY contents `W` before them. -/

section Reads
variable (W : Valuation τ sig (Elt Ideal))

local notation "atEntry" => StableHlo.after hostOps1_4 (StableHlo.after hostOps1_3 (StableHlo.after hostOps1_2 (StableHlo.after hostOps1_1 W)))

/-- The rows read by the destination words, narrowed. -/
theorem read_dst_rows (hT : FVec Ideal S40000x128 .f32) (w : IVec S640000 32)
    (Hh : W (Proc.devRef .tc main_v10) = hT) (Hw : W (Proc.devRef .tc main_v3) = w) :
    atEntry (Proc.devRef .tc main_v21)
      = (truncf .bf16 (Take.rows hT w) bitsLt_bf16_f32 : FVec Ideal S640000x128 .bf16) := by
  subst Hh Hw
  after_results_simp
  simp only [ofBuf_toBuf]
  simp only [TRef.ofBuf, TRef.toBuf, cast_eq]
  rfl

/-- The rows read by the source words, narrowed. -/
theorem read_src_rows (hT : FVec Ideal S40000x128 .f32) (w : IVec S640000 32)
    (Hh : W (Proc.devRef .tc main_v10) = hT) (Hw : W (Proc.devRef .tc main_v1) = w) :
    atEntry (Proc.devRef .tc main_v23)
      = (truncf .bf16 (Take.rows hT w) bitsLt_bf16_f32 : FVec Ideal S640000x128 .bf16) := by
  subst Hh Hw
  after_results_simp
  simp only [ofBuf_toBuf]
  simp only [TRef.ofBuf, TRef.toBuf, cast_eq]
  rfl

/-- The attribute array is not written. -/
theorem read_attr : atEntry (Proc.devRef .tc main_arg2) = W (Proc.devRef .tc main_arg2) := by
  after_results_simp

/-- THE LAYER'S SLAB of the first weight stack. -/
theorem read_first_matrix (eW1 : (⟨3, ![3, 384, 128]⟩ : Shape).Idx → EReal) (H7 : W (Proc.devRef .tc main_arg7) = eW1) :
    atEntry (Proc.devRef .tc main_v25) = slab eW1 0 := by
  after_results_simp
  rw [H7]
  show shapeCast S384x128 (extractStridedSlice S1x384x128 _ eW1 _) _ = _
  exact Cut.slab_of_stack eW1 (by rfl) _ _

/-- THE LAYER'S ROW of the first bias stack, as a one-row array. -/
theorem read_first_bias (eb1 : RArr 3 128) (H8 : W (Proc.devRef .tc main_arg8) = eb1) :
    atEntry (Proc.devRef .tc main_v35) = fun i => rowV eb1 0 (i 1) := by
  after_results_simp
  rw [H8]
  show shapeCast S1x128 (shapeCast S128 (extractStridedSlice S1x128 _ eb1 _) _) _ = _
  exact Cut.row_of_stack eb1 (by rfl) _ _ _

/-- THE LAYER'S SLAB of the second weight stack. -/
theorem read_second_matrix (eW2 : (⟨3, ![3, 128, 128]⟩ : Shape).Idx → EReal) (H9 : W (Proc.devRef .tc main_arg9) = eW2) :
    atEntry (Proc.devRef .tc main_v29) = slab eW2 0 := by
  after_results_simp
  rw [H9]
  show shapeCast S128x128 (extractStridedSlice S1x128x128 _ eW2 _) _ = _
  exact Cut.slab_of_stack eW2 (by rfl) _ _

/-- THE LAYER'S ROW of the second bias stack, as a one-row array. -/
theorem read_second_bias (eb2 : RArr 3 128) (H10 : W (Proc.devRef .tc main_arg10) = eb2) :
    atEntry (Proc.devRef .tc main_v36) = fun i => rowV eb2 0 (i 1) := by
  after_results_simp
  rw [H10]
  show shapeCast S1x128 (shapeCast S128 (extractStridedSlice S1x128 _ eb2 _) _) _ = _
  exact Cut.row_of_stack eb2 (by rfl) _ _ _

/-- The three row blocks of the first matrix, each a slice of it. -/
theorem read_block_a :
    atEntry (Proc.devRef .tc main_v32)
      = extractStridedSlice S128x128 _ (atEntry (Proc.devRef .tc main_v25)) slices_S384x128_S128x128_0_0 := by
  after_results_simp
theorem read_block_b :
    atEntry (Proc.devRef .tc main_v33)
      = extractStridedSlice S128x128 _ (atEntry (Proc.devRef .tc main_v25)) slices_S384x128_S128x128_128_0 := by
  after_results_simp
theorem read_block_c :
    atEntry (Proc.devRef .tc main_v34)
      = extractStridedSlice S128x128 _ (atEntry (Proc.devRef .tc main_v25)) slices_S384x128_S128x128_256_0 := by
  after_results_simp

end Reads

/-! ## An edge layer (layer 0)

The program reads, for every edge, the state row of its destination word and of its source word (a negative word
wrapped once, a fill value where the wrapped word names no row), narrows both, cuts layer 0's slabs out of the weight
stacks and the first matrix into its three row blocks, and the region computes the edges' messages. -/

section Windows

/-- The row blocks of the layer's first matrix, whatever that matrix is called. -/
theorem block_a (S : RArr 384 128)
    (HS : StableHlo.after hostOps1_4 (StableHlo.after hostOps1_3 (StableHlo.after hostOps1_2 (StableHlo.after hostOps1_1 (W3 m ρ c))))
      (Proc.devRef .tc main_v25) = S) :
    V7 m ρ c (Pipeline.arrRef spec1 3) = rowsAt 128 0 (by decide) S := by
  show StableHlo.after hostOps1_4 (StableHlo.after hostOps1_3 (StableHlo.after hostOps1_2 (StableHlo.after hostOps1_1 (W3 m ρ c)))) (Proc.devRef .tc main_v32) = _
  rw [read_block_a, HS]
  exact Cut.row_block S 0 _ _
theorem block_b (S : RArr 384 128)
    (HS : StableHlo.after hostOps1_4 (StableHlo.after hostOps1_3 (StableHlo.after hostOps1_2 (StableHlo.after hostOps1_1 (W3 m ρ c))))
      (Proc.devRef .tc main_v25) = S) :
    V7 m ρ c (Pipeline.arrRef spec1 4) = rowsAt 128 128 (by decide) S := by
  show StableHlo.after hostOps1_4 (StableHlo.after hostOps1_3 (StableHlo.after hostOps1_2 (StableHlo.after hostOps1_1 (W3 m ρ c)))) (Proc.devRef .tc main_v33) = _
  rw [read_block_b, HS]
  exact Cut.row_block S 128 _ _
theorem block_c (S : RArr 384 128)
    (HS : StableHlo.after hostOps1_4 (StableHlo.after hostOps1_3 (StableHlo.after hostOps1_2 (StableHlo.after hostOps1_1 (W3 m ρ c))))
      (Proc.devRef .tc main_v25) = S) :
    V7 m ρ c (Pipeline.arrRef spec1 5) = rowsAt 128 256 (by decide) S := by
  show StableHlo.after hostOps1_4 (StableHlo.after hostOps1_3 (StableHlo.after hostOps1_2 (StableHlo.after hostOps1_1 (W3 m ρ c)))) (Proc.devRef .tc main_v34) = _
  rw [read_block_c, HS]
  exact Cut.row_block S 256 _ _

/-- The destination rows as the region finds them: the state's rows by the destination words, filled where a word names
    no row. -/
theorem window_dst (h : RArr 40000 128) (w : Fin 640000 → BitVec 32)
    (Hh : W3 m ρ c (Proc.devRef .tc main_v10) = h) (Hw : W3 m ρ c (Proc.devRef .tc main_v3) = fun i => w (i 0)) :
    V7 m ρ c (Pipeline.arrRef spec1 0)
      = takeFill (N := 40000) (by decide) 39999#32 (Ideal.ofBits .f32 0x7FC00000#32) h w := by
  show StableHlo.after hostOps1_4 (StableHlo.after hostOps1_3 (StableHlo.after hostOps1_2 (StableHlo.after hostOps1_1 (W3 m ρ c)))) (Proc.devRef .tc main_v21) = _
  refine (read_dst_rows (W3 m ρ c) h _ Hh Hw).trans ?_
  funext i
  obtain ⟨e, q, rfl⟩ : ∃ (e : Fin 640000) (q : Fin 128), i = ix2 e q := ⟨i 0, i 1, eq_ix2 i⟩
  refine (truncf_apply (ψ := .bf16) (Take.rows h fun i => w (i 0)) bitsLt_bf16_f32 (ix2 e q)).trans ?_
  exact Take.rows_at h (fun i => w (i 0)) e q

/-- The source rows likewise. -/
theorem window_src (h : RArr 40000 128) (w : Fin 640000 → BitVec 32)
    (Hh : W3 m ρ c (Proc.devRef .tc main_v10) = h) (Hw : W3 m ρ c (Proc.devRef .tc main_v1) = fun i => w (i 0)) :
    V7 m ρ c (Pipeline.arrRef spec1 1)
      = takeFill (N := 40000) (by decide) 39999#32 (Ideal.ofBits .f32 0x7FC00000#32) h w := by
  show StableHlo.after hostOps1_4 (StableHlo.after hostOps1_3 (StableHlo.after hostOps1_2 (StableHlo.after hostOps1_1 (W3 m ρ c)))) (Proc.devRef .tc main_v23) = _
  refine (read_src_rows (W3 m ρ c) h _ Hh Hw).trans ?_
  funext i
  obtain ⟨e, q, rfl⟩ : ∃ (e : Fin 640000) (q : Fin 128), i = ix2 e q := ⟨i 0, i 1, eq_ix2 i⟩
  refine (truncf_apply (ψ := .bf16) (Take.rows h fun i => w (i 0)) bitsLt_bf16_f32 (ix2 e q)).trans ?_
  exact Take.rows_at h (fun i => w (i 0)) e q

end Windows
/-- The edges' messages from the state, the index array, the attribute array and layer 0's slabs. -/
theorem stageT0 (h : RArr 40000 128) (ei : (Sh 2 640000).Idx → BitVec 32) (ea : RArr 640000 128)
    (eW1 : (⟨3, ![3, 384, 128]⟩ : Shape).Idx → EReal) (eb1 : RArr 3 128)
    (eW2 : (⟨3, ![3, 128, 128]⟩ : Shape).Idx → EReal) (eb2 : RArr 3 128)
    (Hh : W3 m ρ c (Proc.devRef .tc main_v10) = h)
    (Hdst : W3 m ρ c (Proc.devRef .tc main_v3) = fun i => ei (ix2 1 (i 0)))
    (Hsrc : W3 m ρ c (Proc.devRef .tc main_v1) = fun i => ei (ix2 0 (i 0)))
    (Hea : W3 m ρ c (Proc.devRef .tc main_arg2) = ea)
    (H7 : W3 m ρ c (Proc.devRef .tc main_arg7) = eW1) (H8 : W3 m ρ c (Proc.devRef .tc main_arg8) = eb1)
    (H9 : W3 m ρ c (Proc.devRef .tc main_arg9) = eW2) (H10 : W3 m ρ c (Proc.devRef .tc main_arg10) = eb2) :
    W8 m ρ c (Proc.devRef .tc main_v37)
      = edgeMsg3 (takeFill (N := 40000) (by decide) 39999#32 (Ideal.ofBits .f32 0x7FC00000#32) h (dstW ei))
          (takeFill (N := 40000) (by decide) 39999#32 (Ideal.ofBits .f32 0x7FC00000#32) h (srcW ei)) ea
          (rowsAt 128 0 (by decide) (slab eW1 0)) (rowsAt 128 128 (by decide) (slab eW1 0)) (rowsAt 128 256 (by decide) (slab eW1 0))
          (rowV eb1 0) (slab eW2 0) (rowV eb2 0) := by
  have hslab := read_first_matrix (W3 m ρ c) eW1 H7
  show W8 m ρ c (Proc.devRef .tc (Pipeline.arrRef spec1 9)) = _
  rw [W8_arr m ρ c 9,
    RegVal.region1_arr (V7 m ρ) c _ _ _ _ _ _ _ _ _
      (window_dst m ρ c h (dstW ei) Hh Hdst) (window_src m ρ c h (srcW ei) Hh Hsrc)
      ((read_attr (W3 m ρ c)).trans Hea)
      (block_a m ρ c _ hslab) (block_b m ρ c _ hslab) (block_c m ρ c _ hslab)
      (read_first_bias (W3 m ρ c) eb1 H8) (read_second_matrix (W3 m ρ c) eW2 H9) (read_second_bias (W3 m ρ c) eb2 H10)]
  rfl

end Cert.KernelIdeal.Stage

end
-- ==== Proof.KRegion3.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! # Region 1: the messages of a layer's edges

640000 edges in 40 row blocks of 16000. At row block t the body reads rows 16000 t … 16000 t + 15999 of the destination,
source and attribute arrays, the three first-layer matrices, the first bias row, the second matrix and the second bias
row (all of these whole), and stores the block of messages: for edge e and coordinate q, the second dense layer over the
128 hidden units of e, each hidden unit the rectified sum of the three products and the bias. Over the extended reals a
change of format is the identity, so the stored entry is exactly Spec.edgeMsg3 at (e, q). -/

namespace EdgeMessage3

/-! ## The body's arithmetic at one entry of a block -/

/-- A product of a 16000 × 128 block with a 128 × 128 matrix into a zero accumulator, at (p, q): the sum over the
    shared coordinate. -/
theorem edgeProd_apply {φ₁ φ₂ : FTy} (l : FVec Ideal S16000x128 φ₁) (r : FVec Ideal S128x128 φ₂) (p : Fin 16000) (q : Fin 128) :
    matmul dot_S16000x128_S128x128_S16000x128_1_0_0_1_n_n none l r (constant S16000x128 .f32 0x00000000#32) (ix2 p q)
      = ∑ k : Fin 128, l (ix2 p k) * r (ix2 k q) :=
  Cert.LibDense.matmul_zero_apply dot_S16000x128_S128x128_S16000x128_1_0_0_1_n_n rfl rfl rfl rfl rfl rfl none l r p q

/-- The hidden units of a block of edges: the three products summed in the body's grouping, the bias row added to
    every edge, the rectifier. -/
def hiddenBlk (xd xs : FVec Ideal S16000x128 .bf16) (xe : FVec Ideal S16000x128 .f32) (ma mb mc : FVec Ideal S128x128 .f32)
    (r1 : FVec Ideal S1x128 .f32) : FVec Ideal S16000x128 .f32 :=
  maximumf
    (addf
      (addf
        (addf
          (matmul dot_S16000x128_S128x128_S16000x128_1_0_0_1_n_n none xd (truncf .bf16 ma bitsLt_bf16_f32) (constant S16000x128 .f32 0x00000000#32))
          (matmul dot_S16000x128_S128x128_S16000x128_1_0_0_1_n_n none xs (truncf .bf16 mb bitsLt_bf16_f32) (constant S16000x128 .f32 0x00000000#32)))
        (matmul dot_S16000x128_S128x128_S16000x128_1_0_0_1_n_n none (truncf .bf16 xe bitsLt_bf16_f32) (truncf .bf16 mc bitsLt_bf16_f32) (constant S16000x128 .f32 0x00000000#32)))
      (broadcastTo S16000x128 r1 broadcasts_S1x128_S16000x128))
    (broadcast S16000x128 (Scalar.ofBits (F := Ideal) .f32 0x00000000#32))

/-- Hidden unit k of edge p of the block: the first layer of the edge's perceptron followed by the rectifier. -/
theorem hiddenBlk_apply (xd xs : FVec Ideal S16000x128 .bf16) (xe : FVec Ideal S16000x128 .f32) (ma mb mc : FVec Ideal S128x128 .f32)
    (r1 : FVec Ideal S1x128 .f32) (p : Fin 16000) (k : Fin 128) :
    hiddenBlk xd xs xe ma mb mc r1 (ix2 p k)
      = relu (edgePre3 (E := 16000) xd xs xe ma mb mc (fun c => r1 (ix2 0 c))) (ix2 p k) := by
  show max (((matmul dot_S16000x128_S128x128_S16000x128_1_0_0_1_n_n none xd (truncf .bf16 ma bitsLt_bf16_f32) (constant S16000x128 .f32 0x00000000#32) (ix2 p k)
        + matmul dot_S16000x128_S128x128_S16000x128_1_0_0_1_n_n none xs (truncf .bf16 mb bitsLt_bf16_f32) (constant S16000x128 .f32 0x00000000#32) (ix2 p k))
        + matmul dot_S16000x128_S128x128_S16000x128_1_0_0_1_n_n none (truncf .bf16 xe bitsLt_bf16_f32) (truncf .bf16 mc bitsLt_bf16_f32) (constant S16000x128 .f32 0x00000000#32) (ix2 p k))
        + broadcastTo S16000x128 r1 broadcasts_S1x128_S16000x128 (ix2 p k)) (Ideal.ofBits .f32 0x00000000#32) = _
  rw [edgeProd_apply, edgeProd_apply, edgeProd_apply, broadcastTo_1b_ab_apply, Ideal.ofBits_zero_f32]
  rfl

/-- THE BODY AT AN ENTRY: entry (p, q) of what the body stores is the message of edge p at coordinate q, computed from
    the loaded blocks: the second dense layer over the block's hidden units, plus the second bias row. -/
theorem pay_apply (xd xs : Vec Ideal S16000x128 .bf16) (xe : Vec Ideal S16000x128 .f32) (ma mb mc : Vec Ideal S128x128 .f32)
    (r1 : Vec Ideal S1x128 .f32) (m2 : Vec Ideal S128x128 .f32) (r2 : Vec Ideal S1x128 .f32) (p : Fin 16000) (q : Fin 128) :
    k3_pay1 xd xs xe ma mb mc r1 m2 r2 (ix2 p q)
      = edgeMsg3 (E := 16000) xd xs xe ma mb mc (fun c => r1 (ix2 0 c)) m2 (fun c => r2 (ix2 0 c)) (ix2 p q) := by
  unfold k3_pay1
  simp only [shapeCast_self]
  show matmul dot_S16000x128_S128x128_S16000x128_1_0_0_1_n_n none
        (truncf .bf16 (hiddenBlk xd xs xe ma mb mc r1) bitsLt_bf16_f32) (truncf .bf16 m2 bitsLt_bf16_f32)
        (constant S16000x128 .f32 0x00000000#32) (ix2 p q)
      + broadcastTo S16000x128 r2 broadcasts_S1x128_S16000x128 (ix2 p q) = _
  rw [edgeProd_apply, broadcastTo_1b_ab_apply]
  show (∑ k : Fin 128, hiddenBlk xd xs xe ma mb mc r1 (ix2 p k) * m2 (ix2 k q)) + r2 (ix2 0 q) = _
  simp only [hiddenBlk_apply]
  rfl

/-! ## One edge's message reads one row

The message of edge e at coordinate q reads row e of the destination, source and attribute arrays and nothing else of
them. So two triples of arrays, of any numbers of rows, that agree on a row of each give the same message there: what
lets a block of 16000 rows stand for its rows of the whole arrays. -/

theorem edgeMsg3_row {E E' K H C : Nat} (hd hs ea : RArr E K) (hd' hs' ea' : RArr E' K) (wa wb wc : RArr K H)
    (b1 : Fin H → EReal) (w2 : RArr H C) (b2 : Fin C → EReal) (e : Fin E) (e' : Fin E') (q : Fin C)
    (h0 : ∀ k, hd (ix2 e k) = hd' (ix2 e' k)) (h1 : ∀ k, hs (ix2 e k) = hs' (ix2 e' k))
    (h2 : ∀ k, ea (ix2 e k) = ea' (ix2 e' k)) :
    edgeMsg3 hd hs ea wa wb wc b1 w2 b2 (ix2 e q) = edgeMsg3 hd' hs' ea' wa wb wc b1 w2 b2 (ix2 e' q) := by
  show (∑ k : Fin H, max ((((∑ k' : Fin K, hd (ix2 e k') * wa (ix2 k' k)) + (∑ k' : Fin K, hs (ix2 e k') * wb (ix2 k' k)))
        + (∑ k' : Fin K, ea (ix2 e k') * wc (ix2 k' k))) + b1 k) 0 * w2 (ix2 k q)) + b2 q
      = (∑ k : Fin H, max ((((∑ k' : Fin K, hd' (ix2 e' k') * wa (ix2 k' k)) + (∑ k' : Fin K, hs' (ix2 e' k') * wb (ix2 k' k)))
        + (∑ k' : Fin K, ea' (ix2 e' k') * wc (ix2 k' k))) + b1 k) 0 * w2 (ix2 k q)) + b2 q
  simp only [h0, h1, h2]

/-! ## Where each window's block sits at a grid point

The three edge windows and the output window are at row block t (rows 16000 t … 16000 t + 15999, all 128 columns); the
matrices and the bias rows are whole at every point. -/

/-- The zero offsets of a whole-buffer access. -/
theorem offZero : (![0, 0] : Fin 2 → Nat) = fun _ => 0 := funext fun a => by fin_cases a <;> rfl

/-- The windows' index maps over the 40 grid points: the row-tiled windows' block index is (t, 0), the others' (0, 0). -/
theorem idx_facts : ∀ t : Fin cfg3.N,
    win3_9.index t (0 : Fin 2) = t.val ∧ win3_9.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- A grid point is one of 40. -/
theorem point_lt (t : Fin cfg3.N) : t.val < 40 := N_3 ▸ t.isLt

/-- Entry (p, k) of the destination block at point t is the array's entry (r, k), r the row 16000 t + p. -/
theorem dstBlk_apply (c : Dev nD) (t : Fin cfg3.N) (p : Fin 16000) (k : Fin 128) (r : Fin 640000)
    (hr : r.val = t.val * 16000 + p.val) :
    (iblk3 V c 0 t : Vec Ideal S16000x128 .bf16) (ix2 p k) = (V c (Pipeline.arrRef spec3 0) : RArr 640000 128) (ix2 r k) := by
  obtain ⟨-, -, f0, f1, -⟩ := idx_facts t
  show V c (Pipeline.arrRef spec3 0) (((cfg3.win 0).blk t).view.emb (ix2 p k)) = _
  refine congrArg _ (funext fun a => Fin.ext ?_)
  match a with
  | ⟨0, _⟩ => show win3_0.index t (0 : Fin 2) * 16000 + 1 * p.val = r.val; omega
  | ⟨1, _⟩ => show win3_0.index t (1 : Fin 2) * 128 + 1 * k.val = k.val; omega

/-- The same for the source block … -/
theorem srcBlk_apply (c : Dev nD) (t : Fin cfg3.N) (p : Fin 16000) (k : Fin 128) (r : Fin 640000)
    (hr : r.val = t.val * 16000 + p.val) :
    (iblk3 V c 1 t : Vec Ideal S16000x128 .bf16) (ix2 p k) = (V c (Pipeline.arrRef spec3 1) : RArr 640000 128) (ix2 r k) := by
  obtain ⟨-, -, -, -, f0, f1, -⟩ := idx_facts t
  show V c (Pipeline.arrRef spec3 1) (((cfg3.win 1).blk t).view.emb (ix2 p k)) = _
  refine congrArg _ (funext fun a => Fin.ext ?_)
  match a with
  | ⟨0, _⟩ => show win3_1.index t (0 : Fin 2) * 16000 + 1 * p.val = r.val; omega
  | ⟨1, _⟩ => show win3_1.index t (1 : Fin 2) * 128 + 1 * k.val = k.val; omega

/-- … and for the attribute block. -/
theorem attrBlk_apply (c : Dev nD) (t : Fin cfg3.N) (p : Fin 16000) (k : Fin 128) (r : Fin 640000)
    (hr : r.val = t.val * 16000 + p.val) :
    (iblk3 V c 2 t : Vec Ideal S16000x128 .f32) (ix2 p k) = (V c (Pipeline.arrRef spec3 2) : RArr 640000 128) (ix2 r k) := by
  obtain ⟨-, -, -, -, -, -, f0, f1, -⟩ := idx_facts t
  show V c (Pipeline.arrRef spec3 2) (((cfg3.win 2).blk t).view.emb (ix2 p k)) = _
  refine congrArg _ (funext fun a => Fin.ext ?_)
  match a with
  | ⟨0, _⟩ => show win3_2.index t (0 : Fin 2) * 16000 + 1 * p.val = r.val; omega
  | ⟨1, _⟩ => show win3_2.index t (1 : Fin 2) * 128 + 1 * k.val = k.val; omega

/-- Entry (p, q) of the output block at point t is the array's entry (r, q), r the row 16000 t + p. -/
theorem outBlk_emb (t : Fin cfg3.N) (p : Fin 16000) (q : Fin 128) (r : Fin 640000) (hr : r.val = t.val * 16000 + p.val) :
    ((cfg3.win 9).blk t).view.emb (ix2 p q) = (ix2 r q : S640000x128.Idx) := by
  obtain ⟨f0, f1, -⟩ := idx_facts t
  refine funext fun a => Fin.ext ?_
  match a with
  | ⟨0, _⟩ => show win3_9.index t (0 : Fin 2) * 16000 + 1 * p.val = r.val; omega
  | ⟨1, _⟩ => show win3_9.index t (1 : Fin 2) * 128 + 1 * q.val = q.val; omega

/-! The matrices and bias rows: the block at every point is the whole array, its block index being (0, 0). -/

/-- The destination part's matrix, whole at every point. -/
theorem matA_eq (c : Dev nD) (t : Fin cfg3.N) :
    (iblk3 V c 3 t : Vec Ideal S128x128 .f32) = V c (Pipeline.arrRef spec3 3) := by
  obtain ⟨-, -, -, -, -, -, -, -, f0, f1, -⟩ := idx_facts t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The source part's matrix. -/
theorem matB_eq (c : Dev nD) (t : Fin cfg3.N) :
    (iblk3 V c 4 t : Vec Ideal S128x128 .f32) = V c (Pipeline.arrRef spec3 4) := by
  obtain ⟨-, -, -, -, -, -, -, -, -, -, f0, f1, -⟩ := idx_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The attribute part's matrix. -/
theorem matC_eq (c : Dev nD) (t : Fin cfg3.N) :
    (iblk3 V c 5 t : Vec Ideal S128x128 .f32) = V c (Pipeline.arrRef spec3 5) := by
  obtain ⟨-, -, -, -, -, -, -, -, -, -, -, -, f0, f1, -⟩ := idx_facts t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- The first bias row. -/
theorem bias1_eq (c : Dev nD) (t : Fin cfg3.N) :
    (iblk3 V c 6 t : Vec Ideal S1x128 .f32) = V c (Pipeline.arrRef spec3 6) := by
  obtain ⟨-, -, -, -, -, -, -, -, -, -, -, -, -, -, f0, f1, -⟩ := idx_facts t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- The second layer's matrix. -/
theorem mat2_eq (c : Dev nD) (t : Fin cfg3.N) :
    (iblk3 V c 7 t : Vec Ideal S128x128 .f32) = V c (Pipeline.arrRef spec3 7) := by
  obtain ⟨-, -, -, -, -, -, -, -, -, -, -, -, -, -, -, -, f0, f1, -⟩ := idx_facts t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- The second bias row. -/
theorem bias2_eq (c : Dev nD) (t : Fin cfg3.N) :
    (iblk3 V c 8 t : Vec Ideal S1x128 .f32) = V c (Pipeline.arrRef spec3 8) := by
  obtain ⟨-, -, -, -, -, -, -, -, -, -, -, -, -, -, -, -, -, -, f0, f1⟩ := idx_facts t
  funext y
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-! ## From blocks to the array -/

/-- The region's result as one function of the arrays the region finds: every edge's message. -/
def msgArr (c : Dev nD) : RArr 640000 128 :=
  edgeMsg3 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (fun q => V c (Pipeline.arrRef spec3 6) (ix2 0 q)) (V c (Pipeline.arrRef spec3 7))
    (fun q => V c (Pipeline.arrRef spec3 8) (ix2 0 q))

/-- WHAT POINT t WRITES BACK is block t of the messages: entry (p, q) of the stored block is the body's arithmetic on
    the loaded blocks, which is the message of the edge 16000 t + p because each loaded edge block holds that edge's
    row at p and the matrices and bias rows are loaded whole. -/
theorem flushed_eq (c : Dev nD) (t : Fin cfg3.N) :
    (dat3 (F := Ideal) V c).flushed 9 t = ((cfg3.win 9).blk t).view.read (Elt Ideal) (msgArr V c) := by
  show (cfg3.win 9).cut (grid3.coords t) ((dat3 V c).after 9 t) = _
  rw [after3_9]
  unfold out3_9
  rw [View.canon_unit_zero offZero]
  simp only [View.ld_unit_zero (S := S16000x128) offZero, View.ld_unit_zero (S := S128x128) offZero, View.ld_unit_zero (S := S1x128) offZero]
  funext j
  obtain ⟨p, q, rfl⟩ : ∃ (p : Fin 16000) (q : Fin 128), j = ix2 p q := ⟨j 0, j 1, eq_ix2 j⟩
  have ht : t.val < 40 := point_lt t
  have hp : p.val < 16000 := p.isLt
  show k3_pay1 (iblk3 V c 0 t) (iblk3 V c 1 t) (iblk3 V c 2 t) (iblk3 V c 3 t) (iblk3 V c 4 t) (iblk3 V c 5 t)
        (iblk3 V c 6 t) (iblk3 V c 7 t) (iblk3 V c 8 t) (ix2 p q)
      = msgArr V c (((cfg3.win 9).blk t).view.emb (ix2 p q))
  rw [outBlk_emb t p q ⟨t.val * 16000 + p.val, by omega⟩ rfl, pay_apply,
    matA_eq V c t, matB_eq V c t, matC_eq V c t, bias1_eq V c t, mat2_eq V c t, bias2_eq V c t]
  exact edgeMsg3_row _ _ _ _ _ _ _ _ _ _ _ _ p ⟨t.val * 16000 + p.val, by omega⟩ q
    (fun k => dstBlk_apply V c t p k _ rfl) (fun k => srcBlk_apply V c t p k _ rfl) (fun k => attrBlk_apply V c t p k _ rfl)

/-- An entry of the array is in point t's block iff each coordinate is in the block's range on its axis. -/
theorem mem_blk (t : Fin cfg3.N) (i : S640000x128.Idx) :
    i ∈ ((cfg3.win 9).blk t).view.set ↔ ∀ a : Fin 2, win3_9.index t a * S16000x128.size a ≤ (i a).val
      ∧ (i a).val < win3_9.index t a * S16000x128.size a + S16000x128.size a := by
  show i ∈ ((View.whole main_v37).slice (win3_9.rect t)).set ↔ _
  rw [View.set_slice_whole, Rect.mem_set_unit]
  exact Iff.rfl

/-- The 40 row blocks fill the array: row r is in the block of point r / 16000, and every point writes back. -/
theorem cover (i : S640000x128.Idx) :
    ∃ t : Fin cfg3.N, (cfg3.win 9).flush t = true ∧ i ∈ ((cfg3.win 9).blk t).view.set := by
  have hi0 : (i 0).val < 640000 := idx2_lt0 i
  have hi1 : (i 1).val < 128 := idx2_lt1 i
  have hN : (i 0).val / 16000 < cfg3.N := by rw [show cfg3.N = 40 from N_3]; omega
  obtain ⟨f0, f1, -⟩ := idx_facts ⟨(i 0).val / 16000, hN⟩
  refine ⟨⟨(i 0).val / 16000, hN⟩, flush3_9 _, ?_⟩
  rw [mem_blk]
  intro a
  match a with
  | ⟨0, _⟩ =>
    show win3_9.index ⟨(i 0).val / 16000, hN⟩ (0 : Fin 2) * 16000 ≤ (i 0).val
      ∧ (i 0).val < win3_9.index ⟨(i 0).val / 16000, hN⟩ (0 : Fin 2) * 16000 + 16000
    rw [f0]; show (i 0).val / 16000 * 16000 ≤ (i 0).val ∧ (i 0).val < (i 0).val / 16000 * 16000 + 16000; omega
  | ⟨1, _⟩ =>
    show win3_9.index ⟨(i 0).val / 16000, hN⟩ (1 : Fin 2) * 128 ≤ (i 1).val
      ∧ (i 1).val < win3_9.index ⟨(i 0).val / 16000, hN⟩ (1 : Fin 2) * 128 + 128
    rw [f1]; omega

/-- THE ARRAY after the 40 points: every edge's message. -/
theorem final (c : Dev nD) : (dat3 (F := Ideal) V c).arrAt 9 cfg3.N = msgArr V c :=
  (dat3 V c).arrAt_eq_of_cover 9 (msgArr V c) (fun t _ => flushed_eq V c t) cover

end EdgeMessage3

/-- Region 1 (an edge layer's perceptron): after the 40 grid points the output array holds, at every entry, the message
    of that edge from its destination row, source row and attribute row. -/
theorem region3_arr (c : Dev nD)
    (hd hs ea : RArr 640000 128) (wa wb wc : RArr 128 128) (b1 : RArr 1 128) (w2 : RArr 128 128) (b2 : RArr 1 128)
    (hhd : V c (Pipeline.arrRef spec3 0) = hd) (hhs : V c (Pipeline.arrRef spec3 1) = hs)
    (hea : V c (Pipeline.arrRef spec3 2) = ea) (hwa : V c (Pipeline.arrRef spec3 3) = wa)
    (hwb : V c (Pipeline.arrRef spec3 4) = wb) (hwc : V c (Pipeline.arrRef spec3 5) = wc)
    (hb1 : V c (Pipeline.arrRef spec3 6) = b1) (hw2 : V c (Pipeline.arrRef spec3 7) = w2)
    (hb2 : V c (Pipeline.arrRef spec3 8) = b2) :
    (dat3 (F := Ideal) V c).arrAt 9 cfg3.N
      = edgeMsg3 hd hs ea wa wb wc (fun q => b1 (ix2 0 q)) w2 (fun q => b2 (ix2 0 q)) := by
  subst hhd hhs hea hwa hwb hwc hb1 hw2 hb2
  exact EdgeMessage3.final V c

end Cert.KernelIdeal.RegVal

end
-- ==== Proof.KStageT1.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import proofs.«403623_j41042707481180_2_alg».proof.Proof.KRegion3
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.StageL1

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-- A typed reference's two transports of contents, one after the other, change nothing. -/
theorem ofBuf_toBuf {Val : EltTy → Type} {T : BufTy} (x : StableHlo.TRef sig T) (v : T.Contents Val) : x.ofBuf (x.toBuf v) = v := by
  obtain ⟨r, rfl, _, _⟩ := x
  rfl

/-! ## Reading table rows by words

The program reads, for each of the 640000 words, a row of the 40000 × 128 state: a negative word is first wrapped by
40000; the wrapped word is tested against 0 … 39999; the row is read at the wrapped word clamped into the table; and
where the test fails the row is replaced by a fill value. The operations below are the printed ones, named one by one,
each with what it is at one entry. -/

namespace Take

/-- In one bit, "and" with a set bit changes nothing. -/
theorem and_set_bit : ∀ b : BitVec 1, IntOp.andi b 1#1 = b := by decide

/-- A fold over an index type with one element is one application of the operation. -/
theorem fold_one_index {α : Type} {n : Nat} (hn : n = 1) (op : α → α → α) [Std.Commutative op] [Std.Associative op]
    (b : α) (f : Fin n → α) : (Finset.univ : Finset (Fin n)).fold op b f = op (f ⟨0, by omega⟩) b := by
  subst hn
  rw [Finset.univ_unique, Finset.fold_singleton]
  rfl

/-- The words, a negative one wrapped once by the table's 40000 rows. -/
def wrapped (w : IVec S640000 32) : IVec S640000 32 :=
  select (cmpi .slt w (broadcastInDim S640000 ![] bcast_S_S640000 (constantI S_ 32 0#32)))
    (addi w (broadcastInDim S640000 ![] bcast_S_S640000 (constantI S_ 32 40000#32))) w

theorem wrapped_at (w : IVec S640000 32) (e : Fin 640000) : wrapped w (ix1 e) = wrapW 40000 (w (ix1 e)) := rfl

/-- The wrapped words as a one-column array. -/
def column (w : IVec S640000 32) : IVec S640000x1 32 :=
  broadcastInDim S640000x1 ![0] bcast_S640000_S640000x1_0 (wrapped w)

theorem column_at (w : IVec S640000 32) (e : Fin 640000) : column w (ix2 e 0) = wrapW 40000 (w (ix1 e)) := by
  unfold column
  refine (broadcastInDim_apply _ _ _ (ix2 e 0) (ix1 e) (fun a => ?_)).trans (wrapped_at w e)
  match a with
  | ⟨0, _⟩ => rfl

/-- The range test of the wrapped words, as a one-column array of bits: 0 ≤ word and word ≤ 39999. -/
def inRange (w : IVec S640000 32) : IVec S640000x1 1 :=
  andi (cmpi .sge (column w) (broadcastInDim S640000x1 ![] bcast_S_S640000x1 (constantI S_ 32 0#32)))
    (cmpi .sle (column w) (broadcastInDim S640000x1 ![0, 1] bcast_S1x1_S640000x1_0_1
      (broadcastInDim S1x1 ![1] bcast_S1_S1x1_1 (constantI S1 32 39999#32))))

theorem inRange_at (w : IVec S640000 32) (e : Fin 640000) :
    inRange w (ix2 e 0)
      = IntOp.andi (IntOp.cmpi .sge (column w (ix2 e 0)) 0#32) (IntOp.cmpi .sle (column w (ix2 e 0)) 39999#32) := rfl

/-- The conjunction of a one-column array of bits along its unit axis, from a set bit, is the column itself. -/
theorem all_of_unit_axis (x : IVec S640000x1 1) (e : Fin 640000) :
    Host.reduce IntOp.andi x (constantI S_ 1 1#1) reducesTo_S640000x1_S640000_d1 h_S_ (ix1 e) = x (ix2 e 0) := by
  have hR : S640000x1.Reduces [1] S640000 := by decide
  have hlift : ∀ k : Fin (S640000x1.size 1), hR.lift (ix1 e) k = ix2 e 0 := fun k => by
    funext a
    refine Fin.ext ?_
    rw [Shape.Reduces.lift_val]
    match a with
    | ⟨0, _⟩ => rfl
    | ⟨1, _⟩ => show k.val = 0; have hk : k.val < 1 := k.isLt; omega
  rw [Host.reduce_eq_fold_single IntOp.andi x _ _ hR]
  refine (fold_one_index (n := S640000x1.size 1) rfl IntOp.andi _ _).trans ?_
  rw [Function.comp_apply, hlift]
  exact and_set_bit _

/-- The range test per word: the column's test gathered along its unit axis. -/
def rowOk (w : IVec S640000 32) : IVec S640000 1 :=
  Host.reduce IntOp.andi (inRange w) (constantI S_ 1 1#1) reducesTo_S640000x1_S640000_d1 h_S_

theorem rowOk_at (w : IVec S640000 32) (e : Fin 640000) : rowOk w (ix1 e) = inRange w (ix2 e 0) :=
  all_of_unit_axis (inRange w) e

/-- THE ROWS READ: where the range test holds, the state's row at the clamped wrapped word; elsewhere the fill value. -/
def rows (hT : FVec Ideal S40000x128 .f32) (w : IVec S640000 32) : FVec Ideal S640000x128 .f32 :=
  select (broadcastInDim S640000x128 ![0] bcast_S640000_S640000x128_0 (rowOk w))
    (Host.gather gather_S40000x128_S640000x1_S640000x128_1_0_n_n_0_1_1128 hT (column w))
    (broadcastInDim S640000x128 ![] bcast_S_S640000x128 (constant S_ .f32 0x7FC00000#32))

/-- The rows read, at one entry: the spec's filled row read. -/
theorem rows_at (hT : FVec Ideal S40000x128 .f32) (w : IVec S640000 32) (e : Fin 640000) (q : Fin 128) :
    rows hT w (ix2 e q)
      = takeFill (N := 40000) (by decide) 39999#32 (Ideal.ofBits .f32 0x7FC00000#32) hT (fun e => w (ix1 e)) (ix2 e q) := by
  have hmask : broadcastInDim S640000x128 ![0] bcast_S640000_S640000x128_0 (rowOk w) (ix2 e q) = rowOk w (ix1 e) :=
    broadcastInDim_apply _ _ _ (ix2 e q) (ix1 e) (fun a => match a with | ⟨0, _⟩ => rfl)
  have hrow := Cert.LibGS.gather_rows_gen gather_S40000x128_S640000x1_S640000x128_1_0_n_n_0_1_1128
    (by decide : 0 < 40000) rfl rfl rfl rfl rfl rfl hT (column w) e q
  show Scalar.select (broadcastInDim S640000x128 ![0] bcast_S640000_S640000x128_0 (rowOk w) (ix2 e q))
      (Host.gather gather_S40000x128_S640000x1_S640000x128_1_0_n_n_0_1_1128 hT (column w) (ix2 e q))
      (Ideal.ofBits .f32 0x7FC00000#32)
    = Scalar.select (IntOp.andi (IntOp.cmpi .sge (wrapW 40000 (w (ix1 e))) 0#32) (IntOp.cmpi .sle (wrapW 40000 (w (ix1 e))) 39999#32))
      (hT (ix2 (rowOf 40000 (by decide) (wrapW 40000 (w (ix1 e)))) q)) (Ideal.ofBits .f32 0x7FC00000#32)
  rw [hmask, hrow, rowOk_at, inRange_at, column_at]

end Take

/-! ## Slabs, rows and row blocks

The weight stacks hold one slab (or one row) per layer; a layer's first matrix is cut into three blocks of 128 rows. Each
lemma reads the printed chain of slices and reshapes at one entry. -/

namespace Cut

/-- Slab l of a stack of three A × B matrices: the slice of one slab, viewed without its unit axis. -/
theorem slab_of_stack {A B : Nat} (X : (⟨3, ![3, A, B]⟩ : Shape).Idx → EReal) {l : Fin 3} {off : Fin 3 → Nat}
    (hoff : off = ![l.val, 0, 0]) (hs : (⟨3, ![3, A, B]⟩ : Shape).Slices off ⟨3, ![1, A, B]⟩)
    (hc : (⟨3, ![1, A, B]⟩ : Shape).ShapeCasts ⟨2, ![A, B]⟩) :
    shapeCast ⟨2, ![A, B]⟩ (extractStridedSlice ⟨3, ![1, A, B]⟩ off X hs) hc = slab X l := by
  subst hoff
  funext i
  obtain ⟨r, q, rfl⟩ : ∃ (r : Fin A) (q : Fin B), i = ix2 r q := ⟨i 0, i 1, eq_ix2 i⟩
  refine (shapeCast_1ab_ab_apply _ hc r q).trans ?_
  exact extractStridedSlice_apply _ X hs (ix3 0 r q) (ix3 l r q) (fun a => by
    match a with
    | ⟨0, _⟩ => rfl
    | ⟨1, _⟩ => exact (Nat.zero_add _).symm
    | ⟨2, _⟩ => exact (Nat.zero_add _).symm)

/-- Row l of a three-row array, cut out as a one-row array, flattened and made a one-row array again: at (0, q) it is
    the array's entry (l, q). -/
theorem row_of_stack {B : Nat} (X : RArr 3 B) {l : Fin 3} {off : Fin 2 → Nat} (hoff : off = ![l.val, 0])
    (hs : (⟨2, ![3, B]⟩ : Shape).Slices off ⟨2, ![1, B]⟩) (hc1 : (⟨2, ![1, B]⟩ : Shape).ShapeCasts ⟨1, ![B]⟩)
    (hc2 : (⟨1, ![B]⟩ : Shape).ShapeCasts ⟨2, ![1, B]⟩) :
    shapeCast ⟨2, ![1, B]⟩ (shapeCast ⟨1, ![B]⟩ (extractStridedSlice ⟨2, ![1, B]⟩ off X hs) hc1) hc2
      = fun i => rowV X l (i 1) := by
  subst hoff
  funext i
  obtain ⟨u, q, rfl⟩ : ∃ (u : Fin 1) (q : Fin B), i = ix2 u q := ⟨i 0, i 1, eq_ix2 i⟩
  refine (shapeCast_a_1a_apply _ hc2 u q).trans ?_
  refine (shapeCast_1a_a_apply _ hc1 q).trans ?_
  exact slice2_axis0_apply l.val X hs (0 : Fin 1) q l rfl

/-- Rows o … o + 127 of a 384-row matrix. -/
theorem row_block (X : RArr 384 128) (o : Nat) (ho : o + 128 ≤ 384) (hs : S384x128.Slices ![o, 0] S128x128) :
    extractStridedSlice S128x128 ![o, 0] X hs = rowsAt 128 o ho X := by
  funext i
  obtain ⟨r, q, rfl⟩ : ∃ (r : Fin 128) (q : Fin 128), i = ix2 r q := ⟨i 0, i 1, eq_ix2 i⟩
  exact slice2_axis0_apply o X hs r q ⟨o + r.val, by have := r.isLt; omega⟩ rfl

end Cut

/-! ## What region 1 finds in its windows' arrays

Each array is read off the four host stretches in one step, over ANY contents `W` before them. -/

section Reads
variable (W : Valuation τ sig (Elt Ideal))

local notation "atEntry" => StableHlo.after hostOps3_3 (StableHlo.after hostOps3_2 (StableHlo.after hostOps3_1 (StableHlo.after hostOps3 W)))

/-- The rows read by the destination words, narrowed. -/
theorem read_dst_rows (hT : FVec Ideal S40000x128 .f32) (w : IVec S640000 32)
    (Hh : W (Proc.devRef .tc main_v47) = hT) (Hw : W (Proc.devRef .tc main_v3) = w) :
    atEntry (Proc.devRef .tc main_v49)
      = (truncf .bf16 (Take.rows hT w) bitsLt_bf16_f32 : FVec Ideal S640000x128 .bf16) := by
  subst Hh Hw
  after_results_simp
  simp only [ofBuf_toBuf]
  simp only [TRef.ofBuf, TRef.toBuf, cast_eq]
  rfl

/-- The rows read by the source words, narrowed. -/
theorem read_src_rows (hT : FVec Ideal S40000x128 .f32) (w : IVec S640000 32)
    (Hh : W (Proc.devRef .tc main_v47) = hT) (Hw : W (Proc.devRef .tc main_v1) = w) :
    atEntry (Proc.devRef .tc main_v51)
      = (truncf .bf16 (Take.rows hT w) bitsLt_bf16_f32 : FVec Ideal S640000x128 .bf16) := by
  subst Hh Hw
  after_results_simp
  simp only [ofBuf_toBuf]
  simp only [TRef.ofBuf, TRef.toBuf, cast_eq]
  rfl

/-- The attribute array is not written. -/
theorem read_attr : atEntry (Proc.devRef .tc main_arg2) = W (Proc.devRef .tc main_arg2) := by
  after_results_simp

/-- THE LAYER'S SLAB of the first weight stack. -/
theorem read_first_matrix (eW1 : (⟨3, ![3, 384, 128]⟩ : Shape).Idx → EReal) (H7 : W (Proc.devRef .tc main_arg7) = eW1) :
    atEntry (Proc.devRef .tc main_v53) = slab eW1 1 := by
  after_results_simp
  rw [H7]
  show shapeCast S384x128 (extractStridedSlice S1x384x128 _ eW1 _) _ = _
  exact Cut.slab_of_stack eW1 (by rfl) _ _

/-- THE LAYER'S ROW of the first bias stack, as a one-row array. -/
theorem read_first_bias (eb1 : RArr 3 128) (H8 : W (Proc.devRef .tc main_arg8) = eb1) :
    atEntry (Proc.devRef .tc main_v63) = fun i => rowV eb1 1 (i 1) := by
  after_results_simp
  rw [H8]
  show shapeCast S1x128 (shapeCast S128 (extractStridedSlice S1x128 _ eb1 _) _) _ = _
  exact Cut.row_of_stack eb1 (by rfl) _ _ _

/-- THE LAYER'S SLAB of the second weight stack. -/
theorem read_second_matrix (eW2 : (⟨3, ![3, 128, 128]⟩ : Shape).Idx → EReal) (H9 : W (Proc.devRef .tc main_arg9) = eW2) :
    atEntry (Proc.devRef .tc main_v57) = slab eW2 1 := by
  after_results_simp
  rw [H9]
  show shapeCast S128x128 (extractStridedSlice S1x128x128 _ eW2 _) _ = _
  exact Cut.slab_of_stack eW2 (by rfl) _ _

/-- THE LAYER'S ROW of the second bias stack, as a one-row array. -/
theorem read_second_bias (eb2 : RArr 3 128) (H10 : W (Proc.devRef .tc main_arg10) = eb2) :
    atEntry (Proc.devRef .tc main_v64) = fun i => rowV eb2 1 (i 1) := by
  after_results_simp
  rw [H10]
  show shapeCast S1x128 (shapeCast S128 (extractStridedSlice S1x128 _ eb2 _) _) _ = _
  exact Cut.row_of_stack eb2 (by rfl) _ _ _

/-- The three row blocks of the first matrix, each a slice of it. -/
theorem read_block_a :
    atEntry (Proc.devRef .tc main_v60)
      = extractStridedSlice S128x128 _ (atEntry (Proc.devRef .tc main_v53)) slices_S384x128_S128x128_0_0 := by
  after_results_simp
theorem read_block_b :
    atEntry (Proc.devRef .tc main_v61)
      = extractStridedSlice S128x128 _ (atEntry (Proc.devRef .tc main_v53)) slices_S384x128_S128x128_128_0 := by
  after_results_simp
theorem read_block_c :
    atEntry (Proc.devRef .tc main_v62)
      = extractStridedSlice S128x128 _ (atEntry (Proc.devRef .tc main_v53)) slices_S384x128_S128x128_256_0 := by
  after_results_simp

end Reads

/-! ## An edge layer (layer 1)

The program reads, for every edge, the state row of its destination word and of its source word (a negative word
wrapped once, a fill value where the wrapped word names no row), narrows both, cuts layer 1's slabs out of the weight
stacks and the first matrix into its three row blocks, and the region computes the edges' messages. -/

section Windows

/-- The row blocks of the layer's first matrix, whatever that matrix is called. -/
theorem block_a (S : RArr 384 128)
    (HS : StableHlo.after hostOps3_3 (StableHlo.after hostOps3_2 (StableHlo.after hostOps3_1 (StableHlo.after hostOps3 (W10 m ρ c))))
      (Proc.devRef .tc main_v53) = S) :
    V14 m ρ c (Pipeline.arrRef spec3 3) = rowsAt 128 0 (by decide) S := by
  show StableHlo.after hostOps3_3 (StableHlo.after hostOps3_2 (StableHlo.after hostOps3_1 (StableHlo.after hostOps3 (W10 m ρ c)))) (Proc.devRef .tc main_v60) = _
  rw [read_block_a, HS]
  exact Cut.row_block S 0 _ _
theorem block_b (S : RArr 384 128)
    (HS : StableHlo.after hostOps3_3 (StableHlo.after hostOps3_2 (StableHlo.after hostOps3_1 (StableHlo.after hostOps3 (W10 m ρ c))))
      (Proc.devRef .tc main_v53) = S) :
    V14 m ρ c (Pipeline.arrRef spec3 4) = rowsAt 128 128 (by decide) S := by
  show StableHlo.after hostOps3_3 (StableHlo.after hostOps3_2 (StableHlo.after hostOps3_1 (StableHlo.after hostOps3 (W10 m ρ c)))) (Proc.devRef .tc main_v61) = _
  rw [read_block_b, HS]
  exact Cut.row_block S 128 _ _
theorem block_c (S : RArr 384 128)
    (HS : StableHlo.after hostOps3_3 (StableHlo.after hostOps3_2 (StableHlo.after hostOps3_1 (StableHlo.after hostOps3 (W10 m ρ c))))
      (Proc.devRef .tc main_v53) = S) :
    V14 m ρ c (Pipeline.arrRef spec3 5) = rowsAt 128 256 (by decide) S := by
  show StableHlo.after hostOps3_3 (StableHlo.after hostOps3_2 (StableHlo.after hostOps3_1 (StableHlo.after hostOps3 (W10 m ρ c)))) (Proc.devRef .tc main_v62) = _
  rw [read_block_c, HS]
  exact Cut.row_block S 256 _ _

/-- The destination rows as the region finds them: the state's rows by the destination words, filled where a word names
    no row. -/
theorem window_dst (h : RArr 40000 128) (w : Fin 640000 → BitVec 32)
    (Hh : W10 m ρ c (Proc.devRef .tc main_v47) = h) (Hw : W10 m ρ c (Proc.devRef .tc main_v3) = fun i => w (i 0)) :
    V14 m ρ c (Pipeline.arrRef spec3 0)
      = takeFill (N := 40000) (by decide) 39999#32 (Ideal.ofBits .f32 0x7FC00000#32) h w := by
  show StableHlo.after hostOps3_3 (StableHlo.after hostOps3_2 (StableHlo.after hostOps3_1 (StableHlo.after hostOps3 (W10 m ρ c)))) (Proc.devRef .tc main_v49) = _
  refine (read_dst_rows (W10 m ρ c) h _ Hh Hw).trans ?_
  funext i
  obtain ⟨e, q, rfl⟩ : ∃ (e : Fin 640000) (q : Fin 128), i = ix2 e q := ⟨i 0, i 1, eq_ix2 i⟩
  refine (truncf_apply (ψ := .bf16) (Take.rows h fun i => w (i 0)) bitsLt_bf16_f32 (ix2 e q)).trans ?_
  exact Take.rows_at h (fun i => w (i 0)) e q

/-- The source rows likewise. -/
theorem window_src (h : RArr 40000 128) (w : Fin 640000 → BitVec 32)
    (Hh : W10 m ρ c (Proc.devRef .tc main_v47) = h) (Hw : W10 m ρ c (Proc.devRef .tc main_v1) = fun i => w (i 0)) :
    V14 m ρ c (Pipeline.arrRef spec3 1)
      = takeFill (N := 40000) (by decide) 39999#32 (Ideal.ofBits .f32 0x7FC00000#32) h w := by
  show StableHlo.after hostOps3_3 (StableHlo.after hostOps3_2 (StableHlo.after hostOps3_1 (StableHlo.after hostOps3 (W10 m ρ c)))) (Proc.devRef .tc main_v51) = _
  refine (read_src_rows (W10 m ρ c) h _ Hh Hw).trans ?_
  funext i
  obtain ⟨e, q, rfl⟩ : ∃ (e : Fin 640000) (q : Fin 128), i = ix2 e q := ⟨i 0, i 1, eq_ix2 i⟩
  refine (truncf_apply (ψ := .bf16) (Take.rows h fun i => w (i 0)) bitsLt_bf16_f32 (ix2 e q)).trans ?_
  exact Take.rows_at h (fun i => w (i 0)) e q

end Windows
/-- The edges' messages from the state, the index array, the attribute array and layer 1's slabs. -/
theorem stageT1 (h : RArr 40000 128) (ei : (Sh 2 640000).Idx → BitVec 32) (ea : RArr 640000 128)
    (eW1 : (⟨3, ![3, 384, 128]⟩ : Shape).Idx → EReal) (eb1 : RArr 3 128)
    (eW2 : (⟨3, ![3, 128, 128]⟩ : Shape).Idx → EReal) (eb2 : RArr 3 128)
    (Hh : W10 m ρ c (Proc.devRef .tc main_v47) = h)
    (Hdst : W10 m ρ c (Proc.devRef .tc main_v3) = fun i => ei (ix2 1 (i 0)))
    (Hsrc : W10 m ρ c (Proc.devRef .tc main_v1) = fun i => ei (ix2 0 (i 0)))
    (Hea : W10 m ρ c (Proc.devRef .tc main_arg2) = ea)
    (H7 : W10 m ρ c (Proc.devRef .tc main_arg7) = eW1) (H8 : W10 m ρ c (Proc.devRef .tc main_arg8) = eb1)
    (H9 : W10 m ρ c (Proc.devRef .tc main_arg9) = eW2) (H10 : W10 m ρ c (Proc.devRef .tc main_arg10) = eb2) :
    W15 m ρ c (Proc.devRef .tc main_v65)
      = edgeMsg3 (takeFill (N := 40000) (by decide) 39999#32 (Ideal.ofBits .f32 0x7FC00000#32) h (dstW ei))
          (takeFill (N := 40000) (by decide) 39999#32 (Ideal.ofBits .f32 0x7FC00000#32) h (srcW ei)) ea
          (rowsAt 128 0 (by decide) (slab eW1 1)) (rowsAt 128 128 (by decide) (slab eW1 1)) (rowsAt 128 256 (by decide) (slab eW1 1))
          (rowV eb1 1) (slab eW2 1) (rowV eb2 1) := by
  have hslab := read_first_matrix (W10 m ρ c) eW1 H7
  show W15 m ρ c (Proc.devRef .tc (Pipeline.arrRef spec3 9)) = _
  rw [W15_arr m ρ c 9,
    RegVal.region3_arr (V14 m ρ) c _ _ _ _ _ _ _ _ _
      (window_dst m ρ c h (dstW ei) Hh Hdst) (window_src m ρ c h (srcW ei) Hh Hsrc)
      ((read_attr (W10 m ρ c)).trans Hea)
      (block_a m ρ c _ hslab) (block_b m ρ c _ hslab) (block_c m ρ c _ hslab)
      (read_first_bias (W10 m ρ c) eb1 H8) (read_second_matrix (W10 m ρ c) eW2 H9) (read_second_bias (W10 m ρ c) eb2 H10)]
  rfl

end Cert.KernelIdeal.StageL1

end
-- ==== Proof.KRegion5.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! # Region 1: the messages of a layer's edges

640000 edges in 40 row blocks of 16000. At row block t the body reads rows 16000 t … 16000 t + 15999 of the destination,
source and attribute arrays, the three first-layer matrices, the first bias row, the second matrix and the second bias
row (all of these whole), and stores the block of messages: for edge e and coordinate q, the second dense layer over the
128 hidden units of e, each hidden unit the rectified sum of the three products and the bias. Over the extended reals a
change of format is the identity, so the stored entry is exactly Spec.edgeMsg3 at (e, q). -/

namespace EdgeMessage5

/-! ## The body's arithmetic at one entry of a block -/

/-- A product of a 16000 × 128 block with a 128 × 128 matrix into a zero accumulator, at (p, q): the sum over the
    shared coordinate. -/
theorem edgeProd_apply {φ₁ φ₂ : FTy} (l : FVec Ideal S16000x128 φ₁) (r : FVec Ideal S128x128 φ₂) (p : Fin 16000) (q : Fin 128) :
    matmul dot_S16000x128_S128x128_S16000x128_1_0_0_1_n_n none l r (constant S16000x128 .f32 0x00000000#32) (ix2 p q)
      = ∑ k : Fin 128, l (ix2 p k) * r (ix2 k q) :=
  Cert.LibDense.matmul_zero_apply dot_S16000x128_S128x128_S16000x128_1_0_0_1_n_n rfl rfl rfl rfl rfl rfl none l r p q

/-- The hidden units of a block of edges: the three products summed in the body's grouping, the bias row added to
    every edge, the rectifier. -/
def hiddenBlk (xd xs : FVec Ideal S16000x128 .bf16) (xe : FVec Ideal S16000x128 .f32) (ma mb mc : FVec Ideal S128x128 .f32)
    (r1 : FVec Ideal S1x128 .f32) : FVec Ideal S16000x128 .f32 :=
  maximumf
    (addf
      (addf
        (addf
          (matmul dot_S16000x128_S128x128_S16000x128_1_0_0_1_n_n none xd (truncf .bf16 ma bitsLt_bf16_f32) (constant S16000x128 .f32 0x00000000#32))
          (matmul dot_S16000x128_S128x128_S16000x128_1_0_0_1_n_n none xs (truncf .bf16 mb bitsLt_bf16_f32) (constant S16000x128 .f32 0x00000000#32)))
        (matmul dot_S16000x128_S128x128_S16000x128_1_0_0_1_n_n none (truncf .bf16 xe bitsLt_bf16_f32) (truncf .bf16 mc bitsLt_bf16_f32) (constant S16000x128 .f32 0x00000000#32)))
      (broadcastTo S16000x128 r1 broadcasts_S1x128_S16000x128))
    (broadcast S16000x128 (Scalar.ofBits (F := Ideal) .f32 0x00000000#32))

/-- Hidden unit k of edge p of the block: the first layer of the edge's perceptron followed by the rectifier. -/
theorem hiddenBlk_apply (xd xs : FVec Ideal S16000x128 .bf16) (xe : FVec Ideal S16000x128 .f32) (ma mb mc : FVec Ideal S128x128 .f32)
    (r1 : FVec Ideal S1x128 .f32) (p : Fin 16000) (k : Fin 128) :
    hiddenBlk xd xs xe ma mb mc r1 (ix2 p k)
      = relu (edgePre3 (E := 16000) xd xs xe ma mb mc (fun c => r1 (ix2 0 c))) (ix2 p k) := by
  show max (((matmul dot_S16000x128_S128x128_S16000x128_1_0_0_1_n_n none xd (truncf .bf16 ma bitsLt_bf16_f32) (constant S16000x128 .f32 0x00000000#32) (ix2 p k)
        + matmul dot_S16000x128_S128x128_S16000x128_1_0_0_1_n_n none xs (truncf .bf16 mb bitsLt_bf16_f32) (constant S16000x128 .f32 0x00000000#32) (ix2 p k))
        + matmul dot_S16000x128_S128x128_S16000x128_1_0_0_1_n_n none (truncf .bf16 xe bitsLt_bf16_f32) (truncf .bf16 mc bitsLt_bf16_f32) (constant S16000x128 .f32 0x00000000#32) (ix2 p k))
        + broadcastTo S16000x128 r1 broadcasts_S1x128_S16000x128 (ix2 p k)) (Ideal.ofBits .f32 0x00000000#32) = _
  rw [edgeProd_apply, edgeProd_apply, edgeProd_apply, broadcastTo_1b_ab_apply, Ideal.ofBits_zero_f32]
  rfl

/-- THE BODY AT AN ENTRY: entry (p, q) of what the body stores is the message of edge p at coordinate q, computed from
    the loaded blocks: the second dense layer over the block's hidden units, plus the second bias row. -/
theorem pay_apply (xd xs : Vec Ideal S16000x128 .bf16) (xe : Vec Ideal S16000x128 .f32) (ma mb mc : Vec Ideal S128x128 .f32)
    (r1 : Vec Ideal S1x128 .f32) (m2 : Vec Ideal S128x128 .f32) (r2 : Vec Ideal S1x128 .f32) (p : Fin 16000) (q : Fin 128) :
    k5_pay1 xd xs xe ma mb mc r1 m2 r2 (ix2 p q)
      = edgeMsg3 (E := 16000) xd xs xe ma mb mc (fun c => r1 (ix2 0 c)) m2 (fun c => r2 (ix2 0 c)) (ix2 p q) := by
  unfold k5_pay1
  simp only [shapeCast_self]
  show matmul dot_S16000x128_S128x128_S16000x128_1_0_0_1_n_n none
        (truncf .bf16 (hiddenBlk xd xs xe ma mb mc r1) bitsLt_bf16_f32) (truncf .bf16 m2 bitsLt_bf16_f32)
        (constant S16000x128 .f32 0x00000000#32) (ix2 p q)
      + broadcastTo S16000x128 r2 broadcasts_S1x128_S16000x128 (ix2 p q) = _
  rw [edgeProd_apply, broadcastTo_1b_ab_apply]
  show (∑ k : Fin 128, hiddenBlk xd xs xe ma mb mc r1 (ix2 p k) * m2 (ix2 k q)) + r2 (ix2 0 q) = _
  simp only [hiddenBlk_apply]
  rfl

/-! ## One edge's message reads one row

The message of edge e at coordinate q reads row e of the destination, source and attribute arrays and nothing else of
them. So two triples of arrays, of any numbers of rows, that agree on a row of each give the same message there: what
lets a block of 16000 rows stand for its rows of the whole arrays. -/

theorem edgeMsg3_row {E E' K H C : Nat} (hd hs ea : RArr E K) (hd' hs' ea' : RArr E' K) (wa wb wc : RArr K H)
    (b1 : Fin H → EReal) (w2 : RArr H C) (b2 : Fin C → EReal) (e : Fin E) (e' : Fin E') (q : Fin C)
    (h0 : ∀ k, hd (ix2 e k) = hd' (ix2 e' k)) (h1 : ∀ k, hs (ix2 e k) = hs' (ix2 e' k))
    (h2 : ∀ k, ea (ix2 e k) = ea' (ix2 e' k)) :
    edgeMsg3 hd hs ea wa wb wc b1 w2 b2 (ix2 e q) = edgeMsg3 hd' hs' ea' wa wb wc b1 w2 b2 (ix2 e' q) := by
  show (∑ k : Fin H, max ((((∑ k' : Fin K, hd (ix2 e k') * wa (ix2 k' k)) + (∑ k' : Fin K, hs (ix2 e k') * wb (ix2 k' k)))
        + (∑ k' : Fin K, ea (ix2 e k') * wc (ix2 k' k))) + b1 k) 0 * w2 (ix2 k q)) + b2 q
      = (∑ k : Fin H, max ((((∑ k' : Fin K, hd' (ix2 e' k') * wa (ix2 k' k)) + (∑ k' : Fin K, hs' (ix2 e' k') * wb (ix2 k' k)))
        + (∑ k' : Fin K, ea' (ix2 e' k') * wc (ix2 k' k))) + b1 k) 0 * w2 (ix2 k q)) + b2 q
  simp only [h0, h1, h2]

/-! ## Where each window's block sits at a grid point

The three edge windows and the output window are at row block t (rows 16000 t … 16000 t + 15999, all 128 columns); the
matrices and the bias rows are whole at every point. -/

/-- The zero offsets of a whole-buffer access. -/
theorem offZero : (![0, 0] : Fin 2 → Nat) = fun _ => 0 := funext fun a => by fin_cases a <;> rfl

/-- The windows' index maps over the 40 grid points: the row-tiled windows' block index is (t, 0), the others' (0, 0). -/
theorem idx_facts : ∀ t : Fin cfg5.N,
    win5_9.index t (0 : Fin 2) = t.val ∧ win5_9.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0 :=
  (by decide +kernel : ∀ t : Fin grid5.N, _)

/-- A grid point is one of 40. -/
theorem point_lt (t : Fin cfg5.N) : t.val < 40 := N_5 ▸ t.isLt

/-- Entry (p, k) of the destination block at point t is the array's entry (r, k), r the row 16000 t + p. -/
theorem dstBlk_apply (c : Dev nD) (t : Fin cfg5.N) (p : Fin 16000) (k : Fin 128) (r : Fin 640000)
    (hr : r.val = t.val * 16000 + p.val) :
    (iblk5 V c 0 t : Vec Ideal S16000x128 .bf16) (ix2 p k) = (V c (Pipeline.arrRef spec5 0) : RArr 640000 128) (ix2 r k) := by
  obtain ⟨-, -, f0, f1, -⟩ := idx_facts t
  show V c (Pipeline.arrRef spec5 0) (((cfg5.win 0).blk t).view.emb (ix2 p k)) = _
  refine congrArg _ (funext fun a => Fin.ext ?_)
  match a with
  | ⟨0, _⟩ => show win5_0.index t (0 : Fin 2) * 16000 + 1 * p.val = r.val; omega
  | ⟨1, _⟩ => show win5_0.index t (1 : Fin 2) * 128 + 1 * k.val = k.val; omega

/-- The same for the source block … -/
theorem srcBlk_apply (c : Dev nD) (t : Fin cfg5.N) (p : Fin 16000) (k : Fin 128) (r : Fin 640000)
    (hr : r.val = t.val * 16000 + p.val) :
    (iblk5 V c 1 t : Vec Ideal S16000x128 .bf16) (ix2 p k) = (V c (Pipeline.arrRef spec5 1) : RArr 640000 128) (ix2 r k) := by
  obtain ⟨-, -, -, -, f0, f1, -⟩ := idx_facts t
  show V c (Pipeline.arrRef spec5 1) (((cfg5.win 1).blk t).view.emb (ix2 p k)) = _
  refine congrArg _ (funext fun a => Fin.ext ?_)
  match a with
  | ⟨0, _⟩ => show win5_1.index t (0 : Fin 2) * 16000 + 1 * p.val = r.val; omega
  | ⟨1, _⟩ => show win5_1.index t (1 : Fin 2) * 128 + 1 * k.val = k.val; omega

/-- … and for the attribute block. -/
theorem attrBlk_apply (c : Dev nD) (t : Fin cfg5.N) (p : Fin 16000) (k : Fin 128) (r : Fin 640000)
    (hr : r.val = t.val * 16000 + p.val) :
    (iblk5 V c 2 t : Vec Ideal S16000x128 .f32) (ix2 p k) = (V c (Pipeline.arrRef spec5 2) : RArr 640000 128) (ix2 r k) := by
  obtain ⟨-, -, -, -, -, -, f0, f1, -⟩ := idx_facts t
  show V c (Pipeline.arrRef spec5 2) (((cfg5.win 2).blk t).view.emb (ix2 p k)) = _
  refine congrArg _ (funext fun a => Fin.ext ?_)
  match a with
  | ⟨0, _⟩ => show win5_2.index t (0 : Fin 2) * 16000 + 1 * p.val = r.val; omega
  | ⟨1, _⟩ => show win5_2.index t (1 : Fin 2) * 128 + 1 * k.val = k.val; omega

/-- Entry (p, q) of the output block at point t is the array's entry (r, q), r the row 16000 t + p. -/
theorem outBlk_emb (t : Fin cfg5.N) (p : Fin 16000) (q : Fin 128) (r : Fin 640000) (hr : r.val = t.val * 16000 + p.val) :
    ((cfg5.win 9).blk t).view.emb (ix2 p q) = (ix2 r q : S640000x128.Idx) := by
  obtain ⟨f0, f1, -⟩ := idx_facts t
  refine funext fun a => Fin.ext ?_
  match a with
  | ⟨0, _⟩ => show win5_9.index t (0 : Fin 2) * 16000 + 1 * p.val = r.val; omega
  | ⟨1, _⟩ => show win5_9.index t (1 : Fin 2) * 128 + 1 * q.val = q.val; omega

/-! The matrices and bias rows: the block at every point is the whole array, its block index being (0, 0). -/

/-- The destination part's matrix, whole at every point. -/
theorem matA_eq (c : Dev nD) (t : Fin cfg5.N) :
    (iblk5 V c 3 t : Vec Ideal S128x128 .f32) = V c (Pipeline.arrRef spec5 3) := by
  obtain ⟨-, -, -, -, -, -, -, -, f0, f1, -⟩ := idx_facts t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- The source part's matrix. -/
theorem matB_eq (c : Dev nD) (t : Fin cfg5.N) :
    (iblk5 V c 4 t : Vec Ideal S128x128 .f32) = V c (Pipeline.arrRef spec5 4) := by
  obtain ⟨-, -, -, -, -, -, -, -, -, -, f0, f1, -⟩ := idx_facts t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- The attribute part's matrix. -/
theorem matC_eq (c : Dev nD) (t : Fin cfg5.N) :
    (iblk5 V c 5 t : Vec Ideal S128x128 .f32) = V c (Pipeline.arrRef spec5 5) := by
  obtain ⟨-, -, -, -, -, -, -, -, -, -, -, -, f0, f1, -⟩ := idx_facts t
  funext y
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 128 + 1 * (y 0).val = (y 0).val; omega
  | ⟨1, _⟩ => show win5_5.index t (1 : Fin 2) * 128 + 1 * (y 1).val = (y 1).val; omega

/-- The first bias row. -/
theorem bias1_eq (c : Dev nD) (t : Fin cfg5.N) :
    (iblk5 V c 6 t : Vec Ideal S1x128 .f32) = V c (Pipeline.arrRef spec5 6) := by
  obtain ⟨-, -, -, -, -, -, -, -, -, -, -, -, -, -, f0, f1, -⟩ := idx_facts t
  funext y
  show V c (Pipeline.arrRef spec5 6) (((cfg5.win 6).blk t).view.emb y) = V c (Pipeline.arrRef spec5 6) y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- The second layer's matrix. -/
theorem mat2_eq (c : Dev nD) (t : Fin cfg5.N) :
    (iblk5 V c 7 t : Vec Ideal S128x128 .f32) = V c (Pipeline.arrRef spec5 7) := by
  obtain ⟨-, -, -, -, -, -, -, -, -, -, -, -, -, -, -, -, f0, f1, -⟩ := idx_facts t
  funext y
  show V c (Pipeline.arrRef spec5 7) (((cfg5.win 7).blk t).view.emb y) = V c (Pipeline.arrRef spec5 7) y
  refine congrArg _ (funext fun a => Fin.ext ?_)
  match a with
  | ⟨0, _⟩ => show win5_7.index t (0 : Fin 2) * 128 + 1 * (y 0).val = (y 0).val; omega
  | ⟨1, _⟩ => show win5_7.index t (1 : Fin 2) * 128 + 1 * (y 1).val = (y 1).val; omega

/-- The second bias row. -/
theorem bias2_eq (c : Dev nD) (t : Fin cfg5.N) :
    (iblk5 V c 8 t : Vec Ideal S1x128 .f32) = V c (Pipeline.arrRef spec5 8) := by
  obtain ⟨-, -, -, -, -, -, -, -, -, -, -, -, -, -, -, -, -, -, f0, f1⟩ := idx_facts t
  funext y
  show V c (Pipeline.arrRef spec5 8) (((cfg5.win 8).blk t).view.emb y) = V c (Pipeline.arrRef spec5 8) y
  refine congrArg _ (funext fun a => Fin.ext ?_)
  match a with
  | ⟨0, _⟩ => show win5_8.index t (0 : Fin 2) * 1 + 1 * (y 0).val = (y 0).val; omega
  | ⟨1, _⟩ => show win5_8.index t (1 : Fin 2) * 128 + 1 * (y 1).val = (y 1).val; omega

/-! ## From blocks to the array -/

/-- The region's result as one function of the arrays the region finds: every edge's message. -/
def msgArr (c : Dev nD) : RArr 640000 128 :=
  edgeMsg3 (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (fun q => V c (Pipeline.arrRef spec5 6) (ix2 0 q)) (V c (Pipeline.arrRef spec5 7))
    (fun q => V c (Pipeline.arrRef spec5 8) (ix2 0 q))

/-- WHAT POINT t WRITES BACK is block t of the messages: entry (p, q) of the stored block is the body's arithmetic on
    the loaded blocks, which is the message of the edge 16000 t + p because each loaded edge block holds that edge's
    row at p and the matrices and bias rows are loaded whole. -/
theorem flushed_eq (c : Dev nD) (t : Fin cfg5.N) :
    (dat5 (F := Ideal) V c).flushed 9 t = ((cfg5.win 9).blk t).view.read (Elt Ideal) (msgArr V c) := by
  show (cfg5.win 9).cut (grid5.coords t) ((dat5 V c).after 9 t) = _
  rw [after5_9]
  unfold out5_9
  rw [View.canon_unit_zero offZero]
  simp only [View.ld_unit_zero (S := S16000x128) offZero, View.ld_unit_zero (S := S128x128) offZero, View.ld_unit_zero (S := S1x128) offZero]
  funext j
  obtain ⟨p, q, rfl⟩ : ∃ (p : Fin 16000) (q : Fin 128), j = ix2 p q := ⟨j 0, j 1, eq_ix2 j⟩
  have ht : t.val < 40 := point_lt t
  have hp : p.val < 16000 := p.isLt
  show k5_pay1 (iblk5 V c 0 t) (iblk5 V c 1 t) (iblk5 V c 2 t) (iblk5 V c 3 t) (iblk5 V c 4 t) (iblk5 V c 5 t)
        (iblk5 V c 6 t) (iblk5 V c 7 t) (iblk5 V c 8 t) (ix2 p q)
      = msgArr V c (((cfg5.win 9).blk t).view.emb (ix2 p q))
  rw [outBlk_emb t p q ⟨t.val * 16000 + p.val, by omega⟩ rfl, pay_apply,
    matA_eq V c t, matB_eq V c t, matC_eq V c t, bias1_eq V c t, mat2_eq V c t, bias2_eq V c t]
  exact edgeMsg3_row _ _ _ _ _ _ _ _ _ _ _ _ p ⟨t.val * 16000 + p.val, by omega⟩ q
    (fun k => dstBlk_apply V c t p k _ rfl) (fun k => srcBlk_apply V c t p k _ rfl) (fun k => attrBlk_apply V c t p k _ rfl)

/-- An entry of the array is in point t's block iff each coordinate is in the block's range on its axis. -/
theorem mem_blk (t : Fin cfg5.N) (i : S640000x128.Idx) :
    i ∈ ((cfg5.win 9).blk t).view.set ↔ ∀ a : Fin 2, win5_9.index t a * S16000x128.size a ≤ (i a).val
      ∧ (i a).val < win5_9.index t a * S16000x128.size a + S16000x128.size a := by
  show i ∈ ((View.whole main_v37).slice (win5_9.rect t)).set ↔ _
  rw [View.set_slice_whole, Rect.mem_set_unit]
  exact Iff.rfl

/-- The 40 row blocks fill the array: row r is in the block of point r / 16000, and every point writes back. -/
theorem cover (i : S640000x128.Idx) :
    ∃ t : Fin cfg5.N, (cfg5.win 9).flush t = true ∧ i ∈ ((cfg5.win 9).blk t).view.set := by
  have hi0 : (i 0).val < 640000 := idx2_lt0 i
  have hi1 : (i 1).val < 128 := idx2_lt1 i
  have hN : (i 0).val / 16000 < cfg5.N := by rw [show cfg5.N = 40 from N_5]; omega
  obtain ⟨f0, f1, -⟩ := idx_facts ⟨(i 0).val / 16000, hN⟩
  refine ⟨⟨(i 0).val / 16000, hN⟩, flush5_9 _, ?_⟩
  rw [mem_blk]
  intro a
  match a with
  | ⟨0, _⟩ =>
    show win5_9.index ⟨(i 0).val / 16000, hN⟩ (0 : Fin 2) * 16000 ≤ (i 0).val
      ∧ (i 0).val < win5_9.index ⟨(i 0).val / 16000, hN⟩ (0 : Fin 2) * 16000 + 16000
    rw [f0]; show (i 0).val / 16000 * 16000 ≤ (i 0).val ∧ (i 0).val < (i 0).val / 16000 * 16000 + 16000; omega
  | ⟨1, _⟩ =>
    show win5_9.index ⟨(i 0).val / 16000, hN⟩ (1 : Fin 2) * 128 ≤ (i 1).val
      ∧ (i 1).val < win5_9.index ⟨(i 0).val / 16000, hN⟩ (1 : Fin 2) * 128 + 128
    rw [f1]; omega

/-- THE ARRAY after the 40 points: every edge's message. -/
theorem final (c : Dev nD) : (dat5 (F := Ideal) V c).arrAt 9 cfg5.N = msgArr V c :=
  (dat5 V c).arrAt_eq_of_cover 9 (msgArr V c) (fun t _ => flushed_eq V c t) cover

end EdgeMessage5

/-- Region 1 (an edge layer's perceptron): after the 40 grid points the output array holds, at every entry, the message
    of that edge from its destination row, source row and attribute row. -/
theorem region5_arr (c : Dev nD)
    (hd hs ea : RArr 640000 128) (wa wb wc : RArr 128 128) (b1 : RArr 1 128) (w2 : RArr 128 128) (b2 : RArr 1 128)
    (hhd : V c (Pipeline.arrRef spec5 0) = hd) (hhs : V c (Pipeline.arrRef spec5 1) = hs)
    (hea : V c (Pipeline.arrRef spec5 2) = ea) (hwa : V c (Pipeline.arrRef spec5 3) = wa)
    (hwb : V c (Pipeline.arrRef spec5 4) = wb) (hwc : V c (Pipeline.arrRef spec5 5) = wc)
    (hb1 : V c (Pipeline.arrRef spec5 6) = b1) (hw2 : V c (Pipeline.arrRef spec5 7) = w2)
    (hb2 : V c (Pipeline.arrRef spec5 8) = b2) :
    (dat5 (F := Ideal) V c).arrAt 9 cfg5.N
      = edgeMsg3 hd hs ea wa wb wc (fun q => b1 (ix2 0 q)) w2 (fun q => b2 (ix2 0 q)) := by
  subst hhd hhs hea hwa hwb hwc hb1 hw2 hb2
  exact EdgeMessage5.final V c

end Cert.KernelIdeal.RegVal

end
-- ==== Proof.KStageT2.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import proofs.«403623_j41042707481180_2_alg».proof.Proof.KRegion5
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.StageL2

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-- A typed reference's two transports of contents, one after the other, change nothing. -/
theorem ofBuf_toBuf {Val : EltTy → Type} {T : BufTy} (x : StableHlo.TRef sig T) (v : T.Contents Val) : x.ofBuf (x.toBuf v) = v := by
  obtain ⟨r, rfl, _, _⟩ := x
  rfl

/-! ## Reading table rows by words

The program reads, for each of the 640000 words, a row of the 40000 × 128 state: a negative word is first wrapped by
40000; the wrapped word is tested against 0 … 39999; the row is read at the wrapped word clamped into the table; and
where the test fails the row is replaced by a fill value. The operations below are the printed ones, named one by one,
each with what it is at one entry. -/

namespace Take

/-- In one bit, "and" with a set bit changes nothing. -/
theorem and_set_bit : ∀ b : BitVec 1, IntOp.andi b 1#1 = b := by decide

/-- A fold over an index type with one element is one application of the operation. -/
theorem fold_one_index {α : Type} {n : Nat} (hn : n = 1) (op : α → α → α) [Std.Commutative op] [Std.Associative op]
    (b : α) (f : Fin n → α) : (Finset.univ : Finset (Fin n)).fold op b f = op (f ⟨0, by omega⟩) b := by
  subst hn
  rw [Finset.univ_unique, Finset.fold_singleton]
  rfl

/-- The words, a negative one wrapped once by the table's 40000 rows. -/
def wrapped (w : IVec S640000 32) : IVec S640000 32 :=
  select (cmpi .slt w (broadcastInDim S640000 ![] bcast_S_S640000 (constantI S_ 32 0#32)))
    (addi w (broadcastInDim S640000 ![] bcast_S_S640000 (constantI S_ 32 40000#32))) w

theorem wrapped_at (w : IVec S640000 32) (e : Fin 640000) : wrapped w (ix1 e) = wrapW 40000 (w (ix1 e)) := rfl

/-- The wrapped words as a one-column array. -/
def column (w : IVec S640000 32) : IVec S640000x1 32 :=
  broadcastInDim S640000x1 ![0] bcast_S640000_S640000x1_0 (wrapped w)

theorem column_at (w : IVec S640000 32) (e : Fin 640000) : column w (ix2 e 0) = wrapW 40000 (w (ix1 e)) := by
  unfold column
  refine (broadcastInDim_apply _ _ _ (ix2 e 0) (ix1 e) (fun a => ?_)).trans (wrapped_at w e)
  match a with
  | ⟨0, _⟩ => rfl

/-- The range test of the wrapped words, as a one-column array of bits: 0 ≤ word and word ≤ 39999. -/
def inRange (w : IVec S640000 32) : IVec S640000x1 1 :=
  andi (cmpi .sge (column w) (broadcastInDim S640000x1 ![] bcast_S_S640000x1 (constantI S_ 32 0#32)))
    (cmpi .sle (column w) (broadcastInDim S640000x1 ![0, 1] bcast_S1x1_S640000x1_0_1
      (broadcastInDim S1x1 ![1] bcast_S1_S1x1_1 (constantI S1 32 39999#32))))

theorem inRange_at (w : IVec S640000 32) (e : Fin 640000) :
    inRange w (ix2 e 0)
      = IntOp.andi (IntOp.cmpi .sge (column w (ix2 e 0)) 0#32) (IntOp.cmpi .sle (column w (ix2 e 0)) 39999#32) := rfl

/-- The conjunction of a one-column array of bits along its unit axis, from a set bit, is the column itself. -/
theorem all_of_unit_axis (x : IVec S640000x1 1) (e : Fin 640000) :
    Host.reduce IntOp.andi x (constantI S_ 1 1#1) reducesTo_S640000x1_S640000_d1 h_S_ (ix1 e) = x (ix2 e 0) := by
  have hR : S640000x1.Reduces [1] S640000 := by decide
  have hlift : ∀ k : Fin (S640000x1.size 1), hR.lift (ix1 e) k = ix2 e 0 := fun k => by
    funext a
    refine Fin.ext ?_
    rw [Shape.Reduces.lift_val]
    match a with
    | ⟨0, _⟩ => rfl
    | ⟨1, _⟩ => show k.val = 0; have hk : k.val < 1 := k.isLt; omega
  rw [Host.reduce_eq_fold_single IntOp.andi x _ _ hR]
  refine (fold_one_index (n := S640000x1.size 1) rfl IntOp.andi _ _).trans ?_
  rw [Function.comp_apply, hlift]
  exact and_set_bit _

/-- The range test per word: the column's test gathered along its unit axis. -/
def rowOk (w : IVec S640000 32) : IVec S640000 1 :=
  Host.reduce IntOp.andi (inRange w) (constantI S_ 1 1#1) reducesTo_S640000x1_S640000_d1 h_S_

theorem rowOk_at (w : IVec S640000 32) (e : Fin 640000) : rowOk w (ix1 e) = inRange w (ix2 e 0) :=
  all_of_unit_axis (inRange w) e

/-- THE ROWS READ: where the range test holds, the state's row at the clamped wrapped word; elsewhere the fill value. -/
def rows (hT : FVec Ideal S40000x128 .f32) (w : IVec S640000 32) : FVec Ideal S640000x128 .f32 :=
  select (broadcastInDim S640000x128 ![0] bcast_S640000_S640000x128_0 (rowOk w))
    (Host.gather gather_S40000x128_S640000x1_S640000x128_1_0_n_n_0_1_1128 hT (column w))
    (broadcastInDim S640000x128 ![] bcast_S_S640000x128 (constant S_ .f32 0x7FC00000#32))

/-- The rows read, at one entry: the spec's filled row read. -/
theorem rows_at (hT : FVec Ideal S40000x128 .f32) (w : IVec S640000 32) (e : Fin 640000) (q : Fin 128) :
    rows hT w (ix2 e q)
      = takeFill (N := 40000) (by decide) 39999#32 (Ideal.ofBits .f32 0x7FC00000#32) hT (fun e => w (ix1 e)) (ix2 e q) := by
  have hmask : broadcastInDim S640000x128 ![0] bcast_S640000_S640000x128_0 (rowOk w) (ix2 e q) = rowOk w (ix1 e) :=
    broadcastInDim_apply _ _ _ (ix2 e q) (ix1 e) (fun a => match a with | ⟨0, _⟩ => rfl)
  have hrow := Cert.LibGS.gather_rows_gen gather_S40000x128_S640000x1_S640000x128_1_0_n_n_0_1_1128
    (by decide : 0 < 40000) rfl rfl rfl rfl rfl rfl hT (column w) e q
  show Scalar.select (broadcastInDim S640000x128 ![0] bcast_S640000_S640000x128_0 (rowOk w) (ix2 e q))
      (Host.gather gather_S40000x128_S640000x1_S640000x128_1_0_n_n_0_1_1128 hT (column w) (ix2 e q))
      (Ideal.ofBits .f32 0x7FC00000#32)
    = Scalar.select (IntOp.andi (IntOp.cmpi .sge (wrapW 40000 (w (ix1 e))) 0#32) (IntOp.cmpi .sle (wrapW 40000 (w (ix1 e))) 39999#32))
      (hT (ix2 (rowOf 40000 (by decide) (wrapW 40000 (w (ix1 e)))) q)) (Ideal.ofBits .f32 0x7FC00000#32)
  rw [hmask, hrow, rowOk_at, inRange_at, column_at]

end Take

/-! ## Slabs, rows and row blocks

The weight stacks hold one slab (or one row) per layer; a layer's first matrix is cut into three blocks of 128 rows. Each
lemma reads the printed chain of slices and reshapes at one entry. -/

namespace Cut

/-- Slab l of a stack of three A × B matrices: the slice of one slab, viewed without its unit axis. -/
theorem slab_of_stack {A B : Nat} (X : (⟨3, ![3, A, B]⟩ : Shape).Idx → EReal) {l : Fin 3} {off : Fin 3 → Nat}
    (hoff : off = ![l.val, 0, 0]) (hs : (⟨3, ![3, A, B]⟩ : Shape).Slices off ⟨3, ![1, A, B]⟩)
    (hc : (⟨3, ![1, A, B]⟩ : Shape).ShapeCasts ⟨2, ![A, B]⟩) :
    shapeCast ⟨2, ![A, B]⟩ (extractStridedSlice ⟨3, ![1, A, B]⟩ off X hs) hc = slab X l := by
  subst hoff
  funext i
  obtain ⟨r, q, rfl⟩ : ∃ (r : Fin A) (q : Fin B), i = ix2 r q := ⟨i 0, i 1, eq_ix2 i⟩
  refine (shapeCast_1ab_ab_apply _ hc r q).trans ?_
  exact extractStridedSlice_apply _ X hs (ix3 0 r q) (ix3 l r q) (fun a => by
    match a with
    | ⟨0, _⟩ => rfl
    | ⟨1, _⟩ => exact (Nat.zero_add _).symm
    | ⟨2, _⟩ => exact (Nat.zero_add _).symm)

/-- Row l of a three-row array, cut out as a one-row array, flattened and made a one-row array again: at (0, q) it is
    the array's entry (l, q). -/
theorem row_of_stack {B : Nat} (X : RArr 3 B) {l : Fin 3} {off : Fin 2 → Nat} (hoff : off = ![l.val, 0])
    (hs : (⟨2, ![3, B]⟩ : Shape).Slices off ⟨2, ![1, B]⟩) (hc1 : (⟨2, ![1, B]⟩ : Shape).ShapeCasts ⟨1, ![B]⟩)
    (hc2 : (⟨1, ![B]⟩ : Shape).ShapeCasts ⟨2, ![1, B]⟩) :
    shapeCast ⟨2, ![1, B]⟩ (shapeCast ⟨1, ![B]⟩ (extractStridedSlice ⟨2, ![1, B]⟩ off X hs) hc1) hc2
      = fun i => rowV X l (i 1) := by
  subst hoff
  funext i
  obtain ⟨u, q, rfl⟩ : ∃ (u : Fin 1) (q : Fin B), i = ix2 u q := ⟨i 0, i 1, eq_ix2 i⟩
  refine (shapeCast_a_1a_apply _ hc2 u q).trans ?_
  refine (shapeCast_1a_a_apply _ hc1 q).trans ?_
  exact slice2_axis0_apply l.val X hs (0 : Fin 1) q l rfl

/-- Rows o … o + 127 of a 384-row matrix. -/
theorem row_block (X : RArr 384 128) (o : Nat) (ho : o + 128 ≤ 384) (hs : S384x128.Slices ![o, 0] S128x128) :
    extractStridedSlice S128x128 ![o, 0] X hs = rowsAt 128 o ho X := by
  funext i
  obtain ⟨r, q, rfl⟩ : ∃ (r : Fin 128) (q : Fin 128), i = ix2 r q := ⟨i 0, i 1, eq_ix2 i⟩
  exact slice2_axis0_apply o X hs r q ⟨o + r.val, by have := r.isLt; omega⟩ rfl

end Cut

/-! ## What region 1 finds in its windows' arrays

Each array is read off the four host stretches in one step, over ANY contents `W` before them. -/

section Reads
variable (W : Valuation τ sig (Elt Ideal))

local notation "atEntry" => StableHlo.after hostOps5_3 (StableHlo.after hostOps5_2 (StableHlo.after hostOps5_1 (StableHlo.after hostOps5 W)))

/-- The rows read by the destination words, narrowed. -/
theorem read_dst_rows (hT : FVec Ideal S40000x128 .f32) (w : IVec S640000 32)
    (Hh : W (Proc.devRef .tc main_v75) = hT) (Hw : W (Proc.devRef .tc main_v3) = w) :
    atEntry (Proc.devRef .tc main_v77)
      = (truncf .bf16 (Take.rows hT w) bitsLt_bf16_f32 : FVec Ideal S640000x128 .bf16) := by
  subst Hh Hw
  after_results_simp
  simp only [ofBuf_toBuf]
  simp only [TRef.ofBuf, TRef.toBuf, cast_eq]
  rfl

/-- The rows read by the source words, narrowed. -/
theorem read_src_rows (hT : FVec Ideal S40000x128 .f32) (w : IVec S640000 32)
    (Hh : W (Proc.devRef .tc main_v75) = hT) (Hw : W (Proc.devRef .tc main_v1) = w) :
    atEntry (Proc.devRef .tc main_v79)
      = (truncf .bf16 (Take.rows hT w) bitsLt_bf16_f32 : FVec Ideal S640000x128 .bf16) := by
  subst Hh Hw
  after_results_simp
  simp only [ofBuf_toBuf]
  simp only [TRef.ofBuf, TRef.toBuf, cast_eq]
  rfl

/-- The attribute array is not written. -/
theorem read_attr : atEntry (Proc.devRef .tc main_arg2) = W (Proc.devRef .tc main_arg2) := by
  after_results_simp

/-- THE LAYER'S SLAB of the first weight stack. -/
theorem read_first_matrix (eW1 : (⟨3, ![3, 384, 128]⟩ : Shape).Idx → EReal) (H7 : W (Proc.devRef .tc main_arg7) = eW1) :
    atEntry (Proc.devRef .tc main_v81) = slab eW1 2 := by
  after_results_simp
  rw [H7]
  show shapeCast S384x128 (extractStridedSlice S1x384x128 _ eW1 _) _ = _
  exact Cut.slab_of_stack eW1 (by rfl) _ _

/-- THE LAYER'S ROW of the first bias stack, as a one-row array. -/
theorem read_first_bias (eb1 : RArr 3 128) (H8 : W (Proc.devRef .tc main_arg8) = eb1) :
    atEntry (Proc.devRef .tc main_v91) = fun i => rowV eb1 2 (i 1) := by
  after_results_simp
  rw [H8]
  show shapeCast S1x128 (shapeCast S128 (extractStridedSlice S1x128 _ eb1 _) _) _ = _
  exact Cut.row_of_stack eb1 (by rfl) _ _ _

/-- THE LAYER'S SLAB of the second weight stack. -/
theorem read_second_matrix (eW2 : (⟨3, ![3, 128, 128]⟩ : Shape).Idx → EReal) (H9 : W (Proc.devRef .tc main_arg9) = eW2) :
    atEntry (Proc.devRef .tc main_v85) = slab eW2 2 := by
  after_results_simp
  rw [H9]
  show shapeCast S128x128 (extractStridedSlice S1x128x128 _ eW2 _) _ = _
  exact Cut.slab_of_stack eW2 (by rfl) _ _

/-- THE LAYER'S ROW of the second bias stack, as a one-row array. -/
theorem read_second_bias (eb2 : RArr 3 128) (H10 : W (Proc.devRef .tc main_arg10) = eb2) :
    atEntry (Proc.devRef .tc main_v92) = fun i => rowV eb2 2 (i 1) := by
  after_results_simp
  rw [H10]
  show shapeCast S1x128 (shapeCast S128 (extractStridedSlice S1x128 _ eb2 _) _) _ = _
  exact Cut.row_of_stack eb2 (by rfl) _ _ _

/-- The three row blocks of the first matrix, each a slice of it. -/
theorem read_block_a :
    atEntry (Proc.devRef .tc main_v88)
      = extractStridedSlice S128x128 _ (atEntry (Proc.devRef .tc main_v81)) slices_S384x128_S128x128_0_0 := by
  after_results_simp
theorem read_block_b :
    atEntry (Proc.devRef .tc main_v89)
      = extractStridedSlice S128x128 _ (atEntry (Proc.devRef .tc main_v81)) slices_S384x128_S128x128_128_0 := by
  after_results_simp
theorem read_block_c :
    atEntry (Proc.devRef .tc main_v90)
      = extractStridedSlice S128x128 _ (atEntry (Proc.devRef .tc main_v81)) slices_S384x128_S128x128_256_0 := by
  after_results_simp

end Reads

/-! ## An edge layer (layer 2)

The program reads, for every edge, the state row of its destination word and of its source word (a negative word
wrapped once, a fill value where the wrapped word names no row), narrows both, cuts layer 2's slabs out of the weight
stacks and the first matrix into its three row blocks, and the region computes the edges' messages. -/

section Windows

/-- The row blocks of the layer's first matrix, whatever that matrix is called. -/
theorem block_a (S : RArr 384 128)
    (HS : StableHlo.after hostOps5_3 (StableHlo.after hostOps5_2 (StableHlo.after hostOps5_1 (StableHlo.after hostOps5 (W17 m ρ c))))
      (Proc.devRef .tc main_v81) = S) :
    V21 m ρ c (Pipeline.arrRef spec5 3) = rowsAt 128 0 (by decide) S := by
  show StableHlo.after hostOps5_3 (StableHlo.after hostOps5_2 (StableHlo.after hostOps5_1 (StableHlo.after hostOps5 (W17 m ρ c)))) (Proc.devRef .tc main_v88) = _
  rw [read_block_a, HS]
  exact Cut.row_block S 0 _ _
theorem block_b (S : RArr 384 128)
    (HS : StableHlo.after hostOps5_3 (StableHlo.after hostOps5_2 (StableHlo.after hostOps5_1 (StableHlo.after hostOps5 (W17 m ρ c))))
      (Proc.devRef .tc main_v81) = S) :
    V21 m ρ c (Pipeline.arrRef spec5 4) = rowsAt 128 128 (by decide) S := by
  show StableHlo.after hostOps5_3 (StableHlo.after hostOps5_2 (StableHlo.after hostOps5_1 (StableHlo.after hostOps5 (W17 m ρ c)))) (Proc.devRef .tc main_v89) = _
  rw [read_block_b, HS]
  exact Cut.row_block S 128 _ _
theorem block_c (S : RArr 384 128)
    (HS : StableHlo.after hostOps5_3 (StableHlo.after hostOps5_2 (StableHlo.after hostOps5_1 (StableHlo.after hostOps5 (W17 m ρ c))))
      (Proc.devRef .tc main_v81) = S) :
    V21 m ρ c (Pipeline.arrRef spec5 5) = rowsAt 128 256 (by decide) S := by
  show StableHlo.after hostOps5_3 (StableHlo.after hostOps5_2 (StableHlo.after hostOps5_1 (StableHlo.after hostOps5 (W17 m ρ c)))) (Proc.devRef .tc main_v90) = _
  rw [read_block_c, HS]
  exact Cut.row_block S 256 _ _

/-- The destination rows as the region finds them: the state's rows by the destination words, filled where a word names
    no row. -/
theorem window_dst (h : RArr 40000 128) (w : Fin 640000 → BitVec 32)
    (Hh : W17 m ρ c (Proc.devRef .tc main_v75) = h) (Hw : W17 m ρ c (Proc.devRef .tc main_v3) = fun i => w (i 0)) :
    V21 m ρ c (Pipeline.arrRef spec5 0)
      = takeFill (N := 40000) (by decide) 39999#32 (Ideal.ofBits .f32 0x7FC00000#32) h w := by
  show StableHlo.after hostOps5_3 (StableHlo.after hostOps5_2 (StableHlo.after hostOps5_1 (StableHlo.after hostOps5 (W17 m ρ c)))) (Proc.devRef .tc main_v77) = _
  refine (read_dst_rows (W17 m ρ c) h _ Hh Hw).trans ?_
  funext i
  obtain ⟨e, q, rfl⟩ : ∃ (e : Fin 640000) (q : Fin 128), i = ix2 e q := ⟨i 0, i 1, eq_ix2 i⟩
  refine (truncf_apply (ψ := .bf16) (Take.rows h fun i => w (i 0)) bitsLt_bf16_f32 (ix2 e q)).trans ?_
  exact Take.rows_at h (fun i => w (i 0)) e q

/-- The source rows likewise. -/
theorem window_src (h : RArr 40000 128) (w : Fin 640000 → BitVec 32)
    (Hh : W17 m ρ c (Proc.devRef .tc main_v75) = h) (Hw : W17 m ρ c (Proc.devRef .tc main_v1) = fun i => w (i 0)) :
    V21 m ρ c (Pipeline.arrRef spec5 1)
      = takeFill (N := 40000) (by decide) 39999#32 (Ideal.ofBits .f32 0x7FC00000#32) h w := by
  show StableHlo.after hostOps5_3 (StableHlo.after hostOps5_2 (StableHlo.after hostOps5_1 (StableHlo.after hostOps5 (W17 m ρ c)))) (Proc.devRef .tc main_v79) = _
  refine (read_src_rows (W17 m ρ c) h _ Hh Hw).trans ?_
  funext i
  obtain ⟨e, q, rfl⟩ : ∃ (e : Fin 640000) (q : Fin 128), i = ix2 e q := ⟨i 0, i 1, eq_ix2 i⟩
  refine (truncf_apply (ψ := .bf16) (Take.rows h fun i => w (i 0)) bitsLt_bf16_f32 (ix2 e q)).trans ?_
  exact Take.rows_at h (fun i => w (i 0)) e q

end Windows
/-- The edges' messages from the state, the index array, the attribute array and layer 2's slabs. -/
theorem stageT2 (h : RArr 40000 128) (ei : (Sh 2 640000).Idx → BitVec 32) (ea : RArr 640000 128)
    (eW1 : (⟨3, ![3, 384, 128]⟩ : Shape).Idx → EReal) (eb1 : RArr 3 128)
    (eW2 : (⟨3, ![3, 128, 128]⟩ : Shape).Idx → EReal) (eb2 : RArr 3 128)
    (Hh : W17 m ρ c (Proc.devRef .tc main_v75) = h)
    (Hdst : W17 m ρ c (Proc.devRef .tc main_v3) = fun i => ei (ix2 1 (i 0)))
    (Hsrc : W17 m ρ c (Proc.devRef .tc main_v1) = fun i => ei (ix2 0 (i 0)))
    (Hea : W17 m ρ c (Proc.devRef .tc main_arg2) = ea)
    (H7 : W17 m ρ c (Proc.devRef .tc main_arg7) = eW1) (H8 : W17 m ρ c (Proc.devRef .tc main_arg8) = eb1)
    (H9 : W17 m ρ c (Proc.devRef .tc main_arg9) = eW2) (H10 : W17 m ρ c (Proc.devRef .tc main_arg10) = eb2) :
    W22 m ρ c (Proc.devRef .tc main_v93)
      = edgeMsg3 (takeFill (N := 40000) (by decide) 39999#32 (Ideal.ofBits .f32 0x7FC00000#32) h (dstW ei))
          (takeFill (N := 40000) (by decide) 39999#32 (Ideal.ofBits .f32 0x7FC00000#32) h (srcW ei)) ea
          (rowsAt 128 0 (by decide) (slab eW1 2)) (rowsAt 128 128 (by decide) (slab eW1 2)) (rowsAt 128 256 (by decide) (slab eW1 2))
          (rowV eb1 2) (slab eW2 2) (rowV eb2 2) := by
  have hslab := read_first_matrix (W17 m ρ c) eW1 H7
  show W22 m ρ c (Proc.devRef .tc (Pipeline.arrRef spec5 9)) = _
  rw [W22_arr m ρ c 9,
    RegVal.region5_arr (V21 m ρ) c _ _ _ _ _ _ _ _ _
      (window_dst m ρ c h (dstW ei) Hh Hdst) (window_src m ρ c h (srcW ei) Hh Hsrc)
      ((read_attr (W17 m ρ c)).trans Hea)
      (block_a m ρ c _ hslab) (block_b m ρ c _ hslab) (block_c m ρ c _ hslab)
      (read_first_bias (W17 m ρ c) eb1 H8) (read_second_matrix (W17 m ρ c) eW2 H9) (read_second_bias (W17 m ρ c) eb2 H10)]
  rfl

end Cert.KernelIdeal.StageL2

end
-- ==== Proof.KRegion2.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! The lemmas for region 2's node update, kept under a name of their own. -/
namespace Region2

/-! ## A column spread across the lanes -/

/-- An `[a, 1]` column broadcast to `[a, b]` reads, at `(p, c)`, the column's entry of row `p`: the operand's second axis
    has extent one, so its coordinate there is zero; its first axis keeps the result's row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry -/

/-- Entry (p, q) of what the body stores: the scaled row p of the summed messages (each entry times the row's inverse
    degree) contracted with column q of the weight matrix, plus entry q of the bias row, rectified. -/
theorem nodeRow_apply (x0 : FVec Ideal S5000x128 .f32) (x1 : FVec Ideal S5000x1 .f32) (x2 : FVec Ideal S128x128 .f32)
    (x3 : FVec Ideal S1x128 .f32) (p : Fin 5000) (q : Fin 128) :
    k2_pay1 x0 x1 x2 x3 (ix2 p q)
      = max ((∑ k : Fin 128, (x0 (ix2 p k) * x1 (ix2 p (0 : Fin 1))) * x2 (ix2 k q)) + x3 (ix2 (0 : Fin 1) q)) 0 := by
  unfold k2_pay1
  simp only [shapeCast_self]
  show max ((matmul dot_S5000x128_S128x128_S5000x128_1_0_0_1_n_n none
        (mulf x0 (broadcastTo S5000x128 x1 broadcasts_S5000x1_S5000x128)) x2 (constant S5000x128 .f32 0x00000000#32)) (ix2 p q)
      + broadcastTo S5000x128 x3 broadcasts_S1x128_S5000x128 (ix2 p q)) (Ideal.ofBits .f32 0x00000000#32) = _
  rw [Ideal.ofBits_zero_f32, broadcastTo_1b_ab_apply x3 broadcasts_S1x128_S5000x128 p q,
    Cert.LibDense.matmul_zero_apply dot_S5000x128_S128x128_S5000x128_1_0_0_1_n_n rfl rfl rfl rfl rfl rfl none _ x2 p q]
  refine congrArg (fun s => max (s + x3 (ix2 (0 : Fin 1) q)) 0) (Finset.sum_congr rfl fun k _ => ?_)
  rw [mulf_apply, broadcastTo_a1_ab_apply x1 broadcasts_S5000x1_S5000x128 p k]

/-- The same entry against the node update over whole arrays: when the four loaded blocks hold, on the entries this one
    depends on, the arrays' entries of the node row and column that `i` names — row p of the two row-tiled blocks is node row
    `i 0`, the weight block is the weight matrix, the bias block the bias row —, the body's entry (p, q) is the update's entry `i`. -/
theorem nodeRow_eq (agg : RArr 40000 128) (dinv : RArr 40000 1) (w : RArr 128 128) (b : RArr 1 128)
    (x0 : FVec Ideal S5000x128 .f32) (x1 : FVec Ideal S5000x1 .f32) (x2 : FVec Ideal S128x128 .f32) (x3 : FVec Ideal S1x128 .f32)
    (p : Fin 5000) (q : Fin 128) (i : (Sh 40000 128).Idx)
    (h0 : ∀ k : Fin 128, x0 (ix2 p k) = agg (ix2 (i 0) k))
    (h1 : x1 (ix2 p (0 : Fin 1)) = dinv (ix2 (i 0) (0 : Fin 1)))
    (h2 : ∀ k : Fin 128, x2 (ix2 k q) = w (ix2 k (i 1)))
    (h3 : x3 (ix2 (0 : Fin 1) q) = b (ix2 (0 : Fin 1) (i 1))) :
    k2_pay1 (F := Ideal) x0 x1 x2 x3 (ix2 p q) = nodeUpMul agg (fun n => dinv (ix2 n 0)) w (fun q => b (ix2 0 q)) i := by
  rw [nodeRow_apply, h1, h3]
  show _ = max ((∑ k : Fin 128, (agg (ix2 (i 0) k) * dinv (ix2 (i 0) (0 : Fin 1))) * w (ix2 k (i 1))) + b (ix2 (0 : Fin 1) (i 1))) 0
  refine congrArg (fun s => max (s + b (ix2 (0 : Fin 1) (i 1))) 0) (Finset.sum_congr rfl fun k _ => ?_)
  rw [h0 k, h2 k]

/-! ## One grid point's block of the result -/

/-- The body's accesses start at the origin of their buffers. -/
theorem originOffsets : (![0, 0] : Fin 2 → Nat) = fun _ => 0 := funext fun a => by fin_cases a <;> rfl

/-- The windows' index maps over the 8 grid points: the two row-tiled inputs sit at the output's row block, which is the point
    itself; every window's column block is 0; the weight and bias windows stay at block (0, 0). -/
theorem blockIdx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## The input blocks under one entry of the output's block

Entry (p, q) of point `t`'s output block lies over the array's entry (5000 t + p, q). The four lemmas read, off the region's
input arrays, the entries of the four loaded blocks that this result entry depends on. A block's coordinate on an axis is
its block index times the block's extent plus the coordinate inside the block. -/

/-- Row p of the summed messages' block is the node's row of the array: the window sits at the output's row block, column block 0. -/
theorem aggBlock_apply (c : Dev nD) (t : Fin cfg2.N) (p : Fin 5000) (q k : Fin 128) :
    iblk2 (F := Ideal) V c 0 t (ix2 p k)
      = V c (Pipeline.arrRef spec2 0) (ix2 ((((cfg2.win 4).blk t).view.emb (ix2 p q)) 0) k) := by
  obtain ⟨e00, e01, -, -, -, -, -, -, -, -⟩ := blockIdx_facts t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 5000 + 1 * p.val = win2_4.index t (0 : Fin 2) * 5000 + 1 * p.val; omega
  | ⟨1, _⟩ => show win2_0.index t (1 : Fin 2) * 128 + 1 * k.val = k.val; omega

/-- Row p of the inverse degrees' block is the node's entry of the one-column array: the window sits at the output's row block. -/
theorem dinvBlock_apply (c : Dev nD) (t : Fin cfg2.N) (p : Fin 5000) (q : Fin 128) :
    iblk2 (F := Ideal) V c 1 t (ix2 p (0 : Fin 1))
      = V c (Pipeline.arrRef spec2 1) (ix2 ((((cfg2.win 4).blk t).view.emb (ix2 p q)) 0) (0 : Fin 1)) := by
  obtain ⟨-, -, e10, e11, -, -, -, -, -, -⟩ := blockIdx_facts t
  show V c (Pipeline.arrRef spec2 1) (((cfg2.win 1).blk t).view.emb (ix2 p (0 : Fin 1))) = _
  refine congrArg (V c (Pipeline.arrRef spec2 1)) (funext fun a => Fin.ext ?_)
  match a with
  | ⟨0, _⟩ => show win2_1.index t (0 : Fin 2) * 5000 + 1 * p.val = win2_4.index t (0 : Fin 2) * 5000 + 1 * p.val; omega
  | ⟨1, _⟩ => show win2_1.index t (1 : Fin 2) * 1 + 1 * 0 = 0; omega

/-- The weight block is the weight matrix at every point (block (0, 0) of a one-block array); its column is the output's. -/
theorem weightBlock_apply (c : Dev nD) (t : Fin cfg2.N) (p : Fin 5000) (q k : Fin 128) :
    iblk2 (F := Ideal) V c 2 t (ix2 k q)
      = V c (Pipeline.arrRef spec2 2) (ix2 k ((((cfg2.win 4).blk t).view.emb (ix2 p q)) 1)) := by
  obtain ⟨-, -, -, -, e20, e21, -, -, -, e41⟩ := blockIdx_facts t
  show V c (Pipeline.arrRef spec2 2) (((cfg2.win 2).blk t).view.emb (ix2 k q)) = _
  refine congrArg (V c (Pipeline.arrRef spec2 2)) (funext fun a => Fin.ext ?_)
  match a with
  | ⟨0, _⟩ => show win2_2.index t (0 : Fin 2) * 128 + 1 * k.val = k.val; omega
  | ⟨1, _⟩ => show win2_2.index t (1 : Fin 2) * 128 + 1 * q.val = win2_4.index t (1 : Fin 2) * 128 + 1 * q.val; omega

/-- The bias block is the bias row at every point (block (0, 0) of a one-block array); its column is the output's. -/
theorem biasBlock_apply (c : Dev nD) (t : Fin cfg2.N) (p : Fin 5000) (q : Fin 128) :
    iblk2 (F := Ideal) V c 3 t (ix2 (0 : Fin 1) q)
      = V c (Pipeline.arrRef spec2 3) (ix2 (0 : Fin 1) ((((cfg2.win 4).blk t).view.emb (ix2 p q)) 1)) := by
  obtain ⟨-, -, -, -, -, -, e30, e31, -, e41⟩ := blockIdx_facts t
  show V c (Pipeline.arrRef spec2 3) (((cfg2.win 3).blk t).view.emb (ix2 (0 : Fin 1) q)) = _
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 128 + 1 * q.val = win2_4.index t (1 : Fin 2) * 128 + 1 * q.val; omega

/-- The output window is never cut: what a point writes back of a buffer's contents is those contents, entry by entry. -/
theorem cut_rowBlock (X : S5000x128.Idx → EReal) (t : Fin cfg2.N) (j : S5000x128.Idx) :
    (cfg2.win 4).cut (grid2.coords t) X j = X j := rfl

/-- An array read through point `t`'s output block: entry `j` of the block is the array's entry under it. -/
theorem read_rowBlock (G : S40000x128.Idx → EReal) (t : Fin cfg2.N) (j : S5000x128.Idx) :
    ((cfg2.win 4).blk t).view.read (Elt Ideal) G j = G (((cfg2.win 4).blk t).view.emb j) := rfl

/-- WHAT POINT `t` WRITES BACK is block `t` (node rows 5000 t … 5000 t + 4999) of the node update of the region's input arrays. -/
theorem flushed_eq (c : Dev nD)
    (agg : RArr 40000 128) (dinv : RArr 40000 1) (w : RArr 128 128) (b : RArr 1 128)
    (hagg : V c (Pipeline.arrRef spec2 0) = agg) (hdinv : V c (Pipeline.arrRef spec2 1) = dinv)
    (hw : V c (Pipeline.arrRef spec2 2) = w) (hb : V c (Pipeline.arrRef spec2 3) = b) (t : Fin cfg2.N) :
    (dat2 (F := Ideal) V c).flushed 4 t
      = ((cfg2.win 4).blk t).view.read (Elt Ideal) (nodeUpMul agg (fun n => dinv (ix2 n 0)) w (fun q => b (ix2 0 q))) := by
  subst hagg hdinv hw hb
  show (cfg2.win 4).cut (grid2.coords t) ((dat2 V c).after 4 t) = _
  rw [after2_4]
  unfold out2_4
  rw [View.canon_unit_zero originOffsets]
  simp only [View.ld_unit_zero (S := S5000x128) originOffsets, View.ld_unit_zero (S := S5000x1) originOffsets,
    View.ld_unit_zero (S := S128x128) originOffsets, View.ld_unit_zero (S := S1x128) originOffsets]
  funext j
  obtain ⟨p, q, rfl⟩ : ∃ (p : Fin 5000) (q : Fin 128), j = ix2 p q := ⟨j 0, j 1, eq_ix2 j⟩
  -- the entry of the array under entry (p, q) of the output's block: node row 5000 t + p, column q
  refine (cut_rowBlock _ t (ix2 p q)).trans (Eq.trans ?_ (read_rowBlock _ t (ix2 p q)).symm)
  refine nodeRow_eq (V c (Pipeline.arrRef spec2 0)) (V c (Pipeline.arrRef spec2 1)) (V c (Pipeline.arrRef spec2 2))
    (V c (Pipeline.arrRef spec2 3)) (iblk2 V c 0 t) (iblk2 V c 1 t) (iblk2 V c 2 t) (iblk2 V c 3 t) p q
    (((cfg2.win 4).blk t).view.emb (ix2 p q)) ?_ ?_ ?_ ?_
  · exact fun k => aggBlock_apply V c t p q k
  · exact dinvBlock_apply V c t p q
  · exact fun k => weightBlock_apply V c t p q k
  · exact biasBlock_apply V c t p q

/-! ## The blocks tile the rows -/

/-- An entry of the output array is in point `t`'s block iff each coordinate is in the block's range on its axis. -/
theorem mem_rowBlock (t : Fin cfg2.N) (i : S40000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v47).slice (win2_4.rect t)).set ↔ _
  rw [View.set_slice_whole, Rect.mem_set_unit]
  exact Iff.rfl

/-- Node row r lies in the block of point r / 5000, which writes back: 8 blocks of 5000 rows fill the 40000 rows. -/
theorem rows_covered (i : S40000x128.Idx) :
    ∃ t : Fin cfg2.N, (cfg2.win 4).flush t = true ∧ i ∈ ((cfg2.win 4).blk t).view.set := by
  have hi0 : (i 0).val < 40000 := (i 0).isLt
  have hi1 : (i 1).val < 128 := (i 1).isLt
  have hN : grid2.N = 8 := N_2
  have hlt : (i 0).val / 5000 < grid2.N := by rw [hN]; omega
  obtain ⟨-, -, -, -, -, -, -, -, e40, e41⟩ := blockIdx_facts ⟨(i 0).val / 5000, hlt⟩
  refine ⟨⟨(i 0).val / 5000, hlt⟩, flush2_4 _, ?_⟩
  rw [mem_rowBlock]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win2_4.index ⟨(i 0).val / 5000, hlt⟩ (1 : Fin 2) * 128 ≤ (i 1).val
      ∧ (i 1).val < win2_4.index ⟨(i 0).val / 5000, hlt⟩ (1 : Fin 2) * 128 + 128
    omega

end Region2

/-- Region 2 (a node update): after the 8 grid points the output array holds, at every entry, the rectified dense layer
    of the node's summed messages times the inverse degree. -/
theorem region2_arr (c : Dev nD)
    (agg : RArr 40000 128) (dinv : RArr 40000 1) (w : RArr 128 128) (b : RArr 1 128)
    (hagg : V c (Pipeline.arrRef spec2 0) = agg) (hdinv : V c (Pipeline.arrRef spec2 1) = dinv)
    (hw : V c (Pipeline.arrRef spec2 2) = w) (hb : V c (Pipeline.arrRef spec2 3) = b) :
    (dat2 (F := Ideal) V c).arrAt 4 cfg2.N
      = nodeUpMul agg (fun n => dinv (ix2 n 0)) w (fun q => b (ix2 0 q)) :=
  (dat2 (F := Ideal) V c).arrAt_eq_of_cover 4 _ (fun t _ => Region2.flushed_eq V c agg dinv w b hagg hdinv hw hb t) Region2.rows_covered

end Cert.KernelIdeal.RegVal

end
-- ==== Proof.KStageN0.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import proofs.«403623_j41042707481180_2_alg».proof.Proof.KRegion2
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.IdealHost

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## A node update (layer 0)

The program widens the edges' messages, sums them per destination node, and the region multiplies by the inverse degree
and applies the dense layer and the rectifier. -/

/-! ### What the region's four input arrays hold when it starts -/

/-- The destination words spread into a one-column array: row e of the column is the word of edge e. -/
theorem dstCol_apply (ei : (Sh 2 640000).Idx → BitVec 32) (e : Fin 640000) :
    (broadcastInDim S640000x1 ![0] bcast_S640000_S640000x1_0 (fun i => ei (ix2 1 (i 0)) : IVec S640000 32) : IVec S640000x1 32)
      (ix2 e 0) = dstW ei e := by
  refine (broadcastInDim_apply ![0] bcast_S640000_S640000x1_0 _ (ix2 e 0) (ix1 e) fun a => ?_).trans rfl
  match a with
  | ⟨0, _⟩ => rfl

/-- The first array is the per-node sum of the messages: a scatter-add into zeros of the widened message rows, by the
    column of destination words. Entry (n, q) is 0 plus column q of every message row whose word, read signed, is n.
    Widening a message leaves its value as it is. -/
theorem V9_agg (msg : RArr 640000 128) (ei : (Sh 2 640000).Idx → BitVec 32)
    (Hmsg : W8 m ρ c (Proc.devRef .tc main_v37) = msg)
    (Hdst : W8 m ρ c (Proc.devRef .tc main_v3) = fun i => ei (ix2 1 (i 0))) :
    V9 m ρ c (Pipeline.arrRef spec2 0) = segSum (dstW ei) msg := by
  show StableHlo.after hostOps2 (W8 m ρ c) (Proc.devRef .tc main_v41) = _
  after_results_simp
  rw [Hmsg, Hdst]
  funext i
  obtain ⟨n, q, rfl⟩ : ∃ n q, i = ix2 n q := ⟨i 0, i 1, eq_ix2 i⟩
  unfold Host.scatterAdd
  rw [Ideal.hostScatterAdd_def, Cert.LibGS.scatterAdd_rows_gen _ rfl rfl rfl rfl]
  show _ + _ = 0 + _
  refine congrArg₂ (· + ·) ?_ ?_
  · exact (broadcastInDim_scalar_apply _ _ _).trans Ideal.ofBits_zero_f32
  · exact Finset.sum_congr
      (Finset.filter_congr fun e _ =>
        iff_of_eq (congrArg (fun w : BitVec 32 => w.toInt = (n.val : ℤ)) (dstCol_apply ei e)))
      fun e _ => rfl

/-- The second array is the column of inverse degrees, which the stretch before the region does not write. -/
theorem V9_dinv (dinv : Fin 40000 → EReal)
    (Hdinv : W8 m ρ c (Proc.devRef .tc main_v19) = fun i => dinv (i 0)) :
    V9 m ρ c (Pipeline.arrRef spec2 1) = fun i => dinv (i 0) := by
  show StableHlo.after hostOps2 (W8 m ρ c) (Proc.devRef .tc main_v19) = _
  after_results_simp
  exact Hdinv

/-- The third array is this layer's slab of the stack of node matrices: the stack is cut to one slab and the leading
    unit axis dropped, so entry (a, b) is the stack's entry (slab, a, b). -/
theorem V9_w (nW : (⟨3, ![3, 128, 128]⟩ : Shape).Idx → EReal)
    (H11 : W8 m ρ c (Proc.devRef .tc main_arg11) = nW) :
    V9 m ρ c (Pipeline.arrRef spec2 2) = slab nW 0 := by
  show StableHlo.after hostOps2 (W8 m ρ c) (Proc.devRef .tc main_v43) = _
  after_results_simp
  rw [H11]
  funext i
  obtain ⟨a, b, rfl⟩ : ∃ a b, i = ix2 a b := ⟨i 0, i 1, eq_ix2 i⟩
  refine (shapeCast_1ab_ab_apply _ _ a b).trans ?_
  refine extractStridedSlice_apply _ nW _ _ _ fun ax => ?_
  match ax with
  | ⟨0, _⟩ => rfl
  | ⟨1, _⟩ => exact (Nat.zero_add _).symm
  | ⟨2, _⟩ => exact (Nat.zero_add _).symm

/-- The fourth array is this layer's row of the stack of node biases as a one-row array: the stack is cut to one row,
    flattened to a vector and given a leading unit axis again, so entry (0, q) is the stack's entry (row, q). -/
theorem V9_b (nb : RArr 3 128)
    (H12 : W8 m ρ c (Proc.devRef .tc main_arg12) = nb) :
    V9 m ρ c (Pipeline.arrRef spec2 3) = fun i => rowV nb 0 (i 1) := by
  show StableHlo.after hostOps2 (W8 m ρ c) (Proc.devRef .tc main_v46) = _
  after_results_simp
  rw [H12]
  funext i
  obtain ⟨u, q, rfl⟩ : ∃ u q, i = ix2 u q := ⟨i 0, i 1, eq_ix2 i⟩
  refine (shapeCast_a_1a_apply _ _ u q).trans ?_
  refine (shapeCast_1a_a_apply _ _ q).trans ?_
  refine extractStridedSlice_apply _ nb _ _ _ fun ax => ?_
  match ax with
  | ⟨0, _⟩ => rfl
  | ⟨1, _⟩ => exact (Nat.zero_add _).symm

/-! ### The region's result -/

/-- The nodes' next state from the messages, the destination words, the inverse degrees and layer 0's slab of the
    node weights. -/
theorem stageN0 (msg : RArr 640000 128) (ei : (Sh 2 640000).Idx → BitVec 32) (dinv : Fin 40000 → EReal)
    (nW : (⟨3, ![3, 128, 128]⟩ : Shape).Idx → EReal) (nb : RArr 3 128)
    (Hmsg : W8 m ρ c (Proc.devRef .tc main_v37) = msg)
    (Hdst : W8 m ρ c (Proc.devRef .tc main_v3) = fun i => ei (ix2 1 (i 0)))
    (Hdinv : W8 m ρ c (Proc.devRef .tc main_v19) = fun i => dinv (i 0))
    (H11 : W8 m ρ c (Proc.devRef .tc main_arg11) = nW)
    (H12 : W8 m ρ c (Proc.devRef .tc main_arg12) = nb) :
    W10 m ρ c (Proc.devRef .tc main_v47) = nodeUpMul (segSum (dstW ei) msg) dinv (slab nW 0) (rowV nb 0) := by
  show W10 m ρ c (Proc.devRef .tc (Pipeline.arrRef spec2 4)) = _
  rw [W10_arr m ρ c 4,
    RegVal.region2_arr (V9 m ρ) c _ _ _ _ (V9_agg m ρ c msg ei Hmsg Hdst) (V9_dinv m ρ c dinv Hdinv)
      (V9_w m ρ c nW H11) (V9_b m ρ c nb H12)]
  rfl

end Cert.KernelIdeal.Stage

end
-- ==== Proof.KRegion4.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! The lemmas for region 2's node update, kept under a name of their own. -/
namespace Region4

/-! ## A column spread across the lanes -/

/-- An `[a, 1]` column broadcast to `[a, b]` reads, at `(p, c)`, the column's entry of row `p`: the operand's second axis
    has extent one, so its coordinate there is zero; its first axis keeps the result's row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry -/

/-- Entry (p, q) of what the body stores: the scaled row p of the summed messages (each entry times the row's inverse
    degree) contracted with column q of the weight matrix, plus entry q of the bias row, rectified. -/
theorem nodeRow_apply (x0 : FVec Ideal S5000x128 .f32) (x1 : FVec Ideal S5000x1 .f32) (x2 : FVec Ideal S128x128 .f32)
    (x3 : FVec Ideal S1x128 .f32) (p : Fin 5000) (q : Fin 128) :
    k4_pay1 x0 x1 x2 x3 (ix2 p q)
      = max ((∑ k : Fin 128, (x0 (ix2 p k) * x1 (ix2 p (0 : Fin 1))) * x2 (ix2 k q)) + x3 (ix2 (0 : Fin 1) q)) 0 := by
  unfold k4_pay1
  simp only [shapeCast_self]
  show max ((matmul dot_S5000x128_S128x128_S5000x128_1_0_0_1_n_n none
        (mulf x0 (broadcastTo S5000x128 x1 broadcasts_S5000x1_S5000x128)) x2 (constant S5000x128 .f32 0x00000000#32)) (ix2 p q)
      + broadcastTo S5000x128 x3 broadcasts_S1x128_S5000x128 (ix2 p q)) (Ideal.ofBits .f32 0x00000000#32) = _
  rw [Ideal.ofBits_zero_f32, broadcastTo_1b_ab_apply x3 broadcasts_S1x128_S5000x128 p q,
    Cert.LibDense.matmul_zero_apply dot_S5000x128_S128x128_S5000x128_1_0_0_1_n_n rfl rfl rfl rfl rfl rfl none _ x2 p q]
  refine congrArg (fun s => max (s + x3 (ix2 (0 : Fin 1) q)) 0) (Finset.sum_congr rfl fun k _ => ?_)
  rw [mulf_apply, broadcastTo_a1_ab_apply x1 broadcasts_S5000x1_S5000x128 p k]

/-- The same entry against the node update over whole arrays: when the four loaded blocks hold, on the entries this one
    depends on, the arrays' entries of the node row and column that `i` names — row p of the two row-tiled blocks is node row
    `i 0`, the weight block is the weight matrix, the bias block the bias row —, the body's entry (p, q) is the update's entry `i`. -/
theorem nodeRow_eq (agg : RArr 40000 128) (dinv : RArr 40000 1) (w : RArr 128 128) (b : RArr 1 128)
    (x0 : FVec Ideal S5000x128 .f32) (x1 : FVec Ideal S5000x1 .f32) (x2 : FVec Ideal S128x128 .f32) (x3 : FVec Ideal S1x128 .f32)
    (p : Fin 5000) (q : Fin 128) (i : (Sh 40000 128).Idx)
    (h0 : ∀ k : Fin 128, x0 (ix2 p k) = agg (ix2 (i 0) k))
    (h1 : x1 (ix2 p (0 : Fin 1)) = dinv (ix2 (i 0) (0 : Fin 1)))
    (h2 : ∀ k : Fin 128, x2 (ix2 k q) = w (ix2 k (i 1)))
    (h3 : x3 (ix2 (0 : Fin 1) q) = b (ix2 (0 : Fin 1) (i 1))) :
    k4_pay1 (F := Ideal) x0 x1 x2 x3 (ix2 p q) = nodeUpMul agg (fun n => dinv (ix2 n 0)) w (fun q => b (ix2 0 q)) i := by
  rw [nodeRow_apply, h1, h3]
  show _ = max ((∑ k : Fin 128, (agg (ix2 (i 0) k) * dinv (ix2 (i 0) (0 : Fin 1))) * w (ix2 k (i 1))) + b (ix2 (0 : Fin 1) (i 1))) 0
  refine congrArg (fun s => max (s + b (ix2 (0 : Fin 1) (i 1))) 0) (Finset.sum_congr rfl fun k _ => ?_)
  rw [h0 k, h2 k]

/-! ## One grid point's block of the result -/

/-- The body's accesses start at the origin of their buffers. -/
theorem originOffsets : (![0, 0] : Fin 2 → Nat) = fun _ => 0 := funext fun a => by fin_cases a <;> rfl

/-- The windows' index maps over the 8 grid points: the two row-tiled inputs sit at the output's row block, which is the point
    itself; every window's column block is 0; the weight and bias windows stay at block (0, 0). -/
theorem blockIdx_facts : ∀ t : Fin cfg4.N,
    win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-! ## The input blocks under one entry of the output's block

Entry (p, q) of point `t`'s output block lies over the array's entry (5000 t + p, q). The four lemmas read, off the region's
input arrays, the entries of the four loaded blocks that this result entry depends on. A block's coordinate on an axis is
its block index times the block's extent plus the coordinate inside the block. -/

/-- Row p of the summed messages' block is the node's row of the array: the window sits at the output's row block, column block 0. -/
theorem aggBlock_apply (c : Dev nD) (t : Fin cfg4.N) (p : Fin 5000) (q k : Fin 128) :
    iblk4 (F := Ideal) V c 0 t (ix2 p k)
      = V c (Pipeline.arrRef spec4 0) (ix2 ((((cfg4.win 4).blk t).view.emb (ix2 p q)) 0) k) := by
  obtain ⟨e00, e01, -, -, -, -, -, -, -, -⟩ := blockIdx_facts t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 5000 + 1 * p.val = win4_4.index t (0 : Fin 2) * 5000 + 1 * p.val; omega
  | ⟨1, _⟩ => show win4_0.index t (1 : Fin 2) * 128 + 1 * k.val = k.val; omega

/-- Row p of the inverse degrees' block is the node's entry of the one-column array: the window sits at the output's row block. -/
theorem dinvBlock_apply (c : Dev nD) (t : Fin cfg4.N) (p : Fin 5000) (q : Fin 128) :
    iblk4 (F := Ideal) V c 1 t (ix2 p (0 : Fin 1))
      = V c (Pipeline.arrRef spec4 1) (ix2 ((((cfg4.win 4).blk t).view.emb (ix2 p q)) 0) (0 : Fin 1)) := by
  obtain ⟨-, -, e10, e11, -, -, -, -, -, -⟩ := blockIdx_facts t
  show V c (Pipeline.arrRef spec4 1) (((cfg4.win 1).blk t).view.emb (ix2 p (0 : Fin 1))) = _
  refine congrArg (V c (Pipeline.arrRef spec4 1)) (funext fun a => Fin.ext ?_)
  match a with
  | ⟨0, _⟩ => show win4_1.index t (0 : Fin 2) * 5000 + 1 * p.val = win4_4.index t (0 : Fin 2) * 5000 + 1 * p.val; omega
  | ⟨1, _⟩ => show win4_1.index t (1 : Fin 2) * 1 + 1 * 0 = 0; omega

/-- The weight block is the weight matrix at every point (block (0, 0) of a one-block array); its column is the output's. -/
theorem weightBlock_apply (c : Dev nD) (t : Fin cfg4.N) (p : Fin 5000) (q k : Fin 128) :
    iblk4 (F := Ideal) V c 2 t (ix2 k q)
      = V c (Pipeline.arrRef spec4 2) (ix2 k ((((cfg4.win 4).blk t).view.emb (ix2 p q)) 1)) := by
  obtain ⟨-, -, -, -, e20, e21, -, -, -, e41⟩ := blockIdx_facts t
  show V c (Pipeline.arrRef spec4 2) (((cfg4.win 2).blk t).view.emb (ix2 k q)) = _
  refine congrArg (V c (Pipeline.arrRef spec4 2)) (funext fun a => Fin.ext ?_)
  match a with
  | ⟨0, _⟩ => show win4_2.index t (0 : Fin 2) * 128 + 1 * k.val = k.val; omega
  | ⟨1, _⟩ => show win4_2.index t (1 : Fin 2) * 128 + 1 * q.val = win4_4.index t (1 : Fin 2) * 128 + 1 * q.val; omega

/-- The bias block is the bias row at every point (block (0, 0) of a one-block array); its column is the output's. -/
theorem biasBlock_apply (c : Dev nD) (t : Fin cfg4.N) (p : Fin 5000) (q : Fin 128) :
    iblk4 (F := Ideal) V c 3 t (ix2 (0 : Fin 1) q)
      = V c (Pipeline.arrRef spec4 3) (ix2 (0 : Fin 1) ((((cfg4.win 4).blk t).view.emb (ix2 p q)) 1)) := by
  obtain ⟨-, -, -, -, -, -, e30, e31, -, e41⟩ := blockIdx_facts t
  show V c (Pipeline.arrRef spec4 3) (((cfg4.win 3).blk t).view.emb (ix2 (0 : Fin 1) q)) = _
  refine congrArg (V c (Pipeline.arrRef spec4 3)) (funext fun a => Fin.ext ?_)
  match a with
  | ⟨0, _⟩ => show win4_3.index t (0 : Fin 2) * 1 + 1 * 0 = 0; omega
  | ⟨1, _⟩ => show win4_3.index t (1 : Fin 2) * 128 + 1 * q.val = win4_4.index t (1 : Fin 2) * 128 + 1 * q.val; omega

/-- The output window is never cut: what a point writes back of a buffer's contents is those contents, entry by entry. -/
theorem cut_rowBlock (X : S5000x128.Idx → EReal) (t : Fin cfg4.N) (j : S5000x128.Idx) :
    (cfg4.win 4).cut (grid4.coords t) X j = X j := rfl

/-- An array read through point `t`'s output block: entry `j` of the block is the array's entry under it. -/
theorem read_rowBlock (G : S40000x128.Idx → EReal) (t : Fin cfg4.N) (j : S5000x128.Idx) :
    ((cfg4.win 4).blk t).view.read (Elt Ideal) G j = G (((cfg4.win 4).blk t).view.emb j) := rfl

/-- WHAT POINT `t` WRITES BACK is block `t` (node rows 5000 t … 5000 t + 4999) of the node update of the region's input arrays. -/
theorem flushed_eq (c : Dev nD)
    (agg : RArr 40000 128) (dinv : RArr 40000 1) (w : RArr 128 128) (b : RArr 1 128)
    (hagg : V c (Pipeline.arrRef spec4 0) = agg) (hdinv : V c (Pipeline.arrRef spec4 1) = dinv)
    (hw : V c (Pipeline.arrRef spec4 2) = w) (hb : V c (Pipeline.arrRef spec4 3) = b) (t : Fin cfg4.N) :
    (dat4 (F := Ideal) V c).flushed 4 t
      = ((cfg4.win 4).blk t).view.read (Elt Ideal) (nodeUpMul agg (fun n => dinv (ix2 n 0)) w (fun q => b (ix2 0 q))) := by
  subst hagg hdinv hw hb
  show (cfg4.win 4).cut (grid4.coords t) ((dat4 V c).after 4 t) = _
  rw [after4_4]
  unfold out4_4
  rw [View.canon_unit_zero originOffsets]
  simp only [View.ld_unit_zero (S := S5000x128) originOffsets, View.ld_unit_zero (S := S5000x1) originOffsets,
    View.ld_unit_zero (S := S128x128) originOffsets, View.ld_unit_zero (S := S1x128) originOffsets]
  funext j
  obtain ⟨p, q, rfl⟩ : ∃ (p : Fin 5000) (q : Fin 128), j = ix2 p q := ⟨j 0, j 1, eq_ix2 j⟩
  -- the entry of the array under entry (p, q) of the output's block: node row 5000 t + p, column q
  refine (cut_rowBlock _ t (ix2 p q)).trans (Eq.trans ?_ (read_rowBlock _ t (ix2 p q)).symm)
  refine nodeRow_eq (V c (Pipeline.arrRef spec4 0)) (V c (Pipeline.arrRef spec4 1)) (V c (Pipeline.arrRef spec4 2))
    (V c (Pipeline.arrRef spec4 3)) (iblk4 V c 0 t) (iblk4 V c 1 t) (iblk4 V c 2 t) (iblk4 V c 3 t) p q
    (((cfg4.win 4).blk t).view.emb (ix2 p q)) ?_ ?_ ?_ ?_
  · exact fun k => aggBlock_apply V c t p q k
  · exact dinvBlock_apply V c t p q
  · exact fun k => weightBlock_apply V c t p q k
  · exact biasBlock_apply V c t p q

/-! ## The blocks tile the rows -/

/-- An entry of the output array is in point `t`'s block iff each coordinate is in the block's range on its axis. -/
theorem mem_rowBlock (t : Fin cfg4.N) (i : S40000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v47).slice (win4_4.rect t)).set ↔ _
  rw [View.set_slice_whole, Rect.mem_set_unit]
  exact Iff.rfl

/-- Node row r lies in the block of point r / 5000, which writes back: 8 blocks of 5000 rows fill the 40000 rows. -/
theorem rows_covered (i : S40000x128.Idx) :
    ∃ t : Fin cfg4.N, (cfg4.win 4).flush t = true ∧ i ∈ ((cfg4.win 4).blk t).view.set := by
  have hi0 : (i 0).val < 40000 := (i 0).isLt
  have hi1 : (i 1).val < 128 := (i 1).isLt
  have hN : grid4.N = 8 := N_4
  have hlt : (i 0).val / 5000 < grid4.N := by rw [hN]; omega
  obtain ⟨-, -, -, -, -, -, -, -, e40, e41⟩ := blockIdx_facts ⟨(i 0).val / 5000, hlt⟩
  refine ⟨⟨(i 0).val / 5000, hlt⟩, flush4_4 _, ?_⟩
  rw [mem_rowBlock]
  intro a
  match a with
  | ⟨0, _⟩ =>
    show win4_4.index ⟨(i 0).val / 5000, hlt⟩ (0 : Fin 2) * 5000 ≤ (i 0).val
      ∧ (i 0).val < win4_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win4_4.index ⟨(i 0).val / 5000, hlt⟩ (1 : Fin 2) * 128 ≤ (i 1).val
      ∧ (i 1).val < win4_4.index ⟨(i 0).val / 5000, hlt⟩ (1 : Fin 2) * 128 + 128
    omega

end Region4

/-- Region 2 (a node update): after the 8 grid points the output array holds, at every entry, the rectified dense layer
    of the node's summed messages times the inverse degree. -/
theorem region4_arr (c : Dev nD)
    (agg : RArr 40000 128) (dinv : RArr 40000 1) (w : RArr 128 128) (b : RArr 1 128)
    (hagg : V c (Pipeline.arrRef spec4 0) = agg) (hdinv : V c (Pipeline.arrRef spec4 1) = dinv)
    (hw : V c (Pipeline.arrRef spec4 2) = w) (hb : V c (Pipeline.arrRef spec4 3) = b) :
    (dat4 (F := Ideal) V c).arrAt 4 cfg4.N
      = nodeUpMul agg (fun n => dinv (ix2 n 0)) w (fun q => b (ix2 0 q)) :=
  (dat4 (F := Ideal) V c).arrAt_eq_of_cover 4 _ (fun t _ => Region4.flushed_eq V c agg dinv w b hagg hdinv hw hb t) Region4.rows_covered

end Cert.KernelIdeal.RegVal

end
-- ==== Proof.KStageN1.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import proofs.«403623_j41042707481180_2_alg».proof.Proof.KRegion4
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.IdealHost

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## A node update (layer 1)

The program widens the edges' messages, sums them per destination node, and the region multiplies by the inverse degree
and applies the dense layer and the rectifier. -/

/-! ### What the region's four input arrays hold when it starts -/

/-- The destination words spread into a one-column array: row e of the column is the word of edge e. -/
theorem dstCol_apply1 (ei : (Sh 2 640000).Idx → BitVec 32) (e : Fin 640000) :
    (broadcastInDim S640000x1 ![0] bcast_S640000_S640000x1_0 (fun i => ei (ix2 1 (i 0)) : IVec S640000 32) : IVec S640000x1 32)
      (ix2 e 0) = dstW ei e := by
  refine (broadcastInDim_apply ![0] bcast_S640000_S640000x1_0 _ (ix2 e 0) (ix1 e) fun a => ?_).trans rfl
  match a with
  | ⟨0, _⟩ => rfl

/-- The first array is the per-node sum of the messages: a scatter-add into zeros of the widened message rows, by the
    column of destination words. Entry (n, q) is 0 plus column q of every message row whose word, read signed, is n.
    Widening a message leaves its value as it is. -/
theorem V16_agg (msg : RArr 640000 128) (ei : (Sh 2 640000).Idx → BitVec 32)
    (Hmsg : W15 m ρ c (Proc.devRef .tc main_v65) = msg)
    (Hdst : W15 m ρ c (Proc.devRef .tc main_v3) = fun i => ei (ix2 1 (i 0))) :
    V16 m ρ c (Pipeline.arrRef spec4 0) = segSum (dstW ei) msg := by
  show StableHlo.after hostOps4 (W15 m ρ c) (Proc.devRef .tc main_v69) = _
  after_results_simp
  rw [Hmsg, Hdst]
  funext i
  obtain ⟨n, q, rfl⟩ : ∃ n q, i = ix2 n q := ⟨i 0, i 1, eq_ix2 i⟩
  unfold Host.scatterAdd
  rw [Ideal.hostScatterAdd_def, Cert.LibGS.scatterAdd_rows_gen _ rfl rfl rfl rfl]
  show _ + _ = 0 + _
  refine congrArg₂ (· + ·) ?_ ?_
  · exact (broadcastInDim_scalar_apply _ _ _).trans Ideal.ofBits_zero_f32
  · exact Finset.sum_congr
      (Finset.filter_congr fun e _ =>
        iff_of_eq (congrArg (fun w : BitVec 32 => w.toInt = (n.val : ℤ)) (dstCol_apply1 ei e)))
      fun e _ => rfl

/-- The second array is the column of inverse degrees, which the stretch before the region does not write. -/
theorem V16_dinv (dinv : Fin 40000 → EReal)
    (Hdinv : W15 m ρ c (Proc.devRef .tc main_v19) = fun i => dinv (i 0)) :
    V16 m ρ c (Pipeline.arrRef spec4 1) = fun i => dinv (i 0) := by
  show StableHlo.after hostOps4 (W15 m ρ c) (Proc.devRef .tc main_v19) = _
  after_results_simp
  exact Hdinv

/-- The third array is this layer's slab of the stack of node matrices: the stack is cut to one slab and the leading
    unit axis dropped, so entry (a, b) is the stack's entry (slab, a, b). -/
theorem V16_w (nW : (⟨3, ![3, 128, 128]⟩ : Shape).Idx → EReal)
    (H11 : W15 m ρ c (Proc.devRef .tc main_arg11) = nW) :
    V16 m ρ c (Pipeline.arrRef spec4 2) = slab nW 1 := by
  show StableHlo.after hostOps4 (W15 m ρ c) (Proc.devRef .tc main_v71) = _
  after_results_simp
  rw [H11]
  funext i
  obtain ⟨a, b, rfl⟩ : ∃ a b, i = ix2 a b := ⟨i 0, i 1, eq_ix2 i⟩
  refine (shapeCast_1ab_ab_apply _ _ a b).trans ?_
  refine extractStridedSlice_apply _ nW _ _ _ fun ax => ?_
  match ax with
  | ⟨0, _⟩ => rfl
  | ⟨1, _⟩ => exact (Nat.zero_add _).symm
  | ⟨2, _⟩ => exact (Nat.zero_add _).symm

/-- The fourth array is this layer's row of the stack of node biases as a one-row array: the stack is cut to one row,
    flattened to a vector and given a leading unit axis again, so entry (0, q) is the stack's entry (row, q). -/
theorem V16_b (nb : RArr 3 128)
    (H12 : W15 m ρ c (Proc.devRef .tc main_arg12) = nb) :
    V16 m ρ c (Pipeline.arrRef spec4 3) = fun i => rowV nb 1 (i 1) := by
  show StableHlo.after hostOps4 (W15 m ρ c) (Proc.devRef .tc main_v74) = _
  after_results_simp
  rw [H12]
  funext i
  obtain ⟨u, q, rfl⟩ : ∃ u q, i = ix2 u q := ⟨i 0, i 1, eq_ix2 i⟩
  refine (shapeCast_a_1a_apply _ _ u q).trans ?_
  refine (shapeCast_1a_a_apply _ _ q).trans ?_
  refine extractStridedSlice_apply _ nb _ _ _ fun ax => ?_
  match ax with
  | ⟨0, _⟩ => rfl
  | ⟨1, _⟩ => exact (Nat.zero_add _).symm

/-! ### The region's result -/

/-- The nodes' next state from the messages, the destination words, the inverse degrees and layer 1's slab of the
    node weights. -/
theorem stageN1 (msg : RArr 640000 128) (ei : (Sh 2 640000).Idx → BitVec 32) (dinv : Fin 40000 → EReal)
    (nW : (⟨3, ![3, 128, 128]⟩ : Shape).Idx → EReal) (nb : RArr 3 128)
    (Hmsg : W15 m ρ c (Proc.devRef .tc main_v65) = msg)
    (Hdst : W15 m ρ c (Proc.devRef .tc main_v3) = fun i => ei (ix2 1 (i 0)))
    (Hdinv : W15 m ρ c (Proc.devRef .tc main_v19) = fun i => dinv (i 0))
    (H11 : W15 m ρ c (Proc.devRef .tc main_arg11) = nW)
    (H12 : W15 m ρ c (Proc.devRef .tc main_arg12) = nb) :
    W17 m ρ c (Proc.devRef .tc main_v75) = nodeUpMul (segSum (dstW ei) msg) dinv (slab nW 1) (rowV nb 1) := by
  show W17 m ρ c (Proc.devRef .tc (Pipeline.arrRef spec4 4)) = _
  rw [W17_arr m ρ c 4,
    RegVal.region4_arr (V16 m ρ) c _ _ _ _ (V16_agg m ρ c msg ei Hmsg Hdst) (V16_dinv m ρ c dinv Hdinv)
      (V16_w m ρ c nW H11) (V16_b m ρ c nb H12)]
  rfl

end Cert.KernelIdeal.Stage

end
-- ==== Proof.KRegion6.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! The lemmas for region 2's node update, kept under a name of their own. -/
namespace Region6

/-! ## A column spread across the lanes -/

/-- An `[a, 1]` column broadcast to `[a, b]` reads, at `(p, c)`, the column's entry of row `p`: the operand's second axis
    has extent one, so its coordinate there is zero; its first axis keeps the result's row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry -/

/-- Entry (p, q) of what the body stores: the scaled row p of the summed messages (each entry times the row's inverse
    degree) contracted with column q of the weight matrix, plus entry q of the bias row, rectified. -/
theorem nodeRow_apply (x0 : FVec Ideal S5000x128 .f32) (x1 : FVec Ideal S5000x1 .f32) (x2 : FVec Ideal S128x128 .f32)
    (x3 : FVec Ideal S1x128 .f32) (p : Fin 5000) (q : Fin 128) :
    k6_pay1 x0 x1 x2 x3 (ix2 p q)
      = max ((∑ k : Fin 128, (x0 (ix2 p k) * x1 (ix2 p (0 : Fin 1))) * x2 (ix2 k q)) + x3 (ix2 (0 : Fin 1) q)) 0 := by
  unfold k6_pay1
  simp only [shapeCast_self]
  show max ((matmul dot_S5000x128_S128x128_S5000x128_1_0_0_1_n_n none
        (mulf x0 (broadcastTo S5000x128 x1 broadcasts_S5000x1_S5000x128)) x2 (constant S5000x128 .f32 0x00000000#32)) (ix2 p q)
      + broadcastTo S5000x128 x3 broadcasts_S1x128_S5000x128 (ix2 p q)) (Ideal.ofBits .f32 0x00000000#32) = _
  rw [Ideal.ofBits_zero_f32, broadcastTo_1b_ab_apply x3 broadcasts_S1x128_S5000x128 p q,
    Cert.LibDense.matmul_zero_apply dot_S5000x128_S128x128_S5000x128_1_0_0_1_n_n rfl rfl rfl rfl rfl rfl none _ x2 p q]
  refine congrArg (fun s => max (s + x3 (ix2 (0 : Fin 1) q)) 0) (Finset.sum_congr rfl fun k _ => ?_)
  rw [mulf_apply, broadcastTo_a1_ab_apply x1 broadcasts_S5000x1_S5000x128 p k]

/-- The same entry against the node update over whole arrays: when the four loaded blocks hold, on the entries this one
    depends on, the arrays' entries of the node row and column that `i` names — row p of the two row-tiled blocks is node row
    `i 0`, the weight block is the weight matrix, the bias block the bias row —, the body's entry (p, q) is the update's entry `i`. -/
theorem nodeRow_eq (agg : RArr 40000 128) (dinv : RArr 40000 1) (w : RArr 128 128) (b : RArr 1 128)
    (x0 : FVec Ideal S5000x128 .f32) (x1 : FVec Ideal S5000x1 .f32) (x2 : FVec Ideal S128x128 .f32) (x3 : FVec Ideal S1x128 .f32)
    (p : Fin 5000) (q : Fin 128) (i : (Sh 40000 128).Idx)
    (h0 : ∀ k : Fin 128, x0 (ix2 p k) = agg (ix2 (i 0) k))
    (h1 : x1 (ix2 p (0 : Fin 1)) = dinv (ix2 (i 0) (0 : Fin 1)))
    (h2 : ∀ k : Fin 128, x2 (ix2 k q) = w (ix2 k (i 1)))
    (h3 : x3 (ix2 (0 : Fin 1) q) = b (ix2 (0 : Fin 1) (i 1))) :
    k6_pay1 (F := Ideal) x0 x1 x2 x3 (ix2 p q) = nodeUpMul agg (fun n => dinv (ix2 n 0)) w (fun q => b (ix2 0 q)) i := by
  rw [nodeRow_apply, h1, h3]
  show _ = max ((∑ k : Fin 128, (agg (ix2 (i 0) k) * dinv (ix2 (i 0) (0 : Fin 1))) * w (ix2 k (i 1))) + b (ix2 (0 : Fin 1) (i 1))) 0
  refine congrArg (fun s => max (s + b (ix2 (0 : Fin 1) (i 1))) 0) (Finset.sum_congr rfl fun k _ => ?_)
  rw [h0 k, h2 k]

/-! ## One grid point's block of the result -/

/-- The body's accesses start at the origin of their buffers. -/
theorem originOffsets : (![0, 0] : Fin 2 → Nat) = fun _ => 0 := funext fun a => by fin_cases a <;> rfl

/-- The windows' index maps over the 8 grid points: the two row-tiled inputs sit at the output's row block, which is the point
    itself; every window's column block is 0; the weight and bias windows stay at block (0, 0). -/
theorem blockIdx_facts : ∀ t : Fin cfg6.N,
    win6_0.index t (0 : Fin 2) = win6_4.index t (0 : Fin 2) ∧ win6_0.index t (1 : Fin 2) = 0
    ∧ win6_1.index t (0 : Fin 2) = win6_4.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-! ## The input blocks under one entry of the output's block

Entry (p, q) of point `t`'s output block lies over the array's entry (5000 t + p, q). The four lemmas read, off the region's
input arrays, the entries of the four loaded blocks that this result entry depends on. A block's coordinate on an axis is
its block index times the block's extent plus the coordinate inside the block. -/

/-- Row p of the summed messages' block is the node's row of the array: the window sits at the output's row block, column block 0. -/
theorem aggBlock_apply (c : Dev nD) (t : Fin cfg6.N) (p : Fin 5000) (q k : Fin 128) :
    iblk6 (F := Ideal) V c 0 t (ix2 p k)
      = V c (Pipeline.arrRef spec6 0) (ix2 ((((cfg6.win 4).blk t).view.emb (ix2 p q)) 0) k) := by
  obtain ⟨e00, e01, -, -, -, -, -, -, -, -⟩ := blockIdx_facts t
  show V c (Pipeline.arrRef spec6 0) (((cfg6.win 0).blk t).view.emb (ix2 p k)) = _
  refine congrArg (V c (Pipeline.arrRef spec6 0)) (funext fun a => Fin.ext ?_)
  match a with
  | ⟨0, _⟩ => show win6_0.index t (0 : Fin 2) * 5000 + 1 * p.val = win6_4.index t (0 : Fin 2) * 5000 + 1 * p.val; omega
  | ⟨1, _⟩ => show win6_0.index t (1 : Fin 2) * 128 + 1 * k.val = k.val; omega

/-- Row p of the inverse degrees' block is the node's entry of the one-column array: the window sits at the output's row block. -/
theorem dinvBlock_apply (c : Dev nD) (t : Fin cfg6.N) (p : Fin 5000) (q : Fin 128) :
    iblk6 (F := Ideal) V c 1 t (ix2 p (0 : Fin 1))
      = V c (Pipeline.arrRef spec6 1) (ix2 ((((cfg6.win 4).blk t).view.emb (ix2 p q)) 0) (0 : Fin 1)) := by
  obtain ⟨-, -, e10, e11, -, -, -, -, -, -⟩ := blockIdx_facts t
  show V c (Pipeline.arrRef spec6 1) (((cfg6.win 1).blk t).view.emb (ix2 p (0 : Fin 1))) = _
  refine congrArg (V c (Pipeline.arrRef spec6 1)) (funext fun a => Fin.ext ?_)
  match a with
  | ⟨0, _⟩ => show win6_1.index t (0 : Fin 2) * 5000 + 1 * p.val = win6_4.index t (0 : Fin 2) * 5000 + 1 * p.val; omega
  | ⟨1, _⟩ => show win6_1.index t (1 : Fin 2) * 1 + 1 * 0 = 0; omega

/-- The weight block is the weight matrix at every point (block (0, 0) of a one-block array); its column is the output's. -/
theorem weightBlock_apply (c : Dev nD) (t : Fin cfg6.N) (p : Fin 5000) (q k : Fin 128) :
    iblk6 (F := Ideal) V c 2 t (ix2 k q)
      = V c (Pipeline.arrRef spec6 2) (ix2 k ((((cfg6.win 4).blk t).view.emb (ix2 p q)) 1)) := by
  obtain ⟨-, -, -, -, e20, e21, -, -, -, e41⟩ := blockIdx_facts t
  show V c (Pipeline.arrRef spec6 2) (((cfg6.win 2).blk t).view.emb (ix2 k q)) = _
  refine congrArg (V c (Pipeline.arrRef spec6 2)) (funext fun a => Fin.ext ?_)
  match a with
  | ⟨0, _⟩ => show win6_2.index t (0 : Fin 2) * 128 + 1 * k.val = k.val; omega
  | ⟨1, _⟩ => show win6_2.index t (1 : Fin 2) * 128 + 1 * q.val = win6_4.index t (1 : Fin 2) * 128 + 1 * q.val; omega

/-- The bias block is the bias row at every point (block (0, 0) of a one-block array); its column is the output's. -/
theorem biasBlock_apply (c : Dev nD) (t : Fin cfg6.N) (p : Fin 5000) (q : Fin 128) :
    iblk6 (F := Ideal) V c 3 t (ix2 (0 : Fin 1) q)
      = V c (Pipeline.arrRef spec6 3) (ix2 (0 : Fin 1) ((((cfg6.win 4).blk t).view.emb (ix2 p q)) 1)) := by
  obtain ⟨-, -, -, -, -, -, e30, e31, -, e41⟩ := blockIdx_facts t
  show V c (Pipeline.arrRef spec6 3) (((cfg6.win 3).blk t).view.emb (ix2 (0 : Fin 1) q)) = _
  refine congrArg (V c (Pipeline.arrRef spec6 3)) (funext fun a => Fin.ext ?_)
  match a with
  | ⟨0, _⟩ => show win6_3.index t (0 : Fin 2) * 1 + 1 * 0 = 0; omega
  | ⟨1, _⟩ => show win6_3.index t (1 : Fin 2) * 128 + 1 * q.val = win6_4.index t (1 : Fin 2) * 128 + 1 * q.val; omega

/-- The output window is never cut: what a point writes back of a buffer's contents is those contents, entry by entry. -/
theorem cut_rowBlock (X : S5000x128.Idx → EReal) (t : Fin cfg6.N) (j : S5000x128.Idx) :
    (cfg6.win 4).cut (grid6.coords t) X j = X j := rfl

/-- An array read through point `t`'s output block: entry `j` of the block is the array's entry under it. -/
theorem read_rowBlock (G : S40000x128.Idx → EReal) (t : Fin cfg6.N) (j : S5000x128.Idx) :
    ((cfg6.win 4).blk t).view.read (Elt Ideal) G j = G (((cfg6.win 4).blk t).view.emb j) := rfl

/-- WHAT POINT `t` WRITES BACK is block `t` (node rows 5000 t … 5000 t + 4999) of the node update of the region's input arrays. -/
theorem flushed_eq (c : Dev nD)
    (agg : RArr 40000 128) (dinv : RArr 40000 1) (w : RArr 128 128) (b : RArr 1 128)
    (hagg : V c (Pipeline.arrRef spec6 0) = agg) (hdinv : V c (Pipeline.arrRef spec6 1) = dinv)
    (hw : V c (Pipeline.arrRef spec6 2) = w) (hb : V c (Pipeline.arrRef spec6 3) = b) (t : Fin cfg6.N) :
    (dat6 (F := Ideal) V c).flushed 4 t
      = ((cfg6.win 4).blk t).view.read (Elt Ideal) (nodeUpMul agg (fun n => dinv (ix2 n 0)) w (fun q => b (ix2 0 q))) := by
  subst hagg hdinv hw hb
  show (cfg6.win 4).cut (grid6.coords t) ((dat6 V c).after 4 t) = _
  rw [after6_4]
  unfold out6_4
  rw [View.canon_unit_zero originOffsets]
  simp only [View.ld_unit_zero (S := S5000x128) originOffsets, View.ld_unit_zero (S := S5000x1) originOffsets,
    View.ld_unit_zero (S := S128x128) originOffsets, View.ld_unit_zero (S := S1x128) originOffsets]
  funext j
  obtain ⟨p, q, rfl⟩ : ∃ (p : Fin 5000) (q : Fin 128), j = ix2 p q := ⟨j 0, j 1, eq_ix2 j⟩
  -- the entry of the array under entry (p, q) of the output's block: node row 5000 t + p, column q
  refine (cut_rowBlock _ t (ix2 p q)).trans (Eq.trans ?_ (read_rowBlock _ t (ix2 p q)).symm)
  refine nodeRow_eq (V c (Pipeline.arrRef spec6 0)) (V c (Pipeline.arrRef spec6 1)) (V c (Pipeline.arrRef spec6 2))
    (V c (Pipeline.arrRef spec6 3)) (iblk6 V c 0 t) (iblk6 V c 1 t) (iblk6 V c 2 t) (iblk6 V c 3 t) p q
    (((cfg6.win 4).blk t).view.emb (ix2 p q)) ?_ ?_ ?_ ?_
  · exact fun k => aggBlock_apply V c t p q k
  · exact dinvBlock_apply V c t p q
  · exact fun k => weightBlock_apply V c t p q k
  · exact biasBlock_apply V c t p q

/-! ## The blocks tile the rows -/

/-- An entry of the output array is in point `t`'s block iff each coordinate is in the block's range on its axis. -/
theorem mem_rowBlock (t : Fin cfg6.N) (i : S40000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v47).slice (win6_4.rect t)).set ↔ _
  rw [View.set_slice_whole, Rect.mem_set_unit]
  exact Iff.rfl

/-- Node row r lies in the block of point r / 5000, which writes back: 8 blocks of 5000 rows fill the 40000 rows. -/
theorem rows_covered (i : S40000x128.Idx) :
    ∃ t : Fin cfg6.N, (cfg6.win 4).flush t = true ∧ i ∈ ((cfg6.win 4).blk t).view.set := by
  have hi0 : (i 0).val < 40000 := (i 0).isLt
  have hi1 : (i 1).val < 128 := (i 1).isLt
  have hN : grid6.N = 8 := N_6
  have hlt : (i 0).val / 5000 < grid6.N := by rw [hN]; omega
  obtain ⟨-, -, -, -, -, -, -, -, e40, e41⟩ := blockIdx_facts ⟨(i 0).val / 5000, hlt⟩
  refine ⟨⟨(i 0).val / 5000, hlt⟩, flush6_4 _, ?_⟩
  rw [mem_rowBlock]
  intro a
  match a with
  | ⟨0, _⟩ =>
    show win6_4.index ⟨(i 0).val / 5000, hlt⟩ (0 : Fin 2) * 5000 ≤ (i 0).val
      ∧ (i 0).val < win6_4.index ⟨(i 0).val / 5000, hlt⟩ (0 : Fin 2) * 5000 + 5000
    rw [e40]
    show (i 0).val / 5000 * 5000 ≤ (i 0).val ∧ (i 0).val < (i 0).val / 5000 * 5000 + 5000
    omega
  | ⟨1, _⟩ =>
    show win6_4.index ⟨(i 0).val / 5000, hlt⟩ (1 : Fin 2) * 128 ≤ (i 1).val
      ∧ (i 1).val < win6_4.index ⟨(i 0).val / 5000, hlt⟩ (1 : Fin 2) * 128 + 128
    omega

end Region6

/-- Region 2 (a node update): after the 8 grid points the output array holds, at every entry, the rectified dense layer
    of the node's summed messages times the inverse degree. -/
theorem region6_arr (c : Dev nD)
    (agg : RArr 40000 128) (dinv : RArr 40000 1) (w : RArr 128 128) (b : RArr 1 128)
    (hagg : V c (Pipeline.arrRef spec6 0) = agg) (hdinv : V c (Pipeline.arrRef spec6 1) = dinv)
    (hw : V c (Pipeline.arrRef spec6 2) = w) (hb : V c (Pipeline.arrRef spec6 3) = b) :
    (dat6 (F := Ideal) V c).arrAt 4 cfg6.N
      = nodeUpMul agg (fun n => dinv (ix2 n 0)) w (fun q => b (ix2 0 q)) :=
  (dat6 (F := Ideal) V c).arrAt_eq_of_cover 4 _ (fun t _ => Region6.flushed_eq V c agg dinv w b hagg hdinv hw hb t) Region6.rows_covered

end Cert.KernelIdeal.RegVal

end
-- ==== Proof.KStageN2.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.LibGatherScatter
import proofs.«403623_j41042707481180_2_alg».proof.Proof.KRegion6
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.IdealHost

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## A node update (layer 2)

The program widens the edges' messages, sums them per destination node, and the region multiplies by the inverse degree
and applies the dense layer and the rectifier. -/

/-! ### What the region's four input arrays hold when it starts -/

/-- The destination words spread into a one-column array: row e of the column is the word of edge e. -/
theorem dstCol_apply2 (ei : (Sh 2 640000).Idx → BitVec 32) (e : Fin 640000) :
    (broadcastInDim S640000x1 ![0] bcast_S640000_S640000x1_0 (fun i => ei (ix2 1 (i 0)) : IVec S640000 32) : IVec S640000x1 32)
      (ix2 e 0) = dstW ei e := by
  refine (broadcastInDim_apply ![0] bcast_S640000_S640000x1_0 _ (ix2 e 0) (ix1 e) fun a => ?_).trans rfl
  match a with
  | ⟨0, _⟩ => rfl

/-- The first array is the per-node sum of the messages: a scatter-add into zeros of the widened message rows, by the
    column of destination words. Entry (n, q) is 0 plus column q of every message row whose word, read signed, is n.
    Widening a message leaves its value as it is. -/
theorem V23_agg (msg : RArr 640000 128) (ei : (Sh 2 640000).Idx → BitVec 32)
    (Hmsg : W22 m ρ c (Proc.devRef .tc main_v93) = msg)
    (Hdst : W22 m ρ c (Proc.devRef .tc main_v3) = fun i => ei (ix2 1 (i 0))) :
    V23 m ρ c (Pipeline.arrRef spec6 0) = segSum (dstW ei) msg := by
  show StableHlo.after hostOps6 (W22 m ρ c) (Proc.devRef .tc main_v97) = _
  after_results_simp
  rw [Hmsg, Hdst]
  funext i
  obtain ⟨n, q, rfl⟩ : ∃ n q, i = ix2 n q := ⟨i 0, i 1, eq_ix2 i⟩
  unfold Host.scatterAdd
  rw [Ideal.hostScatterAdd_def, Cert.LibGS.scatterAdd_rows_gen _ rfl rfl rfl rfl]
  show _ + _ = 0 + _
  refine congrArg₂ (· + ·) ?_ ?_
  · exact (broadcastInDim_scalar_apply _ _ _).trans Ideal.ofBits_zero_f32
  · exact Finset.sum_congr
      (Finset.filter_congr fun e _ =>
        iff_of_eq (congrArg (fun w : BitVec 32 => w.toInt = (n.val : ℤ)) (dstCol_apply2 ei e)))
      fun e _ => rfl

/-- The second array is the column of inverse degrees, which the stretch before the region does not write. -/
theorem V23_dinv (dinv : Fin 40000 → EReal)
    (Hdinv : W22 m ρ c (Proc.devRef .tc main_v19) = fun i => dinv (i 0)) :
    V23 m ρ c (Pipeline.arrRef spec6 1) = fun i => dinv (i 0) := by
  show StableHlo.after hostOps6 (W22 m ρ c) (Proc.devRef .tc main_v19) = _
  after_results_simp
  exact Hdinv

/-- The third array is this layer's slab of the stack of node matrices: the stack is cut to one slab and the leading
    unit axis dropped, so entry (a, b) is the stack's entry (slab, a, b). -/
theorem V23_w (nW : (⟨3, ![3, 128, 128]⟩ : Shape).Idx → EReal)
    (H11 : W22 m ρ c (Proc.devRef .tc main_arg11) = nW) :
    V23 m ρ c (Pipeline.arrRef spec6 2) = slab nW 2 := by
  show StableHlo.after hostOps6 (W22 m ρ c) (Proc.devRef .tc main_v99) = _
  after_results_simp
  rw [H11]
  funext i
  obtain ⟨a, b, rfl⟩ : ∃ a b, i = ix2 a b := ⟨i 0, i 1, eq_ix2 i⟩
  refine (shapeCast_1ab_ab_apply _ _ a b).trans ?_
  refine extractStridedSlice_apply _ nW _ _ _ fun ax => ?_
  match ax with
  | ⟨0, _⟩ => rfl
  | ⟨1, _⟩ => exact (Nat.zero_add _).symm
  | ⟨2, _⟩ => exact (Nat.zero_add _).symm

/-- The fourth array is this layer's row of the stack of node biases as a one-row array: the stack is cut to one row,
    flattened to a vector and given a leading unit axis again, so entry (0, q) is the stack's entry (row, q). -/
theorem V23_b (nb : RArr 3 128)
    (H12 : W22 m ρ c (Proc.devRef .tc main_arg12) = nb) :
    V23 m ρ c (Pipeline.arrRef spec6 3) = fun i => rowV nb 2 (i 1) := by
  show StableHlo.after hostOps6 (W22 m ρ c) (Proc.devRef .tc main_v102) = _
  after_results_simp
  rw [H12]
  funext i
  obtain ⟨u, q, rfl⟩ : ∃ u q, i = ix2 u q := ⟨i 0, i 1, eq_ix2 i⟩
  refine (shapeCast_a_1a_apply _ _ u q).trans ?_
  refine (shapeCast_1a_a_apply _ _ q).trans ?_
  refine extractStridedSlice_apply _ nb _ _ _ fun ax => ?_
  match ax with
  | ⟨0, _⟩ => rfl
  | ⟨1, _⟩ => exact (Nat.zero_add _).symm

/-! ### The region's result -/

/-- The nodes' next state from the messages, the destination words, the inverse degrees and layer 2's slab of the
    node weights. -/
theorem stageN2 (msg : RArr 640000 128) (ei : (Sh 2 640000).Idx → BitVec 32) (dinv : Fin 40000 → EReal)
    (nW : (⟨3, ![3, 128, 128]⟩ : Shape).Idx → EReal) (nb : RArr 3 128)
    (Hmsg : W22 m ρ c (Proc.devRef .tc main_v93) = msg)
    (Hdst : W22 m ρ c (Proc.devRef .tc main_v3) = fun i => ei (ix2 1 (i 0)))
    (Hdinv : W22 m ρ c (Proc.devRef .tc main_v19) = fun i => dinv (i 0))
    (H11 : W22 m ρ c (Proc.devRef .tc main_arg11) = nW)
    (H12 : W22 m ρ c (Proc.devRef .tc main_arg12) = nb) :
    W24 m ρ c (Proc.devRef .tc main_v103) = nodeUpMul (segSum (dstW ei) msg) dinv (slab nW 2) (rowV nb 2) := by
  show W24 m ρ c (Proc.devRef .tc (Pipeline.arrRef spec6 4)) = _
  rw [W24_arr m ρ c 4,
    RegVal.region6_arr (V23 m ρ) c _ _ _ _ (V23_agg m ρ c msg ei Hmsg Hdst) (V23_dinv m ρ c dinv Hdinv)
      (V23_w m ρ c nW H11) (V23_b m ρ c nb H12)]
  rfl

end Cert.KernelIdeal.Stage

end
-- ==== Proof.KRegion7.lean ====
import proofs.«403623_j41042707481180_2_alg».proof.Proof.Gen.KernelIdeal.Frame
import proofs.«403623_j41042707481180_2_alg».proof.Proof.Spec
import proofs.«403623_j41042707481180_2_alg».proof.Proof.LibDense
import Idealize.ShloMosaic.Lib.Pipeline.Value
import Idealize.ShloMosaic.Lib.ValueLayout

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-! # Region 7: the output perceptron

  Eight grid points. Point t stages rows 5000 t … 5000 t + 4999 of the node-state array (128 columns), the 128 × 128
  matrix, its bias row, the 128 × 3 matrix and its bias row — the last four whole at every point — and writes rows
  5000 t … 5000 t + 4999 of the 40000 × 3 result. All values are f32 here, so there is no conversion anywhere: the body is
  a product into zero, a bias row added to every row, a maximum with 0, a second product into zero, a second bias row.
  At (p, q) of the block that is
      (∑ k, max ((∑ l, h (p, l) · W1 (l, k)) + b1 k) 0 · W2 (k, q)) + b2 q        (k, l over 128; q over 3),
  and the eight row blocks fill the 40000 rows exactly once. -/

namespace Readout

/-- A block accessed whole starts at offset 0 on both axes. -/
theorem origin : (![0, 0] : Fin 2 → Nat) = fun _ => 0 := funext fun a => by fin_cases a <;> rfl

/-- A dense layer, the rectifier and a dense layer, read at row r and column q. -/
theorem perceptron_at {M K H N : Nat} (h : RArr M K) (w1 : RArr K H) (b1 : Fin H → EReal) (w2 : RArr H N) (b2 : Fin N → EReal)
    (r : Fin M) (q : Fin N) :
    mlp2 h w1 b1 w2 b2 (ix2 r q)
      = (∑ k : Fin H, max ((∑ l : Fin K, h (ix2 r l) * w1 (ix2 l k)) + b1 k) 0 * w2 (ix2 k q)) + b2 q := rfl

/-- THE BODY'S VALUE AT (p, q): the first product is read as a sum over the 128 contracted columns, the leading cast of
    the state block to its own shape is the identity, each bias row is read at its single row 0, the rectifying
    constant is the real 0, and the second product is a sum over the 128 hidden columns. -/
theorem body_at (hblk : Vec Ideal S5000x128 .f32) (m1 : Vec Ideal S128x128 .f32) (r1 : Vec Ideal S1x128 .f32)
    (m2 : Vec Ideal S128x3 .f32) (r2 : Vec Ideal S1x3 .f32) (p : Fin 5000) (q : Fin 3) :
    k7_pay1 hblk m1 r1 m2 r2 (ix2 p q)
      = (∑ k : Fin 128, max ((∑ l : Fin 128, hblk (ix2 p l) * m1 (ix2 l k)) + r1 (ix2 0 k)) 0 * m2 (ix2 k q)) + r2 (ix2 0 q) := by
  have f32_zero : (FloatOps.ofBits (F := Ideal) .f32 0x00000000#32) = 0 := Ideal.ofBits_zero_f32
  unfold k7_pay1
  simp only [addf_apply, maximumf_apply, broadcast_apply,
    Cert.LibDense.matmul_zero_apply dot_S5000x128_S128x128_S5000x128_1_0_0_1_n_n rfl rfl rfl rfl rfl rfl,
    Cert.LibDense.matmul_zero_apply dot_S5000x128_S128x3_S5000x3_1_0_0_1_n_n rfl rfl rfl rfl rfl rfl,
    broadcastTo_1b_ab_apply, shapeCast_self, f32_zero]

/-- Where the six windows sit at each of the 8 grid points: the state window and the result window at row block t, the
    two matrices and two bias rows at block 0 on both axes. -/
theorem placement : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- A grid point's number is below 8. -/
theorem point_lt (t : Fin cfg7.N) : t.val < 8 := lt_of_lt_of_eq t.isLt N_7

variable (V : (c : Dev nD) → (b : Ref sig .tc) → Buf (Elt Ideal) ((c : Thread nD τ).loc b))

/-- Row p of the state block at point t is row 5000 t + p of the state array. -/
theorem state_block (c : Dev nD) (x : RArr 40000 128) (hx : V c (Pipeline.arrRef spec7 0) = x)
    (t : Fin cfg7.N) (p : Fin 5000) (l : Fin 128) (r : Fin 40000) (hr : r.val = t.val * 5000 + p.val) :
    iblk7 V c 0 t (ix2 p l) = x (ix2 r l) := by
  subst hx
  obtain ⟨i0, i1, -⟩ := placement t
  show V c (Pipeline.arrRef spec7 0) (((cfg7.win 0).blk t).view.emb (ix2 p l)) = _
  refine congrArg (V c (Pipeline.arrRef spec7 0)) (funext fun a => Fin.ext ?_)
  match a with
  | ⟨0, _⟩ => show win7_0.index t (0 : Fin 2) * 5000 + 1 * p.val = r.val; omega
  | ⟨1, _⟩ => show win7_0.index t (1 : Fin 2) * 128 + 1 * l.val = l.val; omega

/-- The 128 × 128 matrix is staged whole at every point. -/
theorem hidden_matrix_block (c : Dev nD) (w1 : RArr 128 128) (hw1 : V c (Pipeline.arrRef spec7 1) = w1)
    (t : Fin cfg7.N) (l k : Fin 128) : iblk7 V c 1 t (ix2 l k) = w1 (ix2 l k) := by
  subst hw1
  obtain ⟨-, -, i0, i1, -⟩ := placement t
  show V c (Pipeline.arrRef spec7 1) (((cfg7.win 1).blk t).view.emb (ix2 l k)) = _
  refine congrArg (V c (Pipeline.arrRef spec7 1)) (funext fun a => Fin.ext ?_)
  match a with
  | ⟨0, _⟩ => show win7_1.index t (0 : Fin 2) * 128 + 1 * l.val = l.val; omega
  | ⟨1, _⟩ => show win7_1.index t (1 : Fin 2) * 128 + 1 * k.val = k.val; omega

/-- Its bias row is staged whole at every point. -/
theorem hidden_bias_block (c : Dev nD) (b1 : RArr 1 128) (hb1 : V c (Pipeline.arrRef spec7 2) = b1)
    (t : Fin cfg7.N) (k : Fin 128) : iblk7 V c 2 t (ix2 0 k) = b1 (ix2 0 k) := by
  subst hb1
  obtain ⟨-, -, -, -, i0, i1, -⟩ := placement t
  show V c (Pipeline.arrRef spec7 2) (((cfg7.win 2).blk t).view.emb (ix2 0 k)) = _
  refine congrArg (V c (Pipeline.arrRef spec7 2)) (funext fun a => Fin.ext ?_)
  match a with
  | ⟨0, _⟩ => show win7_2.index t (0 : Fin 2) * 1 + 1 * 0 = 0; omega
  | ⟨1, _⟩ => show win7_2.index t (1 : Fin 2) * 128 + 1 * k.val = k.val; omega

/-- The 128 × 3 matrix is staged whole at every point. -/
theorem out_matrix_block (c : Dev nD) (w2 : RArr 128 3) (hw2 : V c (Pipeline.arrRef spec7 3) = w2)
    (t : Fin cfg7.N) (k : Fin 128) (q : Fin 3) : iblk7 V c 3 t (ix2 k q) = w2 (ix2 k q) := by
  subst hw2
  obtain ⟨-, -, -, -, -, -, i0, i1, -⟩ := placement t
  show V c (Pipeline.arrRef spec7 3) (((cfg7.win 3).blk t).view.emb (ix2 k q)) = _
  refine congrArg (V c (Pipeline.arrRef spec7 3)) (funext fun a => Fin.ext ?_)
  match a with
  | ⟨0, _⟩ => show win7_3.index t (0 : Fin 2) * 128 + 1 * k.val = k.val; omega
  | ⟨1, _⟩ => show win7_3.index t (1 : Fin 2) * 3 + 1 * q.val = q.val; omega

/-- Its three-entry bias row is staged whole at every point. -/
theorem out_bias_block (c : Dev nD) (b2 : RArr 1 3) (hb2 : V c (Pipeline.arrRef spec7 4) = b2)
    (t : Fin cfg7.N) (q : Fin 3) : iblk7 V c 4 t (ix2 0 q) = b2 (ix2 0 q) := by
  subst hb2
  obtain ⟨-, -, -, -, -, -, -, -, i0, i1, -⟩ := placement t
  show V c (Pipeline.arrRef spec7 4) (((cfg7.win 4).blk t).view.emb (ix2 0 q)) = _
  refine congrArg (V c (Pipeline.arrRef spec7 4)) (funext fun a => Fin.ext ?_)
  match a with
  | ⟨0, _⟩ => show win7_4.index t (0 : Fin 2) * 1 + 1 * 0 = 0; omega
  | ⟨1, _⟩ => show win7_4.index t (1 : Fin 2) * 3 + 1 * q.val = q.val; omega

/-- Entry (p, q) of the result block at point t is entry (5000 t + p, q) of the result array. -/
theorem result_place (t : Fin cfg7.N) (p : Fin 5000) (q : Fin 3) (r : Fin 40000) (hr : r.val = t.val * 5000 + p.val) :
    ((cfg7.win 5).blk t).view.emb (ix2 p q) = (ix2 r q : S40000x3.Idx) := by
  obtain ⟨-, -, -, -, -, -, -, -, -, -, i0, i1⟩ := placement t
  refine funext fun a => Fin.ext ?_
  match a with
  | ⟨0, _⟩ => show win7_5.index t (0 : Fin 2) * 5000 + 1 * p.val = r.val; omega
  | ⟨1, _⟩ => show win7_5.index t (1 : Fin 2) * 3 + 1 * q.val = q.val; omega

/-- THE WRITE-BACK OF POINT t is row block t of the perceptron of the five arrays as the region finds them. -/
theorem writeback_eq (c : Dev nD)
    (x : RArr 40000 128) (w1 : RArr 128 128) (b1 : RArr 1 128) (w2 : RArr 128 3) (b2 : RArr 1 3)
    (hx : V c (Pipeline.arrRef spec7 0) = x) (hw1 : V c (Pipeline.arrRef spec7 1) = w1)
    (hb1 : V c (Pipeline.arrRef spec7 2) = b1) (hw2 : V c (Pipeline.arrRef spec7 3) = w2)
    (hb2 : V c (Pipeline.arrRef spec7 4) = b2) (t : Fin cfg7.N) :
    (dat7 (F := Ideal) V c).flushed 5 t
      = ((cfg7.win 5).blk t).view.read (Elt Ideal) (mlp2 x w1 (fun q => b1 (ix2 0 q)) w2 (fun q => b2 (ix2 0 q))) := by
  show (cfg7.win 5).cut (grid7.coords t) ((dat7 V c).after 5 t) = _
  rw [after7_5]
  unfold out7_5
  rw [View.canon_unit_zero origin]
  simp only [View.ld_unit_zero (S := S5000x128) origin, View.ld_unit_zero (S := S128x128) origin,
    View.ld_unit_zero (S := S1x128) origin, View.ld_unit_zero (S := S128x3) origin, View.ld_unit_zero (S := S1x3) origin]
  funext j
  obtain ⟨p, q, rfl⟩ : ∃ (p : Fin 5000) (q : Fin 3), j = ix2 p q := ⟨j 0, j 1, eq_ix2 j⟩
  have ht := point_lt t
  obtain ⟨r, hr⟩ : ∃ r : Fin 40000, r.val = t.val * 5000 + p.val := ⟨⟨t.val * 5000 + p.val, by omega⟩, rfl⟩
  show k7_pay1 (iblk7 V c 0 t) (iblk7 V c 1 t) (iblk7 V c 2 t) (iblk7 V c 3 t) (iblk7 V c 4 t) (ix2 p q)
    = mlp2 x w1 (fun q => b1 (ix2 0 q)) w2 (fun q => b2 (ix2 0 q)) (((cfg7.win 5).blk t).view.emb (ix2 p q))
  rw [result_place t p q r hr, perceptron_at]
  refine (body_at _ _ _ _ _ p q).trans ?_
  simp only [state_block V c x hx t p _ r hr, hidden_matrix_block V c w1 hw1 t, hidden_bias_block V c b1 hb1 t,
    out_matrix_block V c w2 hw2 t, out_bias_block V c b2 hb2 t]

/-- Membership in point t's result block, axis by axis: between the block's first coordinate and its last. -/
theorem in_block (t : Fin cfg7.N) (i : S40000x3.Idx) :
    i ∈ ((cfg7.win 5).blk t).view.set ↔ ∀ a : Fin 2, win7_5.index t a * S5000x3.size a ≤ (i a).val
      ∧ (i a).val < win7_5.index t a * S5000x3.size a + S5000x3.size a := by
  show i ∈ ((View.whole main_v106).slice (win7_5.rect t)).set ↔ _
  rw [View.set_slice_whole, Rect.mem_set_unit]
  exact Iff.rfl

/-- The eight blocks leave no entry out: row r of the result lies in the block of point r / 5000. -/
theorem all_rows_written (i : S40000x3.Idx) :
    ∃ t : Fin cfg7.N, (cfg7.win 5).flush t = true ∧ i ∈ ((cfg7.win 5).blk t).view.set := by
  have row_lt : (i 0).val < 40000 := (i 0).isLt
  have col_lt : (i 1).val < 3 := (i 1).isLt
  obtain ⟨t, ht⟩ : ∃ t : Fin cfg7.N, t.val = (i 0).val / 5000 :=
    ⟨⟨(i 0).val / 5000, by rw [show cfg7.N = 8 from N_7]; omega⟩, rfl⟩
  obtain ⟨-, -, -, -, -, -, -, -, -, -, i0, i1⟩ := placement t
  refine ⟨t, flush7_5 t, ?_⟩
  rw [in_block]
  intro a
  match a with
  | ⟨0, _⟩ =>
    show win7_5.index t (0 : Fin 2) * 5000 ≤ (i 0).val ∧ (i 0).val < win7_5.index t (0 : Fin 2) * 5000 + 5000
    omega
  | ⟨1, _⟩ =>
    show win7_5.index t (1 : Fin 2) * 3 ≤ (i 1).val ∧ (i 1).val < win7_5.index t (1 : Fin 2) * 3 + 3
    omega

end Readout

variable (V : (c : Dev nD) → (b : Ref sig .tc) → Buf (Elt Ideal) ((c : Thread nD τ).loc b))

/-- Region 7 (the output perceptron): after the 8 grid points the output array holds, at every entry, the two-layer
    perceptron of the node state's row. -/
theorem region7_arr (c : Dev nD)
    (x : RArr 40000 128) (w1 : RArr 128 128) (b1 : RArr 1 128) (w2 : RArr 128 3) (b2 : RArr 1 3)
    (hx : V c (Pipeline.arrRef spec7 0) = x) (hw1 : V c (Pipeline.arrRef spec7 1) = w1)
    (hb1 : V c (Pipeline.arrRef spec7 2) = b1) (hw2 : V c (Pipeline.arrRef spec7 3) = w2)
    (hb2 : V c (Pipeline.arrRef spec7 4) = b2) :
    (dat7 (F := Ideal) V c).arrAt 5 cfg7.N = mlp2 x w1 (fun q => b1 (ix2 0 q)) w2 (fun q => b2 (ix2 0 q)) :=
  (dat7 (F := Ideal) V c).arrAt_eq_of_cover 5 _
    (fun t _ => Readout.writeback_eq V c x w1 b1 w2 b2 hx hw1 hb1 hw2 hb2 t) Readout.all_rows_written

end Cert.KernelIdeal.RegVal

end
-- ==== Proof.KStageOut.lean ====
import proofs.«403623_j41042707481180_2_alg».proof.Proof.Gen.KernelIdeal.Frame
import proofs.«403623_j41042707481180_2_alg».proof.Proof.Spec
import proofs.«403623_j41042707481180_2_alg».proof.Proof.KRegion7
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.Stage

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## The output perceptron -/

namespace OutStage

/-! ## What the last region reads

Before the last region the program only reshapes the two bias vectors into one-row arrays; the node state and the two
weight matrices enter the region as they stood at the previous region's exit. -/

/-- The node state enters the last region as it left the previous one. -/
theorem enter_state (h3 : RArr 40000 128) (Hh : W24 m ρ c (Proc.devRef .tc main_v103) = h3) :
    V25 m ρ c (Pipeline.arrRef spec7 0) = h3 := by
  show StableHlo.after hostOps7 (W24 m ρ c) (Proc.devRef .tc main_v103) = _
  after_results
  exact Hh

/-- The hidden layer's matrix is an argument array no host operation of this stretch writes. -/
theorem enter_hiddenW (oW1 : RArr 128 128) (H13 : W24 m ρ c (Proc.devRef .tc main_arg13) = oW1) :
    V25 m ρ c (Pipeline.arrRef spec7 1) = oW1 := by
  show StableHlo.after hostOps7 (W24 m ρ c) (Proc.devRef .tc main_arg13) = _
  after_results
  exact H13

/-- The output layer's matrix likewise. -/
theorem enter_outW (oW2 : RArr 128 3) (H15 : W24 m ρ c (Proc.devRef .tc main_arg15) = oW2) :
    V25 m ρ c (Pipeline.arrRef spec7 3) = oW2 := by
  show StableHlo.after hostOps7 (W24 m ρ c) (Proc.devRef .tc main_arg15) = _
  after_results
  exact H15

/-- The hidden layer's bias enters as a one-row array. -/
theorem enter_hiddenB (ob1 : RVec 128) (H14 : W24 m ρ c (Proc.devRef .tc main_arg14) = ob1) :
    V25 m ρ c (Pipeline.arrRef spec7 2) = shapeCast S1x128 (ob1 : FVec Ideal S128 .f32) shapeCasts_S128_S1x128 := by
  show StableHlo.after hostOps7 (W24 m ρ c) (Proc.devRef .tc main_v104) = _
  after_results
  rw [H14]
  rfl

/-- The output layer's bias enters as a one-row array. -/
theorem enter_outB (ob2 : RVec 3) (H16 : W24 m ρ c (Proc.devRef .tc main_arg16) = ob2) :
    V25 m ρ c (Pipeline.arrRef spec7 4) = shapeCast S1x3 (ob2 : FVec Ideal S3 .f32) shapeCasts_S3_S1x3 := by
  show StableHlo.after hostOps7 (W24 m ρ c) (Proc.devRef .tc main_v105) = _
  after_results
  rw [H16]
  rfl

/-- A vector of any length reshaped into a one-row array reads, in that row at column q, the vector's entry q: the
    reshape keeps the row-major order and the added axis has one position. -/
theorem oneRow_apply {n : Nat} (b : RVec n) (h : (⟨1, ![n]⟩ : Shape).ShapeCasts (Sh 1 n)) (q : Fin n) :
    shapeCast (Sh 1 n) b h (ix2 0 q) = b (ix1 q) := by
  refine (shapeCast_addUnit_apply ![n] b h (ix2 0 q)).trans (congrArg b ?_)
  funext a
  match a with
  | ⟨0, _⟩ => rfl

end OutStage

/-- The result from the last state and the output weights. -/
theorem stageOut (h3 : RArr 40000 128) (oW1 : RArr 128 128) (ob1 : RVec 128) (oW2 : RArr 128 3) (ob2 : RVec 3)
    (Hh : W24 m ρ c (Proc.devRef .tc main_v103) = h3)
    (H13 : W24 m ρ c (Proc.devRef .tc main_arg13) = oW1) (H14 : W24 m ρ c (Proc.devRef .tc main_arg14) = ob1)
    (H15 : W24 m ρ c (Proc.devRef .tc main_arg15) = oW2) (H16 : W24 m ρ c (Proc.devRef .tc main_arg16) = ob2) :
    W26 m ρ c (Proc.devRef .tc main_v106) = mlp2 h3 oW1 (vecV ob1) oW2 (vecV ob2) := by
  show W26 m ρ c (Proc.devRef .tc (Pipeline.arrRef spec7 5)) = _
  rw [W26_arr m ρ c 5,
    RegVal.region7_arr (V25 m ρ) c _ _ _ _ _ (OutStage.enter_state m ρ c h3 Hh) (OutStage.enter_hiddenW m ρ c oW1 H13)
      (OutStage.enter_hiddenB m ρ c ob1 H14) (OutStage.enter_outW m ρ c oW2 H15) (OutStage.enter_outB m ρ c ob2 H16)]
  unfold vecV
  congr 1
  · funext q; exact OutStage.oneRow_apply ob1 _ q
  · funext q; exact OutStage.oneRow_apply ob2 _ q

end Cert.KernelIdeal.Stage

end
-- ==== Proof.KernelValue.lean ====
import proofs.«403623_j41042707481180_2_alg».proof.Proof.Gen.KernelIdeal.Frame
import proofs.«403623_j41042707481180_2_alg».proof.Proof.Spec
import proofs.«403623_j41042707481180_2_alg».proof.Proof.SpecK
import proofs.«403623_j41042707481180_2_alg».proof.Proof.Algebra
import proofs.«403623_j41042707481180_2_alg».proof.Proof.Carry
import proofs.«403623_j41042707481180_2_alg».proof.Proof.KStage0
import proofs.«403623_j41042707481180_2_alg».proof.Proof.KStageH0
import proofs.«403623_j41042707481180_2_alg».proof.Proof.KStageT0
import proofs.«403623_j41042707481180_2_alg».proof.Proof.KStageT1
import proofs.«403623_j41042707481180_2_alg».proof.Proof.KStageT2
import proofs.«403623_j41042707481180_2_alg».proof.Proof.KStageN0
import proofs.«403623_j41042707481180_2_alg».proof.Proof.KStageN1
import proofs.«403623_j41042707481180_2_alg».proof.Proof.KStageN2
import proofs.«403623_j41042707481180_2_alg».proof.Proof.KStageOut
import Idealize.ShloMosaic.Lib.StableHlo.Run
import Idealize.ShloMosaic.Lib.Pipeline.Value

set_option maxRecDepth 16384

noncomputable section

open scoped BigOperators

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.Stage Cert.KernelIdeal.StageL1 Cert.KernelIdeal.StageL2 Cert.Spec

variable (m : (ℓ : Loc nD τ sig) → Buf (Elt Ideal) ℓ) (ρ : Dev nD → PrngReg) (c : Dev nD)

/-! ## The kernel program's result is the network function

The run is followed boundary by boundary. Each stage takes what the buffers hold at one region's exit and gives what
they hold at the next; between them the persistent buffers are carried unchanged. The two places where the kernel's
text differs from the network function — the filled reads and the multiplication by the inverse degree — are brought
to it by the two laws: the sums per destination node do not see the fill when every source word names a node, and
multiplying by the inverse of a degree is dividing by it. -/

/-- The index array as launched. -/
abbrev ei : (Sh 2 640000).Idx → BitVec 32 := (m ((c : Thread nD τ).loc main_arg1))

/-- The destination words, cut out before the first region, as a vector. -/
theorem base_v3 : W1 m ρ c (Proc.devRef .tc main_v3) = fun i => ei m c (ix2 1 (i 0)) := by
  show StableHlo.after hostOps0 (W0 m ρ c) (Proc.devRef .tc main_v3) = _
  after_results
  funext i
  refine (shapeCast_apply _ shapeCasts_S1x640000_S640000 i (ix2 0 (i 0)) (by rw [Shape.rowMajor_val_two, Shape.rowMajor_val_one]; show (0 : Nat) * 640000 + (i 0).val = (i 0).val; omega)).trans ?_
  exact extractStridedSlice_apply ![1, 0] _ slices_S2x640000_S1x640000_1_0 (ix2 0 (i 0)) (ix2 1 (i 0)) (fun a => match a with
    | ⟨0, _⟩ => rfl
    | ⟨1, _⟩ => by show (i 0).val = 0 + (i 0).val; omega)

/-- The source words likewise. -/
theorem base_v1 : W1 m ρ c (Proc.devRef .tc main_v1) = fun i => ei m c (ix2 0 (i 0)) := by
  show StableHlo.after hostOps0 (W0 m ρ c) (Proc.devRef .tc main_v1) = _
  after_results
  funext i
  refine (shapeCast_apply _ shapeCasts_S1x640000_S640000 i (ix2 0 (i 0)) (by rw [Shape.rowMajor_val_two, Shape.rowMajor_val_one]; show (0 : Nat) * 640000 + (i 0).val = (i 0).val; omega)).trans ?_
  exact extractStridedSlice_apply ![0, 0] _ slices_S2x640000_S1x640000_0_0 (ix2 0 (i 0)) (ix2 0 (i 0)) (fun a => match a with
    | ⟨0, _⟩ => rfl
    | ⟨1, _⟩ => by show (i 0).val = 0 + (i 0).val; omega)

/-- An argument array is as launched when the first region is entered. -/
theorem base_arg (k : Ref sig .tc) (hk : k ∈ [main_arg2, main_arg7, main_arg8, main_arg9, main_arg10, main_arg11, main_arg12, main_arg13, main_arg14, main_arg15, main_arg16]) :
    W1 m ρ c (Proc.devRef .tc k) = m ((c : Thread nD τ).loc k) := by
  simp only [List.mem_cons, List.not_mem_nil, or_false] at hk
  rcases hk with rfl | rfl | rfl | rfl | rfl | rfl | rfl | rfl | rfl | rfl | rfl
  all_goals (show StableHlo.after hostOps0 (W0 m ρ c) _ = _; after_results)

/-- What the persistent buffers hold, at a boundary with contents X: the two word vectors and the arguments as launched. -/
structure KeptAt (X : Valuation τ sig (Elt Ideal)) : Prop where
  v1 : X (Proc.devRef .tc main_v1) = fun i => ei m c (ix2 0 (i 0))
  v3 : X (Proc.devRef .tc main_v3) = fun i => ei m c (ix2 1 (i 0))
  a7 : X (Proc.devRef .tc main_arg7) = m ((c : Thread nD τ).loc main_arg7)
  a8 : X (Proc.devRef .tc main_arg8) = m ((c : Thread nD τ).loc main_arg8)
  a9 : X (Proc.devRef .tc main_arg9) = m ((c : Thread nD τ).loc main_arg9)
  a10 : X (Proc.devRef .tc main_arg10) = m ((c : Thread nD τ).loc main_arg10)
  a11 : X (Proc.devRef .tc main_arg11) = m ((c : Thread nD τ).loc main_arg11)
  a12 : X (Proc.devRef .tc main_arg12) = m ((c : Thread nD τ).loc main_arg12)
  a13 : X (Proc.devRef .tc main_arg13) = m ((c : Thread nD τ).loc main_arg13)
  a14 : X (Proc.devRef .tc main_arg14) = m ((c : Thread nD τ).loc main_arg14)
  a15 : X (Proc.devRef .tc main_arg15) = m ((c : Thread nD τ).loc main_arg15)
  a16 : X (Proc.devRef .tc main_arg16) = m ((c : Thread nD τ).loc main_arg16)
  a2 : X (Proc.devRef .tc main_arg2) = m ((c : Thread nD τ).loc main_arg2)

/-- The persistent buffers pass from one boundary to the next unchanged. -/
theorem KeptAt.step {X Y : Valuation τ sig (Elt Ideal)} (hX : KeptAt m c X)
    (h : ∀ b ∈ kept, Y (Proc.devRef .tc b) = X (Proc.devRef .tc b))
    (h2 : Y (Proc.devRef .tc main_arg2) = X (Proc.devRef .tc main_arg2)) : KeptAt m c Y where
  v1 := (h main_v1 (by simp [kept])).trans hX.v1
  v3 := (h main_v3 (by simp [kept])).trans hX.v3
  a7 := (h main_arg7 (by simp [kept])).trans hX.a7
  a8 := (h main_arg8 (by simp [kept])).trans hX.a8
  a9 := (h main_arg9 (by simp [kept])).trans hX.a9
  a10 := (h main_arg10 (by simp [kept])).trans hX.a10
  a11 := (h main_arg11 (by simp [kept])).trans hX.a11
  a12 := (h main_arg12 (by simp [kept])).trans hX.a12
  a13 := (h main_arg13 (by simp [kept])).trans hX.a13
  a14 := (h main_arg14 (by simp [kept])).trans hX.a14
  a15 := (h main_arg15 (by simp [kept])).trans hX.a15
  a16 := (h main_arg16 (by simp [kept])).trans hX.a16
  a2 := h2.trans hX.a2

theorem kept_W1 : KeptAt m c (W1 m ρ c) where
  v1 := base_v1 m ρ c
  v3 := base_v3 m ρ c
  a7 := base_arg m ρ c main_arg7 (by simp)
  a8 := base_arg m ρ c main_arg8 (by simp)
  a9 := base_arg m ρ c main_arg9 (by simp)
  a10 := base_arg m ρ c main_arg10 (by simp)
  a11 := base_arg m ρ c main_arg11 (by simp)
  a12 := base_arg m ρ c main_arg12 (by simp)
  a13 := base_arg m ρ c main_arg13 (by simp)
  a14 := base_arg m ρ c main_arg14 (by simp)
  a15 := base_arg m ρ c main_arg15 (by simp)
  a16 := base_arg m ρ c main_arg16 (by simp)
  a2 := base_arg m ρ c main_arg2 (by simp)

theorem kept_W2 : KeptAt m c (W2 m ρ c) := (kept_W1 m ρ c).step m c (keep_W2 m ρ c) (keep_W2_arg2 m ρ c)
theorem kept_W3 : KeptAt m c (W3 m ρ c) :=
  (kept_W2 m ρ c).step m c (fun b hb => keep_W3 m ρ c b (List.mem_cons_of_mem _ hb)) (keep_W3 m ρ c main_arg2 List.mem_cons_self)
theorem kept_W8 : KeptAt m c (W8 m ρ c) := (kept_W3 m ρ c).step m c (keep_W8 m ρ c) (keep_W8_arg2 m ρ c)
theorem kept_W10 : KeptAt m c (W10 m ρ c) := (kept_W8 m ρ c).step m c (keep_W10 m ρ c) (keep_W10_arg2 m ρ c)
theorem kept_W15 : KeptAt m c (W15 m ρ c) := (kept_W10 m ρ c).step m c (keep_W15 m ρ c) (keep_W15_arg2 m ρ c)
theorem kept_W17 : KeptAt m c (W17 m ρ c) := (kept_W15 m ρ c).step m c (keep_W17 m ρ c) (keep_W17_arg2 m ρ c)
theorem kept_W22 : KeptAt m c (W22 m ρ c) := (kept_W17 m ρ c).step m c (keep_W22 m ρ c) (keep_W22_arg2 m ρ c)
theorem kept_W24 : KeptAt m c (W24 m ρ c) := (kept_W22 m ρ c).step m c (keep_W24 m ρ c) (keep_W24_arg2 m ρ c)

/-! ### The states -/

/-- The nodes' first state, from the launch contents. -/
abbrev h0 : RArr 40000 128 := h0G (ei m c) (m ((c : Thread nD τ).loc main_arg2)) (m ((c : Thread nD τ).loc main_arg3)) (m ((c : Thread nD τ).loc main_arg4)) (m ((c : Thread nD τ).loc main_arg5)) (m ((c : Thread nD τ).loc main_arg6))
/-- A layer on a state, from the launch contents. -/
abbrev lay (l : Fin 3) (h : RArr 40000 128) : RArr 40000 128 :=
  layerG (ei m c) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) l h

/-- The inverse-degree column once computed. -/
theorem dinv_W3 : W3 m ρ c (Proc.devRef .tc main_v19) = fun i => dinvOf (N := 40000) (dstW (ei m c)) (i 0) :=
  (stageH0 m ρ c _ (ei m c) (exit0_em m ρ c) (kept_W2 m ρ c).v3).2
theorem dinv_W8 : W8 m ρ c (Proc.devRef .tc main_v19) = fun i => dinvOf (N := 40000) (dstW (ei m c)) (i 0) :=
  (keep_W8_v19 m ρ c).trans (dinv_W3 m ρ c)
theorem dinv_W10 : W10 m ρ c (Proc.devRef .tc main_v19) = fun i => dinvOf (N := 40000) (dstW (ei m c)) (i 0) :=
  (keep_W10_v19 m ρ c).trans (dinv_W8 m ρ c)
theorem dinv_W15 : W15 m ρ c (Proc.devRef .tc main_v19) = fun i => dinvOf (N := 40000) (dstW (ei m c)) (i 0) :=
  (keep_W15_v19 m ρ c).trans (dinv_W10 m ρ c)
theorem dinv_W17 : W17 m ρ c (Proc.devRef .tc main_v19) = fun i => dinvOf (N := 40000) (dstW (ei m c)) (i 0) :=
  (keep_W17_v19 m ρ c).trans (dinv_W15 m ρ c)
theorem dinv_W22 : W22 m ρ c (Proc.devRef .tc main_v19) = fun i => dinvOf (N := 40000) (dstW (ei m c)) (i 0) :=
  (keep_W22_v19 m ρ c).trans (dinv_W17 m ρ c)

/-- The first state at the second boundary. -/
theorem state_W3 : W3 m ρ c (Proc.devRef .tc main_v10) = h0 m c :=
  (stageH0 m ρ c _ (ei m c) (exit0_em m ρ c) (kept_W2 m ρ c).v3).1

/-- THE LAYER LAW. What the kernel's text computes for one layer — messages from the filled reads, summed per destination
    node, times the inverse degree, the dense layer, the rectifier — is the layer of the network function, when every source
    word names a node. -/
theorem layer_law (hsrc : ∀ e, 0 ≤ (srcW (ei m c) e).toInt ∧ (srcW (ei m c) e).toInt < ((40000 : ℕ) : ℤ)) (l : Fin 3) (h : RArr 40000 128) :
    nodeUpMul (segSum (dstW (ei m c))
        (edgeMsg3 (takeFill (N := 40000) (by decide) 39999#32 (Ideal.ofBits .f32 0x7FC00000#32) h (dstW (ei m c)))
          (takeFill (N := 40000) (by decide) 39999#32 (Ideal.ofBits .f32 0x7FC00000#32) h (srcW (ei m c))) (m ((c : Thread nD τ).loc main_arg2))
          (rowsAt 128 0 (by decide) (slab (m ((c : Thread nD τ).loc main_arg7)) l)) (rowsAt 128 128 (by decide) (slab (m ((c : Thread nD τ).loc main_arg7)) l)) (rowsAt 128 256 (by decide) (slab (m ((c : Thread nD τ).loc main_arg7)) l))
          (rowV (m ((c : Thread nD τ).loc main_arg8)) l) (slab (m ((c : Thread nD τ).loc main_arg9)) l) (rowV (m ((c : Thread nD τ).loc main_arg10)) l)))
      (dinvOf (N := 40000) (dstW (ei m c))) (slab (m ((c : Thread nD τ).loc main_arg11)) l) (rowV (m ((c : Thread nD τ).loc main_arg12)) l)
    = lay m c l h := by
  rw [segSum_msg_fill (N := 40000) (by decide) (by decide) 39999#32 (by decide) _ h (srcW (ei m c)) (dstW (ei m c)) _ _ _ _ _ _ _ hsrc,
    nodeUpMul_dinv]
  rfl

section Chain
variable (hsrc : ∀ e, 0 ≤ (srcW (ei m c) e).toInt ∧ (srcW (ei m c) e).toInt < ((40000 : ℕ) : ℤ))
include hsrc

/-- The state after layer 0, at region 2's exit. -/
theorem state_W10 : W10 m ρ c (Proc.devRef .tc main_v47) = lay m c 0 (h0 m c) := by
  have K3 := kept_W3 m ρ c
  have K8 := kept_W8 m ρ c
  have T := stageT0 m ρ c _ (ei m c) _ _ _ _ _ (state_W3 m ρ c) K3.v3 K3.v1 K3.a2 K3.a7 K3.a8 K3.a9 K3.a10
  have N := stageN0 m ρ c _ (ei m c) _ _ _ T K8.v3 (dinv_W8 m ρ c) K8.a11 K8.a12
  exact N.trans (layer_law m c hsrc 0 _)

/-- The state after layer 1, at region 4's exit. -/
theorem state_W17 : W17 m ρ c (Proc.devRef .tc main_v75) = lay m c 1 (lay m c 0 (h0 m c)) := by
  have K10 := kept_W10 m ρ c
  have K15 := kept_W15 m ρ c
  have T := stageT1 m ρ c _ (ei m c) _ _ _ _ _ (state_W10 m ρ c hsrc) K10.v3 K10.v1 K10.a2 K10.a7 K10.a8 K10.a9 K10.a10
  have N := stageN1 m ρ c _ (ei m c) _ _ _ T K15.v3 (dinv_W15 m ρ c) K15.a11 K15.a12
  exact N.trans (layer_law m c hsrc 1 _)

/-- The state after layer 2, at region 6's exit. -/
theorem state_W24 : W24 m ρ c (Proc.devRef .tc main_v103) = lay m c 2 (lay m c 1 (lay m c 0 (h0 m c))) := by
  have K17 := kept_W17 m ρ c
  have K22 := kept_W22 m ρ c
  have T := stageT2 m ρ c _ (ei m c) _ _ _ _ _ (state_W17 m ρ c hsrc) K17.v3 K17.v1 K17.a2 K17.a7 K17.a8 K17.a9 K17.a10
  have N := stageN2 m ρ c _ (ei m c) _ _ _ T K22.v3 (dinv_W22 m ρ c) K22.a11 K22.a12
  exact N.trans (layer_law m c hsrc 2 _)

/-- THE KERNEL PROGRAM'S RESULT, at the last boundary, is the network function of the launch contents. -/
theorem kernel_value :
    W26 m ρ c (Proc.devRef .tc main_v106)
      = G (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have K24 := kept_W24 m ρ c
  exact stageOut m ρ c _ _ _ _ _ (state_W24 m ρ c hsrc) K24.a13 K24.a14 K24.a15 K24.a16

end Chain

end Cert.KernelIdeal.KValue

end
-- ==== Proof.RefOps.lean ====
/-
  The host operations a graph network's reference is printed with, read as whole arrays and identified with the
  functions of the specification (Spec.lean), for any dimension-number record with the stated fields and any extents:

    * layout: a row of a [2, n] array of words cut out and flattened; a vector made a column, or made a row and repeated
      down the rows, or a column repeated across the columns; a slab of a stack of three matrices; a row of a 3-row array;
    * a dense layer (product plus repeated bias) is `dense`; the maximum with the zero array is `relu`;
    * adding update rows into a zero table at the rows their words name is `segSum`; adding ones into a zero vector the
      same way, then the maximum with one, is `degOf`;
    * dividing each row by its node's degree; reading table rows by words wrapped when negative is `takeRows`;
    * three arrays of 128 columns joined side by side, times a matrix of 384 rows, plus the bias, is `edgePre3` against the
      matrix's three blocks of 128 rows (a sum over 384 positions is the sum of its three runs of 128).
-/
import proofs.«403623_j41042707481180_2_alg».proof.Proof.Spec
import proofs.«403623_j41042707481180_2_alg».proof.Proof.LibDense
import proofs.«403623_j41042707481180_2_alg».proof.Proof.LibGatherScatter
import Idealize.ShloMosaic.Lib.ValueLayout
import Idealize.ShloMosaic.Lib.IdealHost

noncomputable section

open scoped BigOperators

namespace Cert.RefOps

open Idealize.ShloMosaic Idealize.ShloMosaic.ValueIdx Cert.Spec

/-! ## Layout operations of the reference at an index -/

/-- The scalar shape. -/
abbrev Sc : Shape := ⟨0, ![]⟩
/-- The shape of a vector of n entries. -/
abbrev V1 (n : Nat) : Shape := ⟨1, ![n]⟩

/-- Row r of a [2, n] array of words, cut out as a [1, n] block at offset (r, 0) and flattened, holds at position e the
    word at (r, e). -/
theorem wordRow_at {n : Nat} (r : Fin 2) (x : (Sh 2 n).Idx → BitVec 32) (off : Fin 2 → Nat) (h0 : off 0 = r.val) (h1 : off 1 = 0)
    (hs : (Sh 2 n).Slices off (Sh 1 n)) (hc : (Sh 1 n).ShapeCasts (V1 n)) (e : Fin n) :
    shapeCast (V1 n) (extractStridedSlice (Sh 1 n) off x hs) hc (ix1 e) = x (ix2 r e) := by
  refine (shapeCast_1a_a_apply _ hc e).trans ?_
  refine extractStridedSlice_apply off x hs _ (ix2 r e) fun a => ?_
  match a with
  | ⟨0, _⟩ => show r.val = off 0 + 0; omega
  | ⟨1, _⟩ => show e.val = off 1 + e.val; omega

/-- A vector made a column, [n] to [n, 1], holds at (e, u) the vector's entry e. -/
theorem col_at {α : Type} {n : Nat} (w : (V1 n).Idx → α) (hb : (V1 n).BroadcastsInDim (Sh n 1) ![0]) (e : Fin n) (u : Fin 1) :
    broadcastInDim (Sh n 1) ![0] hb w (ix2 e u) = w (ix1 e) := by
  refine broadcastInDim_apply _ hb w _ (ix1 e) fun a => ?_
  match a with
  | ⟨0, _⟩ =>
    show e.val = if n = 1 then 0 else e.val
    split <;> omega

/-- A vector made a row and repeated down M rows, [N] to [1, N] to [M, N], holds at (i, j) the vector's entry j. -/
theorem bias_at {α : Type} {M N : Nat} (b : (V1 N).Idx → α) (h1 : (V1 N).BroadcastsInDim (Sh 1 N) ![1])
    (h2 : (Sh 1 N).BroadcastsInDim (Sh M N) ![0, 1]) (i : Fin M) (j : Fin N) :
    broadcastInDim (Sh M N) ![0, 1] h2 (broadcastInDim (Sh 1 N) ![1] h1 b) (ix2 i j) = b (ix1 j) := by
  refine (broadcastInDim_apply _ h2 _ _ (ix2 (0 : Fin 1) j) fun a => ?_).trans
    (broadcastInDim_apply _ h1 b _ (ix1 j) fun a => ?_)
  · match a with
    | ⟨0, _⟩ => show (0 : ℕ) = if (1 : ℕ) = 1 then 0 else i.val; rw [if_pos rfl]
    | ⟨1, _⟩ => show j.val = if N = 1 then 0 else j.val; split <;> omega
  · match a with
    | ⟨0, _⟩ => show j.val = if N = 1 then 0 else j.val; split <;> omega

/-- A column repeated across C columns, [N, 1] to [N, C], of a vector made a column, holds at (i, j) the vector's entry i. -/
theorem colRep_at {α : Type} {N C : Nat} (v : (V1 N).Idx → α) (h1 : (V1 N).BroadcastsInDim (Sh N 1) ![0])
    (h2 : (Sh N 1).BroadcastsInDim (Sh N C) ![0, 1]) (i : Fin N) (j : Fin C) :
    broadcastInDim (Sh N C) ![0, 1] h2 (broadcastInDim (Sh N 1) ![0] h1 v) (ix2 i j) = v (ix1 i) := by
  refine (broadcastInDim_apply _ h2 _ _ (ix2 i (0 : Fin 1)) fun a => ?_).trans (col_at v h1 i 0)
  match a with
  | ⟨0, _⟩ => show i.val = if N = 1 then 0 else i.val; split <;> omega
  | ⟨1, _⟩ => show (0 : ℕ) = if (1 : ℕ) = 1 then 0 else j.val; rw [if_pos rfl]

/-- A column repeated across C columns, [N, 1] to [N, C], holds at (i, j) the column's entry i. -/
theorem colAcross_at {α : Type} {N C : Nat} (c : (Sh N 1).Idx → α) (h2 : (Sh N 1).BroadcastsInDim (Sh N C) ![0, 1])
    (i : Fin N) (j : Fin C) : broadcastInDim (Sh N C) ![0, 1] h2 c (ix2 i j) = c (ix2 i (0 : Fin 1)) := by
  refine broadcastInDim_apply _ h2 c _ (ix2 i (0 : Fin 1)) fun a => ?_
  match a with
  | ⟨0, _⟩ => show i.val = if N = 1 then 0 else i.val; split <;> omega
  | ⟨1, _⟩ => show (0 : ℕ) = if (1 : ℕ) = 1 then 0 else j.val; rw [if_pos rfl]

/-- Dividing each row by its entry of a column repeated across the columns. -/
theorem divCol_eq {N C : Nat} (agg : FVec Ideal (Sh N C) .f32) (c : FVec Ideal (Sh N 1) .f32)
    (h2 : (Sh N 1).BroadcastsInDim (Sh N C) ![0, 1]) :
    Host.divf agg (broadcastInDim (Sh N C) ![0, 1] h2 c) = fun i => Ideal.div (agg i) (c (ix2 (i 0) (0 : Fin 1))) := by
  funext i
  obtain ⟨p, q, rfl⟩ : ∃ (p : Fin N) (q : Fin C), i = ix2 p q := ⟨i 0, i 1, eq_ix2 i⟩
  rw [hostDivf_apply, colAcross_at]
  rfl

/-- Slab l of a stack of three A × B matrices, cut out as a [1, A, B] block at offset (l, 0, 0) and flattened to [A, B]. -/
theorem slab_eq {A B : Nat} (x : (⟨3, ![3, A, B]⟩ : Shape).Idx → EReal) (l : Fin 3) (off : Fin 3 → Nat)
    (h0 : off 0 = l.val) (h1 : off 1 = 0) (h2 : off 2 = 0)
    (hs : (⟨3, ![3, A, B]⟩ : Shape).Slices off ⟨3, ![1, A, B]⟩) (hc : (⟨3, ![1, A, B]⟩ : Shape).ShapeCasts (Sh A B)) :
    shapeCast (Sh A B) (extractStridedSlice ⟨3, ![1, A, B]⟩ off x hs) hc = slab x l := by
  funext i
  obtain ⟨p, q, rfl⟩ : ∃ (p : Fin A) (q : Fin B), i = ix2 p q := ⟨i 0, i 1, eq_ix2 i⟩
  refine (shapeCast_1ab_ab_apply _ hc p q).trans ?_
  refine extractStridedSlice_apply off x hs _ (ix3 l p q) fun a => ?_
  match a with
  | ⟨0, _⟩ => show l.val = off 0 + 0; omega
  | ⟨1, _⟩ => show p.val = off 1 + p.val; omega
  | ⟨2, _⟩ => show q.val = off 2 + q.val; omega

/-- Row l of a 3 × B array, cut out as a [1, B] block at offset (l, 0) and flattened to [B], as a vector's entries. -/
theorem rowVec_eq {B : Nat} (b : RArr 3 B) (l : Fin 3) (off : Fin 2 → Nat) (h0 : off 0 = l.val) (h1 : off 1 = 0)
    (hs : (Sh 3 B).Slices off (Sh 1 B)) (hc : (Sh 1 B).ShapeCasts (V1 B)) :
    vecV (shapeCast (V1 B) (extractStridedSlice (Sh 1 B) off b hs) hc) = rowV b l := by
  funext q
  refine (shapeCast_1a_a_apply _ hc q).trans ?_
  refine extractStridedSlice_apply off b hs _ (ix2 l q) fun a => ?_
  match a with
  | ⟨0, _⟩ => show l.val = off 0 + 0; omega
  | ⟨1, _⟩ => show q.val = off 1 + q.val; omega

/-! ## The reference's arithmetic stages as the specification's functions -/

/-- A scalar zero repeated over an array is zero everywhere. -/
theorem zeros_at {s : Shape} (h0 : Sc.BroadcastsInDim s ![]) (i : s.Idx) :
    broadcastInDim s ![] h0 (constant (F := Ideal) Sc .f32 0x00000000#32) i = (0 : EReal) := by
  rw [broadcastInDim_scalar_apply, constant_apply, Ideal.ofBits_zero_f32]

/-- A scalar one repeated over an array is one everywhere. -/
theorem ones_at {s : Shape} (h0 : Sc.BroadcastsInDim s ![]) (i : s.Idx) :
    broadcastInDim s ![] h0 (constant (F := Ideal) Sc .f32 0x3F800000#32) i = (1 : EReal) := by
  rw [broadcastInDim_scalar_apply, constant_apply, Ideal.ofBits_one_f32]

/-- A DENSE LAYER: the product with a K × N matrix plus the bias vector repeated down the rows. -/
theorem denseLayer_eq {M K N : Nat} (d : DotDims (Sh M K) (Sh K N) (Sh M N))
    (hlb : d.lhsBatch = []) (hln : d.lhsNonContracting = [0]) (hlc : d.lhsContracting = [1])
    (hrb : d.rhsBatch = []) (hrn : d.rhsNonContracting = [1]) (hrc : d.rhsContracting = [0])
    (x : FVec Ideal (Sh M K) .f32) (w : FVec Ideal (Sh K N) .f32) (b : FVec Ideal (V1 N) .f32)
    (h1 : (V1 N).BroadcastsInDim (Sh 1 N) ![1]) (h2 : (Sh 1 N).BroadcastsInDim (Sh M N) ![0, 1]) :
    addf (Host.dotGeneral d none x w) (broadcastInDim (Sh M N) ![0, 1] h2 (broadcastInDim (Sh 1 N) ![1] h1 b))
      = dense x w (vecV b) := by
  funext i
  obtain ⟨p, q, rfl⟩ : ∃ (p : Fin M) (q : Fin N), i = ix2 p q := ⟨i 0, i 1, eq_ix2 i⟩
  rw [addf_apply, Cert.LibDense.dotGeneral_apply d hlb hln hlc hrb hrn hrc none x w p q, bias_at]
  rfl

/-- THE RECTIFIER: the maximum with the zero array. -/
theorem relu_eq {M N : Nat} (x : FVec Ideal (Sh M N) .f32) (h0 : Sc.BroadcastsInDim (Sh M N) ![]) :
    maximumf x (broadcastInDim (Sh M N) ![] h0 (constant (F := Ideal) Sc .f32 0x00000000#32)) = relu x := by
  funext i
  rw [maximumf_apply, zeros_at]
  rfl

/-- THE SUM PER DESTINATION ROW: adding the update rows into a zero table at the rows their words name. -/
theorem scatterRows_eq {N n C : Nat} (d : ScatterDims (Sh N C) (Sh n 1) (Sh n C))
    (huw : d.updateWindowDims = [1]) (hiw : d.insertedWindowDims = [0]) (hsd : d.scatterDimsToOperandDims = [0])
    (hivd : d.indexVectorDim = 1) (w : IVec (V1 n) 32) (u : FVec Ideal (Sh n C) .f32)
    (h0 : Sc.BroadcastsInDim (Sh N C) ![]) (hb : (V1 n).BroadcastsInDim (Sh n 1) ![0]) :
    Host.scatterAdd d (broadcastInDim (Sh N C) ![] h0 (constant (F := Ideal) Sc .f32 0x00000000#32))
        (broadcastInDim (Sh n 1) ![0] hb w) u
      = segSum (fun e => w (ix1 e)) u := by
  funext i
  obtain ⟨p, q, rfl⟩ : ∃ (p : Fin N) (q : Fin C), i = ix2 p q := ⟨i 0, i 1, eq_ix2 i⟩
  refine (Cert.LibGS.scatterAdd_rows_gen d huw hiw hsd hivd _ _ u p q).trans ?_
  rw [zeros_at, Finset.filter_congr (q := fun e : Fin n => (w (ix1 e)).toInt = (p.val : ℤ)) fun e _ => by rw [col_at]]
  rfl

/-- THE DEGREE: ones added into a zero vector at the entries the words name, then the maximum with one. -/
theorem degree_eq {N n : Nat} (d : ScatterDims (V1 N) (Sh n 1) (V1 n))
    (hiw : d.insertedWindowDims = [0]) (hsd : d.scatterDimsToOperandDims = [0]) (hivd : d.indexVectorDim = 1)
    (w : IVec (V1 n) 32) (h0N : Sc.BroadcastsInDim (V1 N) ![]) (h0n : Sc.BroadcastsInDim (V1 n) ![])
    (hb : (V1 n).BroadcastsInDim (Sh n 1) ![0]) (i : Fin N) :
    maximumf (Host.scatterAdd d (broadcastInDim (V1 N) ![] h0N (constant (F := Ideal) Sc .f32 0x00000000#32))
        (broadcastInDim (Sh n 1) ![0] hb w) (broadcastInDim (V1 n) ![] h0n (constant (F := Ideal) Sc .f32 0x3F800000#32)))
      (broadcastInDim (V1 N) ![] h0N (constant (F := Ideal) Sc .f32 0x3F800000#32)) (ix1 i)
      = degOf (fun e => w (ix1 e)) i := by
  rw [maximumf_apply, ones_at]
  refine congrArg (fun t => max t (1 : EReal)) ?_
  refine (Cert.LibGS.scatterAdd_vec_gen d hiw hsd hivd _ _ _ i).trans ?_
  rw [zeros_at, Finset.filter_congr (q := fun e : Fin n => (w (ix1 e)).toInt = (i.val : ℤ)) fun e _ => by rw [col_at]]
  exact congrArg (fun t => (0 : EReal) + t) (Finset.sum_congr rfl fun e _ => ones_at h0n (ix1 e))

/-- THE MEAN'S DIVISION: dividing each row by the degree of its node, the degrees made a column and repeated across. -/
theorem divDeg_eq {N C : Nat} (agg : FVec Ideal (Sh N C) .f32) (dg : FVec Ideal (V1 N) .f32)
    (h1 : (V1 N).BroadcastsInDim (Sh N 1) ![0]) (h2 : (Sh N 1).BroadcastsInDim (Sh N C) ![0, 1]) :
    Host.divf agg (broadcastInDim (Sh N C) ![0, 1] h2 (broadcastInDim (Sh N 1) ![0] h1 dg))
      = fun i => Ideal.div (agg i) (dg (ix1 (i 0))) := by
  funext i
  obtain ⟨p, q, rfl⟩ : ∃ (p : Fin N) (q : Fin C), i = ix2 p q := ⟨i 0, i 1, eq_ix2 i⟩
  rw [hostDivf_apply, colRep_at]
  rfl

/-- READING TABLE ROWS BY WORDS: a negative word is first wrapped by the table's extent, then the gather clamps. -/
theorem gatherWrap_eq {N n C : Nat} (hN : 0 < N) (d : GatherDims (Sh N C) (Sh n 1) (Sh n C))
    (hoff : d.offsetDims = [1]) (hcoll : d.collapsedSliceDims = [0]) (hob : d.operandBatchingDims = [])
    (hsim : d.startIndexMap = [0]) (hivd : d.indexVectorDim = 1) (hss : d.sliceSizes = ![1, C])
    (h : FVec Ideal (Sh N C) .f32) (w : IVec (V1 n) 32) (cN : BitVec 32) (hcN : cN = BitVec.ofNat 32 N)
    (h0 : Sc.BroadcastsInDim (V1 n) ![]) (hb : (V1 n).BroadcastsInDim (Sh n 1) ![0]) :
    Host.gather d h (broadcastInDim (Sh n 1) ![0] hb
        (select (cmpi .slt w (broadcastInDim (V1 n) ![] h0 (constantI Sc 32 0#32)))
          (addi w (broadcastInDim (V1 n) ![] h0 (constantI Sc 32 cN))) w))
      = takeRows hN h (fun e => w (ix1 e)) := by
  funext i
  obtain ⟨e, c, rfl⟩ : ∃ (e : Fin n) (c : Fin C), i = ix2 e c := ⟨i 0, i 1, eq_ix2 i⟩
  refine (Cert.LibGS.gather_rows_gen d hN hoff hcoll hob hsim hivd hss h _ e c).trans ?_
  rw [col_at, hcN]
  rfl

/-- A sum over 384 positions is the sum over its three consecutive blocks of 128, grouped (first + second) + third. -/
theorem sum_384 (f : Fin 384 → EReal) :
    ∑ k : Fin 384, f k
      = ((∑ k : Fin 128, f ⟨0 + k.val, by have := k.isLt; omega⟩) + (∑ k : Fin 128, f ⟨128 + k.val, by have := k.isLt; omega⟩))
        + (∑ k : Fin 128, f ⟨256 + k.val, by have := k.isLt; omega⟩) := by
  have e1 : ∑ k : Fin (256 + 128), f k
      = ∑ k : Fin 256, f (Fin.castAdd 128 k) + ∑ k : Fin 128, f (Fin.natAdd 256 k) := Fin.sum_univ_add (a := 256) (b := 128) f
  have e2 : ∑ k : Fin (128 + 128), f (Fin.castAdd 128 k)
      = ∑ k : Fin 128, f (Fin.castAdd 128 (Fin.castAdd 128 k)) + ∑ k : Fin 128, f (Fin.castAdd 128 (Fin.natAdd 128 k)) :=
    Fin.sum_univ_add (a := 128) (b := 128) fun k : Fin (128 + 128) => f (Fin.castAdd 128 k)
  refine e1.trans ?_
  refine congrArg₂ (· + ·) (e2.trans (congrArg₂ (· + ·) ?_ ?_)) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

/-- THE FIRST LAYER OF AN EDGE'S PERCEPTRON: the three parts joined side by side, [E, 128] three times to [E, 384],
    times a matrix of 384 rows, plus the bias, is the three partial products against the matrix's three row blocks. -/
theorem edgePre_eq {E : Nat} (d : DotDims (Sh E 384) (Sh 384 128) (Sh E 128))
    (hlb : d.lhsBatch = []) (hln : d.lhsNonContracting = [0]) (hlc : d.lhsContracting = [1])
    (hrb : d.rhsBatch = []) (hrn : d.rhsNonContracting = [1]) (hrc : d.rhsContracting = [0])
    (a b c : FVec Ideal (Sh E 128) .f32) (w : FVec Ideal (Sh 384 128) .f32) (bias : FVec Ideal (V1 128) .f32)
    (hcat : Shape.Concatenates [Sh E 128, Sh E 128, Sh E 128] (Sh E 384) 1)
    (h1 : (V1 128).BroadcastsInDim (Sh 1 128) ![1]) (h2 : (Sh 1 128).BroadcastsInDim (Sh E 128) ![0, 1]) :
    addf (Host.dotGeneral d none (concatenate (Sh E 384) 1 [⟨Sh E 128, a⟩, ⟨Sh E 128, b⟩, ⟨Sh E 128, c⟩] hcat) w)
        (broadcastInDim (Sh E 128) ![0, 1] h2 (broadcastInDim (Sh 1 128) ![1] h1 bias))
      = edgePre3 a b c (rowsAt 128 0 (by decide) w) (rowsAt 128 128 (by decide) w) (rowsAt 128 256 (by decide) w) (vecV bias) := by
  funext i
  obtain ⟨e, j, rfl⟩ : ∃ (e : Fin E) (j : Fin 128), i = ix2 e j := ⟨i 0, i 1, eq_ix2 i⟩
  -- the joined row at column o + k is part number o / 128 at column k
  have other : ∀ (o : Nat) (k : Fin 128) (ho : o + k.val < 384) (b' : Fin (Sh E 128).rank),
      b'.cast (rfl : (Sh E 128).rank = (Sh E 384).rank) ≠ (1 : Fin (Sh E 384).rank) →
      ((ix2 e k : (Sh E 128).Idx) b').val
        = ((ix2 e (⟨o + k.val, ho⟩ : Fin 384) : (Sh E 384).Idx) (b'.cast (rfl : (Sh E 128).rank = (Sh E 384).rank))).val := by
    intro o k ho b' hb'
    match b' with
    | ⟨0, _⟩ => rfl
    | ⟨1, _⟩ => exact absurd rfl hb'
  have pa : ∀ k : Fin 128, concatenate (Sh E 384) 1 [⟨Sh E 128, a⟩, ⟨Sh E 128, b⟩, ⟨Sh E 128, c⟩] hcat
      (ix2 e ⟨0 + k.val, by have := k.isLt; omega⟩) = a (ix2 e k) := fun k =>
    concatenate_apply_piece (α := EReal) 1 [⟨Sh E 128, a⟩, ⟨Sh E 128, b⟩, ⟨Sh E 128, c⟩] hcat _ 0 (by show (0 : ℕ) < 3; omega) (Sh E 128) a rfl rfl 0 rfl (ix2 e k) (other 0 k _) rfl
  have pb : ∀ k : Fin 128, concatenate (Sh E 384) 1 [⟨Sh E 128, a⟩, ⟨Sh E 128, b⟩, ⟨Sh E 128, c⟩] hcat
      (ix2 e ⟨128 + k.val, by have := k.isLt; omega⟩) = b (ix2 e k) := fun k =>
    concatenate_apply_piece (α := EReal) 1 [⟨Sh E 128, a⟩, ⟨Sh E 128, b⟩, ⟨Sh E 128, c⟩] hcat _ 1 (by show (1 : ℕ) < 3; omega) (Sh E 128) b rfl rfl 128 rfl (ix2 e k) (other 128 k _) rfl
  have pc : ∀ k : Fin 128, concatenate (Sh E 384) 1 [⟨Sh E 128, a⟩, ⟨Sh E 128, b⟩, ⟨Sh E 128, c⟩] hcat
      (ix2 e ⟨256 + k.val, by have := k.isLt; omega⟩) = c (ix2 e k) := fun k =>
    concatenate_apply_piece (α := EReal) 1 [⟨Sh E 128, a⟩, ⟨Sh E 128, b⟩, ⟨Sh E 128, c⟩] hcat _ 2 (by show (2 : ℕ) < 3; omega) (Sh E 128) c rfl rfl 256 rfl (ix2 e k) (other 256 k _) rfl
  rw [addf_apply, Cert.LibDense.dotGeneral_apply d hlb hln hlc hrb hrn hrc none _ w e j, bias_at, sum_384]
  simp only [pa, pb, pc]
  rfl

end Cert.RefOps

end
-- ==== Proof.RefLayer.lean ====
/-
  One message-passing layer of the reference, read once for all three layers.

  The reference computes a layer from the incoming state by the same chain of operations each time: the two word
  vectors wrapped when negative; the state's rows read by the wrapped destination words and by the wrapped source words;
  the two row arrays and the attribute rows joined side by side and multiplied by the layer's 384-row matrix, plus its
  bias; the rectifier; a second dense layer; the sum per destination node into a zero table; the division by the degree
  column repeated across the columns; the node's dense layer and the rectifier. `layerOps` is that chain over arbitrary
  operands, `layerOps_eq` identifies it with the specification's `layer` once each operand is identified, and the three
  layers are its three instances: the parameters are slab l of the three stacks and row l of the three bias arrays.
-/
import proofs.«403623_j41042707481180_2_alg».proof.Defs
import proofs.«403623_j41042707481180_2_alg».proof.Proof.RefReadP
import proofs.«403623_j41042707481180_2_alg».proof.Proof.Spec
import proofs.«403623_j41042707481180_2_alg».proof.Proof.RefOps

noncomputable section

open scoped BigOperators

namespace Cert.ReferenceIdeal.RefLayer

open Idealize.ShloMosaic Idealize.ShloMosaic.TcCoe Idealize.ShloMosaic.ValueIdx Idealize.SL.Sem
open Cert.ReferenceIdeal Cert.ReferenceIdeal.Gen Cert.ReferenceIdeal.ReadP Cert.Spec Cert.RefOps

/-- The destination words: row 1 of the index array, flattened. -/
theorem dst_words (x1 : (⟨S2x640000, .i32⟩ : BufTy).Contents (Elt Ideal)) :
    (fun e : Fin 640000 => val_main_v3 (F := Ideal) x1 (ix1 e)) = dstW x1 :=
  funext fun e => wordRow_at (1 : Fin 2) x1 ![1, 0] rfl rfl slices_S2x640000_S1x640000_1_0 shapeCasts_S1x640000_S640000 e

/-- The source words: row 0 of the index array, flattened. -/
theorem src_words (x1 : (⟨S2x640000, .i32⟩ : BufTy).Contents (Elt Ideal)) :
    (fun e : Fin 640000 => val_main_v1 (F := Ideal) x1 (ix1 e)) = srcW x1 :=
  funext fun e => wordRow_at (0 : Fin 2) x1 ![0, 0] rfl rfl slices_S2x640000_S1x640000_0_0 shapeCasts_S1x640000_S640000 e

section Generic

variable (state : FVec Ideal S40000x128 .f32) (dstw srcw : IVec S640000 32) (ea : FVec Ideal S640000x128 .f32)
  (W1 : FVec Ideal S384x128 .f32) (B1 : FVec Ideal S128 .f32) (W2 : FVec Ideal S128x128 .f32) (B2 : FVec Ideal S128 .f32)
  (NW : FVec Ideal S128x128 .f32) (NB : FVec Ideal S128 .f32) (dcol : FVec Ideal S40000x1 .f32)

/-- The words wrapped when negative, as the reference computes them: compare with 0, add 40000, select. -/
abbrev wrapOps (w : IVec S640000 32) : IVec S640000 32 :=
  select (cmpi .slt w (broadcastInDim S640000 ![] bcast_S_S640000 (constantI S_ 32 0#32)))
    (addi w (broadcastInDim S640000 ![] bcast_S_S640000 (constantI S_ 32 40000#32))) w

/-- ONE MESSAGE-PASSING LAYER as the reference's operations compose it, over the incoming state, the two word vectors,
    the attribute rows, the layer's six parameter arrays and the degree column. -/
def layerOps : FVec Ideal S40000x128 .f32 :=
  maximumf
    (addf
      (Host.dotGeneral dot_S40000x128_S128x128_S40000x128_1_0_0_1_n_n none
        (Host.divf
          (Host.scatterAdd scatter_S40000x128_S640000x1_S640000x128_1_0_0_1
            (broadcastInDim S40000x128 ![] bcast_S_S40000x128 (constant S_ .f32 0x00000000#32))
            (broadcastInDim S640000x1 ![0] bcast_S640000_S640000x1_0 dstw)
            (addf
              (Host.dotGeneral dot_S640000x128_S128x128_S640000x128_1_0_0_1_n_n none
                (maximumf
                  (addf
                    (Host.dotGeneral dot_S640000x384_S384x128_S640000x128_1_0_0_1_n_n none
                      (concatenate S640000x384 1
                        [⟨S640000x128, Host.gather gather_S40000x128_S640000x1_S640000x128_1_0_n_n_0_1_1128 state
                            (broadcastInDim S640000x1 ![0] bcast_S640000_S640000x1_0 (wrapOps dstw))⟩,
                          ⟨S640000x128, Host.gather gather_S40000x128_S640000x1_S640000x128_1_0_n_n_0_1_1128 state
                            (broadcastInDim S640000x1 ![0] bcast_S640000_S640000x1_0 (wrapOps srcw))⟩,
                          ⟨S640000x128, ea⟩]
                        concatenates_S640000x128_S640000x128_S640000x128_S640000x384_d1)
                      W1)
                    (broadcastInDim S640000x128 ![0, 1] bcast_S1x128_S640000x128_0_1 (broadcastInDim S1x128 ![1] bcast_S128_S1x128_1 B1)))
                  (broadcastInDim S640000x128 ![] bcast_S_S640000x128 (constant S_ .f32 0x00000000#32)))
                W2)
              (broadcastInDim S640000x128 ![0, 1] bcast_S1x128_S640000x128_0_1 (broadcastInDim S1x128 ![1] bcast_S128_S1x128_1 B2))))
          (broadcastInDim S40000x128 ![0, 1] bcast_S40000x1_S40000x128_0_1 dcol))
        NW)
      (broadcastInDim S40000x128 ![0, 1] bcast_S1x128_S40000x128_0_1 (broadcastInDim S1x128 ![1] bcast_S128_S1x128_1 NB)))
    (broadcastInDim S40000x128 ![] bcast_S_S40000x128 (constant S_ .f32 0x00000000#32))

/-- The operations' layer is the specification's layer, once each operand is identified. -/
theorem layerOps_eq (h : RArr 40000 128) (deg : Fin 40000 → EReal) (src dst : Fin 640000 → BitVec 32)
    (w1 : RArr 384 128) (b1 : Fin 128 → EReal) (w2 : RArr 128 128) (b2 : Fin 128 → EReal) (nw : RArr 128 128) (nb : Fin 128 → EReal)
    (hh : state = h) (hdeg : dcol = fun i => deg (i 0))
    (hdst : (fun e : Fin 640000 => dstw (ix1 e)) = dst) (hsrc : (fun e : Fin 640000 => srcw (ix1 e)) = src)
    (hW1 : W1 = w1) (hB1 : vecV B1 = b1) (hW2 : W2 = w2) (hB2 : vecV B2 = b2) (hNW : NW = nw) (hNB : vecV NB = nb) :
    layerOps state dstw srcw ea W1 B1 W2 B2 NW NB dcol = layer (by decide) src dst ea deg w1 b1 w2 b2 nw nb h := by
  subst hh hdeg hdst hsrc hW1 hB1 hW2 hB2 hNW hNB
  unfold layerOps wrapOps
  rw [gatherWrap_eq (by decide) gather_S40000x128_S640000x1_S640000x128_1_0_n_n_0_1_1128 rfl rfl rfl rfl rfl rfl state dstw 40000#32 rfl,
    gatherWrap_eq (by decide) gather_S40000x128_S640000x1_S640000x128_1_0_n_n_0_1_1128 rfl rfl rfl rfl rfl rfl state srcw 40000#32 rfl,
    edgePre_eq dot_S640000x384_S384x128_S640000x128_1_0_0_1_n_n rfl rfl rfl rfl rfl rfl,
    relu_eq,
    denseLayer_eq dot_S640000x128_S128x128_S640000x128_1_0_0_1_n_n rfl rfl rfl rfl rfl rfl,
    relu_eq,
    scatterRows_eq scatter_S40000x128_S640000x1_S640000x128_1_0_0_1 rfl rfl rfl rfl,
    divCol_eq,
    denseLayer_eq dot_S40000x128_S128x128_S40000x128_1_0_0_1_n_n rfl rfl rfl rfl rfl rfl]
  rfl

end Generic

/-- LAYER 0: from the nodes' first state, with slab 0 and row 0 of the parameter arrays. -/
theorem ref_layer0
    (x1 : (⟨S2x640000, .i32⟩ : BufTy).Contents (Elt Ideal)) (x2 : (⟨S640000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S3x384x128, .f32⟩ : BufTy).Contents (Elt Ideal)) (x8 : (⟨S3x128, .f32⟩ : BufTy).Contents (Elt Ideal))
    (x9 : (⟨S3x128x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (h : RArr 40000 128) (deg : Fin 40000 → EReal)
    (hh : val_main_v15 (F := Ideal) x1 x2 x3 x4 x5 x6 = h) (hdeg : val_main_v22 (F := Ideal) x1 = fun i => deg (i 0)) :
    val_main_v68 (F := Ideal) x1 x2 x3 x4 x5 x6 x7 x8 x9 x10 x11 x12
      = layer (by decide) (srcW x1) (dstW x1) x2 deg (slab x7 0) (rowV x8 0) (slab x9 0) (rowV x10 0) (slab x11 0) (rowV x12 0) h :=
  layerOps_eq (val_main_v15 (F := Ideal) x1 x2 x3 x4 x5 x6) (val_main_v3 (F := Ideal) x1) (val_main_v1 (F := Ideal) x1) x2
    (val_main_v39 (F := Ideal) x7) (val_main_v42 (F := Ideal) x8) (val_main_v48 (F := Ideal) x9) (val_main_v51 (F := Ideal) x10)
    (val_main_v61 (F := Ideal) x11) (val_main_v64 (F := Ideal) x12) (val_main_v22 (F := Ideal) x1)
    h deg (srcW x1) (dstW x1) (slab x7 0) (rowV x8 0) (slab x9 0) (rowV x10 0) (slab x11 0) (rowV x12 0)
    hh hdeg (dst_words x1) (src_words x1)
    (slab_eq x7 0 ![0, 0, 0] rfl rfl rfl slices_S3x384x128_S1x384x128_0_0_0 shapeCasts_S1x384x128_S384x128)
    (rowVec_eq x8 0 ![0, 0] rfl rfl slices_S3x128_S1x128_0_0 shapeCasts_S1x128_S128)
    (slab_eq x9 0 ![0, 0, 0] rfl rfl rfl slices_S3x128x128_S1x128x128_0_0_0 shapeCasts_S1x128x128_S128x128)
    (rowVec_eq x10 0 ![0, 0] rfl rfl slices_S3x128_S1x128_0_0 shapeCasts_S1x128_S128)
    (slab_eq x11 0 ![0, 0, 0] rfl rfl rfl slices_S3x128x128_S1x128x128_0_0_0 shapeCasts_S1x128x128_S128x128)
    (rowVec_eq x12 0 ![0, 0] rfl rfl slices_S3x128_S1x128_0_0 shapeCasts_S1x128_S128)

/-- LAYER 1: from the state after layer 0, with slab 1 and row 1 of the parameter arrays. -/
theorem ref_layer1
    (x1 : (⟨S2x640000, .i32⟩ : BufTy).Contents (Elt Ideal)) (x2 : (⟨S640000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S3x384x128, .f32⟩ : BufTy).Contents (Elt Ideal)) (x8 : (⟨S3x128, .f32⟩ : BufTy).Contents (Elt Ideal))
    (x9 : (⟨S3x128x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (h : RArr 40000 128) (deg : Fin 40000 → EReal)
    (hh : val_main_v68 (F := Ideal) x1 x2 x3 x4 x5 x6 x7 x8 x9 x10 x11 x12 = h)
    (hdeg : val_main_v22 (F := Ideal) x1 = fun i => deg (i 0)) :
    val_main_v114 (F := Ideal) x1 x2 x3 x4 x5 x6 x7 x8 x9 x10 x11 x12
      = layer (by decide) (srcW x1) (dstW x1) x2 deg (slab x7 1) (rowV x8 1) (slab x9 1) (rowV x10 1) (slab x11 1) (rowV x12 1) h :=
  layerOps_eq (val_main_v68 (F := Ideal) x1 x2 x3 x4 x5 x6 x7 x8 x9 x10 x11 x12) (val_main_v3 (F := Ideal) x1)
    (val_main_v1 (F := Ideal) x1) x2
    (val_main_v85 (F := Ideal) x7) (val_main_v88 (F := Ideal) x8) (val_main_v94 (F := Ideal) x9) (val_main_v97 (F := Ideal) x10)
    (val_main_v107 (F := Ideal) x11) (val_main_v110 (F := Ideal) x12) (val_main_v22 (F := Ideal) x1)
    h deg (srcW x1) (dstW x1) (slab x7 1) (rowV x8 1) (slab x9 1) (rowV x10 1) (slab x11 1) (rowV x12 1)
    hh hdeg (dst_words x1) (src_words x1)
    (slab_eq x7 1 ![1, 0, 0] rfl rfl rfl slices_S3x384x128_S1x384x128_1_0_0 shapeCasts_S1x384x128_S384x128)
    (rowVec_eq x8 1 ![1, 0] rfl rfl slices_S3x128_S1x128_1_0 shapeCasts_S1x128_S128)
    (slab_eq x9 1 ![1, 0, 0] rfl rfl rfl slices_S3x128x128_S1x128x128_1_0_0 shapeCasts_S1x128x128_S128x128)
    (rowVec_eq x10 1 ![1, 0] rfl rfl slices_S3x128_S1x128_1_0 shapeCasts_S1x128_S128)
    (slab_eq x11 1 ![1, 0, 0] rfl rfl rfl slices_S3x128x128_S1x128x128_1_0_0 shapeCasts_S1x128x128_S128x128)
    (rowVec_eq x12 1 ![1, 0] rfl rfl slices_S3x128_S1x128_1_0 shapeCasts_S1x128_S128)

/-- LAYER 2: from the state after layer 1, with slab 2 and row 2 of the parameter arrays. -/
theorem ref_layer2
    (x1 : (⟨S2x640000, .i32⟩ : BufTy).Contents (Elt Ideal)) (x2 : (⟨S640000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S3x384x128, .f32⟩ : BufTy).Contents (Elt Ideal)) (x8 : (⟨S3x128, .f32⟩ : BufTy).Contents (Elt Ideal))
    (x9 : (⟨S3x128x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (h : RArr 40000 128) (deg : Fin 40000 → EReal)
    (hh : val_main_v114 (F := Ideal) x1 x2 x3 x4 x5 x6 x7 x8 x9 x10 x11 x12 = h)
    (hdeg : val_main_v22 (F := Ideal) x1 = fun i => deg (i 0)) :
    val_main_v160 (F := Ideal) x1 x2 x3 x4 x5 x6 x7 x8 x9 x10 x11 x12
      = layer (by decide) (srcW x1) (dstW x1) x2 deg (slab x7 2) (rowV x8 2) (slab x9 2) (rowV x10 2) (slab x11 2) (rowV x12 2) h :=
  layerOps_eq (val_main_v114 (F := Ideal) x1 x2 x3 x4 x5 x6 x7 x8 x9 x10 x11 x12) (val_main_v3 (F := Ideal) x1)
    (val_main_v1 (F := Ideal) x1) x2
    (val_main_v131 (F := Ideal) x7) (val_main_v134 (F := Ideal) x8) (val_main_v140 (F := Ideal) x9) (val_main_v143 (F := Ideal) x10)
    (val_main_v153 (F := Ideal) x11) (val_main_v156 (F := Ideal) x12) (val_main_v22 (F := Ideal) x1)
    h deg (srcW x1) (dstW x1) (slab x7 2) (rowV x8 2) (slab x9 2) (rowV x10 2) (slab x11 2) (rowV x12 2)
    hh hdeg (dst_words x1) (src_words x1)
    (slab_eq x7 2 ![2, 0, 0] rfl rfl rfl slices_S3x384x128_S1x384x128_2_0_0 shapeCasts_S1x384x128_S384x128)
    (rowVec_eq x8 2 ![2, 0] rfl rfl slices_S3x128_S1x128_2_0 shapeCasts_S1x128_S128)
    (slab_eq x9 2 ![2, 0, 0] rfl rfl rfl slices_S3x128x128_S1x128x128_2_0_0 shapeCasts_S1x128x128_S128x128)
    (rowVec_eq x10 2 ![2, 0] rfl rfl slices_S3x128_S1x128_2_0 shapeCasts_S1x128_S128)
    (slab_eq x11 2 ![2, 0, 0] rfl rfl rfl slices_S3x128x128_S1x128x128_2_0_0 shapeCasts_S1x128x128_S128x128)
    (rowVec_eq x12 2 ![2, 0] rfl rfl slices_S3x128_S1x128_2_0 shapeCasts_S1x128_S128)

end Cert.ReferenceIdeal.RefLayer

end
-- ==== Proof.RefValue.lean ====
import proofs.«403623_j41042707481180_2_alg».proof.Defs
import proofs.«403623_j41042707481180_2_alg».proof.Proof.RefReadP
import proofs.«403623_j41042707481180_2_alg».proof.Proof.Spec
import proofs.«403623_j41042707481180_2_alg».proof.Proof.LibDense
import proofs.«403623_j41042707481180_2_alg».proof.Proof.LibGatherScatter
import proofs.«403623_j41042707481180_2_alg».proof.Proof.RefOps
import proofs.«403623_j41042707481180_2_alg».proof.Proof.RefLayer
import Idealize.ShloMosaic.Lib.StableHlo.Predicate
import Idealize.ShloMosaic.Lib.ValueLayout

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP Cert.Spec Cert.RefOps
open Cert.ReferenceIdeal.RefLayer (dst_words ref_layer0 ref_layer1 ref_layer2)

section Stages

variable (x1 : (⟨S2x640000, .i32⟩ : BufTy).Contents (Elt Ideal)) (x2 : (⟨S640000x128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-- The first dense layer of the edge embedding. -/
theorem embed_pre : val_main_v7 (F := Ideal) x2 x3 x4 = dense x2 x3 (vecV x4) :=
  denseLayer_eq dot_S640000x128_S128x128_S640000x128_1_0_0_1_n_n rfl rfl rfl rfl rfl rfl x2 x3 x4
    bcast_S128_S1x128_1 bcast_S1x128_S640000x128_0_1

/-- … rectified. -/
theorem embed_hidden : val_main_v8 (F := Ideal) x2 x3 x4 = relu (dense x2 x3 (vecV x4)) :=
  (relu_eq (val_main_v7 (F := Ideal) x2 x3 x4) bcast_S_S640000x128).trans (congrArg relu (embed_pre x2 x3 x4))

/-- THE EDGE EMBEDDINGS: the second dense layer on the rectified first one. -/
theorem embed_eq : val_main_v12 (F := Ideal) x2 x3 x4 x5 x6 = emG x2 x3 x4 x5 x6 :=
  (denseLayer_eq dot_S640000x128_S128x128_S640000x128_1_0_0_1_n_n rfl rfl rfl rfl rfl rfl
      (val_main_v8 (F := Ideal) x2 x3 x4) x5 x6 bcast_S128_S1x128_1 bcast_S1x128_S640000x128_0_1).trans
    (congrArg (fun t : RArr 640000 128 => dense t x5 (vecV x6)) (embed_hidden x2 x3 x4))

/-- THE NODES' FIRST STATE: the embeddings summed per destination node. -/
theorem state0_eq : val_main_v15 (F := Ideal) x1 x2 x3 x4 x5 x6 = h0G x1 x2 x3 x4 x5 x6 :=
  (scatterRows_eq scatter_S40000x128_S640000x1_S640000x128_1_0_0_1 rfl rfl rfl rfl
      (val_main_v3 (F := Ideal) x1) (val_main_v12 (F := Ideal) x2 x3 x4 x5 x6) bcast_S_S40000x128 bcast_S640000_S640000x1_0).trans
    (congrArg₂ (fun (w : Fin 640000 → BitVec 32) (u : RArr 640000 128) => segSum (N := 40000) w u)
      (dst_words x1) (embed_eq x2 x3 x4 x5 x6))

/-- THE DEGREE COLUMN: entry (n, ·) is node n's degree. -/
theorem degcol_eq : val_main_v22 (F := Ideal) x1 = fun i => degG x1 (i 0) := by
  funext i
  obtain ⟨n, u, rfl⟩ : ∃ (n : Fin 40000) (u : Fin 1), i = ix2 n u := ⟨i 0, i 1, eq_ix2 i⟩
  refine (col_at (val_main_v21 (F := Ideal) x1) bcast_S40000_S40000x1_0 n u).trans ?_
  refine (degree_eq scatter_S40000_S640000x1_S640000_n_0_0_1 rfl rfl rfl (val_main_v3 (F := Ideal) x1)
    bcast_S_S40000 bcast_S_S640000 bcast_S640000_S640000x1_0 n).trans ?_
  exact congrArg (fun w : Fin 640000 → BitVec 32 => degOf w n) (dst_words x1)

end Stages

/-- THE OUTPUT PERCEPTRON on the state after the three layers: a dense layer, the rectifier, a dense layer to three columns. -/
theorem output_eq
    (x1 : (⟨S2x640000, .i32⟩ : BufTy).Contents (Elt Ideal)) (x2 : (⟨S640000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S3x384x128, .f32⟩ : BufTy).Contents (Elt Ideal)) (x8 : (⟨S3x128, .f32⟩ : BufTy).Contents (Elt Ideal))
    (x9 : (⟨S3x128x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (x13 : (⟨S128x128, .f32⟩ : BufTy).Contents (Elt Ideal)) (x14 : (⟨S128, .f32⟩ : BufTy).Contents (Elt Ideal))
    (x15 : (⟨S128x3, .f32⟩ : BufTy).Contents (Elt Ideal)) (x16 : (⟨S3, .f32⟩ : BufTy).Contents (Elt Ideal))
    (h : RArr 40000 128) (hh : val_main_v160 (F := Ideal) x1 x2 x3 x4 x5 x6 x7 x8 x9 x10 x11 x12 = h) :
    val_main_v169 (F := Ideal) x1 x2 x3 x4 x5 x6 x7 x8 x9 x10 x11 x12 x13 x14 x15 x16
      = mlp2 h x13 (vecV x14) x15 (vecV x16) := by
  have e164 : val_main_v164 (F := Ideal) x1 x2 x3 x4 x5 x6 x7 x8 x9 x10 x11 x12 x13 x14 = dense h x13 (vecV x14) :=
    (denseLayer_eq dot_S40000x128_S128x128_S40000x128_1_0_0_1_n_n rfl rfl rfl rfl rfl rfl
        (val_main_v160 (F := Ideal) x1 x2 x3 x4 x5 x6 x7 x8 x9 x10 x11 x12) x13 x14
        bcast_S128_S1x128_1 bcast_S1x128_S40000x128_0_1).trans
      (congrArg (fun t : RArr 40000 128 => dense t x13 (vecV x14)) hh)
  have e165 : val_main_v165 (F := Ideal) x1 x2 x3 x4 x5 x6 x7 x8 x9 x10 x11 x12 x13 x14 = relu (dense h x13 (vecV x14)) :=
    (relu_eq (val_main_v164 (F := Ideal) x1 x2 x3 x4 x5 x6 x7 x8 x9 x10 x11 x12 x13 x14) bcast_S_S40000x128).trans
      (congrArg relu e164)
  exact (denseLayer_eq dot_S40000x128_S128x3_S40000x3_1_0_0_1_n_n rfl rfl rfl rfl rfl rfl
      (val_main_v165 (F := Ideal) x1 x2 x3 x4 x5 x6 x7 x8 x9 x10 x11 x12 x13 x14) x15 x16
      bcast_S3_S1x3_1 bcast_S1x3_S40000x3_0_1).trans
    (congrArg (fun t : RArr 40000 128 => dense t x15 (vecV x16)) e165)

/-- The reference's result, as the composition of its operations over the argument arrays, is the network function. -/
theorem ref_value
    (x1 : (⟨S2x640000, .i32⟩ : BufTy).Contents (Elt Ideal)) (x2 : (⟨S640000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S3x384x128, .f32⟩ : BufTy).Contents (Elt Ideal)) (x8 : (⟨S3x128, .f32⟩ : BufTy).Contents (Elt Ideal))
    (x9 : (⟨S3x128x128, .f32⟩ : BufTy).Contents (Elt Ideal)) (x10 : (⟨S3x128, .f32⟩ : BufTy).Contents (Elt Ideal))
    (x11 : (⟨S3x128x128, .f32⟩ : BufTy).Contents (Elt Ideal)) (x12 : (⟨S3x128, .f32⟩ : BufTy).Contents (Elt Ideal))
    (x13 : (⟨S128x128, .f32⟩ : BufTy).Contents (Elt Ideal)) (x14 : (⟨S128, .f32⟩ : BufTy).Contents (Elt Ideal))
    (x15 : (⟨S128x3, .f32⟩ : BufTy).Contents (Elt Ideal)) (x16 : (⟨S3, .f32⟩ : BufTy).Contents (Elt Ideal)) :
    val_main_v169 (F := Ideal) x1 x2 x3 x4 x5 x6 x7 x8 x9 x10 x11 x12 x13 x14 x15 x16
      = G x1 x2 x3 x4 x5 x6 x7 x8 x9 x10 x11 x12 x13 x14 x15 x16 := by
  -- the degree column, then the three layers one after another from the first state, then the output perceptron
  have hdeg := degcol_eq x1
  have e0 := ref_layer0 x1 x2 x3 x4 x5 x6 x7 x8 x9 x10 x11 x12 _ (degG x1)
    (state0_eq x1 x2 x3 x4 x5 x6) hdeg
  have e1 := ref_layer1 x1 x2 x3 x4 x5 x6 x7 x8 x9 x10 x11 x12 _ (degG x1) e0 hdeg
  have e2 := ref_layer2 x1 x2 x3 x4 x5 x6 x7 x8 x9 x10 x11 x12 _ (degG x1) e1 hdeg
  exact output_eq x1 x2 x3 x4 x5 x6 x7 x8 x9 x10 x11 x12 x13 x14 x15 x16 _ e2

end Cert.ReferenceIdeal.RefValue

end
-- ==== Proof.lean ====
/-
  The certificate: the kernel program, its idealization and the idealized reference all run to the end with their
  argument arrays unchanged, and the two idealized programs, from memories that agree on the arguments, end with the same
  result, entry by entry, over the extended reals.

  The kernel computes a three-layer message-passing network on 40000 nodes and 640000 edges in eight tiled regions with
  host gathers and scatter-adds between them; the reference computes it with whole-array operations. Both are shown equal
  to ONE function of the argument arrays (`Cert.Spec.G`): the kernel by following its run boundary by boundary
  (`Cert.KernelIdeal.KValue.kernel_value`), the reference operation by operation (`Cert.ReferenceIdeal.RefValue.ref_value`).
  The precondition is used once: every source word names a node, so the kernel's filled row reads are never summed into a
  node where they differ from the reference's clamped reads. Finiteness of the float inputs is not used.
-/
import proofs.«403623_j41042707481180_2_alg».proof.Defs
import proofs.«403623_j41042707481180_2_alg».proof.Proof.Gen.Kernel
import proofs.«403623_j41042707481180_2_alg».proof.Proof.Gen.Kernel.Frame
import proofs.«403623_j41042707481180_2_alg».proof.Proof.Gen.KernelIdeal
import proofs.«403623_j41042707481180_2_alg».proof.Proof.Gen.KernelIdeal.Frame
import proofs.«403623_j41042707481180_2_alg».proof.Proof.Gen.ReferenceIdeal
import proofs.«403623_j41042707481180_2_alg».proof.Proof.RefRunP
import proofs.«403623_j41042707481180_2_alg».proof.Proof.RefReadP
import proofs.«403623_j41042707481180_2_alg».proof.Proof.Gen.Pre_finite_inputs
import proofs.«403623_j41042707481180_2_alg».proof.Proof.Pre
import proofs.«403623_j41042707481180_2_alg».proof.Proof.ValueRun
import proofs.«403623_j41042707481180_2_alg».proof.Proof.KernelValue
import proofs.«403623_j41042707481180_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Spec

/-- The kernel program runs to the end and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end at the network function of the (agreeing) argument arrays. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2⟩)
      (Cert.KernelIdeal.ValueRun.run_value (F := Ideal) m ρ)
    refine Cert.KernelIdeal.KValue.kernel_value m ρ c (fun e => ?_)
    have hs := Cert.PreFacts.src_in_range (F := Ideal) _ _ _ _ _ _ _ _ _ _ _ _ _ _ _ _ _ (hpre c) e
    exact_mod_cast hs
  · refine (θ_run Cert.ReferenceIdeal.defs _ _).mono (fun r h c => ⟨(h c).1.trans ?_, (h c).2⟩)
      (Cert.ReferenceIdeal.ValueP.run (F := Ideal) m' ρ')
    obtain ⟨_, e1, e2, e3, e4, e5, e6, e7, e8, e9, e10, e11, e12, e13, e14, e15, e16⟩ := hagree c
    rw [Cert.ReferenceIdeal.ReadP.val_main_v169_eq, Cert.ReferenceIdeal.RefValue.ref_value,
      e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
